-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn_part1 {F : FTy → Type} [FloatOps F] (main_v13 : IVec S_ 1) (main_v16 : IVec S4x4096x3 1) : IVec S_ 1 :=
  let main_c_5 : IVec S_ 1 := constantI S_ 1 1#1
  let main_v17 : IVec S_ 1 := (fun x v => Host.reduce IntOp.andi x v reducesTo_S4x4096x3_S_d0_1_2 h_S_) main_v16 main_c_5
  let main_v18 : IVec S_ 1 := andi main_v13 main_v17
  main_v18

def fn {F : FTy → Type} [FloatOps F] (main_arg0 : FVec F S4x4096x3 .f32) (main_arg1 : FVec F S4x4096x3 .f32) (main_arg2 : FVec F S4x4096x3 .f32) (main_arg3 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S4x4096x3 .f32 := Host.absf main_arg2
  let main_cst_2 : FVec F S_ .f32 := constant S_ .f32 0x7F800000#32
  let main_v10 : FVec F S4x4096x3 .f32 := broadcastInDim S4x4096x3 ![] bcast_S_S4x4096x3 main_cst_2
  let main_v11 : IVec S4x4096x3 1 := cmpf .olt main_v9 main_v10
  let main_c_3 : IVec S_ 1 := constantI S_ 1 1#1
  let main_v12 : IVec S_ 1 := (fun x v => Host.reduce IntOp.andi x v reducesTo_S4x4096x3_S_d0_1_2 h_S_) main_v11 main_c_3
  let main_v13 : IVec S_ 1 := andi main_v8 main_v12
  let main_v14 : FVec F S4x4096x3 .f32 := Host.absf main_arg3
  let main_cst_4 : FVec F S_ .f32 := constant S_ .f32 0x7F800000#32
  let main_v15 : FVec F S4x4096x3 .f32 := broadcastInDim S4x4096x3 ![] bcast_S_S4x4096x3 main_cst_4
  let main_v16 : IVec S4x4096x3 1 := cmpf .olt main_v14 main_v15
  fn_part1 (F := F) main_v13 main_v16
-- ==== Kernel.lean ====
abbrev S4x4096x3 : Shape := ⟨3, ![4, 4096, 3]⟩
abbrev S1x1 : Shape := ⟨2, ![1, 1]⟩
abbrev S1x512x3 : Shape := ⟨3, ![1, 512, 3]⟩
abbrev S512x3 : Shape := ⟨2, ![512, 3]⟩
abbrev S512x512 : Shape := ⟨2, ![512, 512]⟩
abbrev S512 : Shape := ⟨1, ![512]⟩
abbrev S512x1 : Shape := ⟨2, ![512, 1]⟩
abbrev S1x512 : Shape := ⟨2, ![1, 512]⟩
abbrev S1 : Shape := ⟨1, ![1]⟩
abbrev S_ : Shape := ⟨0, ![]⟩

abbrev nBuf : Space → Nat
  | .hbm => 14
  | .vmem => 30
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S1x512x3, .f32⟩
  | .local _ .vmem, ⟨5, _⟩ => ⟨S1x512x3, .f32⟩
  | .local _ .vmem, ⟨6, _⟩ => ⟨S1x512x3, .f32⟩
  | .local _ .vmem, ⟨7, _⟩ => ⟨S1x512x3, .f32⟩
  | .local _ .vmem, ⟨8, _⟩ => ⟨S1x1, .f32⟩
  | .local _ .vmem, ⟨9, _⟩ => ⟨S1x1, .f32⟩
  | .local _ .vmem, ⟨10, _⟩ => ⟨S1x512x3, .f32⟩
  | .local _ .vmem, ⟨11, _⟩ => ⟨S1x512x3, .f32⟩
  | .local _ .vmem, ⟨12, _⟩ => ⟨S1x512x3, .f32⟩
  | .local _ .vmem, ⟨13, _⟩ => ⟨S1x512x3, .f32⟩
  | .local _ .vmem, ⟨14, _⟩ => ⟨S1x512x3, .f32⟩
  | .local _ .vmem, ⟨15, _⟩ => ⟨S1x512x3, .f32⟩
  | .local _ .vmem, ⟨16, _⟩ => ⟨S1x512x3, .f32⟩
  | .local _ .vmem, ⟨17, _⟩ => ⟨S1x512x3, .f32⟩
  | .local _ .vmem, ⟨18, _⟩ => ⟨S1x1, .f32⟩
  | .local _ .vmem, ⟨19, _⟩ => ⟨S1x1, .f32⟩
  | .local _ .vmem, ⟨20, _⟩ => ⟨S1x512x3, .f32⟩
  | .local _ .vmem, ⟨21, _⟩ => ⟨S1x512x3, .f32⟩
  | .local _ .vmem, ⟨22, _⟩ => ⟨S1x512x3, .f32⟩
  | .local _ .vmem, ⟨23, _⟩ => ⟨S1x512x3, .f32⟩
  | .local _ .vmem, ⟨24, _⟩ => ⟨S1x512x3, .f32⟩
  | .local _ .vmem, ⟨25, _⟩ => ⟨S1x512x3, .f32⟩
  | .local _ .vmem, ⟨26, _⟩ => ⟨S1x512x3, .f32⟩
  | .local _ .vmem, ⟨27, _⟩ => ⟨S1x512x3, .f32⟩
  | .local _ .vmem, ⟨28, _⟩ => ⟨S1x1, .f32⟩
  | .local _ .vmem, ⟨29, _⟩ => ⟨S1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_stg4_0 : Ref sig .tc := ⟨.vmem, 28, rfl⟩
abbrev cc2_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg0 : BitVec 32 := BitVec.ofNat 32 (i 0).val
  let c3_i32 : BitVec 32 := 3#32
  let v44 : BitVec 1 := Scalar.cmpi .eq arg0 c3_i32
  let arg1 : BitVec 32 := BitVec.ofNat 32 (i 1).val
  let c7_i32 : BitVec 32 := 7#32
  let v45 : BitVec 1 := Scalar.cmpi .eq arg1 c7_i32
  let v46 : BitVec 1 := Scalar.andi v44 v45
  let arg2 : BitVec 32 := BitVec.ofNat 32 (i 2).val
  let c7_i32_25 : BitVec 32 := 7#32
  let v47 : BitVec 1 := Scalar.cmpi .eq arg2 c7_i32_25
  let v48 : BitVec 1 := Scalar.andi v46 v47
  let v49 : BitVec 32 := Scalar.extui v48
  let c0_i32_26 : BitVec 32 := 0#32
  let v50 : BitVec 1 := Scalar.cmpi .ne v49 c0_i32_26
  v50

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev grid1 : Pipeline.Grid := ⟨3, ![4, 8, 8], ![false, false, false]⟩

def k1_cond2 (i : grid1.Coords) : BitVec 1 :=
  let arg0 : BitVec 32 := BitVec.ofNat 32 (i 0).val
  let c3_i32 : BitVec 32 := 3#32
  let v44 : BitVec 1 := Scalar.cmpi .eq arg0 c3_i32
  let arg1 : BitVec 32 := BitVec.ofNat 32 (i 1).val
  let c7_i32 : BitVec 32 := 7#32
  let v45 : BitVec 1 := Scalar.cmpi .eq arg1 c7_i32
  let v46 : BitVec 1 := Scalar.andi v44 v45
  let arg2 : BitVec 32 := BitVec.ofNat 32 (i 2).val
  let c7_i32_25 : BitVec 32 := 7#32
  let v47 : BitVec 1 := Scalar.cmpi .eq arg2 c7_i32_25
  let v48 : BitVec 1 := Scalar.andi v46 v47
  let v49 : BitVec 32 := Scalar.extui v48
  let c0_i32_26 : BitVec 32 := 0#32
  let v50 : BitVec 1 := Scalar.cmpi .ne v49 c0_i32_26
  v50

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev grid2 : Pipeline.Grid := ⟨3, ![4, 8, 8], ![false, false, false]⟩

def k2_cond2 (i : grid2.Coords) : BitVec 1 :=
  let arg0 : BitVec 32 := BitVec.ofNat 32 (i 0).val
  let c3_i32 : BitVec 32 := 3#32
  let v44 : BitVec 1 := Scalar.cmpi .eq arg0 c3_i32
  let arg1 : BitVec 32 := BitVec.ofNat 32 (i 1).val
  let c7_i32 : BitVec 32 := 7#32
  let v45 : BitVec 1 := Scalar.cmpi .eq arg1 c7_i32
  let v46 : BitVec 1 := Scalar.andi v44 v45
  let arg2 : BitVec 32 := BitVec.ofNat 32 (i 2).val
  let c7_i32_25 : BitVec 32 := 7#32
  let v47 : BitVec 1 := Scalar.cmpi .eq arg2 c7_i32_25
  let v48 : BitVec 1 := Scalar.andi v46 v47
  let v49 : BitVec 32 := Scalar.extui v48
  let c0_i32_26 : BitVec 32 := 0#32
  let v50 : BitVec 1 := Scalar.cmpi .ne v49 c0_i32_26
  v50

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x512x3 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x512x3 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x512x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x512x3 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  reduces_S512x3_S512 : S512x3.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x3_S512x3_S512x512_1_1_0_0_n_n_wf : DotDims.WF S512x3 S512x3 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S4x4096x3.size a
  hwx0_0 : ∀ i : grid0.Coords, EltTy.bits .f32 = 32 ∨ (Rect.block (s := S4x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S4x4096x3.size a
  hwx0_1 : ∀ i : grid0.Coords, EltTy.bits .f32 = 32 ∨ (Rect.block (s := S4x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x3.size a ≤ S4x4096x3.size a
  hwx0_2 : ∀ i : grid0.Coords, EltTy.bits .f32 = 32 ∨ (Rect.block (s := S4x4096x3) S1x512x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x3.size a ≤ S4x4096x3.size a
  hwx0_3 : ∀ i : grid0.Coords, EltTy.bits .f32 = 32 ∨ (Rect.block (s := S4x4096x3) S1x512x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x3.size a ≤ S4x4096x3.size a
  hwx1_0 : ∀ i : grid1.Coords, EltTy.bits .f32 = 32 ∨ (Rect.block (s := S4x4096x3) S1x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x3.size a ≤ S4x4096x3.size a
  hwx1_1 : ∀ i : grid1.Coords, EltTy.bits .f32 = 32 ∨ (Rect.block (s := S4x4096x3) S1x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x3.size a ≤ S4x4096x3.size a
  hwx1_2 : ∀ i : grid1.Coords, EltTy.bits .f32 = 32 ∨ (Rect.block (s := S4x4096x3) S1x512x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x3.size a ≤ S4x4096x3.size a
  hwx1_3 : ∀ i : grid1.Coords, EltTy.bits .f32 = 32 ∨ (Rect.block (s := S4x4096x3) S1x512x3.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x3.size a ≤ S4x4096x3.size a
  hwx2_0 : ∀ i : grid2.Coords, EltTy.bits .f32 = 32 ∨ (Rect.block (s := S4x4096x3) S1x512x3.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x512x3.size a ≤ S4x4096x3.size a
  hwx2_1 : ∀ i : grid2.Coords, EltTy.bits .f32 = 32 ∨ (Rect.block (s := S4x4096x3) S1x512x3.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512x3.size a ≤ S4x4096x3.size a
  hwx2_2 : ∀ i : grid2.Coords, EltTy.bits .f32 = 32 ∨ (Rect.block (s := S4x4096x3) S1x512x3.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x3.size a ≤ S4x4096x3.size a
  hwx2_3 : ∀ i : grid2.Coords, EltTy.bits .f32 = 32 ∨ (Rect.block (s := S4x4096x3) S1x512x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)

variable [Facts₀]

def dot_S512x3_S512x3_S512x512_1_1_0_0_n_n : DotDims S512x3 S512x3 S512x512 where
  lhsContracting := [1]
  rhsContracting := [1]
  lhsNonContracting := [0]
  rhsNonContracting := [0]
  lhsBatch := []
  rhsBatch := []
  wf := dot_S512x3_S512x3_S512x512_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x512x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1x512x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S1x512x3.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg0) S1x512x3.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S1x512x3.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1x512x3.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S1x512x3.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v4) S1x1.size cc2_transform_4 reads2_4 true true 1 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x4096x1x3, .f32⟩
  | .hbm, ⟨5, _⟩ => ⟨S4x1x4096x3, .f32⟩
  | .hbm, ⟨6, _⟩ => ⟨S4x4096x4096x3, .f32⟩
  | .hbm, ⟨7, _⟩ => ⟨S4x4096x4096x3, .f32⟩
  | .hbm, ⟨8, _⟩ => ⟨S4x4096x4096x3, .f32⟩
  | .hbm, ⟨9, _⟩ => ⟨S4x4096x4096x3, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S_, .f32⟩
  | .hbm, ⟨19, _⟩ => ⟨S4x4096x1x3, .f32⟩
  | .hbm, ⟨20, _⟩ => ⟨S4x1x4096x3, .f32⟩
  | .hbm, ⟨21, _⟩ => ⟨S4x4096x4096x3, .f32⟩
  | .hbm, ⟨22, _⟩ => ⟨S4x4096x4096x3, .f32⟩
  | .hbm, ⟨23, _⟩ => ⟨S4x4096x4096x3, .f32⟩
  | .hbm, ⟨24, _⟩ => ⟨S4x4096x4096x3, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S_, .f32⟩
  | .hbm, ⟨34, _⟩ => ⟨S4x4096x1x3, .f32⟩
  | .hbm, ⟨35, _⟩ => ⟨S4x1x4096x3, .f32⟩
  | .hbm, ⟨36, _⟩ => ⟨S4x4096x4096x3, .f32⟩
  | .hbm, ⟨37, _⟩ => ⟨S4x4096x4096x3, .f32⟩
  | .hbm, ⟨38, _⟩ => ⟨S4x4096x4096x3, .f32⟩
  | .hbm, ⟨39, _⟩ => ⟨S4x4096x4096x3, .f32⟩
  | .hbm, ⟨40, _⟩ => ⟨S_, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S_d0_1_2 : S4x4096x4096.ReducesTo [0, 1, 2] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.K.R0Base.lean ====
/-
  Region 0 (one of the program's three kernel sums, each a pallas_call of the same kernel): where its two conditionals hold on the 4 × 8 × 8 grid, where its output window is
  idle, and the invariant opened at the accumulator.

  The body resets its 1 × 1 accumulator at the grid's first point (all three coordinates zero), adds the tile's total at
  every point, and copies the accumulator into the output block at the last point (coordinates 3, 7, 7). In row-major
  order those are points 0 and 255 of 256. The output window keeps one block index throughout, so the pipeline
  writes it back once, after the last point; everywhere else the window is idle and the body hands its buffer back
  as it found it.
-/
import proofs.«168368_j77163382440707_1_alg».proof.Proof.Gen.Kernel.Launch
import proofs.«168368_j77163382440707_1_alg».proof.Proof.Gen.Kernel.Skeleton
import proofs.«168368_j77163382440707_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset's condition: all three grid coordinates are zero. -/
abbrev condA_r0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcondA_r0 : ∀ t : Fin cfg0.N, condA_r0 (grid0.coords t) ↔ t.val = 0 :=
  (by decide +kernel : ∀ t : Fin grid0.N, condA_r0 (grid0.coords t) ↔ t.val = 0)

/-- The output store's condition: the coordinates are the last ones. -/
abbrev condC_r0 (i : grid0.Coords) : Prop := k0_cond2 i = 1#1
/-- It holds at the last point only. -/
theorem hcondC_r0 : ∀ t : Fin cfg0.N, condC_r0 (grid0.coords t) ↔ t.val = 255 :=
  (by decide +kernel : ∀ t : Fin grid0.N, condC_r0 (grid0.coords t) ↔ t.val = 255)

/-- The input windows are never idle. -/
theorem live_r0_0 : ∀ t : Fin cfg0.N, cfg0.idle 0 (grid0.coords t) = false := by decide +kernel
theorem live_r0_1 : ∀ t : Fin cfg0.N, cfg0.idle 1 (grid0.coords t) = false := by decide +kernel
theorem live_r0_2 : ∀ t : Fin cfg0.N, cfg0.idle 2 (grid0.coords t) = false := by decide +kernel
theorem live_r0_3 : ∀ t : Fin cfg0.N, cfg0.idle 3 (grid0.coords t) = false := by decide +kernel
/-- Away from the last point the output window is idle and is not written back; at the last point it is live. -/
theorem idle_r0_4 : ∀ t : Fin cfg0.N, ¬condC_r0 (grid0.coords t) → cfg0.idle 4 (grid0.coords t) = true := by decide +kernel
theorem noFlush_r0_4 : ∀ t : Fin cfg0.N, ¬condC_r0 (grid0.coords t) → (cfg0.win 4).flush t = false := by decide +kernel
theorem live_r0_4 : ∀ t : Fin cfg0.N, condC_r0 (grid0.coords t) → cfg0.idle 4 (grid0.coords t) = false := by decide +kernel

/-- Each window's current staging memref at point t, as the pipeline passes it, and its wholeness. -/
abbrev ms_r0_0 (t : Fin cfg0.N) : Memref sig .tc .vmem S1x512x3 .f32 := win0_0.stage (cfg0.slots t 0)
abbrev hs_r0_0 (t : Fin cfg0.N) : (ms_r0_0 t).IsWhole := hstage0_0 ((cfg0.slots t 0).cast nbuf0_0)
abbrev ms_r0_1 (t : Fin cfg0.N) : Memref sig .tc .vmem S1x512x3 .f32 := win0_1.stage (cfg0.slots t 1)
abbrev hs_r0_1 (t : Fin cfg0.N) : (ms_r0_1 t).IsWhole := hstage0_1 ((cfg0.slots t 1).cast nbuf0_1)
abbrev ms_r0_2 (t : Fin cfg0.N) : Memref sig .tc .vmem S1x512x3 .f32 := win0_2.stage (cfg0.slots t 2)
abbrev hs_r0_2 (t : Fin cfg0.N) : (ms_r0_2 t).IsWhole := hstage0_2 ((cfg0.slots t 2).cast nbuf0_2)
abbrev ms_r0_3 (t : Fin cfg0.N) : Memref sig .tc .vmem S1x512x3 .f32 := win0_3.stage (cfg0.slots t 3)
abbrev hs_r0_3 (t : Fin cfg0.N) : (ms_r0_3 t).IsWhole := hstage0_3 ((cfg0.slots t 3).cast nbuf0_3)
abbrev ms_r0_4 (t : Fin cfg0.N) : Memref sig .tc .vmem S1x1 .f32 := win0_4.stage (cfg0.slots t 4)
abbrev hs_r0_4 (t : Fin cfg0.N) : (ms_r0_4 t).IsWhole := hstage0_4 ((cfg0.slots t 4).cast nbuf0_4)
/-- The accumulator: a whole scoped buffer of the kernel's own, passed beside the windows. -/
abbrev scM_r0 : Memref sig .tc .vmem S1x1 .f32 := Memref.whole cc0_scratch0

/-- The other scoped buffers of the core (the other calls' staging buffers and accumulators), each at some contents. -/
abbrev others_r0 (c : Dev nD) : sProp 𝕄 :=
  Pipeline.scopedRestBut (Ix := Unit) (Name := ℕ) (U := UR sig nD τ) (Lvl := ℕ) (Val := Elt F) spec0 c [cc0_scratch0]

/-- The class invariant with the accumulator split off: the accumulator at some contents, the other scoped buffers, and
    the generator register at some state. -/
theorem PhiA_r0_eq (c : Dev nD) :
    (Pipeline.ΦA spec0 c : sProp 𝕄)
      = iprop((iprop(∃ d, owns (c : Thread nD τ) scM_r0 fullShare d) ∗ others_r0 (F := F) c) ∗ (∃ r, prngReg c r)) := by
  unfold Pipeline.ΦA
  rw [Pipeline.scopedRest_split_of_list spec0 c [cc0_scratch0] (by decide) (by decide)]
  simp only [scM_r0, owns_whole]
  rfl

end Cert.Kernel.Hand

end
-- ==== Proof.K.R0RunA.lean ====
/-
  Region 0, the first point: the body resets the accumulator to zero, then adds the tile's total. Whatever the
  accumulator held, it ends at the stored value of the reset value and the blocks; the output buffer is handed back.
-/
import proofs.«168368_j77163382440707_1_alg».proof.Proof.K.R0Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r0_A (c : Dev nD) (i : grid0.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : condA_r0 i) (hcC : ¬condC_r0 i)
    (x0 x1 x2 x3 : Vec F S1x512x3 .f32) (xi : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k0_pay1 (k0_pay3 x0 x1) (k0_pay4 x2 x3) (k0_pay2 (F := F)))) -∗ K ⟨⟩))
      ⊢ wp frame (wpE (defs₀ (F := F)) Variants.none c none) E (cc0__kernel_sum_kernel i arg3 harg3 arg4 harg4 arg5 harg5 arg6 harg6 arg7 harg7 arg8 harg8) K := by
  simp only [cc0__kernel_sum_kernel_eq_skeleton]; unfold cc0__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, Hk⟩
  obtain rfl := harg3.eq_unread hf0; obtain rfl := harg4.eq_unread hf1; obtain rfl := harg5.eq_unread hf2
  obtain rfl := harg6.eq_unread hf3; obtain rfl := harg7.eq_unread hf7
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R0RunB.lean ====
/-
  Region 0, a point that is neither first nor last: the body adds the tile's total to the accumulator and touches
  nothing else. On whole staging memrefs holding the four input blocks, the output buffer at contents it hands back,
  and the accumulator at s, it ends with the accumulator at the stored value of s and the blocks.
-/
import proofs.«168368_j77163382440707_1_alg».proof.Proof.K.R0Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r0_B (c : Dev nD) (i : grid0.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r0 i) (hcC : ¬condC_r0 i)
    (x0 x1 x2 x3 : Vec F S1x512x3 .f32) (xi : Vec F S1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k0_pay1 (k0_pay3 x0 x1) (k0_pay4 x2 x3) xs)) -∗ K ⟨⟩))
      ⊢ wp frame (wpE (defs₀ (F := F)) Variants.none c none) E (cc0__kernel_sum_kernel i arg3 harg3 arg4 harg4 arg5 harg5 arg6 harg6 arg7 harg7 arg8 harg8) K := by
  simp only [cc0__kernel_sum_kernel_eq_skeleton]; unfold cc0__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R0RunC.lean ====
/-
  Region 0, the last point: the body adds the tile's total to the accumulator and copies the accumulator into the
  output block. Whatever the output buffer held, both end at the stored value of s and the blocks.
-/
import proofs.«168368_j77163382440707_1_alg».proof.Proof.K.R0Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r0_C (c : Dev nD) (i : grid0.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r0 i) (hcC : condC_r0 i)
    (x0 x1 x2 x3 : Vec F S1x512x3 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (k0_pay1 (k0_pay3 x0 x1) (k0_pay4 x2 x3) xs)
            ∗ owns (c : Thread nD τ) arg8 fullShare (k0_pay1 (k0_pay3 x0 x1) (k0_pay4 x2 x3) xs)) -∗ K ⟨⟩))
      ⊢ wp frame (wpE (defs₀ (F := F)) Variants.none c none) E (cc0__kernel_sum_kernel i arg3 harg3 arg4 harg4 arg5 harg5 arg6 harg6 arg7 harg7 arg8 harg8) K := by
  simp only [cc0__kernel_sum_kernel_eq_skeleton]; unfold cc0__kernel_sum_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  obtain rfl := harg3.eq_unread hf0; obtain rfl := harg4.eq_unread hf1; obtain rfl := harg5.eq_unread hf2
  obtain rfl := harg6.eq_unread hf3; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    have hz2 : (![0, 0] : Fin S1x1.rank → Nat) = fun _ => 0 := by funext a; fin_cases a <;> rfl
    have hz3 : (![0, 0, 0] : Fin S1x512x3.rank → Nat) = fun _ => 0 := by funext a; fin_cases a <;> rfl
    sl_unfold_words
    refine (View.read_writes_eq_canon _ _ _ (fun y => ⟨_, List.mem_cons_self, View.mem_set_unit_zero hz2 inb_S1x1_S1x1_0_0 y⟩)).trans ?_
    rw [View.canon_cons_unit_zero hz2]
    simp only [View.readAt_eq_ld, View.readCov_unit_zero (S := S1x1) _ hz2, harg3.read_unread, harg4.read_unread, harg5.read_unread,
      harg6.read_unread, harg8.read_unread, View.ld_unit_zero (S := S1x1) hz2, View.ld_unit_zero (S := S1x512x3) hz3]
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R0Frame.lean ====
/-
  Region 0 (one of the program's three kernel sums, each a pallas_call of the same kernel) as a pipeline: what every staging buffer and the accumulator hold at every grid
  point, and that the kernel body keeps it so.

  An input window's buffer holds its array's block at the point, fetched there or carried over from the point
  before (the block index did not move). The accumulator after point n is defined by recursion on n: after point 0
  the stored value of the reset value and point 0's blocks; after point n + 1 the stored value of what point n left
  and point n + 1's blocks. The output buffer is idle except at the last point, where the body copies the accumulator
  into it. The region's invariant before point 0 is the class's (the accumulator at anything); before a later point
  it names the accumulator's contents. The entry contents of the arrays (V) and the shares the input arrays are held
  at (q) are parameters: they are fixed where the regions are put together.
-/
import proofs.«168368_j77163382440707_1_alg».proof.Proof.K.R0RunA
import proofs.«168368_j77163382440707_1_alg».proof.Proof.K.R0RunB
import proofs.«168368_j77163382440707_1_alg».proof.Proof.K.R0RunC
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (q : Fin cfg0.W → PosShare TreeShare)

/-! ## The windows' blocks -/

/-- Window w's block at point t, read off its array as the region finds it. -/
def iblk_r0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before_r0_0_of {c : Dev nD} (dat : Dat τ (Elt F) Unit ℕ (UR sig nD τ) ℕ cfg0 c) (hA : dat.A 0 = V c (Pipeline.arrRef spec0 0))
    (hafter : ∀ t, dat.after 0 t = iblk_r0 V c 0 t) (t : Fin cfg0.N) (d) : dat.before 0 t d = iblk_r0 V c 0 t :=
  (dat.before_in_eq_fetched 0 rfl (fun _ => rfl) (fun _ _ _ => rfl) (fun t => by rw [hafter]; unfold Dat.blockOf iblk_r0; rw [hA]; try rfl) t d).trans
    (by unfold Dat.fetched Dat.blockOf iblk_r0; rw [hA]; try rfl)
theorem before_r0_1_of {c : Dev nD} (dat : Dat τ (Elt F) Unit ℕ (UR sig nD τ) ℕ cfg0 c) (hA : dat.A 1 = V c (Pipeline.arrRef spec0 1))
    (hafter : ∀ t, dat.after 1 t = iblk_r0 V c 1 t) (t : Fin cfg0.N) (d) : dat.before 1 t d = iblk_r0 V c 1 t :=
  (dat.before_in_eq_fetched 1 rfl (fun _ => rfl) (fun _ _ _ => rfl) (fun t => by rw [hafter]; unfold Dat.blockOf iblk_r0; rw [hA]; try rfl) t d).trans
    (by unfold Dat.fetched Dat.blockOf iblk_r0; rw [hA]; try rfl)
theorem before_r0_2_of {c : Dev nD} (dat : Dat τ (Elt F) Unit ℕ (UR sig nD τ) ℕ cfg0 c) (hA : dat.A 2 = V c (Pipeline.arrRef spec0 2))
    (hafter : ∀ t, dat.after 2 t = iblk_r0 V c 2 t) (t : Fin cfg0.N) (d) : dat.before 2 t d = iblk_r0 V c 2 t :=
  (dat.before_in_eq_fetched 2 rfl (fun _ => rfl) (fun _ _ _ => rfl) (fun t => by rw [hafter]; unfold Dat.blockOf iblk_r0; rw [hA]; try rfl) t d).trans
    (by unfold Dat.fetched Dat.blockOf iblk_r0; rw [hA]; try rfl)
theorem before_r0_3_of {c : Dev nD} (dat : Dat τ (Elt F) Unit ℕ (UR sig nD τ) ℕ cfg0 c) (hA : dat.A 3 = V c (Pipeline.arrRef spec0 3))
    (hafter : ∀ t, dat.after 3 t = iblk_r0 V c 3 t) (t : Fin cfg0.N) (d) : dat.before 3 t d = iblk_r0 V c 3 t :=
  (dat.before_in_eq_fetched 3 rfl (fun _ => rfl) (fun _ _ _ => rfl) (fun t => by rw [hafter]; unfold Dat.blockOf iblk_r0; rw [hA]; try rfl) t d).trans
    (by unfold Dat.fetched Dat.blockOf iblk_r0; rw [hA]; try rfl)

/-! ## The accumulator, point by point -/

/-- What the accumulator holds after the body at point n. -/
def acc_r0 (c : Dev nD) : (n : ℕ) → n < cfg0.N → Vec F S1x1 .f32
  | 0, hn => k0_pay1 (k0_pay3 (iblk_r0 V c 0 ⟨0, hn⟩) (iblk_r0 V c 1 ⟨0, hn⟩)) (k0_pay4 (iblk_r0 V c 2 ⟨0, hn⟩) (iblk_r0 V c 3 ⟨0, hn⟩)) (k0_pay2 (F := F))
  | n + 1, hn => k0_pay1 (k0_pay3 (iblk_r0 V c 0 ⟨n + 1, hn⟩) (iblk_r0 V c 1 ⟨n + 1, hn⟩)) (k0_pay4 (iblk_r0 V c 2 ⟨n + 1, hn⟩) (iblk_r0 V c 3 ⟨n + 1, hn⟩)) (acc_r0 c n (Nat.lt_of_succ_lt hn))

/-- At the first point: the reset value, then the tile. -/
theorem acc_r0_zero (c : Dev nD) (t : Fin cfg0.N) (h : t.val = 0) :
    acc_r0 V c t.val t.isLt = k0_pay1 (k0_pay3 (iblk_r0 V c 0 t) (iblk_r0 V c 1 t)) (k0_pay4 (iblk_r0 V c 2 t) (iblk_r0 V c 3 t)) (k0_pay2 (F := F)) := by
  obtain ⟨n, hn⟩ := t
  cases n with
  | zero => rfl
  | succ n => exact absurd h (Nat.succ_ne_zero n)

/-- At a later point: what the point before left, then the tile. -/
theorem acc_r0_pos (c : Dev nD) (t : Fin cfg0.N) (h : t.val ≠ 0) :
    acc_r0 V c t.val t.isLt = k0_pay1 (k0_pay3 (iblk_r0 V c 0 t) (iblk_r0 V c 1 t)) (k0_pay4 (iblk_r0 V c 2 t) (iblk_r0 V c 3 t)) (acc_r0 V c (t.val - 1) (Nat.lt_of_le_of_lt (Nat.sub_le _ _) t.isLt)) := by
  obtain ⟨n, hn⟩ := t
  cases n with
  | zero => exact absurd rfl h
  | succ n => rfl

/-! ## The invariant between points -/

/-- Before point 0 the class's invariant (the accumulator at anything); before point n + 1 the accumulator at what
    point n left, the other scoped buffers and the generator register as they are. -/
def PhiS_r0 (c : Dev nD) : (n : ℕ) → n ≤ cfg0.N → sProp 𝕄
  | 0, _ => Pipeline.ΦA spec0 c
  | n + 1, hn => iprop((owns (c : Thread nD τ) scM_r0 fullShare (acc_r0 V c n hn) ∗ others_r0 (F := F) c) ∗ (∃ r, prngReg c r))

theorem PhiS_r0_zero (c : Dev nD) (n : ℕ) (h : n ≤ cfg0.N) (hz : n = 0) : PhiS_r0 V c n h = Pipeline.ΦA spec0 c := by
  subst hz; rfl

theorem PhiS_r0_succ (c : Dev nD) (n : ℕ) (hn : n < cfg0.N) :
    PhiS_r0 V c (n + 1) hn = iprop((owns (c : Thread nD τ) scM_r0 fullShare (acc_r0 V c n hn) ∗ others_r0 (F := F) c) ∗ (∃ r, prngReg c r)) := rfl

theorem PhiS_r0_pos (c : Dev nD) (n : ℕ) (h : n ≤ cfg0.N) (hz : n ≠ 0) :
    PhiS_r0 V c n h = iprop((owns (c : Thread nD τ) scM_r0 fullShare (acc_r0 V c (n - 1) (by omega)) ∗ others_r0 (F := F) c) ∗ (∃ r, prngReg c r)) := by
  cases n with
  | zero => exact absurd rfl hz
  | succ n => rfl

/-! ## The proof data -/

/-- The region's proof data on core c: the arrays as the region finds them; after the body each input buffer at its
    block and the output buffer at the accumulator's contents (consulted at the last point only: elsewhere the window
    is idle); the invariant above; nothing owed. -/
def dat_r0 (c : Dev nD) : Dat τ (Elt F) Unit ℕ (UR sig nD τ) ℕ cfg0 c where
  A w := V c (Pipeline.arrRef spec0 w)
  after w t := match w with
    | ⟨0, _⟩ => iblk_r0 V c 0 t
    | ⟨1, _⟩ => iblk_r0 V c 1 t
    | ⟨2, _⟩ => iblk_r0 V c 2 t
    | ⟨3, _⟩ => iblk_r0 V c 3 t
    | ⟨4, _⟩ => acc_r0 V c t.val t.isLt
  Φ t := PhiS_r0 V c t.val (Nat.le_of_lt_succ t.isLt)
  q := q
  owed _ := 0

theorem A_eq_r0 (c : Dev nD) (w : Fin cfg0.W) : (dat_r0 V q c).A w = V c (Pipeline.arrRef spec0 w) := by
  dsimp only [dat_r0]

theorem PhiS_r0_castSucc (c : Dev nD) (t : Fin cfg0.N) :
    (dat_r0 V q c).Φ t.castSucc = PhiS_r0 V c t.val (Nat.le_of_lt t.isLt) := by
  dsimp only [dat_r0]; simp only [Fin.coe_castSucc]

theorem after_r0_0 (c : Dev nD) (t : Fin cfg0.N) : (dat_r0 V q c).after 0 t = iblk_r0 V c 0 t := by dsimp only [dat_r0]
theorem after_r0_1 (c : Dev nD) (t : Fin cfg0.N) : (dat_r0 V q c).after 1 t = iblk_r0 V c 1 t := by dsimp only [dat_r0]
theorem after_r0_2 (c : Dev nD) (t : Fin cfg0.N) : (dat_r0 V q c).after 2 t = iblk_r0 V c 2 t := by dsimp only [dat_r0]
theorem after_r0_3 (c : Dev nD) (t : Fin cfg0.N) : (dat_r0 V q c).after 3 t = iblk_r0 V c 3 t := by dsimp only [dat_r0]
theorem after_r0_4 (c : Dev nD) (t : Fin cfg0.N) : (dat_r0 V q c).after 4 t = acc_r0 V c t.val t.isLt := by dsimp only [dat_r0]

theorem before_r0_0 (c : Dev nD) (t : Fin cfg0.N) (d) : (dat_r0 V q c).before 0 t d = iblk_r0 V c 0 t :=
  before_r0_0_of V (dat_r0 V q c) (A_eq_r0 V q c 0) (after_r0_0 V q c) t d
theorem before_r0_1 (c : Dev nD) (t : Fin cfg0.N) (d) : (dat_r0 V q c).before 1 t d = iblk_r0 V c 1 t :=
  before_r0_1_of V (dat_r0 V q c) (A_eq_r0 V q c 1) (after_r0_1 V q c) t d
theorem before_r0_2 (c : Dev nD) (t : Fin cfg0.N) (d) : (dat_r0 V q c).before 2 t d = iblk_r0 V c 2 t :=
  before_r0_2_of V (dat_r0 V q c) (A_eq_r0 V q c 2) (after_r0_2 V q c) t d
theorem before_r0_3 (c : Dev nD) (t : Fin cfg0.N) (d) : (dat_r0 V q c).before 3 t d = iblk_r0 V c 3 t :=
  before_r0_3_of V (dat_r0 V q c) (A_eq_r0 V q c 3) (after_r0_3 V q c) t d

/-! ## The body obligation -/

/-- What the body is called with at point t, the windows one by one, -/
def bodyPre_r0 (c : Dev nD) (t : Fin cfg0.N) : sProp 𝕄 :=
  iprop((dat_r0 V q c).Φ t.castSucc ∗ (dat_r0 V q c).owesAt () t.castSucc
    ∗ (∃ d, owns (c : Thread nD τ) (ms_r0_0 t) fullShare ((dat_r0 V q c).before 0 t d))
    ∗ (∃ d, owns (c : Thread nD τ) (ms_r0_1 t) fullShare ((dat_r0 V q c).before 1 t d))
    ∗ (∃ d, owns (c : Thread nD τ) (ms_r0_2 t) fullShare ((dat_r0 V q c).before 2 t d))
    ∗ (∃ d, owns (c : Thread nD τ) (ms_r0_3 t) fullShare ((dat_r0 V q c).before 3 t d))
    ∗ (∃ d, owns (c : Thread nD τ) (ms_r0_4 t) fullShare ((dat_r0 V q c).before 4 t d)))

/-- and what it returns. -/
def bodyPost_r0 (c : Dev nD) (t : Fin cfg0.N) : sProp 𝕄 :=
  iprop((dat_r0 V q c).Φ t.succ ∗ (dat_r0 V q c).owesAt () t.succ
    ∗ (dat_r0 V q c).leavesExact 0 t
    ∗ (dat_r0 V q c).leavesExact 1 t
    ∗ (dat_r0 V q c).leavesExact 2 t
    ∗ (dat_r0 V q c).leavesExact 3 t
    ∗ (dat_r0 V q c).leavesExact 4 t)

set_option maxHeartbeats 4800000 in
/-- The body at any point. The input buffers hold their blocks; the point is the first, the last or neither, which
    decides the two conditionals; the matching run applies; the invariant hands over the accumulator (at anything at
    the first point, else at what the point before left) and takes it back at this point's contents. -/
theorem sound_body_r0 (c : Dev nD) (t : Fin cfg0.N) :
    bodyPre_r0 V q c t ⊢ wp frame (wpE (defs₀ (F := F)) Variants.none c none) Set.univ (bodyAt0 t) (fun _ => bodyPost_r0 V q c t) := by
  unfold bodyPre_r0 bodyPost_r0 bodyAt0
  simp only [before_r0_0, before_r0_1, before_r0_2, before_r0_3]
  rw [show (dat_r0 V q c).owesAt () t.succ = (dat_r0 V q c).owesAt () t.castSucc from rfl]
  rw [show (dat_r0 V q c).Φ t.succ = PhiS_r0 V c (t.val + 1) t.isLt from rfl, PhiS_r0_succ]
  rw [show (dat_r0 V q c).leavesExact 0 t = owns (c : Thread nD τ) (ms_r0_0 t) fullShare ((dat_r0 V q c).after 0 t) from by
    unfold Dat.leavesExact; rw [live_r0_0 t], after_r0_0]
  rw [show (dat_r0 V q c).leavesExact 1 t = owns (c : Thread nD τ) (ms_r0_1 t) fullShare ((dat_r0 V q c).after 1 t) from by
    unfold Dat.leavesExact; rw [live_r0_1 t], after_r0_1]
  rw [show (dat_r0 V q c).leavesExact 2 t = owns (c : Thread nD τ) (ms_r0_2 t) fullShare ((dat_r0 V q c).after 2 t) from by
    unfold Dat.leavesExact; rw [live_r0_2 t], after_r0_2]
  rw [show (dat_r0 V q c).leavesExact 3 t = owns (c : Thread nD τ) (ms_r0_3 t) fullShare ((dat_r0 V q c).after 3 t) from by
    unfold Dat.leavesExact; rw [live_r0_3 t], after_r0_3]
  have hN : t.val < 256 := lt_of_lt_of_eq t.isLt (show cfg0.N = 256 from N_0)
  by_cases h0 : t.val = 0
  · have hcA : condA_r0 (grid0.coords t) := (hcondA_r0 t).mpr h0
    have hcC : ¬condC_r0 (grid0.coords t) := fun h => by have := (hcondC_r0 t).mp h; omega
    rw [Dat.leavesExact_idle (dat_r0 V q c) 4 t (idle_r0_4 t hcC) (noFlush_r0_4 t hcC)]
    rw [acc_r0_zero V c t h0]
    rw [PhiS_r0_castSucc V q c t, PhiS_r0_zero V c _ _ h0, PhiA_r0_eq]
    iintro ⟨⟨⟨HS, Hoth⟩, Hg⟩, Ho, ⟨%d0, H0⟩, ⟨%d1, H1⟩, ⟨%d2, H2⟩, ⟨%d3, H3⟩, ⟨%d4, H4⟩⟩
    iapply (run_r0_A c (grid0.coords t) _ _ _ _ _ _ _ _ _ _ _ _ hcA hcC (iblk_r0 V c 0 t) (iblk_r0 V c 1 t) (iblk_r0 V c 2 t) (iblk_r0 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · by_cases h1 : t.val = 255
    · have hcA : ¬condA_r0 (grid0.coords t) := fun h => h0 ((hcondA_r0 t).mp h)
      have hcC : condC_r0 (grid0.coords t) := (hcondC_r0 t).mpr h1
      rw [show (dat_r0 V q c).leavesExact 4 t = owns (c : Thread nD τ) (ms_r0_4 t) fullShare ((dat_r0 V q c).after 4 t) from by
        unfold Dat.leavesExact; rw [live_r0_4 t hcC], after_r0_4]
      rw [acc_r0_pos V c t h0]
      rw [PhiS_r0_castSucc V q c t, PhiS_r0_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r0_C c (grid0.coords t) _ _ _ _ _ _ _ _ _ _ _ _ hcA hcC (iblk_r0 V c 0 t) (iblk_r0 V c 1 t) (iblk_r0 V c 2 t) (iblk_r0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hcA : ¬condA_r0 (grid0.coords t) := fun h => h0 ((hcondA_r0 t).mp h)
      have hcC : ¬condC_r0 (grid0.coords t) := fun h => h1 ((hcondC_r0 t).mp h)
      rw [Dat.leavesExact_idle (dat_r0 V q c) 4 t (idle_r0_4 t hcC) (noFlush_r0_4 t hcC)]
      rw [acc_r0_pos V c t h0]
      rw [PhiS_r0_castSucc V q c t, PhiS_r0_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r0_B c (grid0.coords t) _ _ _ _ _ _ _ _ _ _ _ _ hcA hcC (iblk_r0 V c 0 t) (iblk_r0 V c 1 t) (iblk_r0 V c 2 t) (iblk_r0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation_r0 (c : Dev nD) : BodyObligation (dat_r0 (F := F) V q c) (defs₀ (F := F)) Variants.none () Set.univ := fun t => by
  rw [bigSep_W0, bigSep_W0]
  exact sound_body_r0 V q c t

/-! ## Into and out of the invariant -/

/-- What the launch hands the region is the invariant before the first point. -/
theorem hin_r0 (c : Dev nD) : Pipeline.ΦA spec0 c ⊢ (dat_r0 V q c).Φ 0 := by
  rw [show (dat_r0 V q c).Φ 0 = PhiS_r0 V c 0 (Nat.zero_le _) from rfl, PhiS_r0_zero V c 0 _ rfl]

/-- After the last point the invariant gives the class's back: the accumulator's named contents are forgotten. -/
theorem hout_r0 (c : Dev nD) : (dat_r0 V q c).Φ (Fin.last cfg0.N) ⊢ Pipeline.ΦA spec0 c := by
  have hne : (Fin.last cfg0.N).val ≠ 0 := by rw [Fin.val_last]; have : cfg0.N = 256 := N_0; omega
  rw [show (dat_r0 V q c).Φ (Fin.last cfg0.N) = PhiS_r0 V c (Fin.last cfg0.N).val (Nat.le_of_lt_succ (Fin.last cfg0.N).isLt) from rfl,
    PhiS_r0_pos V c _ _ hne, PhiA_r0_eq]
  iintro ⟨⟨HS, Hoth⟩, Hg⟩
  isplitl [HS Hoth]
  · isplitl [HS]
    · iexists _; iexact HS
    iexact Hoth
  iexact Hg

end Region

end Cert.Kernel.Hand

end
-- ==== Proof.K.R0Split.lean ====
/-
  Region 0 reads each of its two input arrays through TWO windows (rows i of the pair and rows j of the pair come from
  one array). The pipeline holds each window's array at a share of its own, so the buffer behind such an array, held
  whole at the full share, is handed to the two windows a half each, and the halves join back to the full share when
  the region ends. The output array has one window and is held outright.
-/
import proofs.«168368_j77163382440707_1_alg».proof.Proof.Gen.Kernel.Launch
import Idealize.ShloMosaic.Lib.Pipeline.FrameBody
import Idealize.ShloMosaic.Lib.Pipeline.RegionsLoop
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The shares region 0 holds its arrays at: the two windows on one array take a half each; the output's is unused
    (an output array is held at the full share whatever this says). -/
def q_r0 : Fin cfg0.W → PosShare TreeShare
  | ⟨0, _⟩ => fullShare.left
  | ⟨1, _⟩ => fullShare.right
  | ⟨2, _⟩ => fullShare.left
  | ⟨3, _⟩ => fullShare.right
  | ⟨4, _⟩ => fullShare

/-- The buffers behind region 0's arrays: main_arg0, main_arg2 and main_v0. -/
theorem arrRefs_r0 : Finset.univ.image (Pipeline.arrRef spec0) = ([main_arg0, main_arg2, main_v0] : List (Ref sig .tc)).toFinset := by decide

/-- The buffers behind region 0's arrays, one by one: main_arg0, main_arg2 and main_v0, each whole at the full share. -/
theorem arrBufs_r0_eq (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_arg0) ↦{fullShare} Vb main_arg0) ∗ (((c : Thread nD τ).loc main_arg2) ↦{fullShare} Vb main_arg2)
          ∗ (((c : Thread nD τ).loc main_v0) ↦{fullShare} Vb main_v0)) := by
  unfold Pipeline.arrBufs
  exact bigSep_eq_bigSepL_of_eq [main_arg0, main_arg2, main_v0] arrRefs_r0 (by decide) _

/-- One window's array, a whole buffer, is the buffer behind it held whole, at the window's share and the contents
    Vb reads there. -/
theorem win_pt_r0 {c : Dev nD} (dat : Dat τ (Elt F) Unit ℕ (UR sig nD τ) ℕ cfg0 c) (w : Fin cfg0.W) (q : PosShare TreeShare)
    (hs : dat.share w = q)
    (Vb : (b : Ref sig .tc) → Buf (Elt F) ((c : Thread nD τ).loc b))
    (Fa : (w : Fin cfg0.W) → Buf (Elt F) ((cfg0.win w).arr.view.loc (c.tc : Thread nD τ)))
    (hF : ∀ w, Fa w = Vb (Pipeline.arrRef spec0 w)) :
    ((cfg0.win w).arr.view.loc (c.tc : Thread nD τ) ↦[(cfg0.win w).arr.view.set]{dat.share w} Fa w : sProp 𝕄)
      = (((c : Thread nD τ).loc (Pipeline.arrRef spec0 w)) ↦{q} Vb (Pipeline.arrRef spec0 w)) := by
  rw [(arr_whole0 w).set_eq_univ, hs, hF w]

/-- The share of each window of region 0: the four inputs hold the halves q_r0 names, the output the full share. -/
theorem share_r0 {c : Dev nD} (dat : Dat τ (Elt F) Unit ℕ (UR sig nD τ) ℕ cfg0 c) (hq : dat.q = q_r0) :
    dat.share 0 = fullShare.left ∧ dat.share 1 = fullShare.right ∧ dat.share 2 = fullShare.left ∧ dat.share 3 = fullShare.right
      ∧ dat.share 4 = fullShare := by
  unfold Dat.share
  rw [hq]
  exact ⟨rfl, rfl, rfl, rfl, rfl⟩

/-- The pipeline's arrays of region 0, window by window: the two halves of main_arg0, the two halves of main_arg2, and
    main_v0 outright, all at the contents Vb reads. -/
theorem arrays_r0_eq {c : Dev nD} (dat : Dat τ (Elt F) Unit ℕ (UR sig nD τ) ℕ cfg0 c) (hq : dat.q = q_r0)
    (Vb : (b : Ref sig .tc) → Buf (Elt F) ((c : Thread nD τ).loc b))
    (Fa : (w : Fin cfg0.W) → Buf (Elt F) ((cfg0.win w).arr.view.loc (c.tc : Thread nD τ)))
    (hF : ∀ w, Fa w = Vb (Pipeline.arrRef spec0 w)) :
    (dat.arrays Fa : sProp 𝕄)
      = iprop((((c : Thread nD τ).loc main_arg0) ↦{fullShare.left} Vb main_arg0) ∗ (((c : Thread nD τ).loc main_arg0) ↦{fullShare.right} Vb main_arg0)
          ∗ (((c : Thread nD τ).loc main_arg2) ↦{fullShare.left} Vb main_arg2) ∗ (((c : Thread nD τ).loc main_arg2) ↦{fullShare.right} Vb main_arg2)
          ∗ (((c : Thread nD τ).loc main_v0) ↦{fullShare} Vb main_v0)) := by
  obtain ⟨s0, s1, s2, s3, s4⟩ := share_r0 dat hq
  unfold Dat.arrays
  rw [Gen.bigSep_W0, win_pt_r0 dat 0 _ s0 Vb Fa hF, win_pt_r0 dat 1 _ s1 Vb Fa hF, win_pt_r0 dat 2 _ s2 Vb Fa hF, win_pt_r0 dat 3 _ s3 Vb Fa hF,
    win_pt_r0 dat 4 _ s4 Vb Fa hF]

/-- The buffers behind region 0's arrays, each whole at the full share at contents Vb, ARE the pipeline's arrays at
    contents Fa (each window's array at its share), when Fa is Vb read at each window's array: in both directions. -/
theorem arrays_iff_r0 {c : Dev nD} (dat : Dat τ (Elt F) Unit ℕ (UR sig nD τ) ℕ cfg0 c) (hq : dat.q = q_r0)
    (Vb : (b : Ref sig .tc) → Buf (Elt F) ((c : Thread nD τ).loc b))
    (Fa : (w : Fin cfg0.W) → Buf (Elt F) ((cfg0.win w).arr.view.loc (c.tc : Thread nD τ)))
    (hF : ∀ w, Fa w = Vb (Pipeline.arrRef spec0 w)) :
    (Pipeline.arrBufs (Ix := Unit) (Name := ℕ) (U := UR sig nD τ) (Lvl := ℕ) spec0 c Vb : sProp 𝕄) ⊣⊢ dat.arrays Fa := by
  rw [arrBufs_r0_eq, arrays_r0_eq dat hq Vb Fa hF]
  -- the full share is the composite of its two halves
  have hs : fullShare ∈ PCS.op fullShare.left fullShare.right := PosShare.mem_left_op_right fullShare
  constructor
  · -- each shared buffer is cut in two halves, one per window
    iintro ⟨H0, H2, H4⟩
    ihave H0' := (pointsTo_share hs).1 $$ H0
    icases H0' with ⟨H0l, H0r⟩
    ihave H2' := (pointsTo_share hs).1 $$ H2
    icases H2' with ⟨H2l, H2r⟩
    isplitl [H0l]; · iexact H0l
    isplitl [H0r]; · iexact H0r
    isplitl [H2l]; · iexact H2l
    isplitl [H2r]; · iexact H2r
    iexact H4
  · -- the two halves of each shared buffer join back to the full share
    iintro ⟨H0l, H0r, H2l, H2r, H4⟩
    isplitl [H0l H0r]
    · iapply (pointsTo_share hs).2
      isplitl [H0l]; · iexact H0l
      iexact H0r
    isplitl [H2l H2r]
    · iapply (pointsTo_share hs).2
      isplitl [H2l]; · iexact H2l
      iexact H2r
    iexact H4

end Cert.Kernel.Hand

end
-- ==== Proof.K.R0Glue.lean ====
/-
  Region 0 between two boundaries of @main: from every unscoped buffer of the core held whole at the contents the
  region is entered with, to the pipeline's arrays (each window's array at its share) beside the buffers no window
  names; and back, when the region ends, to every unscoped buffer held whole at the contents it leaves: the entry
  contents with the output array at what the one write-back left.
-/
import proofs.«168368_j77163382440707_1_alg».proof.Proof.K.R0Frame
import proofs.«168368_j77163382440707_1_alg».proof.Proof.K.R0Split
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Glue

variable (W : Dev nD → Valuation τ sig (Elt F))

/-- The entry contents read at the TensorCore's references: what the region's proof data take. -/
abbrev Vof_r0 (c : Dev nD) (b : Ref sig .tc) : Buf (Elt F) ((c : Thread nD τ).loc b) := W c b

/-- The region's proof data at these entry contents, the shared arrays held a half per window. -/
abbrev dd_r0 (c : Dev nD) : Dat τ (Elt F) Unit ℕ (UR sig nD τ) ℕ cfg0 c := dat_r0 (Vof_r0 W) q_r0 c

/-- What the region leaves in its output array. -/
abbrev res_r0 (c : Dev nD) : Buf (Elt F) ((c : Thread nD τ).loc (Pipeline.arrRef spec0 4)) := (dd_r0 W c).arrAt 4 cfg0.N

/-- The contents the region leaves: the entry contents with the output array at what the write-back left. -/
def Wout_r0 (c : Dev nD) : Valuation τ sig (Elt F) :=
  Function.update (W c) (Proc.devRef .tc (Pipeline.arrRef spec0 4)) (res_r0 W c)

theorem Wout_r0_out (c : Dev nD) : Wout_r0 W c (Proc.devRef .tc (Pipeline.arrRef spec0 4)) = res_r0 W c := by
  unfold Wout_r0; exact Function.update_self ..

theorem Wout_r0_of_ne (c : Dev nD) (b : Ref sig .tc) (hb : b ≠ Pipeline.arrRef spec0 4) :
    Wout_r0 W c (Proc.devRef .tc b) = W c (Proc.devRef .tc b) := by
  unfold Wout_r0; exact Function.update_of_ne (StableHlo.devRef_ne_of_ne hb) ..

/-- Entering: the unscoped buffers at the entry contents are the pipeline's arrays at their entry contents and the rest. -/
theorem entry_r0 (c : Dev nD) :
    (StableHlo.held (c : Thread nD τ) (Pipeline.ucRefs τ sig) (W c) : sProp 𝕄)
      ⊢ iprop((dd_r0 W c).arrays (fun w => (dd_r0 W c).arrAt w 0) ∗ Pipeline.unscopedRest (Ix := Unit) (Name := ℕ) (U := UR sig nD τ) (Lvl := ℕ) spec0 c (Vof_r0 W c)) := by
  rw [← Pipeline.unscopedBufs_held (Ix := Unit) (Name := ℕ) (U := UR sig nD τ) (Lvl := ℕ) c (W c)]
  rw [Pipeline.unscopedBufs_split₀ cfgs (0 : Fin 3) winFacts₀0.arr_unscoped c (Vof_r0 W c)]
  exact sep_mono (arrays_iff_r0 (dd_r0 W c) rfl (Vof_r0 W c) _ (fun w => A_eq_r0 (Vof_r0 W) q_r0 c w)).1 .rfl

/-- Leaving: the arrays at their final contents and the rest are the unscoped buffers at the contents the region leaves. -/
theorem exit_r0 (c : Dev nD) :
    iprop((dd_r0 W c).arrays (fun w => (dd_r0 W c).arrAt w cfg0.N) ∗ Pipeline.unscopedRest (Ix := Unit) (Name := ℕ) (U := UR sig nD τ) (Lvl := ℕ) spec0 c (Vof_r0 W c))
      ⊢ (StableHlo.held (c : Thread nD τ) (Pipeline.ucRefs τ sig) (Wout_r0 W c) : sProp 𝕄) := by
  have hF : ∀ w : Fin cfg0.W, (dd_r0 W c).arrAt w cfg0.N = Vof_r0 (Wout_r0 W) c (Pipeline.arrRef spec0 w) := by
    intro w
    match w with
    | ⟨0, _⟩ => exact ((dd_r0 W c).arrAt_in 0 rfl _).trans ((A_eq_r0 (Vof_r0 W) q_r0 c 0).trans (Wout_r0_of_ne W c _ (by decide)).symm)
    | ⟨1, _⟩ => exact ((dd_r0 W c).arrAt_in 1 rfl _).trans ((A_eq_r0 (Vof_r0 W) q_r0 c 1).trans (Wout_r0_of_ne W c _ (by decide)).symm)
    | ⟨2, _⟩ => exact ((dd_r0 W c).arrAt_in 2 rfl _).trans ((A_eq_r0 (Vof_r0 W) q_r0 c 2).trans (Wout_r0_of_ne W c _ (by decide)).symm)
    | ⟨3, _⟩ => exact ((dd_r0 W c).arrAt_in 3 rfl _).trans ((A_eq_r0 (Vof_r0 W) q_r0 c 3).trans (Wout_r0_of_ne W c _ (by decide)).symm)
    | ⟨4, _⟩ => exact (Wout_r0_out W c).symm
  have hrest : (Pipeline.unscopedRest (Ix := Unit) (Name := ℕ) (U := UR sig nD τ) (Lvl := ℕ) spec0 c (Vof_r0 W c) : sProp 𝕄)
      = Pipeline.unscopedRest spec0 c (Vof_r0 (Wout_r0 W) c) := by
    unfold Pipeline.unscopedRest
    refine bigSep_congr fun b hb => ?_
    have hne : b ≠ Pipeline.arrRef spec0 4 := fun e =>
      (Finset.mem_sdiff.mp hb).2 (Finset.mem_image.mpr ⟨4, Finset.mem_univ _, e.symm⟩)
    rw [show Vof_r0 (Wout_r0 W) c b = Vof_r0 W c b from Wout_r0_of_ne W c b hne]
  rw [← Pipeline.unscopedBufs_held (Ix := Unit) (Name := ℕ) (U := UR sig nD τ) (Lvl := ℕ) c (Wout_r0 W c)]
  rw [Pipeline.unscopedBufs_split₀ cfgs (0 : Fin 3) winFacts₀0.arr_unscoped c (Vof_r0 (Wout_r0 W) c), hrest]
  exact sep_mono (arrays_iff_r0 (dd_r0 W c) rfl (Vof_r0 (Wout_r0 W) c) _ hF).2 .rfl

end Glue

end Cert.Kernel.Hand

end
-- ==== Proof.K.R1Base.lean ====
/-
  Region 1 (one of the program's three kernel sums, each a pallas_call of the same kernel): where its two conditionals hold on the 4 × 8 × 8 grid, where its output window is
  idle, and the invariant opened at the accumulator.

  The body resets its 1 × 1 accumulator at the grid's first point (all three coordinates zero), adds the tile's total at
  every point, and copies the accumulator into the output block at the last point (coordinates 3, 7, 7). In row-major
  order those are points 0 and 255 of 256. The output window keeps one block index throughout, so the pipeline
  writes it back once, after the last point; everywhere else the window is idle and the body hands its buffer back
  as it found it.
-/
import proofs.«168368_j77163382440707_1_alg».proof.Proof.Gen.Kernel.Launch
import proofs.«168368_j77163382440707_1_alg».proof.Proof.Gen.Kernel.Skeleton
import proofs.«168368_j77163382440707_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset's condition: all three grid coordinates are zero. -/
abbrev condA_r1 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcondA_r1 : ∀ t : Fin cfg1.N, condA_r1 (grid1.coords t) ↔ t.val = 0 :=
  (by decide +kernel : ∀ t : Fin grid1.N, condA_r1 (grid1.coords t) ↔ t.val = 0)

/-- The output store's condition: the coordinates are the last ones. -/
abbrev condC_r1 (i : grid1.Coords) : Prop := k1_cond2 i = 1#1
/-- It holds at the last point only. -/
theorem hcondC_r1 : ∀ t : Fin cfg1.N, condC_r1 (grid1.coords t) ↔ t.val = 255 :=
  (by decide +kernel : ∀ t : Fin grid1.N, condC_r1 (grid1.coords t) ↔ t.val = 255)

/-- The input windows are never idle. -/
theorem live_r1_0 : ∀ t : Fin cfg1.N, cfg1.idle 0 (grid1.coords t) = false := by decide +kernel
theorem live_r1_1 : ∀ t : Fin cfg1.N, cfg1.idle 1 (grid1.coords t) = false := by decide +kernel
theorem live_r1_2 : ∀ t : Fin cfg1.N, cfg1.idle 2 (grid1.coords t) = false := by decide +kernel
theorem live_r1_3 : ∀ t : Fin cfg1.N, cfg1.idle 3 (grid1.coords t) = false := by decide +kernel
/-- Away from the last point the output window is idle and is not written back; at the last point it is live. -/
theorem idle_r1_4 : ∀ t : Fin cfg1.N, ¬condC_r1 (grid1.coords t) → cfg1.idle 4 (grid1.coords t) = true := by decide +kernel
theorem noFlush_r1_4 : ∀ t : Fin cfg1.N, ¬condC_r1 (grid1.coords t) → (cfg1.win 4).flush t = false := by decide +kernel
theorem live_r1_4 : ∀ t : Fin cfg1.N, condC_r1 (grid1.coords t) → cfg1.idle 4 (grid1.coords t) = false := by decide +kernel

/-- Each window's current staging memref at point t, as the pipeline passes it, and its wholeness. -/
abbrev ms_r1_0 (t : Fin cfg1.N) : Memref sig .tc .vmem S1x512x3 .f32 := win1_0.stage (cfg1.slots t 0)
abbrev hs_r1_0 (t : Fin cfg1.N) : (ms_r1_0 t).IsWhole := hstage1_0 ((cfg1.slots t 0).cast nbuf1_0)
abbrev ms_r1_1 (t : Fin cfg1.N) : Memref sig .tc .vmem S1x512x3 .f32 := win1_1.stage (cfg1.slots t 1)
abbrev hs_r1_1 (t : Fin cfg1.N) : (ms_r1_1 t).IsWhole := hstage1_1 ((cfg1.slots t 1).cast nbuf1_1)
abbrev ms_r1_2 (t : Fin cfg1.N) : Memref sig .tc .vmem S1x512x3 .f32 := win1_2.stage (cfg1.slots t 2)
abbrev hs_r1_2 (t : Fin cfg1.N) : (ms_r1_2 t).IsWhole := hstage1_2 ((cfg1.slots t 2).cast nbuf1_2)
abbrev ms_r1_3 (t : Fin cfg1.N) : Memref sig .tc .vmem S1x512x3 .f32 := win1_3.stage (cfg1.slots t 3)
abbrev hs_r1_3 (t : Fin cfg1.N) : (ms_r1_3 t).IsWhole := hstage1_3 ((cfg1.slots t 3).cast nbuf1_3)
abbrev ms_r1_4 (t : Fin cfg1.N) : Memref sig .tc .vmem S1x1 .f32 := win1_4.stage (cfg1.slots t 4)
abbrev hs_r1_4 (t : Fin cfg1.N) : (ms_r1_4 t).IsWhole := hstage1_4 ((cfg1.slots t 4).cast nbuf1_4)
/-- The accumulator: a whole scoped buffer of the kernel's own, passed beside the windows. -/
abbrev scM_r1 : Memref sig .tc .vmem S1x1 .f32 := Memref.whole cc1_scratch0

/-- The other scoped buffers of the core (the other calls' staging buffers and accumulators), each at some contents. -/
abbrev others_r1 (c : Dev nD) : sProp 𝕄 :=
  Pipeline.scopedRestBut (Ix := Unit) (Name := ℕ) (U := UR sig nD τ) (Lvl := ℕ) (Val := Elt F) spec1 c [cc1_scratch0]

/-- The class invariant with the accumulator split off: the accumulator at some contents, the other scoped buffers, and
    the generator register at some state. -/
theorem PhiA_r1_eq (c : Dev nD) :
    (Pipeline.ΦA spec1 c : sProp 𝕄)
      = iprop((iprop(∃ d, owns (c : Thread nD τ) scM_r1 fullShare d) ∗ others_r1 (F := F) c) ∗ (∃ r, prngReg c r)) := by
  unfold Pipeline.ΦA
  rw [Pipeline.scopedRest_split_of_list spec1 c [cc1_scratch0] (by decide) (by decide)]
  simp only [scM_r1, owns_whole]
  rfl

end Cert.Kernel.Hand

end
-- ==== Proof.K.R1RunA.lean ====
/-
  Region 1, the first point: the body resets the accumulator to zero, then adds the tile's total. Whatever the
  accumulator held, it ends at the stored value of the reset value and the blocks; the output buffer is handed back.
-/
import proofs.«168368_j77163382440707_1_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r1_A (c : Dev nD) (i : grid1.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : condA_r1 i) (hcC : ¬condC_r1 i)
    (x0 x1 x2 x3 : Vec F S1x512x3 .f32) (xi : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k1_pay1 (k1_pay3 x0 x1) (k1_pay4 x2 x3) (k1_pay2 (F := F)))) -∗ K ⟨⟩))
      ⊢ wp frame (wpE (defs₀ (F := F)) Variants.none c none) E (cc1__kernel_sum_kernel i arg3 harg3 arg4 harg4 arg5 harg5 arg6 harg6 arg7 harg7 arg8 harg8) K := by
  simp only [cc1__kernel_sum_kernel_eq_skeleton]; unfold cc1__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, Hk⟩
  obtain rfl := harg3.eq_unread hf0; obtain rfl := harg4.eq_unread hf1; obtain rfl := harg5.eq_unread hf2
  obtain rfl := harg6.eq_unread hf3; obtain rfl := harg7.eq_unread hf7
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R1RunB.lean ====
/-
  Region 1, a point that is neither first nor last: the body adds the tile's total to the accumulator and touches
  nothing else. On whole staging memrefs holding the four input blocks, the output buffer at contents it hands back,
  and the accumulator at s, it ends with the accumulator at the stored value of s and the blocks.
-/
import proofs.«168368_j77163382440707_1_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r1_B (c : Dev nD) (i : grid1.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r1 i) (hcC : ¬condC_r1 i)
    (x0 x1 x2 x3 : Vec F S1x512x3 .f32) (xi : Vec F S1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k1_pay1 (k1_pay3 x0 x1) (k1_pay4 x2 x3) xs)) -∗ K ⟨⟩))
      ⊢ wp frame (wpE (defs₀ (F := F)) Variants.none c none) E (cc1__kernel_sum_kernel i arg3 harg3 arg4 harg4 arg5 harg5 arg6 harg6 arg7 harg7 arg8 harg8) K := by
  simp only [cc1__kernel_sum_kernel_eq_skeleton]; unfold cc1__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R1RunC.lean ====
/-
  Region 1, the last point: the body adds the tile's total to the accumulator and copies the accumulator into the
  output block. Whatever the output buffer held, both end at the stored value of s and the blocks.
-/
import proofs.«168368_j77163382440707_1_alg».proof.Proof.K.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r1_C (c : Dev nD) (i : grid1.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r1 i) (hcC : condC_r1 i)
    (x0 x1 x2 x3 : Vec F S1x512x3 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (k1_pay1 (k1_pay3 x0 x1) (k1_pay4 x2 x3) xs)
            ∗ owns (c : Thread nD τ) arg8 fullShare (k1_pay1 (k1_pay3 x0 x1) (k1_pay4 x2 x3) xs)) -∗ K ⟨⟩))
      ⊢ wp frame (wpE (defs₀ (F := F)) Variants.none c none) E (cc1__kernel_sum_kernel i arg3 harg3 arg4 harg4 arg5 harg5 arg6 harg6 arg7 harg7 arg8 harg8) K := by
  simp only [cc1__kernel_sum_kernel_eq_skeleton]; unfold cc1__kernel_sum_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  obtain rfl := harg3.eq_unread hf0; obtain rfl := harg4.eq_unread hf1; obtain rfl := harg5.eq_unread hf2
  obtain rfl := harg6.eq_unread hf3; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    have hz2 : (![0, 0] : Fin S1x1.rank → Nat) = fun _ => 0 := by funext a; fin_cases a <;> rfl
    have hz3 : (![0, 0, 0] : Fin S1x512x3.rank → Nat) = fun _ => 0 := by funext a; fin_cases a <;> rfl
    sl_unfold_words
    refine (View.read_writes_eq_canon _ _ _ (fun y => ⟨_, List.mem_cons_self, View.mem_set_unit_zero hz2 inb_S1x1_S1x1_0_0 y⟩)).trans ?_
    rw [View.canon_cons_unit_zero hz2]
    simp only [View.readAt_eq_ld, View.readCov_unit_zero (S := S1x1) _ hz2, harg3.read_unread, harg4.read_unread, harg5.read_unread,
      harg6.read_unread, harg8.read_unread, View.ld_unit_zero (S := S1x1) hz2, View.ld_unit_zero (S := S1x512x3) hz3]
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R1Frame.lean ====
/-
  Region 1 (one of the program's three kernel sums, each a pallas_call of the same kernel) as a pipeline: what every staging buffer and the accumulator hold at every grid
  point, and that the kernel body keeps it so.

  An input window's buffer holds its array's block at the point, fetched there or carried over from the point
  before (the block index did not move). The accumulator after point n is defined by recursion on n: after point 0
  the stored value of the reset value and point 0's blocks; after point n + 1 the stored value of what point n left
  and point n + 1's blocks. The output buffer is idle except at the last point, where the body copies the accumulator
  into it. The region's invariant before point 0 is the class's (the accumulator at anything); before a later point
  it names the accumulator's contents. The entry contents of the arrays (V) and the shares the input arrays are held
  at (q) are parameters: they are fixed where the regions are put together.
-/
import proofs.«168368_j77163382440707_1_alg».proof.Proof.K.R1RunA
import proofs.«168368_j77163382440707_1_alg».proof.Proof.K.R1RunB
import proofs.«168368_j77163382440707_1_alg».proof.Proof.K.R1RunC
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (q : Fin cfg1.W → PosShare TreeShare)

/-! ## The windows' blocks -/

/-- Window w's block at point t, read off its array as the region finds it. -/
def iblk_r1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before_r1_0_of {c : Dev nD} (dat : Dat τ (Elt F) Unit ℕ (UR sig nD τ) ℕ cfg1 c) (hA : dat.A 0 = V c (Pipeline.arrRef spec1 0))
    (hafter : ∀ t, dat.after 0 t = iblk_r1 V c 0 t) (t : Fin cfg1.N) (d) : dat.before 0 t d = iblk_r1 V c 0 t :=
  (dat.before_in_eq_fetched 0 rfl (fun _ => rfl) (fun _ _ _ => rfl) (fun t => by rw [hafter]; unfold Dat.blockOf iblk_r1; rw [hA]; try rfl) t d).trans
    (by unfold Dat.fetched Dat.blockOf iblk_r1; rw [hA]; try rfl)
theorem before_r1_1_of {c : Dev nD} (dat : Dat τ (Elt F) Unit ℕ (UR sig nD τ) ℕ cfg1 c) (hA : dat.A 1 = V c (Pipeline.arrRef spec1 1))
    (hafter : ∀ t, dat.after 1 t = iblk_r1 V c 1 t) (t : Fin cfg1.N) (d) : dat.before 1 t d = iblk_r1 V c 1 t :=
  (dat.before_in_eq_fetched 1 rfl (fun _ => rfl) (fun _ _ _ => rfl) (fun t => by rw [hafter]; unfold Dat.blockOf iblk_r1; rw [hA]; try rfl) t d).trans
    (by unfold Dat.fetched Dat.blockOf iblk_r1; rw [hA]; try rfl)
theorem before_r1_2_of {c : Dev nD} (dat : Dat τ (Elt F) Unit ℕ (UR sig nD τ) ℕ cfg1 c) (hA : dat.A 2 = V c (Pipeline.arrRef spec1 2))
    (hafter : ∀ t, dat.after 2 t = iblk_r1 V c 2 t) (t : Fin cfg1.N) (d) : dat.before 2 t d = iblk_r1 V c 2 t :=
  (dat.before_in_eq_fetched 2 rfl (fun _ => rfl) (fun _ _ _ => rfl) (fun t => by rw [hafter]; unfold Dat.blockOf iblk_r1; rw [hA]; try rfl) t d).trans
    (by unfold Dat.fetched Dat.blockOf iblk_r1; rw [hA]; try rfl)
theorem before_r1_3_of {c : Dev nD} (dat : Dat τ (Elt F) Unit ℕ (UR sig nD τ) ℕ cfg1 c) (hA : dat.A 3 = V c (Pipeline.arrRef spec1 3))
    (hafter : ∀ t, dat.after 3 t = iblk_r1 V c 3 t) (t : Fin cfg1.N) (d) : dat.before 3 t d = iblk_r1 V c 3 t :=
  (dat.before_in_eq_fetched 3 rfl (fun _ => rfl) (fun _ _ _ => rfl) (fun t => by rw [hafter]; unfold Dat.blockOf iblk_r1; rw [hA]; try rfl) t d).trans
    (by unfold Dat.fetched Dat.blockOf iblk_r1; rw [hA]; try rfl)

/-! ## The accumulator, point by point -/

/-- What the accumulator holds after the body at point n. -/
def acc_r1 (c : Dev nD) : (n : ℕ) → n < cfg1.N → Vec F S1x1 .f32
  | 0, hn => k1_pay1 (k1_pay3 (iblk_r1 V c 0 ⟨0, hn⟩) (iblk_r1 V c 1 ⟨0, hn⟩)) (k1_pay4 (iblk_r1 V c 2 ⟨0, hn⟩) (iblk_r1 V c 3 ⟨0, hn⟩)) (k1_pay2 (F := F))
  | n + 1, hn => k1_pay1 (k1_pay3 (iblk_r1 V c 0 ⟨n + 1, hn⟩) (iblk_r1 V c 1 ⟨n + 1, hn⟩)) (k1_pay4 (iblk_r1 V c 2 ⟨n + 1, hn⟩) (iblk_r1 V c 3 ⟨n + 1, hn⟩)) (acc_r1 c n (Nat.lt_of_succ_lt hn))

/-- At the first point: the reset value, then the tile. -/
theorem acc_r1_zero (c : Dev nD) (t : Fin cfg1.N) (h : t.val = 0) :
    acc_r1 V c t.val t.isLt = k1_pay1 (k1_pay3 (iblk_r1 V c 0 t) (iblk_r1 V c 1 t)) (k1_pay4 (iblk_r1 V c 2 t) (iblk_r1 V c 3 t)) (k1_pay2 (F := F)) := by
  obtain ⟨n, hn⟩ := t
  cases n with
  | zero => rfl
  | succ n => exact absurd h (Nat.succ_ne_zero n)

/-- At a later point: what the point before left, then the tile. -/
theorem acc_r1_pos (c : Dev nD) (t : Fin cfg1.N) (h : t.val ≠ 0) :
    acc_r1 V c t.val t.isLt = k1_pay1 (k1_pay3 (iblk_r1 V c 0 t) (iblk_r1 V c 1 t)) (k1_pay4 (iblk_r1 V c 2 t) (iblk_r1 V c 3 t)) (acc_r1 V c (t.val - 1) (Nat.lt_of_le_of_lt (Nat.sub_le _ _) t.isLt)) := by
  obtain ⟨n, hn⟩ := t
  cases n with
  | zero => exact absurd rfl h
  | succ n => rfl

/-! ## The invariant between points -/

/-- Before point 0 the class's invariant (the accumulator at anything); before point n + 1 the accumulator at what
    point n left, the other scoped buffers and the generator register as they are. -/
def PhiS_r1 (c : Dev nD) : (n : ℕ) → n ≤ cfg1.N → sProp 𝕄
  | 0, _ => Pipeline.ΦA spec1 c
  | n + 1, hn => iprop((owns (c : Thread nD τ) scM_r1 fullShare (acc_r1 V c n hn) ∗ others_r1 (F := F) c) ∗ (∃ r, prngReg c r))

theorem PhiS_r1_zero (c : Dev nD) (n : ℕ) (h : n ≤ cfg1.N) (hz : n = 0) : PhiS_r1 V c n h = Pipeline.ΦA spec1 c := by
  subst hz; rfl

theorem PhiS_r1_succ (c : Dev nD) (n : ℕ) (hn : n < cfg1.N) :
    PhiS_r1 V c (n + 1) hn = iprop((owns (c : Thread nD τ) scM_r1 fullShare (acc_r1 V c n hn) ∗ others_r1 (F := F) c) ∗ (∃ r, prngReg c r)) := rfl

theorem PhiS_r1_pos (c : Dev nD) (n : ℕ) (h : n ≤ cfg1.N) (hz : n ≠ 0) :
    PhiS_r1 V c n h = iprop((owns (c : Thread nD τ) scM_r1 fullShare (acc_r1 V c (n - 1) (by omega)) ∗ others_r1 (F := F) c) ∗ (∃ r, prngReg c r)) := by
  cases n with
  | zero => exact absurd rfl hz
  | succ n => rfl

/-! ## The proof data -/

/-- The region's proof data on core c: the arrays as the region finds them; after the body each input buffer at its
    block and the output buffer at the accumulator's contents (consulted at the last point only: elsewhere the window
    is idle); the invariant above; nothing owed. -/
def dat_r1 (c : Dev nD) : Dat τ (Elt F) Unit ℕ (UR sig nD τ) ℕ cfg1 c where
  A w := V c (Pipeline.arrRef spec1 w)
  after w t := match w with
    | ⟨0, _⟩ => iblk_r1 V c 0 t
    | ⟨1, _⟩ => iblk_r1 V c 1 t
    | ⟨2, _⟩ => iblk_r1 V c 2 t
    | ⟨3, _⟩ => iblk_r1 V c 3 t
    | ⟨4, _⟩ => acc_r1 V c t.val t.isLt
  Φ t := PhiS_r1 V c t.val (Nat.le_of_lt_succ t.isLt)
  q := q
  owed _ := 0

theorem A_eq_r1 (c : Dev nD) (w : Fin cfg1.W) : (dat_r1 V q c).A w = V c (Pipeline.arrRef spec1 w) := by
  dsimp only [dat_r1]

theorem PhiS_r1_castSucc (c : Dev nD) (t : Fin cfg1.N) :
    (dat_r1 V q c).Φ t.castSucc = PhiS_r1 V c t.val (Nat.le_of_lt t.isLt) := by
  dsimp only [dat_r1]; simp only [Fin.coe_castSucc]

theorem after_r1_0 (c : Dev nD) (t : Fin cfg1.N) : (dat_r1 V q c).after 0 t = iblk_r1 V c 0 t := by dsimp only [dat_r1]
theorem after_r1_1 (c : Dev nD) (t : Fin cfg1.N) : (dat_r1 V q c).after 1 t = iblk_r1 V c 1 t := by dsimp only [dat_r1]
theorem after_r1_2 (c : Dev nD) (t : Fin cfg1.N) : (dat_r1 V q c).after 2 t = iblk_r1 V c 2 t := by dsimp only [dat_r1]
theorem after_r1_3 (c : Dev nD) (t : Fin cfg1.N) : (dat_r1 V q c).after 3 t = iblk_r1 V c 3 t := by dsimp only [dat_r1]
theorem after_r1_4 (c : Dev nD) (t : Fin cfg1.N) : (dat_r1 V q c).after 4 t = acc_r1 V c t.val t.isLt := by dsimp only [dat_r1]

theorem before_r1_0 (c : Dev nD) (t : Fin cfg1.N) (d) : (dat_r1 V q c).before 0 t d = iblk_r1 V c 0 t :=
  before_r1_0_of V (dat_r1 V q c) (A_eq_r1 V q c 0) (after_r1_0 V q c) t d
theorem before_r1_1 (c : Dev nD) (t : Fin cfg1.N) (d) : (dat_r1 V q c).before 1 t d = iblk_r1 V c 1 t :=
  before_r1_1_of V (dat_r1 V q c) (A_eq_r1 V q c 1) (after_r1_1 V q c) t d
theorem before_r1_2 (c : Dev nD) (t : Fin cfg1.N) (d) : (dat_r1 V q c).before 2 t d = iblk_r1 V c 2 t :=
  before_r1_2_of V (dat_r1 V q c) (A_eq_r1 V q c 2) (after_r1_2 V q c) t d
theorem before_r1_3 (c : Dev nD) (t : Fin cfg1.N) (d) : (dat_r1 V q c).before 3 t d = iblk_r1 V c 3 t :=
  before_r1_3_of V (dat_r1 V q c) (A_eq_r1 V q c 3) (after_r1_3 V q c) t d

/-! ## The body obligation -/

/-- What the body is called with at point t, the windows one by one, -/
def bodyPre_r1 (c : Dev nD) (t : Fin cfg1.N) : sProp 𝕄 :=
  iprop((dat_r1 V q c).Φ t.castSucc ∗ (dat_r1 V q c).owesAt () t.castSucc
    ∗ (∃ d, owns (c : Thread nD τ) (ms_r1_0 t) fullShare ((dat_r1 V q c).before 0 t d))
    ∗ (∃ d, owns (c : Thread nD τ) (ms_r1_1 t) fullShare ((dat_r1 V q c).before 1 t d))
    ∗ (∃ d, owns (c : Thread nD τ) (ms_r1_2 t) fullShare ((dat_r1 V q c).before 2 t d))
    ∗ (∃ d, owns (c : Thread nD τ) (ms_r1_3 t) fullShare ((dat_r1 V q c).before 3 t d))
    ∗ (∃ d, owns (c : Thread nD τ) (ms_r1_4 t) fullShare ((dat_r1 V q c).before 4 t d)))

/-- and what it returns. -/
def bodyPost_r1 (c : Dev nD) (t : Fin cfg1.N) : sProp 𝕄 :=
  iprop((dat_r1 V q c).Φ t.succ ∗ (dat_r1 V q c).owesAt () t.succ
    ∗ (dat_r1 V q c).leavesExact 0 t
    ∗ (dat_r1 V q c).leavesExact 1 t
    ∗ (dat_r1 V q c).leavesExact 2 t
    ∗ (dat_r1 V q c).leavesExact 3 t
    ∗ (dat_r1 V q c).leavesExact 4 t)

set_option maxHeartbeats 4800000 in
/-- The body at any point. The input buffers hold their blocks; the point is the first, the last or neither, which
    decides the two conditionals; the matching run applies; the invariant hands over the accumulator (at anything at
    the first point, else at what the point before left) and takes it back at this point's contents. -/
theorem sound_body_r1 (c : Dev nD) (t : Fin cfg1.N) :
    bodyPre_r1 V q c t ⊢ wp frame (wpE (defs₀ (F := F)) Variants.none c none) Set.univ (bodyAt1 t) (fun _ => bodyPost_r1 V q c t) := by
  unfold bodyPre_r1 bodyPost_r1 bodyAt1
  simp only [before_r1_0, before_r1_1, before_r1_2, before_r1_3]
  rw [show (dat_r1 V q c).owesAt () t.succ = (dat_r1 V q c).owesAt () t.castSucc from rfl]
  rw [show (dat_r1 V q c).Φ t.succ = PhiS_r1 V c (t.val + 1) t.isLt from rfl, PhiS_r1_succ]
  rw [show (dat_r1 V q c).leavesExact 0 t = owns (c : Thread nD τ) (ms_r1_0 t) fullShare ((dat_r1 V q c).after 0 t) from by
    unfold Dat.leavesExact; rw [live_r1_0 t], after_r1_0]
  rw [show (dat_r1 V q c).leavesExact 1 t = owns (c : Thread nD τ) (ms_r1_1 t) fullShare ((dat_r1 V q c).after 1 t) from by
    unfold Dat.leavesExact; rw [live_r1_1 t], after_r1_1]
  rw [show (dat_r1 V q c).leavesExact 2 t = owns (c : Thread nD τ) (ms_r1_2 t) fullShare ((dat_r1 V q c).after 2 t) from by
    unfold Dat.leavesExact; rw [live_r1_2 t], after_r1_2]
  rw [show (dat_r1 V q c).leavesExact 3 t = owns (c : Thread nD τ) (ms_r1_3 t) fullShare ((dat_r1 V q c).after 3 t) from by
    unfold Dat.leavesExact; rw [live_r1_3 t], after_r1_3]
  have hN : t.val < 256 := lt_of_lt_of_eq t.isLt (show cfg1.N = 256 from N_1)
  by_cases h0 : t.val = 0
  · have hcA : condA_r1 (grid1.coords t) := (hcondA_r1 t).mpr h0
    have hcC : ¬condC_r1 (grid1.coords t) := fun h => by have := (hcondC_r1 t).mp h; omega
    rw [Dat.leavesExact_idle (dat_r1 V q c) 4 t (idle_r1_4 t hcC) (noFlush_r1_4 t hcC)]
    rw [acc_r1_zero V c t h0]
    rw [PhiS_r1_castSucc V q c t, PhiS_r1_zero V c _ _ h0, PhiA_r1_eq]
    iintro ⟨⟨⟨HS, Hoth⟩, Hg⟩, Ho, ⟨%d0, H0⟩, ⟨%d1, H1⟩, ⟨%d2, H2⟩, ⟨%d3, H3⟩, ⟨%d4, H4⟩⟩
    iapply (run_r1_A c (grid1.coords t) _ _ _ _ _ _ _ _ _ _ _ _ hcA hcC (iblk_r1 V c 0 t) (iblk_r1 V c 1 t) (iblk_r1 V c 2 t) (iblk_r1 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · by_cases h1 : t.val = 255
    · have hcA : ¬condA_r1 (grid1.coords t) := fun h => h0 ((hcondA_r1 t).mp h)
      have hcC : condC_r1 (grid1.coords t) := (hcondC_r1 t).mpr h1
      rw [show (dat_r1 V q c).leavesExact 4 t = owns (c : Thread nD τ) (ms_r1_4 t) fullShare ((dat_r1 V q c).after 4 t) from by
        unfold Dat.leavesExact; rw [live_r1_4 t hcC], after_r1_4]
      rw [acc_r1_pos V c t h0]
      rw [PhiS_r1_castSucc V q c t, PhiS_r1_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r1_C c (grid1.coords t) _ _ _ _ _ _ _ _ _ _ _ _ hcA hcC (iblk_r1 V c 0 t) (iblk_r1 V c 1 t) (iblk_r1 V c 2 t) (iblk_r1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hcA : ¬condA_r1 (grid1.coords t) := fun h => h0 ((hcondA_r1 t).mp h)
      have hcC : ¬condC_r1 (grid1.coords t) := fun h => h1 ((hcondC_r1 t).mp h)
      rw [Dat.leavesExact_idle (dat_r1 V q c) 4 t (idle_r1_4 t hcC) (noFlush_r1_4 t hcC)]
      rw [acc_r1_pos V c t h0]
      rw [PhiS_r1_castSucc V q c t, PhiS_r1_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r1_B c (grid1.coords t) _ _ _ _ _ _ _ _ _ _ _ _ hcA hcC (iblk_r1 V c 0 t) (iblk_r1 V c 1 t) (iblk_r1 V c 2 t) (iblk_r1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation_r1 (c : Dev nD) : BodyObligation (dat_r1 (F := F) V q c) (defs₀ (F := F)) Variants.none () Set.univ := fun t => by
  rw [bigSep_W1, bigSep_W1]
  exact sound_body_r1 V q c t

/-! ## Into and out of the invariant -/

/-- What the launch hands the region is the invariant before the first point. -/
theorem hin_r1 (c : Dev nD) : Pipeline.ΦA spec1 c ⊢ (dat_r1 V q c).Φ 0 := by
  rw [show (dat_r1 V q c).Φ 0 = PhiS_r1 V c 0 (Nat.zero_le _) from rfl, PhiS_r1_zero V c 0 _ rfl]

/-- After the last point the invariant gives the class's back: the accumulator's named contents are forgotten. -/
theorem hout_r1 (c : Dev nD) : (dat_r1 V q c).Φ (Fin.last cfg1.N) ⊢ Pipeline.ΦA spec1 c := by
  have hne : (Fin.last cfg1.N).val ≠ 0 := by rw [Fin.val_last]; have : cfg1.N = 256 := N_1; omega
  rw [show (dat_r1 V q c).Φ (Fin.last cfg1.N) = PhiS_r1 V c (Fin.last cfg1.N).val (Nat.le_of_lt_succ (Fin.last cfg1.N).isLt) from rfl,
    PhiS_r1_pos V c _ _ hne, PhiA_r1_eq]
  iintro ⟨⟨HS, Hoth⟩, Hg⟩
  isplitl [HS Hoth]
  · isplitl [HS]
    · iexists _; iexact HS
    iexact Hoth
  iexact Hg

end Region

end Cert.Kernel.Hand

end
-- ==== Proof.K.R1Split.lean ====
/-
  Region 1 reads each of its two input arrays through TWO windows (rows i of the pair and rows j of the pair come from
  one array). The pipeline holds each window's array at a share of its own, so the buffer behind such an array, held
  whole at the full share, is handed to the two windows a half each, and the halves join back to the full share when
  the region ends. The output array has one window and is held outright.
-/
import proofs.«168368_j77163382440707_1_alg».proof.Proof.Gen.Kernel.Launch
import Idealize.ShloMosaic.Lib.Pipeline.FrameBody
import Idealize.ShloMosaic.Lib.Pipeline.RegionsLoop
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The shares region 1 holds its arrays at: the two windows on one array take a half each; the output's is unused
    (an output array is held at the full share whatever this says). -/
def q_r1 : Fin cfg1.W → PosShare TreeShare
  | ⟨0, _⟩ => fullShare.left
  | ⟨1, _⟩ => fullShare.right
  | ⟨2, _⟩ => fullShare.left
  | ⟨3, _⟩ => fullShare.right
  | ⟨4, _⟩ => fullShare

/-- The buffers behind region 1's arrays: main_arg1, main_arg3 and main_v2. -/
theorem arrRefs_r1 : Finset.univ.image (Pipeline.arrRef spec1) = ([main_arg1, main_arg3, main_v2] : List (Ref sig .tc)).toFinset := by decide

/-- The buffers behind region 1's arrays, one by one: main_arg1, main_arg3 and main_v2, each whole at the full share. -/
theorem arrBufs_r1_eq (c : Dev nD) (Vb : (b : Ref sig .tc) → Buf (Elt F) ((c : Thread nD τ).loc b)) :
    (Pipeline.arrBufs (Ix := Unit) (Name := ℕ) (U := UR sig nD τ) (Lvl := ℕ) spec1 c Vb : sProp 𝕄)
      = iprop((((c : Thread nD τ).loc main_arg1) ↦{fullShare} Vb main_arg1) ∗ (((c : Thread nD τ).loc main_arg3) ↦{fullShare} Vb main_arg3)
          ∗ (((c : Thread nD τ).loc main_v2) ↦{fullShare} Vb main_v2)) := by
  unfold Pipeline.arrBufs
  exact bigSep_eq_bigSepL_of_eq [main_arg1, main_arg3, main_v2] arrRefs_r1 (by decide) _

/-- One window's array, a whole buffer, is the buffer behind it held whole, at the window's share and the contents
    Vb reads there. -/
theorem win_pt_r1 {c : Dev nD} (dat : Dat τ (Elt F) Unit ℕ (UR sig nD τ) ℕ cfg1 c) (w : Fin cfg1.W) (q : PosShare TreeShare)
    (hs : dat.share w = q)
    (Vb : (b : Ref sig .tc) → Buf (Elt F) ((c : Thread nD τ).loc b))
    (Fa : (w : Fin cfg1.W) → Buf (Elt F) ((cfg1.win w).arr.view.loc (c.tc : Thread nD τ)))
    (hF : ∀ w, Fa w = Vb (Pipeline.arrRef spec1 w)) :
    ((cfg1.win w).arr.view.loc (c.tc : Thread nD τ) ↦[(cfg1.win w).arr.view.set]{dat.share w} Fa w : sProp 𝕄)
      = (((c : Thread nD τ).loc (Pipeline.arrRef spec1 w)) ↦{q} Vb (Pipeline.arrRef spec1 w)) := by
  rw [(arr_whole1 w).set_eq_univ, hs, hF w]

/-- The share of each window of region 1: the four inputs hold the halves q_r1 names, the output the full share. -/
theorem share_r1 {c : Dev nD} (dat : Dat τ (Elt F) Unit ℕ (UR sig nD τ) ℕ cfg1 c) (hq : dat.q = q_r1) :
    dat.share 0 = fullShare.left ∧ dat.share 1 = fullShare.right ∧ dat.share 2 = fullShare.left ∧ dat.share 3 = fullShare.right
      ∧ dat.share 4 = fullShare := by
  unfold Dat.share
  rw [hq]
  exact ⟨rfl, rfl, rfl, rfl, rfl⟩

/-- The pipeline's arrays of region 1, window by window: the two halves of main_arg1, the two halves of main_arg3, and
    main_v2 outright, all at the contents Vb reads. -/
theorem arrays_r1_eq {c : Dev nD} (dat : Dat τ (Elt F) Unit ℕ (UR sig nD τ) ℕ cfg1 c) (hq : dat.q = q_r1)
    (Vb : (b : Ref sig .tc) → Buf (Elt F) ((c : Thread nD τ).loc b))
    (Fa : (w : Fin cfg1.W) → Buf (Elt F) ((cfg1.win w).arr.view.loc (c.tc : Thread nD τ)))
    (hF : ∀ w, Fa w = Vb (Pipeline.arrRef spec1 w)) :
    (dat.arrays Fa : sProp 𝕄)
      = iprop((((c : Thread nD τ).loc main_arg1) ↦{fullShare.left} Vb main_arg1) ∗ (((c : Thread nD τ).loc main_arg1) ↦{fullShare.right} Vb main_arg1)
          ∗ (((c : Thread nD τ).loc main_arg3) ↦{fullShare.left} Vb main_arg3) ∗ (((c : Thread nD τ).loc main_arg3) ↦{fullShare.right} Vb main_arg3)
          ∗ (((c : Thread nD τ).loc main_v2) ↦{fullShare} Vb main_v2)) := by
  obtain ⟨s0, s1, s2, s3, s4⟩ := share_r1 dat hq
  unfold Dat.arrays
  rw [Gen.bigSep_W1, win_pt_r1 dat 0 _ s0 Vb Fa hF, win_pt_r1 dat 1 _ s1 Vb Fa hF, win_pt_r1 dat 2 _ s2 Vb Fa hF,
    win_pt_r1 dat 3 _ s3 Vb Fa hF, win_pt_r1 dat 4 _ s4 Vb Fa hF]

/-- The buffers behind region 1's arrays, each whole at the full share at contents Vb, ARE the pipeline's arrays at
    contents Fa (each window's array at its share), when Fa is Vb read at each window's array: in both directions. -/
theorem arrays_iff_r1 {c : Dev nD} (dat : Dat τ (Elt F) Unit ℕ (UR sig nD τ) ℕ cfg1 c) (hq : dat.q = q_r1)
    (Vb : (b : Ref sig .tc) → Buf (Elt F) ((c : Thread nD τ).loc b))
    (Fa : (w : Fin cfg1.W) → Buf (Elt F) ((cfg1.win w).arr.view.loc (c.tc : Thread nD τ)))
    (hF : ∀ w, Fa w = Vb (Pipeline.arrRef spec1 w)) :
    (Pipeline.arrBufs (Ix := Unit) (Name := ℕ) (U := UR sig nD τ) (Lvl := ℕ) spec1 c Vb : sProp 𝕄) ⊣⊢ dat.arrays Fa := by
  rw [arrBufs_r1_eq, arrays_r1_eq dat hq Vb Fa hF]
  -- the full share is the composite of its two halves
  have hs : fullShare ∈ PCS.op fullShare.left fullShare.right := PosShare.mem_left_op_right fullShare
  constructor
  · -- each shared buffer is cut in two halves, one per window
    iintro ⟨H1, H3, Hv⟩
    ihave H1' := (pointsTo_share hs).1 $$ H1
    icases H1' with ⟨H1l, H1r⟩
    ihave H3' := (pointsTo_share hs).1 $$ H3
    icases H3' with ⟨H3l, H3r⟩
    isplitl [H1l]; · iexact H1l
    isplitl [H1r]; · iexact H1r
    isplitl [H3l]; · iexact H3l
    isplitl [H3r]; · iexact H3r
    iexact Hv
  · -- the two halves of each shared buffer join back to the full share
    iintro ⟨H1l, H1r, H3l, H3r, Hv⟩
    isplitl [H1l H1r]
    · iapply (pointsTo_share hs).2
      isplitl [H1l]; · iexact H1l
      iexact H1r
    isplitl [H3l H3r]
    · iapply (pointsTo_share hs).2
      isplitl [H3l]; · iexact H3l
      iexact H3r
    iexact Hv

end Cert.Kernel.Hand

end
-- ==== Proof.K.R1Glue.lean ====
/-
  Region 1 between two boundaries of @main: from every unscoped buffer of the core held whole at the contents the
  region is entered with, to the pipeline's arrays (each window's array at its share) beside the buffers no window
  names; and back, when the region ends, to every unscoped buffer held whole at the contents it leaves: the entry
  contents with the output array at what the one write-back left.
-/
import proofs.«168368_j77163382440707_1_alg».proof.Proof.K.R1Frame
import proofs.«168368_j77163382440707_1_alg».proof.Proof.K.R1Split
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Glue

variable (W : Dev nD → Valuation τ sig (Elt F))

/-- The entry contents read at the TensorCore's references: what the region's proof data take. -/
abbrev Vof_r1 (c : Dev nD) (b : Ref sig .tc) : Buf (Elt F) ((c : Thread nD τ).loc b) := W c b

/-- The region's proof data at these entry contents, the shared arrays held a half per window. -/
abbrev dd_r1 (c : Dev nD) : Dat τ (Elt F) Unit ℕ (UR sig nD τ) ℕ cfg1 c := dat_r1 (Vof_r1 W) q_r1 c

/-- What the region leaves in its output array. -/
abbrev res_r1 (c : Dev nD) : Buf (Elt F) ((c : Thread nD τ).loc (Pipeline.arrRef spec1 4)) := (dd_r1 W c).arrAt 4 cfg1.N

/-- The contents the region leaves: the entry contents with the output array at what the write-back left. -/
def Wout_r1 (c : Dev nD) : Valuation τ sig (Elt F) :=
  Function.update (W c) (Proc.devRef .tc (Pipeline.arrRef spec1 4)) (res_r1 W c)

theorem Wout_r1_out (c : Dev nD) : Wout_r1 W c (Proc.devRef .tc (Pipeline.arrRef spec1 4)) = res_r1 W c := by
  unfold Wout_r1; exact Function.update_self ..

theorem Wout_r1_of_ne (c : Dev nD) (b : Ref sig .tc) (hb : b ≠ Pipeline.arrRef spec1 4) :
    Wout_r1 W c (Proc.devRef .tc b) = W c (Proc.devRef .tc b) := by
  unfold Wout_r1; exact Function.update_of_ne (StableHlo.devRef_ne_of_ne hb) ..

/-- Entering: the unscoped buffers at the entry contents are the pipeline's arrays at their entry contents and the rest. -/
theorem entry_r1 (c : Dev nD) :
    (StableHlo.held (c : Thread nD τ) (Pipeline.ucRefs τ sig) (W c) : sProp 𝕄)
      ⊢ iprop((dd_r1 W c).arrays (fun w => (dd_r1 W c).arrAt w 0) ∗ Pipeline.unscopedRest (Ix := Unit) (Name := ℕ) (U := UR sig nD τ) (Lvl := ℕ) spec1 c (Vof_r1 W c)) := by
  rw [← Pipeline.unscopedBufs_held (Ix := Unit) (Name := ℕ) (U := UR sig nD τ) (Lvl := ℕ) c (W c)]
  rw [Pipeline.unscopedBufs_split₀ cfgs (1 : Fin 3) winFacts₀1.arr_unscoped c (Vof_r1 W c)]
  exact sep_mono (arrays_iff_r1 (dd_r1 W c) rfl (Vof_r1 W c) _ (fun w => A_eq_r1 (Vof_r1 W) q_r1 c w)).1 .rfl

/-- Leaving: the arrays at their final contents and the rest are the unscoped buffers at the contents the region leaves. -/
theorem exit_r1 (c : Dev nD) :
    iprop((dd_r1 W c).arrays (fun w => (dd_r1 W c).arrAt w cfg1.N) ∗ Pipeline.unscopedRest (Ix := Unit) (Name := ℕ) (U := UR sig nD τ) (Lvl := ℕ) spec1 c (Vof_r1 W c))
      ⊢ (StableHlo.held (c : Thread nD τ) (Pipeline.ucRefs τ sig) (Wout_r1 W c) : sProp 𝕄) := by
  have hF : ∀ w : Fin cfg1.W, (dd_r1 W c).arrAt w cfg1.N = Vof_r1 (Wout_r1 W) c (Pipeline.arrRef spec1 w) := by
    intro w
    match w with
    | ⟨0, _⟩ => exact ((dd_r1 W c).arrAt_in 0 rfl _).trans ((A_eq_r1 (Vof_r1 W) q_r1 c 0).trans (Wout_r1_of_ne W c _ (by decide)).symm)
    | ⟨1, _⟩ => exact ((dd_r1 W c).arrAt_in 1 rfl _).trans ((A_eq_r1 (Vof_r1 W) q_r1 c 1).trans (Wout_r1_of_ne W c _ (by decide)).symm)
    | ⟨2, _⟩ => exact ((dd_r1 W c).arrAt_in 2 rfl _).trans ((A_eq_r1 (Vof_r1 W) q_r1 c 2).trans (Wout_r1_of_ne W c _ (by decide)).symm)
    | ⟨3, _⟩ => exact ((dd_r1 W c).arrAt_in 3 rfl _).trans ((A_eq_r1 (Vof_r1 W) q_r1 c 3).trans (Wout_r1_of_ne W c _ (by decide)).symm)
    | ⟨4, _⟩ => exact (Wout_r1_out W c).symm
  have hrest : (Pipeline.unscopedRest (Ix := Unit) (Name := ℕ) (U := UR sig nD τ) (Lvl := ℕ) spec1 c (Vof_r1 W c) : sProp 𝕄)
      = Pipeline.unscopedRest spec1 c (Vof_r1 (Wout_r1 W) c) := by
    unfold Pipeline.unscopedRest
    refine bigSep_congr fun b hb => ?_
    have hne : b ≠ Pipeline.arrRef spec1 4 := fun e =>
      (Finset.mem_sdiff.mp hb).2 (Finset.mem_image.mpr ⟨4, Finset.mem_univ _, e.symm⟩)
    rw [show Vof_r1 (Wout_r1 W) c b = Vof_r1 W c b from Wout_r1_of_ne W c b hne]
  rw [← Pipeline.unscopedBufs_held (Ix := Unit) (Name := ℕ) (U := UR sig nD τ) (Lvl := ℕ) c (Wout_r1 W c)]
  rw [Pipeline.unscopedBufs_split₀ cfgs (1 : Fin 3) winFacts₀1.arr_unscoped c (Vof_r1 (Wout_r1 W) c), hrest]
  exact sep_mono (arrays_iff_r1 (dd_r1 W c) rfl (Vof_r1 (Wout_r1 W) c) _ hF).2 .rfl

end Glue

end Cert.Kernel.Hand

end
-- ==== Proof.K.R2Base.lean ====
/-
  Region 2 (one of the program's three kernel sums, each a pallas_call of the same kernel): where its two conditionals hold on the 4 × 8 × 8 grid, where its output window is
  idle, and the invariant opened at the accumulator.

  The body resets its 1 × 1 accumulator at the grid's first point (all three coordinates zero), adds the tile's total at
  every point, and copies the accumulator into the output block at the last point (coordinates 3, 7, 7). In row-major
  order those are points 0 and 255 of 256. The output window keeps one block index throughout, so the pipeline
  writes it back once, after the last point; everywhere else the window is idle and the body hands its buffer back
  as it found it.
-/
import proofs.«168368_j77163382440707_1_alg».proof.Proof.Gen.Kernel.Launch
import proofs.«168368_j77163382440707_1_alg».proof.Proof.Gen.Kernel.Skeleton
import proofs.«168368_j77163382440707_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The reset's condition: all three grid coordinates are zero. -/
abbrev condA_r2 (i : grid2.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcondA_r2 : ∀ t : Fin cfg2.N, condA_r2 (grid2.coords t) ↔ t.val = 0 :=
  (by decide +kernel : ∀ t : Fin grid2.N, condA_r2 (grid2.coords t) ↔ t.val = 0)

/-- The output store's condition: the coordinates are the last ones. -/
abbrev condC_r2 (i : grid2.Coords) : Prop := k2_cond2 i = 1#1
/-- It holds at the last point only. -/
theorem hcondC_r2 : ∀ t : Fin cfg2.N, condC_r2 (grid2.coords t) ↔ t.val = 255 :=
  (by decide +kernel : ∀ t : Fin grid2.N, condC_r2 (grid2.coords t) ↔ t.val = 255)

/-- The input windows are never idle. -/
theorem live_r2_0 : ∀ t : Fin cfg2.N, cfg2.idle 0 (grid2.coords t) = false := by decide +kernel
theorem live_r2_1 : ∀ t : Fin cfg2.N, cfg2.idle 1 (grid2.coords t) = false := by decide +kernel
theorem live_r2_2 : ∀ t : Fin cfg2.N, cfg2.idle 2 (grid2.coords t) = false := by decide +kernel
theorem live_r2_3 : ∀ t : Fin cfg2.N, cfg2.idle 3 (grid2.coords t) = false := by decide +kernel
/-- Away from the last point the output window is idle and is not written back; at the last point it is live. -/
theorem idle_r2_4 : ∀ t : Fin cfg2.N, ¬condC_r2 (grid2.coords t) → cfg2.idle 4 (grid2.coords t) = true := by decide +kernel
theorem noFlush_r2_4 : ∀ t : Fin cfg2.N, ¬condC_r2 (grid2.coords t) → (cfg2.win 4).flush t = false := by decide +kernel
theorem live_r2_4 : ∀ t : Fin cfg2.N, condC_r2 (grid2.coords t) → cfg2.idle 4 (grid2.coords t) = false := by decide +kernel

/-- Each window's current staging memref at point t, as the pipeline passes it, and its wholeness. -/
abbrev ms_r2_0 (t : Fin cfg2.N) : Memref sig .tc .vmem S1x512x3 .f32 := win2_0.stage (cfg2.slots t 0)
abbrev hs_r2_0 (t : Fin cfg2.N) : (ms_r2_0 t).IsWhole := hstage2_0 ((cfg2.slots t 0).cast nbuf2_0)
abbrev ms_r2_1 (t : Fin cfg2.N) : Memref sig .tc .vmem S1x512x3 .f32 := win2_1.stage (cfg2.slots t 1)
abbrev hs_r2_1 (t : Fin cfg2.N) : (ms_r2_1 t).IsWhole := hstage2_1 ((cfg2.slots t 1).cast nbuf2_1)
abbrev ms_r2_2 (t : Fin cfg2.N) : Memref sig .tc .vmem S1x512x3 .f32 := win2_2.stage (cfg2.slots t 2)
abbrev hs_r2_2 (t : Fin cfg2.N) : (ms_r2_2 t).IsWhole := hstage2_2 ((cfg2.slots t 2).cast nbuf2_2)
abbrev ms_r2_3 (t : Fin cfg2.N) : Memref sig .tc .vmem S1x512x3 .f32 := win2_3.stage (cfg2.slots t 3)
abbrev hs_r2_3 (t : Fin cfg2.N) : (ms_r2_3 t).IsWhole := hstage2_3 ((cfg2.slots t 3).cast nbuf2_3)
abbrev ms_r2_4 (t : Fin cfg2.N) : Memref sig .tc .vmem S1x1 .f32 := win2_4.stage (cfg2.slots t 4)
abbrev hs_r2_4 (t : Fin cfg2.N) : (ms_r2_4 t).IsWhole := hstage2_4 ((cfg2.slots t 4).cast nbuf2_4)
/-- The accumulator: a whole scoped buffer of the kernel's own, passed beside the windows. -/
abbrev scM_r2 : Memref sig .tc .vmem S1x1 .f32 := Memref.whole cc2_scratch0

/-- The other scoped buffers of the core (the other calls' staging buffers and accumulators), each at some contents. -/
abbrev others_r2 (c : Dev nD) : sProp 𝕄 :=
  Pipeline.scopedRestBut (Ix := Unit) (Name := ℕ) (U := UR sig nD τ) (Lvl := ℕ) (Val := Elt F) spec2 c [cc2_scratch0]

/-- The class invariant with the accumulator split off: the accumulator at some contents, the other scoped buffers, and
    the generator register at some state. -/
theorem PhiA_r2_eq (c : Dev nD) :
    (Pipeline.ΦA spec2 c : sProp 𝕄)
      = iprop((iprop(∃ d, owns (c : Thread nD τ) scM_r2 fullShare d) ∗ others_r2 (F := F) c) ∗ (∃ r, prngReg c r)) := by
  unfold Pipeline.ΦA
  rw [Pipeline.scopedRest_split_of_list spec2 c [cc2_scratch0] (by decide) (by decide)]
  simp only [scM_r2, owns_whole]
  rfl

end Cert.Kernel.Hand

end
-- ==== Proof.K.R2RunA.lean ====
/-
  Region 2, the first point: the body resets the accumulator to zero, then adds the tile's total. Whatever the
  accumulator held, it ends at the stored value of the reset value and the blocks; the output buffer is handed back.
-/
import proofs.«168368_j77163382440707_1_alg».proof.Proof.K.R2Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r2_A (c : Dev nD) (i : grid2.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : condA_r2 i) (hcC : ¬condC_r2 i)
    (x0 x1 x2 x3 : Vec F S1x512x3 .f32) (xi : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k2_pay1 (k2_pay3 x0 x1) (k2_pay4 x2 x3) (k2_pay2 (F := F)))) -∗ K ⟨⟩))
      ⊢ wp frame (wpE (defs₀ (F := F)) Variants.none c none) E (cc2__kernel_sum_kernel i arg3 harg3 arg4 harg4 arg5 harg5 arg6 harg6 arg7 harg7 arg8 harg8) K := by
  simp only [cc2__kernel_sum_kernel_eq_skeleton]; unfold cc2__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, Hk⟩
  obtain rfl := harg3.eq_unread hf0; obtain rfl := harg4.eq_unread hf1; obtain rfl := harg5.eq_unread hf2
  obtain rfl := harg6.eq_unread hf3; obtain rfl := harg7.eq_unread hf7
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R2RunB.lean ====
/-
  Region 2, a point that is neither first nor last: the body adds the tile's total to the accumulator and touches
  nothing else. On whole staging memrefs holding the four input blocks, the output buffer at contents it hands back,
  and the accumulator at s, it ends with the accumulator at the stored value of s and the blocks.
-/
import proofs.«168368_j77163382440707_1_alg».proof.Proof.K.R2Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r2_B (c : Dev nD) (i : grid2.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r2 i) (hcC : ¬condC_r2 i)
    (x0 x1 x2 x3 : Vec F S1x512x3 .f32) (xi : Vec F S1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k2_pay1 (k2_pay3 x0 x1) (k2_pay4 x2 x3) xs)) -∗ K ⟨⟩))
      ⊢ wp frame (wpE (defs₀ (F := F)) Variants.none c none) E (cc2__kernel_sum_kernel i arg3 harg3 arg4 harg4 arg5 harg5 arg6 harg6 arg7 harg7 arg8 harg8) K := by
  simp only [cc2__kernel_sum_kernel_eq_skeleton]; unfold cc2__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R2RunC.lean ====
/-
  Region 2, the last point: the body adds the tile's total to the accumulator and copies the accumulator into the
  output block. Whatever the output buffer held, both end at the stored value of s and the blocks.
-/
import proofs.«168368_j77163382440707_1_alg».proof.Proof.K.R2Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem run_r2_C (c : Dev nD) (i : grid2.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r2 i) (hcC : condC_r2 i)
    (x0 x1 x2 x3 : Vec F S1x512x3 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (k2_pay1 (k2_pay3 x0 x1) (k2_pay4 x2 x3) xs)
            ∗ owns (c : Thread nD τ) arg8 fullShare (k2_pay1 (k2_pay3 x0 x1) (k2_pay4 x2 x3) xs)) -∗ K ⟨⟩))
      ⊢ wp frame (wpE (defs₀ (F := F)) Variants.none c none) E (cc2__kernel_sum_kernel i arg3 harg3 arg4 harg4 arg5 harg5 arg6 harg6 arg7 harg7 arg8 harg8) K := by
  simp only [cc2__kernel_sum_kernel_eq_skeleton]; unfold cc2__kernel_sum_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  obtain rfl := harg3.eq_unread hf0; obtain rfl := harg4.eq_unread hf1; obtain rfl := harg5.eq_unread hf2
  obtain rfl := harg6.eq_unread hf3; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    have hz2 : (![0, 0] : Fin S1x1.rank → Nat) = fun _ => 0 := by funext a; fin_cases a <;> rfl
    have hz3 : (![0, 0, 0] : Fin S1x512x3.rank → Nat) = fun _ => 0 := by funext a; fin_cases a <;> rfl
    sl_unfold_words
    refine (View.read_writes_eq_canon _ _ _ (fun y => ⟨_, List.mem_cons_self, View.mem_set_unit_zero hz2 inb_S1x1_S1x1_0_0 y⟩)).trans ?_
    rw [View.canon_cons_unit_zero hz2]
    simp only [View.readAt_eq_ld, View.readCov_unit_zero (S := S1x1) _ hz2, harg3.read_unread, harg4.read_unread, harg5.read_unread,
      harg6.read_unread, harg8.read_unread, View.ld_unit_zero (S := S1x1) hz2, View.ld_unit_zero (S := S1x512x3) hz3]
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.Kernel.Hand

end
-- ==== Proof.K.R2Frame.lean ====
/-
  Region 2 (one of the program's three kernel sums, each a pallas_call of the same kernel) as a pipeline: what every staging buffer and the accumulator hold at every grid
  point, and that the kernel body keeps it so.

  An input window's buffer holds its array's block at the point, fetched there or carried over from the point
  before (the block index did not move). The accumulator after point n is defined by recursion on n: after point 0
  the stored value of the reset value and point 0's blocks; after point n + 1 the stored value of what point n left
  and point n + 1's blocks. The output buffer is idle except at the last point, where the body copies the accumulator
  into it. The region's invariant before point 0 is the class's (the accumulator at anything); before a later point
  it names the accumulator's contents. The entry contents of the arrays (V) and the shares the input arrays are held
  at (q) are parameters: they are fixed where the regions are put together.
-/
import proofs.«168368_j77163382440707_1_alg».proof.Proof.K.R2RunA
import proofs.«168368_j77163382440707_1_alg».proof.Proof.K.R2RunB
import proofs.«168368_j77163382440707_1_alg».proof.Proof.K.R2RunC
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (q : Fin cfg2.W → PosShare TreeShare)

/-! ## The windows' blocks -/

/-- Window w's block at point t, read off its array as the region finds it. -/
def iblk_r2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    entry contents and whose body leaves the block in place. -/
theorem before_r2_0_of {c : Dev nD} (dat : Dat τ (Elt F) Unit ℕ (UR sig nD τ) ℕ cfg2 c) (hA : dat.A 0 = V c (Pipeline.arrRef spec2 0))
    (hafter : ∀ t, dat.after 0 t = iblk_r2 V c 0 t) (t : Fin cfg2.N) (d) : dat.before 0 t d = iblk_r2 V c 0 t :=
  (dat.before_in_eq_fetched 0 rfl (fun _ => rfl) (fun _ _ _ => rfl) (fun t => by rw [hafter]; unfold Dat.blockOf iblk_r2; rw [hA]; try rfl) t d).trans
    (by unfold Dat.fetched Dat.blockOf iblk_r2; rw [hA]; try rfl)
theorem before_r2_1_of {c : Dev nD} (dat : Dat τ (Elt F) Unit ℕ (UR sig nD τ) ℕ cfg2 c) (hA : dat.A 1 = V c (Pipeline.arrRef spec2 1))
    (hafter : ∀ t, dat.after 1 t = iblk_r2 V c 1 t) (t : Fin cfg2.N) (d) : dat.before 1 t d = iblk_r2 V c 1 t :=
  (dat.before_in_eq_fetched 1 rfl (fun _ => rfl) (fun _ _ _ => rfl) (fun t => by rw [hafter]; unfold Dat.blockOf iblk_r2; rw [hA]; try rfl) t d).trans
    (by unfold Dat.fetched Dat.blockOf iblk_r2; rw [hA]; try rfl)
theorem before_r2_2_of {c : Dev nD} (dat : Dat τ (Elt F) Unit ℕ (UR sig nD τ) ℕ cfg2 c) (hA : dat.A 2 = V c (Pipeline.arrRef spec2 2))
    (hafter : ∀ t, dat.after 2 t = iblk_r2 V c 2 t) (t : Fin cfg2.N) (d) : dat.before 2 t d = iblk_r2 V c 2 t :=
  (dat.before_in_eq_fetched 2 rfl (fun _ => rfl) (fun _ _ _ => rfl) (fun t => by rw [hafter]; unfold Dat.blockOf iblk_r2; rw [hA]; try rfl) t d).trans
    (by unfold Dat.fetched Dat.blockOf iblk_r2; rw [hA]; try rfl)
theorem before_r2_3_of {c : Dev nD} (dat : Dat τ (Elt F) Unit ℕ (UR sig nD τ) ℕ cfg2 c) (hA : dat.A 3 = V c (Pipeline.arrRef spec2 3))
    (hafter : ∀ t, dat.after 3 t = iblk_r2 V c 3 t) (t : Fin cfg2.N) (d) : dat.before 3 t d = iblk_r2 V c 3 t :=
  (dat.before_in_eq_fetched 3 rfl (fun _ => rfl) (fun _ _ _ => rfl) (fun t => by rw [hafter]; unfold Dat.blockOf iblk_r2; rw [hA]; try rfl) t d).trans
    (by unfold Dat.fetched Dat.blockOf iblk_r2; rw [hA]; try rfl)

/-! ## The accumulator, point by point -/

/-- What the accumulator holds after the body at point n. -/
def acc_r2 (c : Dev nD) : (n : ℕ) → n < cfg2.N → Vec F S1x1 .f32
  | 0, hn => k2_pay1 (k2_pay3 (iblk_r2 V c 0 ⟨0, hn⟩) (iblk_r2 V c 1 ⟨0, hn⟩)) (k2_pay4 (iblk_r2 V c 2 ⟨0, hn⟩) (iblk_r2 V c 3 ⟨0, hn⟩)) (k2_pay2 (F := F))
  | n + 1, hn => k2_pay1 (k2_pay3 (iblk_r2 V c 0 ⟨n + 1, hn⟩) (iblk_r2 V c 1 ⟨n + 1, hn⟩)) (k2_pay4 (iblk_r2 V c 2 ⟨n + 1, hn⟩) (iblk_r2 V c 3 ⟨n + 1, hn⟩)) (acc_r2 c n (Nat.lt_of_succ_lt hn))

/-- At the first point: the reset value, then the tile. -/
theorem acc_r2_zero (c : Dev nD) (t : Fin cfg2.N) (h : t.val = 0) :
    acc_r2 V c t.val t.isLt = k2_pay1 (k2_pay3 (iblk_r2 V c 0 t) (iblk_r2 V c 1 t)) (k2_pay4 (iblk_r2 V c 2 t) (iblk_r2 V c 3 t)) (k2_pay2 (F := F)) := by
  obtain ⟨n, hn⟩ := t
  cases n with
  | zero => rfl
  | succ n => exact absurd h (Nat.succ_ne_zero n)

/-- At a later point: what the point before left, then the tile. -/
theorem acc_r2_pos (c : Dev nD) (t : Fin cfg2.N) (h : t.val ≠ 0) :
    acc_r2 V c t.val t.isLt = k2_pay1 (k2_pay3 (iblk_r2 V c 0 t) (iblk_r2 V c 1 t)) (k2_pay4 (iblk_r2 V c 2 t) (iblk_r2 V c 3 t)) (acc_r2 V c (t.val - 1) (Nat.lt_of_le_of_lt (Nat.sub_le _ _) t.isLt)) := by
  obtain ⟨n, hn⟩ := t
  cases n with
  | zero => exact absurd rfl h
  | succ n => rfl

/-! ## The invariant between points -/

/-- Before point 0 the class's invariant (the accumulator at anything); before point n + 1 the accumulator at what
    point n left, the other scoped buffers and the generator register as they are. -/
def PhiS_r2 (c : Dev nD) : (n : ℕ) → n ≤ cfg2.N → sProp 𝕄
  | 0, _ => Pipeline.ΦA spec2 c
  | n + 1, hn => iprop((owns (c : Thread nD τ) scM_r2 fullShare (acc_r2 V c n hn) ∗ others_r2 (F := F) c) ∗ (∃ r, prngReg c r))

theorem PhiS_r2_zero (c : Dev nD) (n : ℕ) (h : n ≤ cfg2.N) (hz : n = 0) : PhiS_r2 V c n h = Pipeline.ΦA spec2 c := by
  subst hz; rfl

theorem PhiS_r2_succ (c : Dev nD) (n : ℕ) (hn : n < cfg2.N) :
    PhiS_r2 V c (n + 1) hn = iprop((owns (c : Thread nD τ) scM_r2 fullShare (acc_r2 V c n hn) ∗ others_r2 (F := F) c) ∗ (∃ r, prngReg c r)) := rfl

theorem PhiS_r2_pos (c : Dev nD) (n : ℕ) (h : n ≤ cfg2.N) (hz : n ≠ 0) :
    PhiS_r2 V c n h = iprop((owns (c : Thread nD τ) scM_r2 fullShare (acc_r2 V c (n - 1) (by omega)) ∗ others_r2 (F := F) c) ∗ (∃ r, prngReg c r)) := by
  cases n with
  | zero => exact absurd rfl hz
  | succ n => rfl

/-! ## The proof data -/

/-- The region's proof data on core c: the arrays as the region finds them; after the body each input buffer at its
    block and the output buffer at the accumulator's contents (consulted at the last point only: elsewhere the window
    is idle); the invariant above; nothing owed. -/
def dat_r2 (c : Dev nD) : Dat τ (Elt F) Unit ℕ (UR sig nD τ) ℕ cfg2 c where
  A w := V c (Pipeline.arrRef spec2 w)
  after w t := match w with
    | ⟨0, _⟩ => iblk_r2 V c 0 t
    | ⟨1, _⟩ => iblk_r2 V c 1 t
    | ⟨2, _⟩ => iblk_r2 V c 2 t
    | ⟨3, _⟩ => iblk_r2 V c 3 t
    | ⟨4, _⟩ => acc_r2 V c t.val t.isLt
  Φ t := PhiS_r2 V c t.val (Nat.le_of_lt_succ t.isLt)
  q := q
  owed _ := 0

theorem A_eq_r2 (c : Dev nD) (w : Fin cfg2.W) : (dat_r2 V q c).A w = V c (Pipeline.arrRef spec2 w) := by
  dsimp only [dat_r2]

theorem PhiS_r2_castSucc (c : Dev nD) (t : Fin cfg2.N) :
    (dat_r2 V q c).Φ t.castSucc = PhiS_r2 V c t.val (Nat.le_of_lt t.isLt) := by
  dsimp only [dat_r2]; simp only [Fin.coe_castSucc]

theorem after_r2_0 (c : Dev nD) (t : Fin cfg2.N) : (dat_r2 V q c).after 0 t = iblk_r2 V c 0 t := by dsimp only [dat_r2]
theorem after_r2_1 (c : Dev nD) (t : Fin cfg2.N) : (dat_r2 V q c).after 1 t = iblk_r2 V c 1 t := by dsimp only [dat_r2]
theorem after_r2_2 (c : Dev nD) (t : Fin cfg2.N) : (dat_r2 V q c).after 2 t = iblk_r2 V c 2 t := by dsimp only [dat_r2]
theorem after_r2_3 (c : Dev nD) (t : Fin cfg2.N) : (dat_r2 V q c).after 3 t = iblk_r2 V c 3 t := by dsimp only [dat_r2]
theorem after_r2_4 (c : Dev nD) (t : Fin cfg2.N) : (dat_r2 V q c).after 4 t = acc_r2 V c t.val t.isLt := by dsimp only [dat_r2]

theorem before_r2_0 (c : Dev nD) (t : Fin cfg2.N) (d) : (dat_r2 V q c).before 0 t d = iblk_r2 V c 0 t :=
  before_r2_0_of V (dat_r2 V q c) (A_eq_r2 V q c 0) (after_r2_0 V q c) t d
theorem before_r2_1 (c : Dev nD) (t : Fin cfg2.N) (d) : (dat_r2 V q c).before 1 t d = iblk_r2 V c 1 t :=
  before_r2_1_of V (dat_r2 V q c) (A_eq_r2 V q c 1) (after_r2_1 V q c) t d
theorem before_r2_2 (c : Dev nD) (t : Fin cfg2.N) (d) : (dat_r2 V q c).before 2 t d = iblk_r2 V c 2 t :=
  before_r2_2_of V (dat_r2 V q c) (A_eq_r2 V q c 2) (after_r2_2 V q c) t d
theorem before_r2_3 (c : Dev nD) (t : Fin cfg2.N) (d) : (dat_r2 V q c).before 3 t d = iblk_r2 V c 3 t :=
  before_r2_3_of V (dat_r2 V q c) (A_eq_r2 V q c 3) (after_r2_3 V q c) t d

/-! ## The body obligation -/

/-- What the body is called with at point t, the windows one by one, -/
def bodyPre_r2 (c : Dev nD) (t : Fin cfg2.N) : sProp 𝕄 :=
  iprop((dat_r2 V q c).Φ t.castSucc ∗ (dat_r2 V q c).owesAt () t.castSucc
    ∗ (∃ d, owns (c : Thread nD τ) (ms_r2_0 t) fullShare ((dat_r2 V q c).before 0 t d))
    ∗ (∃ d, owns (c : Thread nD τ) (ms_r2_1 t) fullShare ((dat_r2 V q c).before 1 t d))
    ∗ (∃ d, owns (c : Thread nD τ) (ms_r2_2 t) fullShare ((dat_r2 V q c).before 2 t d))
    ∗ (∃ d, owns (c : Thread nD τ) (ms_r2_3 t) fullShare ((dat_r2 V q c).before 3 t d))
    ∗ (∃ d, owns (c : Thread nD τ) (ms_r2_4 t) fullShare ((dat_r2 V q c).before 4 t d)))

/-- and what it returns. -/
def bodyPost_r2 (c : Dev nD) (t : Fin cfg2.N) : sProp 𝕄 :=
  iprop((dat_r2 V q c).Φ t.succ ∗ (dat_r2 V q c).owesAt () t.succ
    ∗ (dat_r2 V q c).leavesExact 0 t
    ∗ (dat_r2 V q c).leavesExact 1 t
    ∗ (dat_r2 V q c).leavesExact 2 t
    ∗ (dat_r2 V q c).leavesExact 3 t
    ∗ (dat_r2 V q c).leavesExact 4 t)

set_option maxHeartbeats 4800000 in
/-- The body at any point. The input buffers hold their blocks; the point is the first, the last or neither, which
    decides the two conditionals; the matching run applies; the invariant hands over the accumulator (at anything at
    the first point, else at what the point before left) and takes it back at this point's contents. -/
theorem sound_body_r2 (c : Dev nD) (t : Fin cfg2.N) :
    bodyPre_r2 V q c t ⊢ wp frame (wpE (defs₀ (F := F)) Variants.none c none) Set.univ (bodyAt2 t) (fun _ => bodyPost_r2 V q c t) := by
  unfold bodyPre_r2 bodyPost_r2 bodyAt2
  simp only [before_r2_0, before_r2_1, before_r2_2, before_r2_3]
  rw [show (dat_r2 V q c).owesAt () t.succ = (dat_r2 V q c).owesAt () t.castSucc from rfl]
  rw [show (dat_r2 V q c).Φ t.succ = PhiS_r2 V c (t.val + 1) t.isLt from rfl, PhiS_r2_succ]
  rw [show (dat_r2 V q c).leavesExact 0 t = owns (c : Thread nD τ) (ms_r2_0 t) fullShare ((dat_r2 V q c).after 0 t) from by
    unfold Dat.leavesExact; rw [live_r2_0 t], after_r2_0]
  rw [show (dat_r2 V q c).leavesExact 1 t = owns (c : Thread nD τ) (ms_r2_1 t) fullShare ((dat_r2 V q c).after 1 t) from by
    unfold Dat.leavesExact; rw [live_r2_1 t], after_r2_1]
  rw [show (dat_r2 V q c).leavesExact 2 t = owns (c : Thread nD τ) (ms_r2_2 t) fullShare ((dat_r2 V q c).after 2 t) from by
    unfold Dat.leavesExact; rw [live_r2_2 t], after_r2_2]
  rw [show (dat_r2 V q c).leavesExact 3 t = owns (c : Thread nD τ) (ms_r2_3 t) fullShare ((dat_r2 V q c).after 3 t) from by
    unfold Dat.leavesExact; rw [live_r2_3 t], after_r2_3]
  have hN : t.val < 256 := lt_of_lt_of_eq t.isLt (show cfg2.N = 256 from N_2)
  by_cases h0 : t.val = 0
  · have hcA : condA_r2 (grid2.coords t) := (hcondA_r2 t).mpr h0
    have hcC : ¬condC_r2 (grid2.coords t) := fun h => by have := (hcondC_r2 t).mp h; omega
    rw [Dat.leavesExact_idle (dat_r2 V q c) 4 t (idle_r2_4 t hcC) (noFlush_r2_4 t hcC)]
    rw [acc_r2_zero V c t h0]
    rw [PhiS_r2_castSucc V q c t, PhiS_r2_zero V c _ _ h0, PhiA_r2_eq]
    iintro ⟨⟨⟨HS, Hoth⟩, Hg⟩, Ho, ⟨%d0, H0⟩, ⟨%d1, H1⟩, ⟨%d2, H2⟩, ⟨%d3, H3⟩, ⟨%d4, H4⟩⟩
    iapply (run_r2_A c (grid2.coords t) _ _ _ _ _ _ _ _ _ _ _ _ hcA hcC (iblk_r2 V c 0 t) (iblk_r2 V c 1 t) (iblk_r2 V c 2 t) (iblk_r2 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · by_cases h1 : t.val = 255
    · have hcA : ¬condA_r2 (grid2.coords t) := fun h => h0 ((hcondA_r2 t).mp h)
      have hcC : condC_r2 (grid2.coords t) := (hcondC_r2 t).mpr h1
      rw [show (dat_r2 V q c).leavesExact 4 t = owns (c : Thread nD τ) (ms_r2_4 t) fullShare ((dat_r2 V q c).after 4 t) from by
        unfold Dat.leavesExact; rw [live_r2_4 t hcC], after_r2_4]
      rw [acc_r2_pos V c t h0]
      rw [PhiS_r2_castSucc V q c t, PhiS_r2_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r2_C c (grid2.coords t) _ _ _ _ _ _ _ _ _ _ _ _ hcA hcC (iblk_r2 V c 0 t) (iblk_r2 V c 1 t) (iblk_r2 V c 2 t) (iblk_r2 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hcA : ¬condA_r2 (grid2.coords t) := fun h => h0 ((hcondA_r2 t).mp h)
      have hcC : ¬condC_r2 (grid2.coords t) := fun h => h1 ((hcondC_r2 t).mp h)
      rw [Dat.leavesExact_idle (dat_r2 V q c) 4 t (idle_r2_4 t hcC) (noFlush_r2_4 t hcC)]
      rw [acc_r2_pos V c t h0]
      rw [PhiS_r2_castSucc V q c t, PhiS_r2_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r2_B c (grid2.coords t) _ _ _ _ _ _ _ _ _ _ _ _ hcA hcC (iblk_r2 V c 0 t) (iblk_r2 V c 1 t) (iblk_r2 V c 2 t) (iblk_r2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation_r2 (c : Dev nD) : BodyObligation (dat_r2 (F := F) V q c) (defs₀ (F := F)) Variants.none () Set.univ := fun t => by
  rw [bigSep_W2, bigSep_W2]
  exact sound_body_r2 V q c t

/-! ## Into and out of the invariant -/

/-- What the launch hands the region is the invariant before the first point. -/
theorem hin_r2 (c : Dev nD) : Pipeline.ΦA spec2 c ⊢ (dat_r2 V q c).Φ 0 := by
  rw [show (dat_r2 V q c).Φ 0 = PhiS_r2 V c 0 (Nat.zero_le _) from rfl, PhiS_r2_zero V c 0 _ rfl]

/-- After the last point the invariant gives the class's back: the accumulator's named contents are forgotten. -/
theorem hout_r2 (c : Dev nD) : (dat_r2 V q c).Φ (Fin.last cfg2.N) ⊢ Pipeline.ΦA spec2 c := by
  have hne : (Fin.last cfg2.N).val ≠ 0 := by rw [Fin.val_last]; have : cfg2.N = 256 := N_2; omega
  rw [show (dat_r2 V q c).Φ (Fin.last cfg2.N) = PhiS_r2 V c (Fin.last cfg2.N).val (Nat.le_of_lt_succ (Fin.last cfg2.N).isLt) from rfl,
    PhiS_r2_pos V c _ _ hne, PhiA_r2_eq]
  iintro ⟨⟨HS, Hoth⟩, Hg⟩
  isplitl [HS Hoth]
  · isplitl [HS]
    · iexists _; iexact HS
    iexact Hoth
  iexact Hg

end Region

end Cert.Kernel.Hand

end
-- ==== Proof.K.R2Split.lean ====
/-
  Region 2 reads four distinct arrays and writes a fifth: each window's array is a buffer of its own, held whole at the
  full share.
-/
import proofs.«168368_j77163382440707_1_alg».proof.Proof.Gen.Kernel.Launch
import Idealize.ShloMosaic.Lib.Pipeline.FrameBody
import Idealize.ShloMosaic.Lib.Pipeline.RegionsLoop
import Idealize.ShloMosaic.Lib.Pipeline.Frame

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.Kernel Cert.Kernel.Gen

variable {F : FTy → Type} [FloatOps F]

local notation "𝕄" => MT nD τ sig Unit (Elt F) ℕ (UR sig nD τ) ℕ

/-- The shares region 2 holds its arrays at: all full. -/
def q_r2 : Fin cfg2.W → PosShare TreeShare := fun _ => fullShare

/-- The buffers behind region 2's arrays, in window order: main_arg0, main_arg1, main_arg2, main_arg3 and main_v4, no
    two the same. -/
theorem arrRefs_r2 : Finset.univ.image (Pipeline.arrRef spec2)
    = ([main_arg0, main_arg1, main_arg2, main_arg3, main_v4] : List (Ref sig .tc)).toFinset := by decide

/-- The buffers behind region 2's arrays, one by one, each whole at the full share. -/
theorem arrBufs_r2_eq (c : Dev nD) (Vb : (b : Ref sig .tc) → Buf (Elt F) ((c : Thread nD τ).loc b)) :
    (Pipeline.arrBufs (Ix := Unit) (Name := ℕ) (U := UR sig nD τ) (Lvl := ℕ) spec2 c Vb : sProp 𝕄)
      = iprop((((c : Thread nD τ).loc main_arg0) ↦{fullShare} Vb main_arg0) ∗ (((c : Thread nD τ).loc main_arg1) ↦{fullShare} Vb main_arg1)
          ∗ (((c : Thread nD τ).loc main_arg2) ↦{fullShare} Vb main_arg2) ∗ (((c : Thread nD τ).loc main_arg3) ↦{fullShare} Vb main_arg3)
          ∗ (((c : Thread nD τ).loc main_v4) ↦{fullShare} Vb main_v4)) := by
  unfold Pipeline.arrBufs
  exact bigSep_eq_bigSepL_of_eq [main_arg0, main_arg1, main_arg2, main_arg3, main_v4] arrRefs_r2 (by decide) _

/-- Every window of region 2 holds its array at the full share: an output does outright, an input by q_r2. -/
theorem share_r2 {c : Dev nD} (dat : Dat τ (Elt F) Unit ℕ (UR sig nD τ) ℕ cfg2 c) (hq : dat.q = q_r2) (w : Fin cfg2.W) :
    dat.share w = fullShare := by
  unfold Dat.share
  rw [hq]
  split <;> rfl

/-- One window's array, a whole buffer, is the buffer behind it held whole at the full share, at the contents Vb reads
    there. -/
theorem win_pt_r2 {c : Dev nD} (dat : Dat τ (Elt F) Unit ℕ (UR sig nD τ) ℕ cfg2 c) (hq : dat.q = q_r2) (w : Fin cfg2.W)
    (Vb : (b : Ref sig .tc) → Buf (Elt F) ((c : Thread nD τ).loc b))
    (Fa : (w : Fin cfg2.W) → Buf (Elt F) ((cfg2.win w).arr.view.loc (c.tc : Thread nD τ)))
    (hF : ∀ w, Fa w = Vb (Pipeline.arrRef spec2 w)) :
    ((cfg2.win w).arr.view.loc (c.tc : Thread nD τ) ↦[(cfg2.win w).arr.view.set]{dat.share w} Fa w : sProp 𝕄)
      = (((c : Thread nD τ).loc (Pipeline.arrRef spec2 w)) ↦{fullShare} Vb (Pipeline.arrRef spec2 w)) := by
  rw [(arr_whole2 w).set_eq_univ, share_r2 dat hq w, hF w]

/-- The pipeline's arrays of region 2, window by window: the five buffers, each whole at the full share, at the contents
    Vb reads. -/
theorem arrays_r2_eq {c : Dev nD} (dat : Dat τ (Elt F) Unit ℕ (UR sig nD τ) ℕ cfg2 c) (hq : dat.q = q_r2)
    (Vb : (b : Ref sig .tc) → Buf (Elt F) ((c : Thread nD τ).loc b))
    (Fa : (w : Fin cfg2.W) → Buf (Elt F) ((cfg2.win w).arr.view.loc (c.tc : Thread nD τ)))
    (hF : ∀ w, Fa w = Vb (Pipeline.arrRef spec2 w)) :
    (dat.arrays Fa : sProp 𝕄)
      = iprop((((c : Thread nD τ).loc main_arg0) ↦{fullShare} Vb main_arg0) ∗ (((c : Thread nD τ).loc main_arg1) ↦{fullShare} Vb main_arg1)
          ∗ (((c : Thread nD τ).loc main_arg2) ↦{fullShare} Vb main_arg2) ∗ (((c : Thread nD τ).loc main_arg3) ↦{fullShare} Vb main_arg3)
          ∗ (((c : Thread nD τ).loc main_v4) ↦{fullShare} Vb main_v4)) := by
  unfold Dat.arrays
  rw [Gen.bigSep_W2, win_pt_r2 dat hq 0 Vb Fa hF, win_pt_r2 dat hq 1 Vb Fa hF, win_pt_r2 dat hq 2 Vb Fa hF, win_pt_r2 dat hq 3 Vb Fa hF,
    win_pt_r2 dat hq 4 Vb Fa hF]

/-- The buffers behind region 2's arrays at contents Vb ARE the pipeline's arrays at contents Fa, when Fa is Vb read
    at each window's array: in both directions. -/
theorem arrays_iff_r2 {c : Dev nD} (dat : Dat τ (Elt F) Unit ℕ (UR sig nD τ) ℕ cfg2 c) (hq : dat.q = q_r2)
    (Vb : (b : Ref sig .tc) → Buf (Elt F) ((c : Thread nD τ).loc b))
    (Fa : (w : Fin cfg2.W) → Buf (Elt F) ((cfg2.win w).arr.view.loc (c.tc : Thread nD τ)))
    (hF : ∀ w, Fa w = Vb (Pipeline.arrRef spec2 w)) :
    (Pipeline.arrBufs (Ix := Unit) (Name := ℕ) (U := UR sig nD τ) (Lvl := ℕ) spec2 c Vb : sProp 𝕄) ⊣⊢ dat.arrays Fa := by
  -- both sides are the same five buffers, one by one
  rw [arrBufs_r2_eq, arrays_r2_eq dat hq Vb Fa hF]

end Cert.Kernel.Hand

end
-- ==== Proof.K.R2Glue.lean ====
/-
  Region 2 between two boundaries of @main: from every unscoped buffer of the core held whole at the contents the
  region is entered with, to the pipeline's arrays (each window's array at its share) beside the buffers no window
  names; and back, when the region ends, to every unscoped buffer held whole at the contents it leaves: the entry
  contents with the output array at what the one write-back left.
-/
import proofs.«168368_j77163382440707_1_alg».proof.Proof.K.R2Frame
import proofs.«168368_j77163382440707_1_alg».proof.Proof.K.R2Split
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Glue

variable (W : Dev nD → Valuation τ sig (Elt F))

/-- The entry contents read at the TensorCore's references: what the region's proof data take. -/
abbrev Vof_r2 (c : Dev nD) (b : Ref sig .tc) : Buf (Elt F) ((c : Thread nD τ).loc b) := W c b

/-- The region's proof data at these entry contents, the shared arrays held a half per window. -/
abbrev dd_r2 (c : Dev nD) : Dat τ (Elt F) Unit ℕ (UR sig nD τ) ℕ cfg2 c := dat_r2 (Vof_r2 W) q_r2 c

/-- What the region leaves in its output array. -/
abbrev res_r2 (c : Dev nD) : Buf (Elt F) ((c : Thread nD τ).loc (Pipeline.arrRef spec2 4)) := (dd_r2 W c).arrAt 4 cfg2.N

/-- The contents the region leaves: the entry contents with the output array at what the write-back left. -/
def Wout_r2 (c : Dev nD) : Valuation τ sig (Elt F) :=
  Function.update (W c) (Proc.devRef .tc (Pipeline.arrRef spec2 4)) (res_r2 W c)

theorem Wout_r2_out (c : Dev nD) : Wout_r2 W c (Proc.devRef .tc (Pipeline.arrRef spec2 4)) = res_r2 W c := by
  unfold Wout_r2; exact Function.update_self ..

theorem Wout_r2_of_ne (c : Dev nD) (b : Ref sig .tc) (hb : b ≠ Pipeline.arrRef spec2 4) :
    Wout_r2 W c (Proc.devRef .tc b) = W c (Proc.devRef .tc b) := by
  unfold Wout_r2; exact Function.update_of_ne (StableHlo.devRef_ne_of_ne hb) ..

/-- Entering: the unscoped buffers at the entry contents are the pipeline's arrays at their entry contents and the rest. -/
theorem entry_r2 (c : Dev nD) :
    (StableHlo.held (c : Thread nD τ) (Pipeline.ucRefs τ sig) (W c) : sProp 𝕄)
      ⊢ iprop((dd_r2 W c).arrays (fun w => (dd_r2 W c).arrAt w 0) ∗ Pipeline.unscopedRest (Ix := Unit) (Name := ℕ) (U := UR sig nD τ) (Lvl := ℕ) spec2 c (Vof_r2 W c)) := by
  rw [← Pipeline.unscopedBufs_held (Ix := Unit) (Name := ℕ) (U := UR sig nD τ) (Lvl := ℕ) c (W c)]
  rw [Pipeline.unscopedBufs_split₀ cfgs (2 : Fin 3) winFacts2.to₀.arr_unscoped c (Vof_r2 W c)]
  exact sep_mono (arrays_iff_r2 (dd_r2 W c) rfl (Vof_r2 W c) _ (fun w => A_eq_r2 (Vof_r2 W) q_r2 c w)).1 .rfl

/-- Leaving: the arrays at their final contents and the rest are the unscoped buffers at the contents the region leaves. -/
theorem exit_r2 (c : Dev nD) :
    iprop((dd_r2 W c).arrays (fun w => (dd_r2 W c).arrAt w cfg2.N) ∗ Pipeline.unscopedRest (Ix := Unit) (Name := ℕ) (U := UR sig nD τ) (Lvl := ℕ) spec2 c (Vof_r2 W c))
      ⊢ (StableHlo.held (c : Thread nD τ) (Pipeline.ucRefs τ sig) (Wout_r2 W c) : sProp 𝕄) := by
  have hF : ∀ w : Fin cfg2.W, (dd_r2 W c).arrAt w cfg2.N = Vof_r2 (Wout_r2 W) c (Pipeline.arrRef spec2 w) := by
    intro w
    match w with
    | ⟨0, _⟩ => exact ((dd_r2 W c).arrAt_in 0 rfl _).trans ((A_eq_r2 (Vof_r2 W) q_r2 c 0).trans (Wout_r2_of_ne W c _ (by decide)).symm)
    | ⟨1, _⟩ => exact ((dd_r2 W c).arrAt_in 1 rfl _).trans ((A_eq_r2 (Vof_r2 W) q_r2 c 1).trans (Wout_r2_of_ne W c _ (by decide)).symm)
    | ⟨2, _⟩ => exact ((dd_r2 W c).arrAt_in 2 rfl _).trans ((A_eq_r2 (Vof_r2 W) q_r2 c 2).trans (Wout_r2_of_ne W c _ (by decide)).symm)
    | ⟨3, _⟩ => exact ((dd_r2 W c).arrAt_in 3 rfl _).trans ((A_eq_r2 (Vof_r2 W) q_r2 c 3).trans (Wout_r2_of_ne W c _ (by decide)).symm)
    | ⟨4, _⟩ => exact (Wout_r2_out W c).symm
  have hrest : (Pipeline.unscopedRest (Ix := Unit) (Name := ℕ) (U := UR sig nD τ) (Lvl := ℕ) spec2 c (Vof_r2 W c) : sProp 𝕄)
      = Pipeline.unscopedRest spec2 c (Vof_r2 (Wout_r2 W) c) := by
    unfold Pipeline.unscopedRest
    refine bigSep_congr fun b hb => ?_
    have hne : b ≠ Pipeline.arrRef spec2 4 := fun e =>
      (Finset.mem_sdiff.mp hb).2 (Finset.mem_image.mpr ⟨4, Finset.mem_univ _, e.symm⟩)
    rw [show Vof_r2 (Wout_r2 W) c b = Vof_r2 W c b from Wout_r2_of_ne W c b hne]
  rw [← Pipeline.unscopedBufs_held (Ix := Unit) (Name := ℕ) (U := UR sig nD τ) (Lvl := ℕ) c (Wout_r2 W c)]
  rw [Pipeline.unscopedBufs_split₀ cfgs (2 : Fin 3) winFacts2.to₀.arr_unscoped c (Vof_r2 (Wout_r2 W) c), hrest]
  exact sep_mono (arrays_iff_r2 (dd_r2 W c) rfl (Vof_r2 (Wout_r2 W) c) _ hF).2 .rfl

end Glue

end Cert.Kernel.Hand

end
-- ==== Proof.K.Main.lean ====
/-
  The whole program: three kernel regions and the host stretches between them, from the launch to the return.

  The contents of the core's unscoped buffers at each boundary of @main are a fold from the launch memory: a region
  changes its output array only (to what its one write-back left), a host stretch applies its operations. Each region
  is entered from what the item before it left; the launch hands the first region every unscoped buffer at the launch
  contents; at the return every unscoped buffer is read at the last boundary's contents. Two things follow: no item
  writes an argument, so the arguments end as launched; and the result is the host tail's arithmetic on the three
  regions' outputs.
-/
import proofs.«168368_j77163382440707_1_alg».proof.Proof.K.R0Glue
import proofs.«168368_j77163382440707_1_alg».proof.Proof.K.R1Glue
import proofs.«168368_j77163382440707_1_alg».proof.Proof.K.R2Glue
import proofs.«168368_j77163382440707_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary -/

/-- At launch. -/
abbrev B0 (c : Dev nD) : Valuation τ sig (Elt F) := fun b => m (c, b)
/-- After region 0: its output array at what it wrote. -/
abbrev B1 (c : Dev nD) : Valuation τ sig (Elt F) := Wout_r0 (B0 m) c
/-- After the first host stretch. -/
abbrev B2 (c : Dev nD) : Valuation τ sig (Elt F) := StableHlo.after hostOps1 (B1 m c)
/-- After region 1. -/
abbrev B3 (c : Dev nD) : Valuation τ sig (Elt F) := Wout_r1 (B2 m) c
/-- After the second host stretch. -/
abbrev B4 (c : Dev nD) : Valuation τ sig (Elt F) := StableHlo.after hostOps2 (B3 m c)
/-- After region 2. -/
abbrev B5 (c : Dev nD) : Valuation τ sig (Elt F) := Wout_r2 (B4 m) c
/-- After the host tail: at the return. -/
abbrev B6 (c : Dev nD) : Valuation τ sig (Elt F) := StableHlo.after hostOps3 (B5 m c)

/-! ## The proof data family and the thread state -/

/-- No pipeline has a prefetched table. -/
abbrev adm0 : (p : Fin 3) → (pcfgs (F := F) p).Adm := fun p => (cfgs p).toPCfg_adm

/-- Every pipeline's proof data, each at its region's entry contents: a literal match on the pipeline. -/
def pdats : (p : Fin 3) → (c : Dev nD) → Dat τ (Elt F) Unit ℕ (UR sig nD τ) ℕ (Pipeline.pin (pcfgs (F := F)) adm0 p) c
  | ⟨0, _⟩ => fun c => dd_r0 (B0 m) c
  | ⟨1, _⟩ => fun c => dd_r1 (B2 m) c
  | ⟨2, _⟩ => fun c => dd_r2 (B4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-- A host stretch as a segment over the unscoped buffers from the contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-! ## The regions as segments -/

set_option backward.isDefEq.respectTransparency.types false in
/-- Region 0 over the thread state "every unscoped buffer whole at the boundary's contents, the generator register at
    some state, nothing owed": entered at B0, left at B1. Its arrays are split out of the unscoped buffers and put
    back by the region's glue; the generator register passes through the class invariant; the kernel has no semaphore of
    its own and owes nothing. -/
def reg0 : RegionSeg (pcfgs (F := F)) adm0 (pdats m) () defs₀ 𝒱₀ L lv 0 where
  win := winFacts₀0
  block_pos := block_pos0
  stage_whole := stage_whole0
  K := PEmpty
  osem k := k.elim
  ho := Pipeline.OwnSemFacts.none _
  hbody c := (body_obligation_r0 (Vof_r0 (B0 m)) q_r0 c).loose
  hwaits := Pipeline.hwaits_of_owed_zero _ _ _ _ L lv 0 fun _ _ => rfl
  pre c := iprop(StableHlo.held (c : Thread nD τ) (Pipeline.ucRefs τ sig) (B0 m c) ∗ Rr c)
  post c := iprop(StableHlo.held (c : Thread nD τ) (Pipeline.ucRefs τ sig) (B1 m c) ∗ Rr c)
  X c := iprop(∃ r, prngReg c r)
  Y c := iprop(∃ r, prngReg c r)
  Z c := Pipeline.unscopedRest (Ix := Unit) (Name := ℕ) (U := UR sig nD τ) (Lvl := ℕ) spec0 c (Vof_r0 (B0 m) c)
  hentry c := by
    rw [Pipeline.ownSems0_none]
    iintro ⟨⟨Hub, Hp, HO⟩, -, -⟩
    ihave H := (entry_r0 (B0 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_r0 (Vof_r0 (B0 m)) q_r0 c)
    unfold Pipeline.ΦA
    iintro ⟨Hp, -, Hr⟩
    isplitl [Hr]; · iexact Hr
    iexact Hp
  hout c := by
    rw [Pipeline.ownSems0_none]
    refine BIBase.Entails.trans (hout_r0 (Vof_r0 (B0 m)) q_r0 c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_r0 (B0 m) c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer whole at the boundary's contents, the generator register at
    some state, nothing owed": entered at B2, left at B3. Its arrays are split out of the unscoped buffers and put
    back by the region's glue; the generator register passes through the class invariant; the kernel has no semaphore of
    its own and owes nothing. -/
def reg1 : RegionSeg (pcfgs (F := F)) adm0 (pdats m) () defs₀ 𝒱₀ L lv 1 where
  win := winFacts₀1
  block_pos := block_pos1
  stage_whole := stage_whole1
  K := PEmpty
  osem k := k.elim
  ho := Pipeline.OwnSemFacts.none _
  hbody c := (body_obligation_r1 (Vof_r1 (B2 m)) q_r1 c).loose
  hwaits := Pipeline.hwaits_of_owed_zero _ _ _ _ L lv 1 fun _ _ => rfl
  pre c := iprop(StableHlo.held (c : Thread nD τ) (Pipeline.ucRefs τ sig) (B2 m c) ∗ Rr c)
  post c := iprop(StableHlo.held (c : Thread nD τ) (Pipeline.ucRefs τ sig) (B3 m c) ∗ Rr c)
  X c := iprop(∃ r, prngReg c r)
  Y c := iprop(∃ r, prngReg c r)
  Z c := Pipeline.unscopedRest (Ix := Unit) (Name := ℕ) (U := UR sig nD τ) (Lvl := ℕ) spec1 c (Vof_r1 (B2 m) c)
  hentry c := by
    rw [Pipeline.ownSems0_none]
    iintro ⟨⟨Hub, Hp, HO⟩, -, -⟩
    ihave H := (entry_r1 (B2 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_r1 (Vof_r1 (B2 m)) q_r1 c)
    unfold Pipeline.ΦA
    iintro ⟨Hp, -, Hr⟩
    isplitl [Hr]; · iexact Hr
    iexact Hp
  hout c := by
    rw [Pipeline.ownSems0_none]
    refine BIBase.Entails.trans (hout_r1 (Vof_r1 (B2 m)) q_r1 c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_r1 (B2 m) c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer whole at the boundary's contents, the generator register at
    some state, nothing owed": entered at B4, left at B5. Its arrays are split out of the unscoped buffers and put
    back by the region's glue; the generator register passes through the class invariant; the kernel has no semaphore of
    its own and owes nothing. -/
def reg2 : RegionSeg (pcfgs (F := F)) adm0 (pdats m) () defs₀ 𝒱₀ L lv 2 where
  win := winFacts2.to₀
  block_pos := block_pos2
  stage_whole := stage_whole2
  K := PEmpty
  osem k := k.elim
  ho := Pipeline.OwnSemFacts.none _
  hbody c := (body_obligation_r2 (Vof_r2 (B4 m)) q_r2 c).loose
  hwaits := Pipeline.hwaits_of_owed_zero _ _ _ _ L lv 2 fun _ _ => rfl
  pre c := iprop(StableHlo.held (c : Thread nD τ) (Pipeline.ucRefs τ sig) (B4 m c) ∗ Rr c)
  post c := iprop(StableHlo.held (c : Thread nD τ) (Pipeline.ucRefs τ sig) (B5 m c) ∗ Rr c)
  X c := iprop(∃ r, prngReg c r)
  Y c := iprop(∃ r, prngReg c r)
  Z c := Pipeline.unscopedRest (Ix := Unit) (Name := ℕ) (U := UR sig nD τ) (Lvl := ℕ) spec2 c (Vof_r2 (B4 m) c)
  hentry c := by
    rw [Pipeline.ownSems0_none]
    iintro ⟨⟨Hub, Hp, HO⟩, -, -⟩
    ihave H := (entry_r2 (B4 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_r2 (Vof_r2 (B4 m)) q_r2 c)
    unfold Pipeline.ΦA
    iintro ⟨Hp, -, Hr⟩
    isplitl [Hr]; · iexact Hr
    iexact Hp
  hout c := by
    rw [Pipeline.ownSems0_none]
    refine BIBase.Entails.trans (hout_r2 (Vof_r2 (B4 m)) q_r2 c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_r2 (B4 m) c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's six items in order. -/
abbrev segs : List (Seg (pcfgs (F := F)) adm0 (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)),
    .region (reg2 m),
    .host (hseg hostOps3 hostOps3_sub hostOps3_fresh (B5 m)) ]

/-- @main is the run of the segments. -/
theorem main_run (c : Dev nD) : main (F := F) c = Seg.run (segs m) := (main_chain c).trans (by chain_rfl)

set_option backward.isDefEq.respectTransparency.types false in
/-- THE RUN. From any memory with zero counters every weakly fair execution of @main terminates, nothing faulting, and
    every final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm0 (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c))
    (Tₙ := fun c => iprop(StableHlo.held (c : Thread nD τ) (Pipeline.ucRefs τ sig) (B6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (B6 m c) ∗ Rr c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What no item writes ends as launched -/

/-- A buffer that no host stretch writes and that is no region's output array holds its launch contents at the return. -/
theorem B6_of (c : Dev nD) (r : Ref sig .tc) (h1 : r ∉ hostOps1_W) (h2 : r ∉ hostOps2_W) (h3 : r ∉ hostOps3_W)
    (hn0 : r ≠ Pipeline.arrRef spec0 4) (hn1 : r ≠ Pipeline.arrRef spec1 4) (hn2 : r ≠ Pipeline.arrRef spec2 4) :
    B6 m c r = m ((c : Thread nD τ).loc r) :=
  (StableHlo.after_of_writes_sub hostOps3 _ hostOps3_writes h3).trans <|
    (Wout_r2_of_ne (B4 m) c r hn2).trans <|
      (StableHlo.after_of_writes_sub hostOps2 _ hostOps2_writes h2).trans <|
        (Wout_r1_of_ne (B2 m) c r hn1).trans <|
          (StableHlo.after_of_writes_sub hostOps1 _ hostOps1_writes h1).trans <|
            (Wout_r0_of_ne (B0 m) c r hn0).trans rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B6_of m c main_arg0 (by decide) (by decide) (by decide) (by decide) (by decide) (by decide)),
     (h c _ (mem_uc main_arg1 (by decide))).trans (B6_of m c main_arg1 (by decide) (by decide) (by decide) (by decide) (by decide) (by decide)),
     (h c _ (mem_uc main_arg2 (by decide))).trans (B6_of m c main_arg2 (by decide) (by decide) (by decide) (by decide) (by decide) (by decide)),
     (h c _ (mem_uc main_arg3 (by decide))).trans (B6_of m c main_arg3 (by decide) (by decide) (by decide) (by decide) (by decide) (by decide))⟩)
    (run_main m ρ)

end Cert.Kernel.Hand

end
-- ==== Proof.KI.R0Base.lean ====
/-
  Region 0 (one of the program's three kernel sums, each a pallas_call of the same kernel): where its two conditionals hold on the 4 × 8 × 8 grid, where its output window is
  idle, and the invariant opened at the accumulator.

  The body resets its 1 × 1 accumulator at the grid's first point (all three coordinates zero), adds the tile's total at
  every point, and copies the accumulator into the output block at the last point (coordinates 3, 7, 7). In row-major
  order those are points 0 and 255 of 256. The output window keeps one block index throughout, so the pipeline
  writes it back once, after the last point; everywhere else the window is idle and the body hands its buffer back
  as it found it.
-/
import proofs.«168368_j77163382440707_1_alg».proof.Proof.Gen.KernelIdeal.Launch
import proofs.«168368_j77163382440707_1_alg».proof.Proof.Gen.KernelIdeal.Skeleton
import proofs.«168368_j77163382440707_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset's condition: all three grid coordinates are zero. -/
abbrev condA_r0 (i : grid0.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcondA_r0 : ∀ t : Fin cfg0.N, condA_r0 (grid0.coords t) ↔ t.val = 0 :=
  (by decide +kernel : ∀ t : Fin grid0.N, condA_r0 (grid0.coords t) ↔ t.val = 0)

/-- The output store's condition: the coordinates are the last ones. -/
abbrev condC_r0 (i : grid0.Coords) : Prop := k0_cond2 i = 1#1
/-- It holds at the last point only. -/
theorem hcondC_r0 : ∀ t : Fin cfg0.N, condC_r0 (grid0.coords t) ↔ t.val = 255 :=
  (by decide +kernel : ∀ t : Fin grid0.N, condC_r0 (grid0.coords t) ↔ t.val = 255)

/-- The input windows are never idle. -/
theorem live_r0_0 : ∀ t : Fin cfg0.N, cfg0.idle 0 (grid0.coords t) = false := by decide +kernel
theorem live_r0_1 : ∀ t : Fin cfg0.N, cfg0.idle 1 (grid0.coords t) = false := by decide +kernel
theorem live_r0_2 : ∀ t : Fin cfg0.N, cfg0.idle 2 (grid0.coords t) = false := by decide +kernel
theorem live_r0_3 : ∀ t : Fin cfg0.N, cfg0.idle 3 (grid0.coords t) = false := by decide +kernel
/-- Away from the last point the output window is idle and is not written back; at the last point it is live. -/
theorem idle_r0_4 : ∀ t : Fin cfg0.N, ¬condC_r0 (grid0.coords t) → cfg0.idle 4 (grid0.coords t) = true := by decide +kernel
theorem noFlush_r0_4 : ∀ t : Fin cfg0.N, ¬condC_r0 (grid0.coords t) → (cfg0.win 4).flush t = false := by decide +kernel
theorem live_r0_4 : ∀ t : Fin cfg0.N, condC_r0 (grid0.coords t) → cfg0.idle 4 (grid0.coords t) = false := by decide +kernel

/-- Each window's current staging memref at point t, as the pipeline passes it, and its wholeness. -/
abbrev ms_r0_0 (t : Fin cfg0.N) : Memref sig .tc .vmem S1x512x3 .f32 := win0_0.stage (cfg0.slots t 0)
abbrev hs_r0_0 (t : Fin cfg0.N) : (ms_r0_0 t).IsWhole := hstage0_0 ((cfg0.slots t 0).cast nbuf0_0)
abbrev ms_r0_1 (t : Fin cfg0.N) : Memref sig .tc .vmem S1x512x3 .f32 := win0_1.stage (cfg0.slots t 1)
abbrev hs_r0_1 (t : Fin cfg0.N) : (ms_r0_1 t).IsWhole := hstage0_1 ((cfg0.slots t 1).cast nbuf0_1)
abbrev ms_r0_2 (t : Fin cfg0.N) : Memref sig .tc .vmem S1x512x3 .f32 := win0_2.stage (cfg0.slots t 2)
abbrev hs_r0_2 (t : Fin cfg0.N) : (ms_r0_2 t).IsWhole := hstage0_2 ((cfg0.slots t 2).cast nbuf0_2)
abbrev ms_r0_3 (t : Fin cfg0.N) : Memref sig .tc .vmem S1x512x3 .f32 := win0_3.stage (cfg0.slots t 3)
abbrev hs_r0_3 (t : Fin cfg0.N) : (ms_r0_3 t).IsWhole := hstage0_3 ((cfg0.slots t 3).cast nbuf0_3)
abbrev ms_r0_4 (t : Fin cfg0.N) : Memref sig .tc .vmem S1x1 .f32 := win0_4.stage (cfg0.slots t 4)
abbrev hs_r0_4 (t : Fin cfg0.N) : (ms_r0_4 t).IsWhole := hstage0_4 ((cfg0.slots t 4).cast nbuf0_4)
/-- The accumulator: a whole scoped buffer of the kernel's own, passed beside the windows. -/
abbrev scM_r0 : Memref sig .tc .vmem S1x1 .f32 := Memref.whole cc0_scratch0

/-- The other scoped buffers of the core (the other calls' staging buffers and accumulators), each at some contents. -/
abbrev others_r0 (c : Dev nD) : sProp 𝕄 :=
  Pipeline.scopedRestBut (Ix := Unit) (Name := ℕ) (U := UR sig nD τ) (Lvl := ℕ) (Val := Elt F) spec0 c [cc0_scratch0]

/-- The class invariant with the accumulator split off: the accumulator at some contents, the other scoped buffers, and
    the generator register at some state. -/
theorem PhiA_r0_eq (c : Dev nD) :
    (Pipeline.ΦA spec0 c : sProp 𝕄)
      = iprop((iprop(∃ d, owns (c : Thread nD τ) scM_r0 fullShare d) ∗ others_r0 (F := F) c) ∗ (∃ r, prngReg c r)) := by
  unfold Pipeline.ΦA
  rw [Pipeline.scopedRest_split_of_list spec0 c [cc0_scratch0] (by decide) (by decide)]
  simp only [scM_r0, owns_whole]
  rfl

end Cert.KernelIdeal.Hand

end
-- ==== Proof.KI.R0RunA.lean ====
/-
  Region 0, the first point: the body resets the accumulator to zero, then adds the tile's total. Whatever the
  accumulator held, it ends at the stored value of the reset value and the blocks; the output buffer is handed back.
-/
import proofs.«168368_j77163382440707_1_alg».proof.Proof.KI.R0Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r0_A (c : Dev nD) (i : grid0.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : condA_r0 i) (hcC : ¬condC_r0 i)
    (x0 x1 x2 x3 : Vec F S1x512x3 .f32) (xi : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k0_pay1 (k0_pay3 x0 x1) (k0_pay4 x2 x3) (k0_pay2 (F := F)))) -∗ K ⟨⟩))
      ⊢ wp frame (wpE (defs₀ (F := F)) Variants.none c none) E (cc0__kernel_sum_kernel i arg3 harg3 arg4 harg4 arg5 harg5 arg6 harg6 arg7 harg7 arg8 harg8) K := by
  simp only [cc0__kernel_sum_kernel_eq_skeleton]; unfold cc0__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, Hk⟩
  obtain rfl := harg3.eq_unread hf0; obtain rfl := harg4.eq_unread hf1; obtain rfl := harg5.eq_unread hf2
  obtain rfl := harg6.eq_unread hf3; obtain rfl := harg7.eq_unread hf7
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R0RunB.lean ====
/-
  Region 0, a point that is neither first nor last: the body adds the tile's total to the accumulator and touches
  nothing else. On whole staging memrefs holding the four input blocks, the output buffer at contents it hands back,
  and the accumulator at s, it ends with the accumulator at the stored value of s and the blocks.
-/
import proofs.«168368_j77163382440707_1_alg».proof.Proof.KI.R0Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r0_B (c : Dev nD) (i : grid0.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r0 i) (hcC : ¬condC_r0 i)
    (x0 x1 x2 x3 : Vec F S1x512x3 .f32) (xi : Vec F S1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k0_pay1 (k0_pay3 x0 x1) (k0_pay4 x2 x3) xs)) -∗ K ⟨⟩))
      ⊢ wp frame (wpE (defs₀ (F := F)) Variants.none c none) E (cc0__kernel_sum_kernel i arg3 harg3 arg4 harg4 arg5 harg5 arg6 harg6 arg7 harg7 arg8 harg8) K := by
  simp only [cc0__kernel_sum_kernel_eq_skeleton]; unfold cc0__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R0RunC.lean ====
/-
  Region 0, the last point: the body adds the tile's total to the accumulator and copies the accumulator into the
  output block. Whatever the output buffer held, both end at the stored value of s and the blocks.
-/
import proofs.«168368_j77163382440707_1_alg».proof.Proof.KI.R0Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r0_C (c : Dev nD) (i : grid0.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r0 i) (hcC : condC_r0 i)
    (x0 x1 x2 x3 : Vec F S1x512x3 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (k0_pay1 (k0_pay3 x0 x1) (k0_pay4 x2 x3) xs)
            ∗ owns (c : Thread nD τ) arg8 fullShare (k0_pay1 (k0_pay3 x0 x1) (k0_pay4 x2 x3) xs)) -∗ K ⟨⟩))
      ⊢ wp frame (wpE (defs₀ (F := F)) Variants.none c none) E (cc0__kernel_sum_kernel i arg3 harg3 arg4 harg4 arg5 harg5 arg6 harg6 arg7 harg7 arg8 harg8) K := by
  simp only [cc0__kernel_sum_kernel_eq_skeleton]; unfold cc0__kernel_sum_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  obtain rfl := harg3.eq_unread hf0; obtain rfl := harg4.eq_unread hf1; obtain rfl := harg5.eq_unread hf2
  obtain rfl := harg6.eq_unread hf3; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    have hz2 : (![0, 0] : Fin S1x1.rank → Nat) = fun _ => 0 := by funext a; fin_cases a <;> rfl
    have hz3 : (![0, 0, 0] : Fin S1x512x3.rank → Nat) = fun _ => 0 := by funext a; fin_cases a <;> rfl
    sl_unfold_words
    refine (View.read_writes_eq_canon _ _ _ (fun y => ⟨_, List.mem_cons_self, View.mem_set_unit_zero hz2 inb_S1x1_S1x1_0_0 y⟩)).trans ?_
    rw [View.canon_cons_unit_zero hz2]
    simp only [View.readAt_eq_ld, View.readCov_unit_zero (S := S1x1) _ hz2, harg3.read_unread, harg4.read_unread, harg5.read_unread,
      harg6.read_unread, harg8.read_unread, View.ld_unit_zero (S := S1x1) hz2, View.ld_unit_zero (S := S1x512x3) hz3]
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R0Frame.lean ====
/-
  Region 0 (one of the program's three kernel sums, each a pallas_call of the same kernel) as a pipeline: what every staging buffer and the accumulator hold at every grid
  point, and that the kernel body keeps it so.

  An input window's buffer holds its array's block at the point, fetched there or carried over from the point
  before (the block index did not move). The accumulator after point n is defined by recursion on n: after point 0
  the stored value of the reset value and point 0's blocks; after point n + 1 the stored value of what point n left
  and point n + 1's blocks. The output buffer is idle except at the last point, where the body copies the accumulator
  into it. The region's invariant before point 0 is the class's (the accumulator at anything); before a later point
  it names the accumulator's contents. The entry contents of the arrays (V) and the shares the input arrays are held
  at (q) are parameters: they are fixed where the regions are put together.
-/
import proofs.«168368_j77163382440707_1_alg».proof.Proof.KI.R0RunA
import proofs.«168368_j77163382440707_1_alg».proof.Proof.KI.R0RunB
import proofs.«168368_j77163382440707_1_alg».proof.Proof.KI.R0RunC
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (q : Fin cfg0.W → PosShare TreeShare)

/-! ## The windows' blocks -/

/-- Window w's block at point t, read off its array as the region finds it. -/
def iblk_r0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    entry contents and whose body leaves the block in place. -/
theorem before_r0_0_of {c : Dev nD} (dat : Dat τ (Elt F) Unit ℕ (UR sig nD τ) ℕ cfg0 c) (hA : dat.A 0 = V c (Pipeline.arrRef spec0 0))
    (hafter : ∀ t, dat.after 0 t = iblk_r0 V c 0 t) (t : Fin cfg0.N) (d) : dat.before 0 t d = iblk_r0 V c 0 t :=
  (dat.before_in_eq_fetched 0 rfl (fun _ => rfl) (fun _ _ _ => rfl) (fun t => by rw [hafter]; unfold Dat.blockOf iblk_r0; rw [hA]; try rfl) t d).trans
    (by unfold Dat.fetched Dat.blockOf iblk_r0; rw [hA]; try rfl)
theorem before_r0_1_of {c : Dev nD} (dat : Dat τ (Elt F) Unit ℕ (UR sig nD τ) ℕ cfg0 c) (hA : dat.A 1 = V c (Pipeline.arrRef spec0 1))
    (hafter : ∀ t, dat.after 1 t = iblk_r0 V c 1 t) (t : Fin cfg0.N) (d) : dat.before 1 t d = iblk_r0 V c 1 t :=
  (dat.before_in_eq_fetched 1 rfl (fun _ => rfl) (fun _ _ _ => rfl) (fun t => by rw [hafter]; unfold Dat.blockOf iblk_r0; rw [hA]; try rfl) t d).trans
    (by unfold Dat.fetched Dat.blockOf iblk_r0; rw [hA]; try rfl)
theorem before_r0_2_of {c : Dev nD} (dat : Dat τ (Elt F) Unit ℕ (UR sig nD τ) ℕ cfg0 c) (hA : dat.A 2 = V c (Pipeline.arrRef spec0 2))
    (hafter : ∀ t, dat.after 2 t = iblk_r0 V c 2 t) (t : Fin cfg0.N) (d) : dat.before 2 t d = iblk_r0 V c 2 t :=
  (dat.before_in_eq_fetched 2 rfl (fun _ => rfl) (fun _ _ _ => rfl) (fun t => by rw [hafter]; unfold Dat.blockOf iblk_r0; rw [hA]; try rfl) t d).trans
    (by unfold Dat.fetched Dat.blockOf iblk_r0; rw [hA]; try rfl)
theorem before_r0_3_of {c : Dev nD} (dat : Dat τ (Elt F) Unit ℕ (UR sig nD τ) ℕ cfg0 c) (hA : dat.A 3 = V c (Pipeline.arrRef spec0 3))
    (hafter : ∀ t, dat.after 3 t = iblk_r0 V c 3 t) (t : Fin cfg0.N) (d) : dat.before 3 t d = iblk_r0 V c 3 t :=
  (dat.before_in_eq_fetched 3 rfl (fun _ => rfl) (fun _ _ _ => rfl) (fun t => by rw [hafter]; unfold Dat.blockOf iblk_r0; rw [hA]; try rfl) t d).trans
    (by unfold Dat.fetched Dat.blockOf iblk_r0; rw [hA]; try rfl)

/-! ## The accumulator, point by point -/

/-- What the accumulator holds after the body at point n. -/
def acc_r0 (c : Dev nD) : (n : ℕ) → n < cfg0.N → Vec F S1x1 .f32
  | 0, hn => k0_pay1 (k0_pay3 (iblk_r0 V c 0 ⟨0, hn⟩) (iblk_r0 V c 1 ⟨0, hn⟩)) (k0_pay4 (iblk_r0 V c 2 ⟨0, hn⟩) (iblk_r0 V c 3 ⟨0, hn⟩)) (k0_pay2 (F := F))
  | n + 1, hn => k0_pay1 (k0_pay3 (iblk_r0 V c 0 ⟨n + 1, hn⟩) (iblk_r0 V c 1 ⟨n + 1, hn⟩)) (k0_pay4 (iblk_r0 V c 2 ⟨n + 1, hn⟩) (iblk_r0 V c 3 ⟨n + 1, hn⟩)) (acc_r0 c n (Nat.lt_of_succ_lt hn))

/-- At the first point: the reset value, then the tile. -/
theorem acc_r0_zero (c : Dev nD) (t : Fin cfg0.N) (h : t.val = 0) :
    acc_r0 V c t.val t.isLt = k0_pay1 (k0_pay3 (iblk_r0 V c 0 t) (iblk_r0 V c 1 t)) (k0_pay4 (iblk_r0 V c 2 t) (iblk_r0 V c 3 t)) (k0_pay2 (F := F)) := by
  obtain ⟨n, hn⟩ := t
  cases n with
  | zero => rfl
  | succ n => exact absurd h (Nat.succ_ne_zero n)

/-- At a later point: what the point before left, then the tile. -/
theorem acc_r0_pos (c : Dev nD) (t : Fin cfg0.N) (h : t.val ≠ 0) :
    acc_r0 V c t.val t.isLt = k0_pay1 (k0_pay3 (iblk_r0 V c 0 t) (iblk_r0 V c 1 t)) (k0_pay4 (iblk_r0 V c 2 t) (iblk_r0 V c 3 t)) (acc_r0 V c (t.val - 1) (Nat.lt_of_le_of_lt (Nat.sub_le _ _) t.isLt)) := by
  obtain ⟨n, hn⟩ := t
  cases n with
  | zero => exact absurd rfl h
  | succ n => rfl

/-! ## The invariant between points -/

/-- Before point 0 the class's invariant (the accumulator at anything); before point n + 1 the accumulator at what
    point n left, the other scoped buffers and the generator register as they are. -/
def PhiS_r0 (c : Dev nD) : (n : ℕ) → n ≤ cfg0.N → sProp 𝕄
  | 0, _ => Pipeline.ΦA spec0 c
  | n + 1, hn => iprop((owns (c : Thread nD τ) scM_r0 fullShare (acc_r0 V c n hn) ∗ others_r0 (F := F) c) ∗ (∃ r, prngReg c r))

theorem PhiS_r0_zero (c : Dev nD) (n : ℕ) (h : n ≤ cfg0.N) (hz : n = 0) : PhiS_r0 V c n h = Pipeline.ΦA spec0 c := by
  subst hz; rfl

theorem PhiS_r0_succ (c : Dev nD) (n : ℕ) (hn : n < cfg0.N) :
    PhiS_r0 V c (n + 1) hn = iprop((owns (c : Thread nD τ) scM_r0 fullShare (acc_r0 V c n hn) ∗ others_r0 (F := F) c) ∗ (∃ r, prngReg c r)) := rfl

theorem PhiS_r0_pos (c : Dev nD) (n : ℕ) (h : n ≤ cfg0.N) (hz : n ≠ 0) :
    PhiS_r0 V c n h = iprop((owns (c : Thread nD τ) scM_r0 fullShare (acc_r0 V c (n - 1) (by omega)) ∗ others_r0 (F := F) c) ∗ (∃ r, prngReg c r)) := by
  cases n with
  | zero => exact absurd rfl hz
  | succ n => rfl

/-! ## The proof data -/

/-- The region's proof data on core c: the arrays as the region finds them; after the body each input buffer at its
    block and the output buffer at the accumulator's contents (consulted at the last point only: elsewhere the window
    is idle); the invariant above; nothing owed. -/
def dat_r0 (c : Dev nD) : Dat τ (Elt F) Unit ℕ (UR sig nD τ) ℕ cfg0 c where
  A w := V c (Pipeline.arrRef spec0 w)
  after w t := match w with
    | ⟨0, _⟩ => iblk_r0 V c 0 t
    | ⟨1, _⟩ => iblk_r0 V c 1 t
    | ⟨2, _⟩ => iblk_r0 V c 2 t
    | ⟨3, _⟩ => iblk_r0 V c 3 t
    | ⟨4, _⟩ => acc_r0 V c t.val t.isLt
  Φ t := PhiS_r0 V c t.val (Nat.le_of_lt_succ t.isLt)
  q := q
  owed _ := 0

theorem A_eq_r0 (c : Dev nD) (w : Fin cfg0.W) : (dat_r0 V q c).A w = V c (Pipeline.arrRef spec0 w) := by
  dsimp only [dat_r0]

theorem PhiS_r0_castSucc (c : Dev nD) (t : Fin cfg0.N) :
    (dat_r0 V q c).Φ t.castSucc = PhiS_r0 V c t.val (Nat.le_of_lt t.isLt) := by
  dsimp only [dat_r0]; simp only [Fin.coe_castSucc]

theorem after_r0_0 (c : Dev nD) (t : Fin cfg0.N) : (dat_r0 V q c).after 0 t = iblk_r0 V c 0 t := by dsimp only [dat_r0]
theorem after_r0_1 (c : Dev nD) (t : Fin cfg0.N) : (dat_r0 V q c).after 1 t = iblk_r0 V c 1 t := by dsimp only [dat_r0]
theorem after_r0_2 (c : Dev nD) (t : Fin cfg0.N) : (dat_r0 V q c).after 2 t = iblk_r0 V c 2 t := by dsimp only [dat_r0]
theorem after_r0_3 (c : Dev nD) (t : Fin cfg0.N) : (dat_r0 V q c).after 3 t = iblk_r0 V c 3 t := by dsimp only [dat_r0]
theorem after_r0_4 (c : Dev nD) (t : Fin cfg0.N) : (dat_r0 V q c).after 4 t = acc_r0 V c t.val t.isLt := by dsimp only [dat_r0]

theorem before_r0_0 (c : Dev nD) (t : Fin cfg0.N) (d) : (dat_r0 V q c).before 0 t d = iblk_r0 V c 0 t :=
  before_r0_0_of V (dat_r0 V q c) (A_eq_r0 V q c 0) (after_r0_0 V q c) t d
theorem before_r0_1 (c : Dev nD) (t : Fin cfg0.N) (d) : (dat_r0 V q c).before 1 t d = iblk_r0 V c 1 t :=
  before_r0_1_of V (dat_r0 V q c) (A_eq_r0 V q c 1) (after_r0_1 V q c) t d
theorem before_r0_2 (c : Dev nD) (t : Fin cfg0.N) (d) : (dat_r0 V q c).before 2 t d = iblk_r0 V c 2 t :=
  before_r0_2_of V (dat_r0 V q c) (A_eq_r0 V q c 2) (after_r0_2 V q c) t d
theorem before_r0_3 (c : Dev nD) (t : Fin cfg0.N) (d) : (dat_r0 V q c).before 3 t d = iblk_r0 V c 3 t :=
  before_r0_3_of V (dat_r0 V q c) (A_eq_r0 V q c 3) (after_r0_3 V q c) t d

/-! ## The body obligation -/

/-- What the body is called with at point t, the windows one by one, -/
def bodyPre_r0 (c : Dev nD) (t : Fin cfg0.N) : sProp 𝕄 :=
  iprop((dat_r0 V q c).Φ t.castSucc ∗ (dat_r0 V q c).owesAt () t.castSucc
    ∗ (∃ d, owns (c : Thread nD τ) (ms_r0_0 t) fullShare ((dat_r0 V q c).before 0 t d))
    ∗ (∃ d, owns (c : Thread nD τ) (ms_r0_1 t) fullShare ((dat_r0 V q c).before 1 t d))
    ∗ (∃ d, owns (c : Thread nD τ) (ms_r0_2 t) fullShare ((dat_r0 V q c).before 2 t d))
    ∗ (∃ d, owns (c : Thread nD τ) (ms_r0_3 t) fullShare ((dat_r0 V q c).before 3 t d))
    ∗ (∃ d, owns (c : Thread nD τ) (ms_r0_4 t) fullShare ((dat_r0 V q c).before 4 t d)))

/-- and what it returns. -/
def bodyPost_r0 (c : Dev nD) (t : Fin cfg0.N) : sProp 𝕄 :=
  iprop((dat_r0 V q c).Φ t.succ ∗ (dat_r0 V q c).owesAt () t.succ
    ∗ (dat_r0 V q c).leavesExact 0 t
    ∗ (dat_r0 V q c).leavesExact 1 t
    ∗ (dat_r0 V q c).leavesExact 2 t
    ∗ (dat_r0 V q c).leavesExact 3 t
    ∗ (dat_r0 V q c).leavesExact 4 t)

set_option maxHeartbeats 4800000 in
/-- The body at any point. The input buffers hold their blocks; the point is the first, the last or neither, which
    decides the two conditionals; the matching run applies; the invariant hands over the accumulator (at anything at
    the first point, else at what the point before left) and takes it back at this point's contents. -/
theorem sound_body_r0 (c : Dev nD) (t : Fin cfg0.N) :
    bodyPre_r0 V q c t ⊢ wp frame (wpE (defs₀ (F := F)) Variants.none c none) Set.univ (bodyAt0 t) (fun _ => bodyPost_r0 V q c t) := by
  unfold bodyPre_r0 bodyPost_r0 bodyAt0
  simp only [before_r0_0, before_r0_1, before_r0_2, before_r0_3]
  rw [show (dat_r0 V q c).owesAt () t.succ = (dat_r0 V q c).owesAt () t.castSucc from rfl]
  rw [show (dat_r0 V q c).Φ t.succ = PhiS_r0 V c (t.val + 1) t.isLt from rfl, PhiS_r0_succ]
  rw [show (dat_r0 V q c).leavesExact 0 t = owns (c : Thread nD τ) (ms_r0_0 t) fullShare ((dat_r0 V q c).after 0 t) from by
    unfold Dat.leavesExact; rw [live_r0_0 t], after_r0_0]
  rw [show (dat_r0 V q c).leavesExact 1 t = owns (c : Thread nD τ) (ms_r0_1 t) fullShare ((dat_r0 V q c).after 1 t) from by
    unfold Dat.leavesExact; rw [live_r0_1 t], after_r0_1]
  rw [show (dat_r0 V q c).leavesExact 2 t = owns (c : Thread nD τ) (ms_r0_2 t) fullShare ((dat_r0 V q c).after 2 t) from by
    unfold Dat.leavesExact; rw [live_r0_2 t], after_r0_2]
  rw [show (dat_r0 V q c).leavesExact 3 t = owns (c : Thread nD τ) (ms_r0_3 t) fullShare ((dat_r0 V q c).after 3 t) from by
    unfold Dat.leavesExact; rw [live_r0_3 t], after_r0_3]
  have hN : t.val < 256 := lt_of_lt_of_eq t.isLt (show cfg0.N = 256 from N_0)
  by_cases h0 : t.val = 0
  · have hcA : condA_r0 (grid0.coords t) := (hcondA_r0 t).mpr h0
    have hcC : ¬condC_r0 (grid0.coords t) := fun h => by have := (hcondC_r0 t).mp h; omega
    rw [Dat.leavesExact_idle (dat_r0 V q c) 4 t (idle_r0_4 t hcC) (noFlush_r0_4 t hcC)]
    rw [acc_r0_zero V c t h0]
    rw [PhiS_r0_castSucc V q c t, PhiS_r0_zero V c _ _ h0, PhiA_r0_eq]
    iintro ⟨⟨⟨HS, Hoth⟩, Hg⟩, Ho, ⟨%d0, H0⟩, ⟨%d1, H1⟩, ⟨%d2, H2⟩, ⟨%d3, H3⟩, ⟨%d4, H4⟩⟩
    iapply (run_r0_A c (grid0.coords t) _ _ _ _ _ _ _ _ _ _ _ _ hcA hcC (iblk_r0 V c 0 t) (iblk_r0 V c 1 t) (iblk_r0 V c 2 t) (iblk_r0 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · by_cases h1 : t.val = 255
    · have hcA : ¬condA_r0 (grid0.coords t) := fun h => h0 ((hcondA_r0 t).mp h)
      have hcC : condC_r0 (grid0.coords t) := (hcondC_r0 t).mpr h1
      rw [show (dat_r0 V q c).leavesExact 4 t = owns (c : Thread nD τ) (ms_r0_4 t) fullShare ((dat_r0 V q c).after 4 t) from by
        unfold Dat.leavesExact; rw [live_r0_4 t hcC], after_r0_4]
      rw [acc_r0_pos V c t h0]
      rw [PhiS_r0_castSucc V q c t, PhiS_r0_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r0_C c (grid0.coords t) _ _ _ _ _ _ _ _ _ _ _ _ hcA hcC (iblk_r0 V c 0 t) (iblk_r0 V c 1 t) (iblk_r0 V c 2 t) (iblk_r0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hcA : ¬condA_r0 (grid0.coords t) := fun h => h0 ((hcondA_r0 t).mp h)
      have hcC : ¬condC_r0 (grid0.coords t) := fun h => h1 ((hcondC_r0 t).mp h)
      rw [Dat.leavesExact_idle (dat_r0 V q c) 4 t (idle_r0_4 t hcC) (noFlush_r0_4 t hcC)]
      rw [acc_r0_pos V c t h0]
      rw [PhiS_r0_castSucc V q c t, PhiS_r0_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r0_B c (grid0.coords t) _ _ _ _ _ _ _ _ _ _ _ _ hcA hcC (iblk_r0 V c 0 t) (iblk_r0 V c 1 t) (iblk_r0 V c 2 t) (iblk_r0 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation_r0 (c : Dev nD) : BodyObligation (dat_r0 (F := F) V q c) (defs₀ (F := F)) Variants.none () Set.univ := fun t => by
  rw [bigSep_W0, bigSep_W0]
  exact sound_body_r0 V q c t

/-! ## Into and out of the invariant -/

/-- What the launch hands the region is the invariant before the first point. -/
theorem hin_r0 (c : Dev nD) : Pipeline.ΦA spec0 c ⊢ (dat_r0 V q c).Φ 0 := by
  rw [show (dat_r0 V q c).Φ 0 = PhiS_r0 V c 0 (Nat.zero_le _) from rfl, PhiS_r0_zero V c 0 _ rfl]

/-- After the last point the invariant gives the class's back: the accumulator's named contents are forgotten. -/
theorem hout_r0 (c : Dev nD) : (dat_r0 V q c).Φ (Fin.last cfg0.N) ⊢ Pipeline.ΦA spec0 c := by
  have hne : (Fin.last cfg0.N).val ≠ 0 := by rw [Fin.val_last]; have : cfg0.N = 256 := N_0; omega
  rw [show (dat_r0 V q c).Φ (Fin.last cfg0.N) = PhiS_r0 V c (Fin.last cfg0.N).val (Nat.le_of_lt_succ (Fin.last cfg0.N).isLt) from rfl,
    PhiS_r0_pos V c _ _ hne, PhiA_r0_eq]
  iintro ⟨⟨HS, Hoth⟩, Hg⟩
  isplitl [HS Hoth]
  · isplitl [HS]
    · iexists _; iexact HS
    iexact Hoth
  iexact Hg

end Region

end Cert.KernelIdeal.Hand

end
-- ==== Proof.KI.R0Split.lean ====
/-
  Region 0 reads each of its two input arrays through TWO windows (rows i of the pair and rows j of the pair come from
  one array). The pipeline holds each window's array at a share of its own, so the buffer behind such an array, held
  whole at the full share, is handed to the two windows a half each, and the halves join back to the full share when
  the region ends. The output array has one window and is held outright.
-/
import proofs.«168368_j77163382440707_1_alg».proof.Proof.Gen.KernelIdeal.Launch
import Idealize.ShloMosaic.Lib.Pipeline.FrameBody
import Idealize.ShloMosaic.Lib.Pipeline.RegionsLoop
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The shares region 0 holds its arrays at: the two windows on one array take a half each; the output's is unused
    (an output array is held at the full share whatever this says). -/
def q_r0 : Fin cfg0.W → PosShare TreeShare
  | ⟨0, _⟩ => fullShare.left
  | ⟨1, _⟩ => fullShare.right
  | ⟨2, _⟩ => fullShare.left
  | ⟨3, _⟩ => fullShare.right
  | ⟨4, _⟩ => fullShare

/-- The buffers behind region 0's arrays: main_arg0, main_arg2 and main_v0. -/
theorem arrRefs_r0 : Finset.univ.image (Pipeline.arrRef spec0) = ([main_arg0, main_arg2, main_v0] : List (Ref sig .tc)).toFinset := by decide

/-- The buffers behind region 0's arrays, one by one: main_arg0, main_arg2 and main_v0, each whole at the full share. -/
theorem arrBufs_r0_eq (c : Dev nD) (Vb : (b : Ref sig .tc) → Buf (Elt F) ((c : Thread nD τ).loc b)) :
    (Pipeline.arrBufs (Ix := Unit) (Name := ℕ) (U := UR sig nD τ) (Lvl := ℕ) spec0 c Vb : sProp 𝕄)
      = iprop((((c : Thread nD τ).loc main_arg0) ↦{fullShare} Vb main_arg0) ∗ (((c : Thread nD τ).loc main_arg2) ↦{fullShare} Vb main_arg2)
          ∗ (((c : Thread nD τ).loc main_v0) ↦{fullShare} Vb main_v0)) := by
  unfold Pipeline.arrBufs
  exact bigSep_eq_bigSepL_of_eq [main_arg0, main_arg2, main_v0] arrRefs_r0 (by decide) _

/-- One window's array, a whole buffer, is the buffer behind it held whole, at the window's share and the contents
    Vb reads there. -/
theorem win_pt_r0 {c : Dev nD} (dat : Dat τ (Elt F) Unit ℕ (UR sig nD τ) ℕ cfg0 c) (w : Fin cfg0.W) (q : PosShare TreeShare)
    (hs : dat.share w = q)
    (Vb : (b : Ref sig .tc) → Buf (Elt F) ((c : Thread nD τ).loc b))
    (Fa : (w : Fin cfg0.W) → Buf (Elt F) ((cfg0.win w).arr.view.loc (c.tc : Thread nD τ)))
    (hF : ∀ w, Fa w = Vb (Pipeline.arrRef spec0 w)) :
    ((cfg0.win w).arr.view.loc (c.tc : Thread nD τ) ↦[(cfg0.win w).arr.view.set]{dat.share w} Fa w : sProp 𝕄)
      = (((c : Thread nD τ).loc (Pipeline.arrRef spec0 w)) ↦{q} Vb (Pipeline.arrRef spec0 w)) := by
  rw [(arr_whole0 w).set_eq_univ, hs, hF w]

/-- The share of each window of region 0: the four inputs hold the halves q_r0 names, the output the full share. -/
theorem share_r0 {c : Dev nD} (dat : Dat τ (Elt F) Unit ℕ (UR sig nD τ) ℕ cfg0 c) (hq : dat.q = q_r0) :
    dat.share 0 = fullShare.left ∧ dat.share 1 = fullShare.right ∧ dat.share 2 = fullShare.left ∧ dat.share 3 = fullShare.right
      ∧ dat.share 4 = fullShare := by
  unfold Dat.share
  rw [hq]
  exact ⟨rfl, rfl, rfl, rfl, rfl⟩

/-- The pipeline's arrays of region 0, window by window: the two halves of main_arg0, the two halves of main_arg2, and
    main_v0 outright, all at the contents Vb reads. -/
theorem arrays_r0_eq {c : Dev nD} (dat : Dat τ (Elt F) Unit ℕ (UR sig nD τ) ℕ cfg0 c) (hq : dat.q = q_r0)
    (Vb : (b : Ref sig .tc) → Buf (Elt F) ((c : Thread nD τ).loc b))
    (Fa : (w : Fin cfg0.W) → Buf (Elt F) ((cfg0.win w).arr.view.loc (c.tc : Thread nD τ)))
    (hF : ∀ w, Fa w = Vb (Pipeline.arrRef spec0 w)) :
    (dat.arrays Fa : sProp 𝕄)
      = iprop((((c : Thread nD τ).loc main_arg0) ↦{fullShare.left} Vb main_arg0) ∗ (((c : Thread nD τ).loc main_arg0) ↦{fullShare.right} Vb main_arg0)
          ∗ (((c : Thread nD τ).loc main_arg2) ↦{fullShare.left} Vb main_arg2) ∗ (((c : Thread nD τ).loc main_arg2) ↦{fullShare.right} Vb main_arg2)
          ∗ (((c : Thread nD τ).loc main_v0) ↦{fullShare} Vb main_v0)) := by
  obtain ⟨s0, s1, s2, s3, s4⟩ := share_r0 dat hq
  unfold Dat.arrays
  rw [Gen.bigSep_W0, win_pt_r0 dat 0 _ s0 Vb Fa hF, win_pt_r0 dat 1 _ s1 Vb Fa hF, win_pt_r0 dat 2 _ s2 Vb Fa hF, win_pt_r0 dat 3 _ s3 Vb Fa hF,
    win_pt_r0 dat 4 _ s4 Vb Fa hF]

/-- The buffers behind region 0's arrays, each whole at the full share at contents Vb, ARE the pipeline's arrays at
    contents Fa (each window's array at its share), when Fa is Vb read at each window's array: in both directions. -/
theorem arrays_iff_r0 {c : Dev nD} (dat : Dat τ (Elt F) Unit ℕ (UR sig nD τ) ℕ cfg0 c) (hq : dat.q = q_r0)
    (Vb : (b : Ref sig .tc) → Buf (Elt F) ((c : Thread nD τ).loc b))
    (Fa : (w : Fin cfg0.W) → Buf (Elt F) ((cfg0.win w).arr.view.loc (c.tc : Thread nD τ)))
    (hF : ∀ w, Fa w = Vb (Pipeline.arrRef spec0 w)) :
    (Pipeline.arrBufs (Ix := Unit) (Name := ℕ) (U := UR sig nD τ) (Lvl := ℕ) spec0 c Vb : sProp 𝕄) ⊣⊢ dat.arrays Fa := by
  rw [arrBufs_r0_eq, arrays_r0_eq dat hq Vb Fa hF]
  -- the full share is the composite of its two halves
  have hs : fullShare ∈ PCS.op fullShare.left fullShare.right := PosShare.mem_left_op_right fullShare
  constructor
  · -- each shared buffer is cut in two halves, one per window
    iintro ⟨H0, H2, H4⟩
    ihave H0' := (pointsTo_share hs).1 $$ H0
    icases H0' with ⟨H0l, H0r⟩
    ihave H2' := (pointsTo_share hs).1 $$ H2
    icases H2' with ⟨H2l, H2r⟩
    isplitl [H0l]; · iexact H0l
    isplitl [H0r]; · iexact H0r
    isplitl [H2l]; · iexact H2l
    isplitl [H2r]; · iexact H2r
    iexact H4
  · -- the two halves of each shared buffer join back to the full share
    iintro ⟨H0l, H0r, H2l, H2r, H4⟩
    isplitl [H0l H0r]
    · iapply (pointsTo_share hs).2
      isplitl [H0l]; · iexact H0l
      iexact H0r
    isplitl [H2l H2r]
    · iapply (pointsTo_share hs).2
      isplitl [H2l]; · iexact H2l
      iexact H2r
    iexact H4

end Cert.KernelIdeal.Hand

end
-- ==== Proof.KI.R0Glue.lean ====
/-
  Region 0 between two boundaries of @main: from every unscoped buffer of the core held whole at the contents the
  region is entered with, to the pipeline's arrays (each window's array at its share) beside the buffers no window
  names; and back, when the region ends, to every unscoped buffer held whole at the contents it leaves: the entry
  contents with the output array at what the one write-back left.
-/
import proofs.«168368_j77163382440707_1_alg».proof.Proof.KI.R0Frame
import proofs.«168368_j77163382440707_1_alg».proof.Proof.KI.R0Split
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Glue

variable (W : Dev nD → Valuation τ sig (Elt F))

/-- The entry contents read at the TensorCore's references: what the region's proof data take. -/
abbrev Vof_r0 (c : Dev nD) (b : Ref sig .tc) : Buf (Elt F) ((c : Thread nD τ).loc b) := W c b

/-- The region's proof data at these entry contents, the shared arrays held a half per window. -/
abbrev dd_r0 (c : Dev nD) : Dat τ (Elt F) Unit ℕ (UR sig nD τ) ℕ cfg0 c := dat_r0 (Vof_r0 W) q_r0 c

/-- What the region leaves in its output array. -/
abbrev res_r0 (c : Dev nD) : Buf (Elt F) ((c : Thread nD τ).loc (Pipeline.arrRef spec0 4)) := (dd_r0 W c).arrAt 4 cfg0.N

/-- The contents the region leaves: the entry contents with the output array at what the write-back left. -/
def Wout_r0 (c : Dev nD) : Valuation τ sig (Elt F) :=
  Function.update (W c) (Proc.devRef .tc (Pipeline.arrRef spec0 4)) (res_r0 W c)

theorem Wout_r0_out (c : Dev nD) : Wout_r0 W c (Proc.devRef .tc (Pipeline.arrRef spec0 4)) = res_r0 W c := by
  unfold Wout_r0; exact Function.update_self ..

theorem Wout_r0_of_ne (c : Dev nD) (b : Ref sig .tc) (hb : b ≠ Pipeline.arrRef spec0 4) :
    Wout_r0 W c (Proc.devRef .tc b) = W c (Proc.devRef .tc b) := by
  unfold Wout_r0; exact Function.update_of_ne (StableHlo.devRef_ne_of_ne hb) ..

/-- Entering: the unscoped buffers at the entry contents are the pipeline's arrays at their entry contents and the rest. -/
theorem entry_r0 (c : Dev nD) :
    (StableHlo.held (c : Thread nD τ) (Pipeline.ucRefs τ sig) (W c) : sProp 𝕄)
      ⊢ iprop((dd_r0 W c).arrays (fun w => (dd_r0 W c).arrAt w 0) ∗ Pipeline.unscopedRest (Ix := Unit) (Name := ℕ) (U := UR sig nD τ) (Lvl := ℕ) spec0 c (Vof_r0 W c)) := by
  rw [← Pipeline.unscopedBufs_held (Ix := Unit) (Name := ℕ) (U := UR sig nD τ) (Lvl := ℕ) c (W c)]
  rw [Pipeline.unscopedBufs_split₀ cfgs (0 : Fin 3) winFacts₀0.arr_unscoped c (Vof_r0 W c)]
  exact sep_mono (arrays_iff_r0 (dd_r0 W c) rfl (Vof_r0 W c) _ (fun w => A_eq_r0 (Vof_r0 W) q_r0 c w)).1 .rfl

/-- Leaving: the arrays at their final contents and the rest are the unscoped buffers at the contents the region leaves. -/
theorem exit_r0 (c : Dev nD) :
    iprop((dd_r0 W c).arrays (fun w => (dd_r0 W c).arrAt w cfg0.N) ∗ Pipeline.unscopedRest (Ix := Unit) (Name := ℕ) (U := UR sig nD τ) (Lvl := ℕ) spec0 c (Vof_r0 W c))
      ⊢ (StableHlo.held (c : Thread nD τ) (Pipeline.ucRefs τ sig) (Wout_r0 W c) : sProp 𝕄) := by
  have hF : ∀ w : Fin cfg0.W, (dd_r0 W c).arrAt w cfg0.N = Vof_r0 (Wout_r0 W) c (Pipeline.arrRef spec0 w) := by
    intro w
    match w with
    | ⟨0, _⟩ => exact ((dd_r0 W c).arrAt_in 0 rfl _).trans ((A_eq_r0 (Vof_r0 W) q_r0 c 0).trans (Wout_r0_of_ne W c _ (by decide)).symm)
    | ⟨1, _⟩ => exact ((dd_r0 W c).arrAt_in 1 rfl _).trans ((A_eq_r0 (Vof_r0 W) q_r0 c 1).trans (Wout_r0_of_ne W c _ (by decide)).symm)
    | ⟨2, _⟩ => exact ((dd_r0 W c).arrAt_in 2 rfl _).trans ((A_eq_r0 (Vof_r0 W) q_r0 c 2).trans (Wout_r0_of_ne W c _ (by decide)).symm)
    | ⟨3, _⟩ => exact ((dd_r0 W c).arrAt_in 3 rfl _).trans ((A_eq_r0 (Vof_r0 W) q_r0 c 3).trans (Wout_r0_of_ne W c _ (by decide)).symm)
    | ⟨4, _⟩ => exact (Wout_r0_out W c).symm
  have hrest : (Pipeline.unscopedRest (Ix := Unit) (Name := ℕ) (U := UR sig nD τ) (Lvl := ℕ) spec0 c (Vof_r0 W c) : sProp 𝕄)
      = Pipeline.unscopedRest spec0 c (Vof_r0 (Wout_r0 W) c) := by
    unfold Pipeline.unscopedRest
    refine bigSep_congr fun b hb => ?_
    have hne : b ≠ Pipeline.arrRef spec0 4 := fun e =>
      (Finset.mem_sdiff.mp hb).2 (Finset.mem_image.mpr ⟨4, Finset.mem_univ _, e.symm⟩)
    rw [show Vof_r0 (Wout_r0 W) c b = Vof_r0 W c b from Wout_r0_of_ne W c b hne]
  rw [← Pipeline.unscopedBufs_held (Ix := Unit) (Name := ℕ) (U := UR sig nD τ) (Lvl := ℕ) c (Wout_r0 W c)]
  rw [Pipeline.unscopedBufs_split₀ cfgs (0 : Fin 3) winFacts₀0.arr_unscoped c (Vof_r0 (Wout_r0 W) c), hrest]
  exact sep_mono (arrays_iff_r0 (dd_r0 W c) rfl (Vof_r0 (Wout_r0 W) c) _ hF).2 .rfl

end Glue

end Cert.KernelIdeal.Hand

end
-- ==== Proof.KI.R1Base.lean ====
/-
  Region 1 (one of the program's three kernel sums, each a pallas_call of the same kernel): where its two conditionals hold on the 4 × 8 × 8 grid, where its output window is
  idle, and the invariant opened at the accumulator.

  The body resets its 1 × 1 accumulator at the grid's first point (all three coordinates zero), adds the tile's total at
  every point, and copies the accumulator into the output block at the last point (coordinates 3, 7, 7). In row-major
  order those are points 0 and 255 of 256. The output window keeps one block index throughout, so the pipeline
  writes it back once, after the last point; everywhere else the window is idle and the body hands its buffer back
  as it found it.
-/
import proofs.«168368_j77163382440707_1_alg».proof.Proof.Gen.KernelIdeal.Launch
import proofs.«168368_j77163382440707_1_alg».proof.Proof.Gen.KernelIdeal.Skeleton
import proofs.«168368_j77163382440707_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset's condition: all three grid coordinates are zero. -/
abbrev condA_r1 (i : grid1.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcondA_r1 : ∀ t : Fin cfg1.N, condA_r1 (grid1.coords t) ↔ t.val = 0 :=
  (by decide +kernel : ∀ t : Fin grid1.N, condA_r1 (grid1.coords t) ↔ t.val = 0)

/-- The output store's condition: the coordinates are the last ones. -/
abbrev condC_r1 (i : grid1.Coords) : Prop := k1_cond2 i = 1#1
/-- It holds at the last point only. -/
theorem hcondC_r1 : ∀ t : Fin cfg1.N, condC_r1 (grid1.coords t) ↔ t.val = 255 :=
  (by decide +kernel : ∀ t : Fin grid1.N, condC_r1 (grid1.coords t) ↔ t.val = 255)

/-- The input windows are never idle. -/
theorem live_r1_0 : ∀ t : Fin cfg1.N, cfg1.idle 0 (grid1.coords t) = false := by decide +kernel
theorem live_r1_1 : ∀ t : Fin cfg1.N, cfg1.idle 1 (grid1.coords t) = false := by decide +kernel
theorem live_r1_2 : ∀ t : Fin cfg1.N, cfg1.idle 2 (grid1.coords t) = false := by decide +kernel
theorem live_r1_3 : ∀ t : Fin cfg1.N, cfg1.idle 3 (grid1.coords t) = false := by decide +kernel
/-- Away from the last point the output window is idle and is not written back; at the last point it is live. -/
theorem idle_r1_4 : ∀ t : Fin cfg1.N, ¬condC_r1 (grid1.coords t) → cfg1.idle 4 (grid1.coords t) = true := by decide +kernel
theorem noFlush_r1_4 : ∀ t : Fin cfg1.N, ¬condC_r1 (grid1.coords t) → (cfg1.win 4).flush t = false := by decide +kernel
theorem live_r1_4 : ∀ t : Fin cfg1.N, condC_r1 (grid1.coords t) → cfg1.idle 4 (grid1.coords t) = false := by decide +kernel

/-- Each window's current staging memref at point t, as the pipeline passes it, and its wholeness. -/
abbrev ms_r1_0 (t : Fin cfg1.N) : Memref sig .tc .vmem S1x512x3 .f32 := win1_0.stage (cfg1.slots t 0)
abbrev hs_r1_0 (t : Fin cfg1.N) : (ms_r1_0 t).IsWhole := hstage1_0 ((cfg1.slots t 0).cast nbuf1_0)
abbrev ms_r1_1 (t : Fin cfg1.N) : Memref sig .tc .vmem S1x512x3 .f32 := win1_1.stage (cfg1.slots t 1)
abbrev hs_r1_1 (t : Fin cfg1.N) : (ms_r1_1 t).IsWhole := hstage1_1 ((cfg1.slots t 1).cast nbuf1_1)
abbrev ms_r1_2 (t : Fin cfg1.N) : Memref sig .tc .vmem S1x512x3 .f32 := win1_2.stage (cfg1.slots t 2)
abbrev hs_r1_2 (t : Fin cfg1.N) : (ms_r1_2 t).IsWhole := hstage1_2 ((cfg1.slots t 2).cast nbuf1_2)
abbrev ms_r1_3 (t : Fin cfg1.N) : Memref sig .tc .vmem S1x512x3 .f32 := win1_3.stage (cfg1.slots t 3)
abbrev hs_r1_3 (t : Fin cfg1.N) : (ms_r1_3 t).IsWhole := hstage1_3 ((cfg1.slots t 3).cast nbuf1_3)
abbrev ms_r1_4 (t : Fin cfg1.N) : Memref sig .tc .vmem S1x1 .f32 := win1_4.stage (cfg1.slots t 4)
abbrev hs_r1_4 (t : Fin cfg1.N) : (ms_r1_4 t).IsWhole := hstage1_4 ((cfg1.slots t 4).cast nbuf1_4)
/-- The accumulator: a whole scoped buffer of the kernel's own, passed beside the windows. -/
abbrev scM_r1 : Memref sig .tc .vmem S1x1 .f32 := Memref.whole cc1_scratch0

/-- The other scoped buffers of the core (the other calls' staging buffers and accumulators), each at some contents. -/
abbrev others_r1 (c : Dev nD) : sProp 𝕄 :=
  Pipeline.scopedRestBut (Ix := Unit) (Name := ℕ) (U := UR sig nD τ) (Lvl := ℕ) (Val := Elt F) spec1 c [cc1_scratch0]

/-- The class invariant with the accumulator split off: the accumulator at some contents, the other scoped buffers, and
    the generator register at some state. -/
theorem PhiA_r1_eq (c : Dev nD) :
    (Pipeline.ΦA spec1 c : sProp 𝕄)
      = iprop((iprop(∃ d, owns (c : Thread nD τ) scM_r1 fullShare d) ∗ others_r1 (F := F) c) ∗ (∃ r, prngReg c r)) := by
  unfold Pipeline.ΦA
  rw [Pipeline.scopedRest_split_of_list spec1 c [cc1_scratch0] (by decide) (by decide)]
  simp only [scM_r1, owns_whole]
  rfl

end Cert.KernelIdeal.Hand

end
-- ==== Proof.KI.R1RunA.lean ====
/-
  Region 1, the first point: the body resets the accumulator to zero, then adds the tile's total. Whatever the
  accumulator held, it ends at the stored value of the reset value and the blocks; the output buffer is handed back.
-/
import proofs.«168368_j77163382440707_1_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r1_A (c : Dev nD) (i : grid1.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : condA_r1 i) (hcC : ¬condC_r1 i)
    (x0 x1 x2 x3 : Vec F S1x512x3 .f32) (xi : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k1_pay1 (k1_pay3 x0 x1) (k1_pay4 x2 x3) (k1_pay2 (F := F)))) -∗ K ⟨⟩))
      ⊢ wp frame (wpE (defs₀ (F := F)) Variants.none c none) E (cc1__kernel_sum_kernel i arg3 harg3 arg4 harg4 arg5 harg5 arg6 harg6 arg7 harg7 arg8 harg8) K := by
  simp only [cc1__kernel_sum_kernel_eq_skeleton]; unfold cc1__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, Hk⟩
  obtain rfl := harg3.eq_unread hf0; obtain rfl := harg4.eq_unread hf1; obtain rfl := harg5.eq_unread hf2
  obtain rfl := harg6.eq_unread hf3; obtain rfl := harg7.eq_unread hf7
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R1RunB.lean ====
/-
  Region 1, a point that is neither first nor last: the body adds the tile's total to the accumulator and touches
  nothing else. On whole staging memrefs holding the four input blocks, the output buffer at contents it hands back,
  and the accumulator at s, it ends with the accumulator at the stored value of s and the blocks.
-/
import proofs.«168368_j77163382440707_1_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r1_B (c : Dev nD) (i : grid1.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r1 i) (hcC : ¬condC_r1 i)
    (x0 x1 x2 x3 : Vec F S1x512x3 .f32) (xi : Vec F S1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k1_pay1 (k1_pay3 x0 x1) (k1_pay4 x2 x3) xs)) -∗ K ⟨⟩))
      ⊢ wp frame (wpE (defs₀ (F := F)) Variants.none c none) E (cc1__kernel_sum_kernel i arg3 harg3 arg4 harg4 arg5 harg5 arg6 harg6 arg7 harg7 arg8 harg8) K := by
  simp only [cc1__kernel_sum_kernel_eq_skeleton]; unfold cc1__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R1RunC.lean ====
/-
  Region 1, the last point: the body adds the tile's total to the accumulator and copies the accumulator into the
  output block. Whatever the output buffer held, both end at the stored value of s and the blocks.
-/
import proofs.«168368_j77163382440707_1_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r1_C (c : Dev nD) (i : grid1.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r1 i) (hcC : condC_r1 i)
    (x0 x1 x2 x3 : Vec F S1x512x3 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (k1_pay1 (k1_pay3 x0 x1) (k1_pay4 x2 x3) xs)
            ∗ owns (c : Thread nD τ) arg8 fullShare (k1_pay1 (k1_pay3 x0 x1) (k1_pay4 x2 x3) xs)) -∗ K ⟨⟩))
      ⊢ wp frame (wpE (defs₀ (F := F)) Variants.none c none) E (cc1__kernel_sum_kernel i arg3 harg3 arg4 harg4 arg5 harg5 arg6 harg6 arg7 harg7 arg8 harg8) K := by
  simp only [cc1__kernel_sum_kernel_eq_skeleton]; unfold cc1__kernel_sum_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  obtain rfl := harg3.eq_unread hf0; obtain rfl := harg4.eq_unread hf1; obtain rfl := harg5.eq_unread hf2
  obtain rfl := harg6.eq_unread hf3; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    have hz2 : (![0, 0] : Fin S1x1.rank → Nat) = fun _ => 0 := by funext a; fin_cases a <;> rfl
    have hz3 : (![0, 0, 0] : Fin S1x512x3.rank → Nat) = fun _ => 0 := by funext a; fin_cases a <;> rfl
    sl_unfold_words
    refine (View.read_writes_eq_canon _ _ _ (fun y => ⟨_, List.mem_cons_self, View.mem_set_unit_zero hz2 inb_S1x1_S1x1_0_0 y⟩)).trans ?_
    rw [View.canon_cons_unit_zero hz2]
    simp only [View.readAt_eq_ld, View.readCov_unit_zero (S := S1x1) _ hz2, harg3.read_unread, harg4.read_unread, harg5.read_unread,
      harg6.read_unread, harg8.read_unread, View.ld_unit_zero (S := S1x1) hz2, View.ld_unit_zero (S := S1x512x3) hz3]
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R1Frame.lean ====
/-
  Region 1 (one of the program's three kernel sums, each a pallas_call of the same kernel) as a pipeline: what every staging buffer and the accumulator hold at every grid
  point, and that the kernel body keeps it so.

  An input window's buffer holds its array's block at the point, fetched there or carried over from the point
  before (the block index did not move). The accumulator after point n is defined by recursion on n: after point 0
  the stored value of the reset value and point 0's blocks; after point n + 1 the stored value of what point n left
  and point n + 1's blocks. The output buffer is idle except at the last point, where the body copies the accumulator
  into it. The region's invariant before point 0 is the class's (the accumulator at anything); before a later point
  it names the accumulator's contents. The entry contents of the arrays (V) and the shares the input arrays are held
  at (q) are parameters: they are fixed where the regions are put together.
-/
import proofs.«168368_j77163382440707_1_alg».proof.Proof.KI.R1RunA
import proofs.«168368_j77163382440707_1_alg».proof.Proof.KI.R1RunB
import proofs.«168368_j77163382440707_1_alg».proof.Proof.KI.R1RunC
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (q : Fin cfg1.W → PosShare TreeShare)

/-! ## The windows' blocks -/

/-- Window w's block at point t, read off its array as the region finds it. -/
def iblk_r1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, for any proof data whose array is the
    entry contents and whose body leaves the block in place. -/
theorem before_r1_0_of {c : Dev nD} (dat : Dat τ (Elt F) Unit ℕ (UR sig nD τ) ℕ cfg1 c) (hA : dat.A 0 = V c (Pipeline.arrRef spec1 0))
    (hafter : ∀ t, dat.after 0 t = iblk_r1 V c 0 t) (t : Fin cfg1.N) (d) : dat.before 0 t d = iblk_r1 V c 0 t :=
  (dat.before_in_eq_fetched 0 rfl (fun _ => rfl) (fun _ _ _ => rfl) (fun t => by rw [hafter]; unfold Dat.blockOf iblk_r1; rw [hA]; try rfl) t d).trans
    (by unfold Dat.fetched Dat.blockOf iblk_r1; rw [hA]; try rfl)
theorem before_r1_1_of {c : Dev nD} (dat : Dat τ (Elt F) Unit ℕ (UR sig nD τ) ℕ cfg1 c) (hA : dat.A 1 = V c (Pipeline.arrRef spec1 1))
    (hafter : ∀ t, dat.after 1 t = iblk_r1 V c 1 t) (t : Fin cfg1.N) (d) : dat.before 1 t d = iblk_r1 V c 1 t :=
  (dat.before_in_eq_fetched 1 rfl (fun _ => rfl) (fun _ _ _ => rfl) (fun t => by rw [hafter]; unfold Dat.blockOf iblk_r1; rw [hA]; try rfl) t d).trans
    (by unfold Dat.fetched Dat.blockOf iblk_r1; rw [hA]; try rfl)
theorem before_r1_2_of {c : Dev nD} (dat : Dat τ (Elt F) Unit ℕ (UR sig nD τ) ℕ cfg1 c) (hA : dat.A 2 = V c (Pipeline.arrRef spec1 2))
    (hafter : ∀ t, dat.after 2 t = iblk_r1 V c 2 t) (t : Fin cfg1.N) (d) : dat.before 2 t d = iblk_r1 V c 2 t :=
  (dat.before_in_eq_fetched 2 rfl (fun _ => rfl) (fun _ _ _ => rfl) (fun t => by rw [hafter]; unfold Dat.blockOf iblk_r1; rw [hA]; try rfl) t d).trans
    (by unfold Dat.fetched Dat.blockOf iblk_r1; rw [hA]; try rfl)
theorem before_r1_3_of {c : Dev nD} (dat : Dat τ (Elt F) Unit ℕ (UR sig nD τ) ℕ cfg1 c) (hA : dat.A 3 = V c (Pipeline.arrRef spec1 3))
    (hafter : ∀ t, dat.after 3 t = iblk_r1 V c 3 t) (t : Fin cfg1.N) (d) : dat.before 3 t d = iblk_r1 V c 3 t :=
  (dat.before_in_eq_fetched 3 rfl (fun _ => rfl) (fun _ _ _ => rfl) (fun t => by rw [hafter]; unfold Dat.blockOf iblk_r1; rw [hA]; try rfl) t d).trans
    (by unfold Dat.fetched Dat.blockOf iblk_r1; rw [hA]; try rfl)

/-! ## The accumulator, point by point -/

/-- What the accumulator holds after the body at point n. -/
def acc_r1 (c : Dev nD) : (n : ℕ) → n < cfg1.N → Vec F S1x1 .f32
  | 0, hn => k1_pay1 (k1_pay3 (iblk_r1 V c 0 ⟨0, hn⟩) (iblk_r1 V c 1 ⟨0, hn⟩)) (k1_pay4 (iblk_r1 V c 2 ⟨0, hn⟩) (iblk_r1 V c 3 ⟨0, hn⟩)) (k1_pay2 (F := F))
  | n + 1, hn => k1_pay1 (k1_pay3 (iblk_r1 V c 0 ⟨n + 1, hn⟩) (iblk_r1 V c 1 ⟨n + 1, hn⟩)) (k1_pay4 (iblk_r1 V c 2 ⟨n + 1, hn⟩) (iblk_r1 V c 3 ⟨n + 1, hn⟩)) (acc_r1 c n (Nat.lt_of_succ_lt hn))

/-- At the first point: the reset value, then the tile. -/
theorem acc_r1_zero (c : Dev nD) (t : Fin cfg1.N) (h : t.val = 0) :
    acc_r1 V c t.val t.isLt = k1_pay1 (k1_pay3 (iblk_r1 V c 0 t) (iblk_r1 V c 1 t)) (k1_pay4 (iblk_r1 V c 2 t) (iblk_r1 V c 3 t)) (k1_pay2 (F := F)) := by
  obtain ⟨n, hn⟩ := t
  cases n with
  | zero => rfl
  | succ n => exact absurd h (Nat.succ_ne_zero n)

/-- At a later point: what the point before left, then the tile. -/
theorem acc_r1_pos (c : Dev nD) (t : Fin cfg1.N) (h : t.val ≠ 0) :
    acc_r1 V c t.val t.isLt = k1_pay1 (k1_pay3 (iblk_r1 V c 0 t) (iblk_r1 V c 1 t)) (k1_pay4 (iblk_r1 V c 2 t) (iblk_r1 V c 3 t)) (acc_r1 V c (t.val - 1) (Nat.lt_of_le_of_lt (Nat.sub_le _ _) t.isLt)) := by
  obtain ⟨n, hn⟩ := t
  cases n with
  | zero => exact absurd rfl h
  | succ n => rfl

/-! ## The invariant between points -/

/-- Before point 0 the class's invariant (the accumulator at anything); before point n + 1 the accumulator at what
    point n left, the other scoped buffers and the generator register as they are. -/
def PhiS_r1 (c : Dev nD) : (n : ℕ) → n ≤ cfg1.N → sProp 𝕄
  | 0, _ => Pipeline.ΦA spec1 c
  | n + 1, hn => iprop((owns (c : Thread nD τ) scM_r1 fullShare (acc_r1 V c n hn) ∗ others_r1 (F := F) c) ∗ (∃ r, prngReg c r))

theorem PhiS_r1_zero (c : Dev nD) (n : ℕ) (h : n ≤ cfg1.N) (hz : n = 0) : PhiS_r1 V c n h = Pipeline.ΦA spec1 c := by
  subst hz; rfl

theorem PhiS_r1_succ (c : Dev nD) (n : ℕ) (hn : n < cfg1.N) :
    PhiS_r1 V c (n + 1) hn = iprop((owns (c : Thread nD τ) scM_r1 fullShare (acc_r1 V c n hn) ∗ others_r1 (F := F) c) ∗ (∃ r, prngReg c r)) := rfl

theorem PhiS_r1_pos (c : Dev nD) (n : ℕ) (h : n ≤ cfg1.N) (hz : n ≠ 0) :
    PhiS_r1 V c n h = iprop((owns (c : Thread nD τ) scM_r1 fullShare (acc_r1 V c (n - 1) (by omega)) ∗ others_r1 (F := F) c) ∗ (∃ r, prngReg c r)) := by
  cases n with
  | zero => exact absurd rfl hz
  | succ n => rfl

/-! ## The proof data -/

/-- The region's proof data on core c: the arrays as the region finds them; after the body each input buffer at its
    block and the output buffer at the accumulator's contents (consulted at the last point only: elsewhere the window
    is idle); the invariant above; nothing owed. -/
def dat_r1 (c : Dev nD) : Dat τ (Elt F) Unit ℕ (UR sig nD τ) ℕ cfg1 c where
  A w := V c (Pipeline.arrRef spec1 w)
  after w t := match w with
    | ⟨0, _⟩ => iblk_r1 V c 0 t
    | ⟨1, _⟩ => iblk_r1 V c 1 t
    | ⟨2, _⟩ => iblk_r1 V c 2 t
    | ⟨3, _⟩ => iblk_r1 V c 3 t
    | ⟨4, _⟩ => acc_r1 V c t.val t.isLt
  Φ t := PhiS_r1 V c t.val (Nat.le_of_lt_succ t.isLt)
  q := q
  owed _ := 0

theorem A_eq_r1 (c : Dev nD) (w : Fin cfg1.W) : (dat_r1 V q c).A w = V c (Pipeline.arrRef spec1 w) := by
  dsimp only [dat_r1]

theorem PhiS_r1_castSucc (c : Dev nD) (t : Fin cfg1.N) :
    (dat_r1 V q c).Φ t.castSucc = PhiS_r1 V c t.val (Nat.le_of_lt t.isLt) := by
  dsimp only [dat_r1]; simp only [Fin.coe_castSucc]

theorem after_r1_0 (c : Dev nD) (t : Fin cfg1.N) : (dat_r1 V q c).after 0 t = iblk_r1 V c 0 t := by dsimp only [dat_r1]
theorem after_r1_1 (c : Dev nD) (t : Fin cfg1.N) : (dat_r1 V q c).after 1 t = iblk_r1 V c 1 t := by dsimp only [dat_r1]
theorem after_r1_2 (c : Dev nD) (t : Fin cfg1.N) : (dat_r1 V q c).after 2 t = iblk_r1 V c 2 t := by dsimp only [dat_r1]
theorem after_r1_3 (c : Dev nD) (t : Fin cfg1.N) : (dat_r1 V q c).after 3 t = iblk_r1 V c 3 t := by dsimp only [dat_r1]
theorem after_r1_4 (c : Dev nD) (t : Fin cfg1.N) : (dat_r1 V q c).after 4 t = acc_r1 V c t.val t.isLt := by dsimp only [dat_r1]

theorem before_r1_0 (c : Dev nD) (t : Fin cfg1.N) (d) : (dat_r1 V q c).before 0 t d = iblk_r1 V c 0 t :=
  before_r1_0_of V (dat_r1 V q c) (A_eq_r1 V q c 0) (after_r1_0 V q c) t d
theorem before_r1_1 (c : Dev nD) (t : Fin cfg1.N) (d) : (dat_r1 V q c).before 1 t d = iblk_r1 V c 1 t :=
  before_r1_1_of V (dat_r1 V q c) (A_eq_r1 V q c 1) (after_r1_1 V q c) t d
theorem before_r1_2 (c : Dev nD) (t : Fin cfg1.N) (d) : (dat_r1 V q c).before 2 t d = iblk_r1 V c 2 t :=
  before_r1_2_of V (dat_r1 V q c) (A_eq_r1 V q c 2) (after_r1_2 V q c) t d
theorem before_r1_3 (c : Dev nD) (t : Fin cfg1.N) (d) : (dat_r1 V q c).before 3 t d = iblk_r1 V c 3 t :=
  before_r1_3_of V (dat_r1 V q c) (A_eq_r1 V q c 3) (after_r1_3 V q c) t d

/-! ## The body obligation -/

/-- What the body is called with at point t, the windows one by one, -/
def bodyPre_r1 (c : Dev nD) (t : Fin cfg1.N) : sProp 𝕄 :=
  iprop((dat_r1 V q c).Φ t.castSucc ∗ (dat_r1 V q c).owesAt () t.castSucc
    ∗ (∃ d, owns (c : Thread nD τ) (ms_r1_0 t) fullShare ((dat_r1 V q c).before 0 t d))
    ∗ (∃ d, owns (c : Thread nD τ) (ms_r1_1 t) fullShare ((dat_r1 V q c).before 1 t d))
    ∗ (∃ d, owns (c : Thread nD τ) (ms_r1_2 t) fullShare ((dat_r1 V q c).before 2 t d))
    ∗ (∃ d, owns (c : Thread nD τ) (ms_r1_3 t) fullShare ((dat_r1 V q c).before 3 t d))
    ∗ (∃ d, owns (c : Thread nD τ) (ms_r1_4 t) fullShare ((dat_r1 V q c).before 4 t d)))

/-- and what it returns. -/
def bodyPost_r1 (c : Dev nD) (t : Fin cfg1.N) : sProp 𝕄 :=
  iprop((dat_r1 V q c).Φ t.succ ∗ (dat_r1 V q c).owesAt () t.succ
    ∗ (dat_r1 V q c).leavesExact 0 t
    ∗ (dat_r1 V q c).leavesExact 1 t
    ∗ (dat_r1 V q c).leavesExact 2 t
    ∗ (dat_r1 V q c).leavesExact 3 t
    ∗ (dat_r1 V q c).leavesExact 4 t)

set_option maxHeartbeats 4800000 in
/-- The body at any point. The input buffers hold their blocks; the point is the first, the last or neither, which
    decides the two conditionals; the matching run applies; the invariant hands over the accumulator (at anything at
    the first point, else at what the point before left) and takes it back at this point's contents. -/
theorem sound_body_r1 (c : Dev nD) (t : Fin cfg1.N) :
    bodyPre_r1 V q c t ⊢ wp frame (wpE (defs₀ (F := F)) Variants.none c none) Set.univ (bodyAt1 t) (fun _ => bodyPost_r1 V q c t) := by
  unfold bodyPre_r1 bodyPost_r1 bodyAt1
  simp only [before_r1_0, before_r1_1, before_r1_2, before_r1_3]
  rw [show (dat_r1 V q c).owesAt () t.succ = (dat_r1 V q c).owesAt () t.castSucc from rfl]
  rw [show (dat_r1 V q c).Φ t.succ = PhiS_r1 V c (t.val + 1) t.isLt from rfl, PhiS_r1_succ]
  rw [show (dat_r1 V q c).leavesExact 0 t = owns (c : Thread nD τ) (ms_r1_0 t) fullShare ((dat_r1 V q c).after 0 t) from by
    unfold Dat.leavesExact; rw [live_r1_0 t], after_r1_0]
  rw [show (dat_r1 V q c).leavesExact 1 t = owns (c : Thread nD τ) (ms_r1_1 t) fullShare ((dat_r1 V q c).after 1 t) from by
    unfold Dat.leavesExact; rw [live_r1_1 t], after_r1_1]
  rw [show (dat_r1 V q c).leavesExact 2 t = owns (c : Thread nD τ) (ms_r1_2 t) fullShare ((dat_r1 V q c).after 2 t) from by
    unfold Dat.leavesExact; rw [live_r1_2 t], after_r1_2]
  rw [show (dat_r1 V q c).leavesExact 3 t = owns (c : Thread nD τ) (ms_r1_3 t) fullShare ((dat_r1 V q c).after 3 t) from by
    unfold Dat.leavesExact; rw [live_r1_3 t], after_r1_3]
  have hN : t.val < 256 := lt_of_lt_of_eq t.isLt (show cfg1.N = 256 from N_1)
  by_cases h0 : t.val = 0
  · have hcA : condA_r1 (grid1.coords t) := (hcondA_r1 t).mpr h0
    have hcC : ¬condC_r1 (grid1.coords t) := fun h => by have := (hcondC_r1 t).mp h; omega
    rw [Dat.leavesExact_idle (dat_r1 V q c) 4 t (idle_r1_4 t hcC) (noFlush_r1_4 t hcC)]
    rw [acc_r1_zero V c t h0]
    rw [PhiS_r1_castSucc V q c t, PhiS_r1_zero V c _ _ h0, PhiA_r1_eq]
    iintro ⟨⟨⟨HS, Hoth⟩, Hg⟩, Ho, ⟨%d0, H0⟩, ⟨%d1, H1⟩, ⟨%d2, H2⟩, ⟨%d3, H3⟩, ⟨%d4, H4⟩⟩
    iapply (run_r1_A c (grid1.coords t) _ _ _ _ _ _ _ _ _ _ _ _ hcA hcC (iblk_r1 V c 0 t) (iblk_r1 V c 1 t) (iblk_r1 V c 2 t) (iblk_r1 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · by_cases h1 : t.val = 255
    · have hcA : ¬condA_r1 (grid1.coords t) := fun h => h0 ((hcondA_r1 t).mp h)
      have hcC : condC_r1 (grid1.coords t) := (hcondC_r1 t).mpr h1
      rw [show (dat_r1 V q c).leavesExact 4 t = owns (c : Thread nD τ) (ms_r1_4 t) fullShare ((dat_r1 V q c).after 4 t) from by
        unfold Dat.leavesExact; rw [live_r1_4 t hcC], after_r1_4]
      rw [acc_r1_pos V c t h0]
      rw [PhiS_r1_castSucc V q c t, PhiS_r1_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r1_C c (grid1.coords t) _ _ _ _ _ _ _ _ _ _ _ _ hcA hcC (iblk_r1 V c 0 t) (iblk_r1 V c 1 t) (iblk_r1 V c 2 t) (iblk_r1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hcA : ¬condA_r1 (grid1.coords t) := fun h => h0 ((hcondA_r1 t).mp h)
      have hcC : ¬condC_r1 (grid1.coords t) := fun h => h1 ((hcondC_r1 t).mp h)
      rw [Dat.leavesExact_idle (dat_r1 V q c) 4 t (idle_r1_4 t hcC) (noFlush_r1_4 t hcC)]
      rw [acc_r1_pos V c t h0]
      rw [PhiS_r1_castSucc V q c t, PhiS_r1_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r1_B c (grid1.coords t) _ _ _ _ _ _ _ _ _ _ _ _ hcA hcC (iblk_r1 V c 0 t) (iblk_r1 V c 1 t) (iblk_r1 V c 2 t) (iblk_r1 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation_r1 (c : Dev nD) : BodyObligation (dat_r1 (F := F) V q c) (defs₀ (F := F)) Variants.none () Set.univ := fun t => by
  rw [bigSep_W1, bigSep_W1]
  exact sound_body_r1 V q c t

/-! ## Into and out of the invariant -/

/-- What the launch hands the region is the invariant before the first point. -/
theorem hin_r1 (c : Dev nD) : Pipeline.ΦA spec1 c ⊢ (dat_r1 V q c).Φ 0 := by
  rw [show (dat_r1 V q c).Φ 0 = PhiS_r1 V c 0 (Nat.zero_le _) from rfl, PhiS_r1_zero V c 0 _ rfl]

/-- After the last point the invariant gives the class's back: the accumulator's named contents are forgotten. -/
theorem hout_r1 (c : Dev nD) : (dat_r1 V q c).Φ (Fin.last cfg1.N) ⊢ Pipeline.ΦA spec1 c := by
  have hne : (Fin.last cfg1.N).val ≠ 0 := by rw [Fin.val_last]; have : cfg1.N = 256 := N_1; omega
  rw [show (dat_r1 V q c).Φ (Fin.last cfg1.N) = PhiS_r1 V c (Fin.last cfg1.N).val (Nat.le_of_lt_succ (Fin.last cfg1.N).isLt) from rfl,
    PhiS_r1_pos V c _ _ hne, PhiA_r1_eq]
  iintro ⟨⟨HS, Hoth⟩, Hg⟩
  isplitl [HS Hoth]
  · isplitl [HS]
    · iexists _; iexact HS
    iexact Hoth
  iexact Hg

end Region

end Cert.KernelIdeal.Hand

end
-- ==== Proof.KI.R1Split.lean ====
/-
  Region 1 reads each of its two input arrays through TWO windows (rows i of the pair and rows j of the pair come from
  one array). The pipeline holds each window's array at a share of its own, so the buffer behind such an array, held
  whole at the full share, is handed to the two windows a half each, and the halves join back to the full share when
  the region ends. The output array has one window and is held outright.
-/
import proofs.«168368_j77163382440707_1_alg».proof.Proof.Gen.KernelIdeal.Launch
import Idealize.ShloMosaic.Lib.Pipeline.FrameBody
import Idealize.ShloMosaic.Lib.Pipeline.RegionsLoop
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The shares region 1 holds its arrays at: the two windows on one array take a half each; the output's is unused
    (an output array is held at the full share whatever this says). -/
def q_r1 : Fin cfg1.W → PosShare TreeShare
  | ⟨0, _⟩ => fullShare.left
  | ⟨1, _⟩ => fullShare.right
  | ⟨2, _⟩ => fullShare.left
  | ⟨3, _⟩ => fullShare.right
  | ⟨4, _⟩ => fullShare

/-- The buffers behind region 1's arrays: main_arg1, main_arg3 and main_v2. -/
theorem arrRefs_r1 : Finset.univ.image (Pipeline.arrRef spec1) = ([main_arg1, main_arg3, main_v2] : List (Ref sig .tc)).toFinset := by decide

/-- The buffers behind region 1's arrays, one by one: main_arg1, main_arg3 and main_v2, each whole at the full share. -/
theorem arrBufs_r1_eq (c : Dev nD) (Vb : (b : Ref sig .tc) → Buf (Elt F) ((c : Thread nD τ).loc b)) :
    (Pipeline.arrBufs (Ix := Unit) (Name := ℕ) (U := UR sig nD τ) (Lvl := ℕ) spec1 c Vb : sProp 𝕄)
      = iprop((((c : Thread nD τ).loc main_arg1) ↦{fullShare} Vb main_arg1) ∗ (((c : Thread nD τ).loc main_arg3) ↦{fullShare} Vb main_arg3)
          ∗ (((c : Thread nD τ).loc main_v2) ↦{fullShare} Vb main_v2)) := by
  unfold Pipeline.arrBufs
  exact bigSep_eq_bigSepL_of_eq [main_arg1, main_arg3, main_v2] arrRefs_r1 (by decide) _

/-- One window's array, a whole buffer, is the buffer behind it held whole, at the window's share and the contents
    Vb reads there. -/
theorem win_pt_r1 {c : Dev nD} (dat : Dat τ (Elt F) Unit ℕ (UR sig nD τ) ℕ cfg1 c) (w : Fin cfg1.W) (q : PosShare TreeShare)
    (hs : dat.share w = q)
    (Vb : (b : Ref sig .tc) → Buf (Elt F) ((c : Thread nD τ).loc b))
    (Fa : (w : Fin cfg1.W) → Buf (Elt F) ((cfg1.win w).arr.view.loc (c.tc : Thread nD τ)))
    (hF : ∀ w, Fa w = Vb (Pipeline.arrRef spec1 w)) :
    ((cfg1.win w).arr.view.loc (c.tc : Thread nD τ) ↦[(cfg1.win w).arr.view.set]{dat.share w} Fa w : sProp 𝕄)
      = (((c : Thread nD τ).loc (Pipeline.arrRef spec1 w)) ↦{q} Vb (Pipeline.arrRef spec1 w)) := by
  rw [(arr_whole1 w).set_eq_univ, hs, hF w]

/-- The share of each window of region 1: the four inputs hold the halves q_r1 names, the output the full share. -/
theorem share_r1 {c : Dev nD} (dat : Dat τ (Elt F) Unit ℕ (UR sig nD τ) ℕ cfg1 c) (hq : dat.q = q_r1) :
    dat.share 0 = fullShare.left ∧ dat.share 1 = fullShare.right ∧ dat.share 2 = fullShare.left ∧ dat.share 3 = fullShare.right
      ∧ dat.share 4 = fullShare := by
  unfold Dat.share
  rw [hq]
  exact ⟨rfl, rfl, rfl, rfl, rfl⟩

/-- The pipeline's arrays of region 1, window by window: the two halves of main_arg1, the two halves of main_arg3, and
    main_v2 outright, all at the contents Vb reads. -/
theorem arrays_r1_eq {c : Dev nD} (dat : Dat τ (Elt F) Unit ℕ (UR sig nD τ) ℕ cfg1 c) (hq : dat.q = q_r1)
    (Vb : (b : Ref sig .tc) → Buf (Elt F) ((c : Thread nD τ).loc b))
    (Fa : (w : Fin cfg1.W) → Buf (Elt F) ((cfg1.win w).arr.view.loc (c.tc : Thread nD τ)))
    (hF : ∀ w, Fa w = Vb (Pipeline.arrRef spec1 w)) :
    (dat.arrays Fa : sProp 𝕄)
      = iprop((((c : Thread nD τ).loc main_arg1) ↦{fullShare.left} Vb main_arg1) ∗ (((c : Thread nD τ).loc main_arg1) ↦{fullShare.right} Vb main_arg1)
          ∗ (((c : Thread nD τ).loc main_arg3) ↦{fullShare.left} Vb main_arg3) ∗ (((c : Thread nD τ).loc main_arg3) ↦{fullShare.right} Vb main_arg3)
          ∗ (((c : Thread nD τ).loc main_v2) ↦{fullShare} Vb main_v2)) := by
  obtain ⟨s0, s1, s2, s3, s4⟩ := share_r1 dat hq
  unfold Dat.arrays
  rw [Gen.bigSep_W1, win_pt_r1 dat 0 _ s0 Vb Fa hF, win_pt_r1 dat 1 _ s1 Vb Fa hF, win_pt_r1 dat 2 _ s2 Vb Fa hF,
    win_pt_r1 dat 3 _ s3 Vb Fa hF, win_pt_r1 dat 4 _ s4 Vb Fa hF]

/-- The buffers behind region 1's arrays, each whole at the full share at contents Vb, ARE the pipeline's arrays at
    contents Fa (each window's array at its share), when Fa is Vb read at each window's array: in both directions. -/
theorem arrays_iff_r1 {c : Dev nD} (dat : Dat τ (Elt F) Unit ℕ (UR sig nD τ) ℕ cfg1 c) (hq : dat.q = q_r1)
    (Vb : (b : Ref sig .tc) → Buf (Elt F) ((c : Thread nD τ).loc b))
    (Fa : (w : Fin cfg1.W) → Buf (Elt F) ((cfg1.win w).arr.view.loc (c.tc : Thread nD τ)))
    (hF : ∀ w, Fa w = Vb (Pipeline.arrRef spec1 w)) :
    (Pipeline.arrBufs (Ix := Unit) (Name := ℕ) (U := UR sig nD τ) (Lvl := ℕ) spec1 c Vb : sProp 𝕄) ⊣⊢ dat.arrays Fa := by
  rw [arrBufs_r1_eq, arrays_r1_eq dat hq Vb Fa hF]
  -- the full share is the composite of its two halves
  have hs : fullShare ∈ PCS.op fullShare.left fullShare.right := PosShare.mem_left_op_right fullShare
  constructor
  · -- each shared buffer is cut in two halves, one per window
    iintro ⟨H1, H3, Hv⟩
    ihave H1' := (pointsTo_share hs).1 $$ H1
    icases H1' with ⟨H1l, H1r⟩
    ihave H3' := (pointsTo_share hs).1 $$ H3
    icases H3' with ⟨H3l, H3r⟩
    isplitl [H1l]; · iexact H1l
    isplitl [H1r]; · iexact H1r
    isplitl [H3l]; · iexact H3l
    isplitl [H3r]; · iexact H3r
    iexact Hv
  · -- the two halves of each shared buffer join back to the full share
    iintro ⟨H1l, H1r, H3l, H3r, Hv⟩
    isplitl [H1l H1r]
    · iapply (pointsTo_share hs).2
      isplitl [H1l]; · iexact H1l
      iexact H1r
    isplitl [H3l H3r]
    · iapply (pointsTo_share hs).2
      isplitl [H3l]; · iexact H3l
      iexact H3r
    iexact Hv

end Cert.KernelIdeal.Hand

end
-- ==== Proof.KI.R1Glue.lean ====
/-
  Region 1 between two boundaries of @main: from every unscoped buffer of the core held whole at the contents the
  region is entered with, to the pipeline's arrays (each window's array at its share) beside the buffers no window
  names; and back, when the region ends, to every unscoped buffer held whole at the contents it leaves: the entry
  contents with the output array at what the one write-back left.
-/
import proofs.«168368_j77163382440707_1_alg».proof.Proof.KI.R1Frame
import proofs.«168368_j77163382440707_1_alg».proof.Proof.KI.R1Split
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Glue

variable (W : Dev nD → Valuation τ sig (Elt F))

/-- The entry contents read at the TensorCore's references: what the region's proof data take. -/
abbrev Vof_r1 (c : Dev nD) (b : Ref sig .tc) : Buf (Elt F) ((c : Thread nD τ).loc b) := W c b

/-- The region's proof data at these entry contents, the shared arrays held a half per window. -/
abbrev dd_r1 (c : Dev nD) : Dat τ (Elt F) Unit ℕ (UR sig nD τ) ℕ cfg1 c := dat_r1 (Vof_r1 W) q_r1 c

/-- What the region leaves in its output array. -/
abbrev res_r1 (c : Dev nD) : Buf (Elt F) ((c : Thread nD τ).loc (Pipeline.arrRef spec1 4)) := (dd_r1 W c).arrAt 4 cfg1.N

/-- The contents the region leaves: the entry contents with the output array at what the write-back left. -/
def Wout_r1 (c : Dev nD) : Valuation τ sig (Elt F) :=
  Function.update (W c) (Proc.devRef .tc (Pipeline.arrRef spec1 4)) (res_r1 W c)

theorem Wout_r1_out (c : Dev nD) : Wout_r1 W c (Proc.devRef .tc (Pipeline.arrRef spec1 4)) = res_r1 W c := by
  unfold Wout_r1; exact Function.update_self ..

theorem Wout_r1_of_ne (c : Dev nD) (b : Ref sig .tc) (hb : b ≠ Pipeline.arrRef spec1 4) :
    Wout_r1 W c (Proc.devRef .tc b) = W c (Proc.devRef .tc b) := by
  unfold Wout_r1; exact Function.update_of_ne (StableHlo.devRef_ne_of_ne hb) ..

/-- Entering: the unscoped buffers at the entry contents are the pipeline's arrays at their entry contents and the rest. -/
theorem entry_r1 (c : Dev nD) :
    (StableHlo.held (c : Thread nD τ) (Pipeline.ucRefs τ sig) (W c) : sProp 𝕄)
      ⊢ iprop((dd_r1 W c).arrays (fun w => (dd_r1 W c).arrAt w 0) ∗ Pipeline.unscopedRest (Ix := Unit) (Name := ℕ) (U := UR sig nD τ) (Lvl := ℕ) spec1 c (Vof_r1 W c)) := by
  rw [← Pipeline.unscopedBufs_held (Ix := Unit) (Name := ℕ) (U := UR sig nD τ) (Lvl := ℕ) c (W c)]
  rw [Pipeline.unscopedBufs_split₀ cfgs (1 : Fin 3) winFacts₀1.arr_unscoped c (Vof_r1 W c)]
  exact sep_mono (arrays_iff_r1 (dd_r1 W c) rfl (Vof_r1 W c) _ (fun w => A_eq_r1 (Vof_r1 W) q_r1 c w)).1 .rfl

/-- Leaving: the arrays at their final contents and the rest are the unscoped buffers at the contents the region leaves. -/
theorem exit_r1 (c : Dev nD) :
    iprop((dd_r1 W c).arrays (fun w => (dd_r1 W c).arrAt w cfg1.N) ∗ Pipeline.unscopedRest (Ix := Unit) (Name := ℕ) (U := UR sig nD τ) (Lvl := ℕ) spec1 c (Vof_r1 W c))
      ⊢ (StableHlo.held (c : Thread nD τ) (Pipeline.ucRefs τ sig) (Wout_r1 W c) : sProp 𝕄) := by
  have hF : ∀ w : Fin cfg1.W, (dd_r1 W c).arrAt w cfg1.N = Vof_r1 (Wout_r1 W) c (Pipeline.arrRef spec1 w) := by
    intro w
    match w with
    | ⟨0, _⟩ => exact ((dd_r1 W c).arrAt_in 0 rfl _).trans ((A_eq_r1 (Vof_r1 W) q_r1 c 0).trans (Wout_r1_of_ne W c _ (by decide)).symm)
    | ⟨1, _⟩ => exact ((dd_r1 W c).arrAt_in 1 rfl _).trans ((A_eq_r1 (Vof_r1 W) q_r1 c 1).trans (Wout_r1_of_ne W c _ (by decide)).symm)
    | ⟨2, _⟩ => exact ((dd_r1 W c).arrAt_in 2 rfl _).trans ((A_eq_r1 (Vof_r1 W) q_r1 c 2).trans (Wout_r1_of_ne W c _ (by decide)).symm)
    | ⟨3, _⟩ => exact ((dd_r1 W c).arrAt_in 3 rfl _).trans ((A_eq_r1 (Vof_r1 W) q_r1 c 3).trans (Wout_r1_of_ne W c _ (by decide)).symm)
    | ⟨4, _⟩ => exact (Wout_r1_out W c).symm
  have hrest : (Pipeline.unscopedRest (Ix := Unit) (Name := ℕ) (U := UR sig nD τ) (Lvl := ℕ) spec1 c (Vof_r1 W c) : sProp 𝕄)
      = Pipeline.unscopedRest spec1 c (Vof_r1 (Wout_r1 W) c) := by
    unfold Pipeline.unscopedRest
    refine bigSep_congr fun b hb => ?_
    have hne : b ≠ Pipeline.arrRef spec1 4 := fun e =>
      (Finset.mem_sdiff.mp hb).2 (Finset.mem_image.mpr ⟨4, Finset.mem_univ _, e.symm⟩)
    rw [show Vof_r1 (Wout_r1 W) c b = Vof_r1 W c b from Wout_r1_of_ne W c b hne]
  rw [← Pipeline.unscopedBufs_held (Ix := Unit) (Name := ℕ) (U := UR sig nD τ) (Lvl := ℕ) c (Wout_r1 W c)]
  rw [Pipeline.unscopedBufs_split₀ cfgs (1 : Fin 3) winFacts₀1.arr_unscoped c (Vof_r1 (Wout_r1 W) c), hrest]
  exact sep_mono (arrays_iff_r1 (dd_r1 W c) rfl (Vof_r1 (Wout_r1 W) c) _ hF).2 .rfl

end Glue

end Cert.KernelIdeal.Hand

end
-- ==== Proof.KI.R2Base.lean ====
/-
  Region 2 (one of the program's three kernel sums, each a pallas_call of the same kernel): where its two conditionals hold on the 4 × 8 × 8 grid, where its output window is
  idle, and the invariant opened at the accumulator.

  The body resets its 1 × 1 accumulator at the grid's first point (all three coordinates zero), adds the tile's total at
  every point, and copies the accumulator into the output block at the last point (coordinates 3, 7, 7). In row-major
  order those are points 0 and 255 of 256. The output window keeps one block index throughout, so the pipeline
  writes it back once, after the last point; everywhere else the window is idle and the body hands its buffer back
  as it found it.
-/
import proofs.«168368_j77163382440707_1_alg».proof.Proof.Gen.KernelIdeal.Launch
import proofs.«168368_j77163382440707_1_alg».proof.Proof.Gen.KernelIdeal.Skeleton
import proofs.«168368_j77163382440707_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The reset's condition: all three grid coordinates are zero. -/
abbrev condA_r2 (i : grid2.Coords) : Prop :=
  (Scalar.cmpi .ne (Scalar.extui (Scalar.andi (Scalar.andi (Scalar.cmpi .eq (BitVec.ofNat 32 (i 0).val) 0#32) (Scalar.cmpi .eq (BitVec.ofNat 32 (i 1).val) 0#32)) (Scalar.cmpi .eq (BitVec.ofNat 32 (i 2).val) 0#32))) 0#32) = 1#1
/-- It holds at the first point only. -/
theorem hcondA_r2 : ∀ t : Fin cfg2.N, condA_r2 (grid2.coords t) ↔ t.val = 0 :=
  (by decide +kernel : ∀ t : Fin grid2.N, condA_r2 (grid2.coords t) ↔ t.val = 0)

/-- The output store's condition: the coordinates are the last ones. -/
abbrev condC_r2 (i : grid2.Coords) : Prop := k2_cond2 i = 1#1
/-- It holds at the last point only. -/
theorem hcondC_r2 : ∀ t : Fin cfg2.N, condC_r2 (grid2.coords t) ↔ t.val = 255 :=
  (by decide +kernel : ∀ t : Fin grid2.N, condC_r2 (grid2.coords t) ↔ t.val = 255)

/-- The input windows are never idle. -/
theorem live_r2_0 : ∀ t : Fin cfg2.N, cfg2.idle 0 (grid2.coords t) = false := by decide +kernel
theorem live_r2_1 : ∀ t : Fin cfg2.N, cfg2.idle 1 (grid2.coords t) = false := by decide +kernel
theorem live_r2_2 : ∀ t : Fin cfg2.N, cfg2.idle 2 (grid2.coords t) = false := by decide +kernel
theorem live_r2_3 : ∀ t : Fin cfg2.N, cfg2.idle 3 (grid2.coords t) = false := by decide +kernel
/-- Away from the last point the output window is idle and is not written back; at the last point it is live. -/
theorem idle_r2_4 : ∀ t : Fin cfg2.N, ¬condC_r2 (grid2.coords t) → cfg2.idle 4 (grid2.coords t) = true := by decide +kernel
theorem noFlush_r2_4 : ∀ t : Fin cfg2.N, ¬condC_r2 (grid2.coords t) → (cfg2.win 4).flush t = false := by decide +kernel
theorem live_r2_4 : ∀ t : Fin cfg2.N, condC_r2 (grid2.coords t) → cfg2.idle 4 (grid2.coords t) = false := by decide +kernel

/-- Each window's current staging memref at point t, as the pipeline passes it, and its wholeness. -/
abbrev ms_r2_0 (t : Fin cfg2.N) : Memref sig .tc .vmem S1x512x3 .f32 := win2_0.stage (cfg2.slots t 0)
abbrev hs_r2_0 (t : Fin cfg2.N) : (ms_r2_0 t).IsWhole := hstage2_0 ((cfg2.slots t 0).cast nbuf2_0)
abbrev ms_r2_1 (t : Fin cfg2.N) : Memref sig .tc .vmem S1x512x3 .f32 := win2_1.stage (cfg2.slots t 1)
abbrev hs_r2_1 (t : Fin cfg2.N) : (ms_r2_1 t).IsWhole := hstage2_1 ((cfg2.slots t 1).cast nbuf2_1)
abbrev ms_r2_2 (t : Fin cfg2.N) : Memref sig .tc .vmem S1x512x3 .f32 := win2_2.stage (cfg2.slots t 2)
abbrev hs_r2_2 (t : Fin cfg2.N) : (ms_r2_2 t).IsWhole := hstage2_2 ((cfg2.slots t 2).cast nbuf2_2)
abbrev ms_r2_3 (t : Fin cfg2.N) : Memref sig .tc .vmem S1x512x3 .f32 := win2_3.stage (cfg2.slots t 3)
abbrev hs_r2_3 (t : Fin cfg2.N) : (ms_r2_3 t).IsWhole := hstage2_3 ((cfg2.slots t 3).cast nbuf2_3)
abbrev ms_r2_4 (t : Fin cfg2.N) : Memref sig .tc .vmem S1x1 .f32 := win2_4.stage (cfg2.slots t 4)
abbrev hs_r2_4 (t : Fin cfg2.N) : (ms_r2_4 t).IsWhole := hstage2_4 ((cfg2.slots t 4).cast nbuf2_4)
/-- The accumulator: a whole scoped buffer of the kernel's own, passed beside the windows. -/
abbrev scM_r2 : Memref sig .tc .vmem S1x1 .f32 := Memref.whole cc2_scratch0

/-- The other scoped buffers of the core (the other calls' staging buffers and accumulators), each at some contents. -/
abbrev others_r2 (c : Dev nD) : sProp 𝕄 :=
  Pipeline.scopedRestBut (Ix := Unit) (Name := ℕ) (U := UR sig nD τ) (Lvl := ℕ) (Val := Elt F) spec2 c [cc2_scratch0]

/-- The class invariant with the accumulator split off: the accumulator at some contents, the other scoped buffers, and
    the generator register at some state. -/
theorem PhiA_r2_eq (c : Dev nD) :
    (Pipeline.ΦA spec2 c : sProp 𝕄)
      = iprop((iprop(∃ d, owns (c : Thread nD τ) scM_r2 fullShare d) ∗ others_r2 (F := F) c) ∗ (∃ r, prngReg c r)) := by
  unfold Pipeline.ΦA
  rw [Pipeline.scopedRest_split_of_list spec2 c [cc2_scratch0] (by decide) (by decide)]
  simp only [scM_r2, owns_whole]
  rfl

end Cert.KernelIdeal.Hand

end
-- ==== Proof.KI.R2RunA.lean ====
/-
  Region 2, the first point: the body resets the accumulator to zero, then adds the tile's total. Whatever the
  accumulator held, it ends at the stored value of the reset value and the blocks; the output buffer is handed back.
-/
import proofs.«168368_j77163382440707_1_alg».proof.Proof.KI.R2Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r2_A (c : Dev nD) (i : grid2.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : condA_r2 i) (hcC : ¬condC_r2 i)
    (x0 x1 x2 x3 : Vec F S1x512x3 .f32) (xi : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ (∃ d, owns (c : Thread nD τ) arg8 fullShare d)
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k2_pay1 (k2_pay3 x0 x1) (k2_pay4 x2 x3) (k2_pay2 (F := F)))) -∗ K ⟨⟩))
      ⊢ wp frame (wpE (defs₀ (F := F)) Variants.none c none) E (cc2__kernel_sum_kernel i arg3 harg3 arg4 harg4 arg5 harg5 arg6 harg6 arg7 harg7 arg8 harg8) K := by
  simp only [cc2__kernel_sum_kernel_eq_skeleton]; unfold cc2__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%d8, %f8, -, H8⟩, Hk⟩
  obtain rfl := harg3.eq_unread hf0; obtain rfl := harg4.eq_unread hf1; obtain rfl := harg5.eq_unread hf2
  obtain rfl := harg6.eq_unread hf3; obtain rfl := harg7.eq_unread hf7
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R2RunB.lean ====
/-
  Region 2, a point that is neither first nor last: the body adds the tile's total to the accumulator and touches
  nothing else. On whole staging memrefs holding the four input blocks, the output buffer at contents it hands back,
  and the accumulator at s, it ends with the accumulator at the stored value of s and the blocks.
-/
import proofs.«168368_j77163382440707_1_alg».proof.Proof.KI.R2Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r2_B (c : Dev nD) (i : grid2.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r2 i) (hcC : ¬condC_r2 i)
    (x0 x1 x2 x3 : Vec F S1x512x3 .f32) (xi : Vec F S1x1 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare xi
            ∗ owns (c : Thread nD τ) arg8 fullShare (k2_pay1 (k2_pay3 x0 x1) (k2_pay4 x2 x3) xs)) -∗ K ⟨⟩))
      ⊢ wp frame (wpE (defs₀ (F := F)) Variants.none c none) E (cc2__kernel_sum_kernel i arg3 harg3 arg4 harg4 arg5 harg5 arg6 harg6 arg7 harg7 arg8 harg8) K := by
  simp only [cc2__kernel_sum_kernel_eq_skeleton]; unfold cc2__kernel_sum_kernel_skel
  unfold owns
  iintro ⟨⟨%f0, %hf0, H0⟩, ⟨%f1, %hf1, H1⟩, ⟨%f2, %hf2, H2⟩, ⟨%f3, %hf3, H3⟩, ⟨%f7, %hf7, H7⟩, ⟨%f8, %hf8, H8⟩, Hk⟩
  obtain rfl := harg3.eq_unread hf0; obtain rfl := harg4.eq_unread hf1; obtain rfl := harg5.eq_unread hf2
  obtain rfl := harg6.eq_unread hf3; obtain rfl := harg7.eq_unread hf7; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr; · ipureintro; exact harg7.read_unread _
    iexact H7
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R2RunC.lean ====
/-
  Region 2, the last point: the body adds the tile's total to the accumulator and copies the accumulator into the
  output block. Whatever the output buffer held, both end at the stored value of s and the blocks.
-/
import proofs.«168368_j77163382440707_1_alg».proof.Proof.KI.R2Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_r2_C (c : Dev nD) (i : grid2.Coords)
    (arg3 : Memref sig .tc .vmem S1x512x3 .f32) (harg3 : arg3.IsWhole) (arg4 : Memref sig .tc .vmem S1x512x3 .f32) (harg4 : arg4.IsWhole)
    (arg5 : Memref sig .tc .vmem S1x512x3 .f32) (harg5 : arg5.IsWhole) (arg6 : Memref sig .tc .vmem S1x512x3 .f32) (harg6 : arg6.IsWhole)
    (arg7 : Memref sig .tc .vmem S1x1 .f32) (harg7 : arg7.IsWhole) (arg8 : Memref sig .tc .vmem S1x1 .f32) (harg8 : arg8.IsWhole)
    (hcA : ¬condA_r2 i) (hcC : condC_r2 i)
    (x0 x1 x2 x3 : Vec F S1x512x3 .f32) (xs : Vec F S1x1 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare (k2_pay1 (k2_pay3 x0 x1) (k2_pay4 x2 x3) xs)
            ∗ owns (c : Thread nD τ) arg8 fullShare (k2_pay1 (k2_pay3 x0 x1) (k2_pay4 x2 x3) xs)) -∗ K ⟨⟩))
      ⊢ wp frame (wpE (defs₀ (F := F)) Variants.none c none) E (cc2__kernel_sum_kernel i arg3 harg3 arg4 harg4 arg5 harg5 arg6 harg6 arg7 harg7 arg8 harg8) K := by
  simp only [cc2__kernel_sum_kernel_eq_skeleton]; unfold cc2__kernel_sum_kernel_skel
  unfold owns
  iintro ⟨⟨%f0, %hf0, H0⟩, ⟨%f1, %hf1, H1⟩, ⟨%f2, %hf2, H2⟩, ⟨%f3, %hf3, H3⟩, ⟨%d7, %f7, -, H7⟩, ⟨%f8, %hf8, H8⟩, Hk⟩
  obtain rfl := harg3.eq_unread hf0; obtain rfl := harg4.eq_unread hf1; obtain rfl := harg5.eq_unread hf2
  obtain rfl := harg6.eq_unread hf3; obtain rfl := harg8.eq_unread hf8
  sl_exec (disch := first | exact hcA | exact hcC)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H7]
  · iexists _; isplitr
    swap; · iexact H7
    ipureintro
    have hz2 : (![0, 0] : Fin S1x1.rank → Nat) = fun _ => 0 := by funext a; fin_cases a <;> rfl
    have hz3 : (![0, 0, 0] : Fin S1x512x3.rank → Nat) = fun _ => 0 := by funext a; fin_cases a <;> rfl
    sl_unfold_words
    refine (View.read_writes_eq_canon _ _ _ (fun y => ⟨_, List.mem_cons_self, View.mem_set_unit_zero hz2 inb_S1x1_S1x1_0_0 y⟩)).trans ?_
    rw [View.canon_cons_unit_zero hz2]
    simp only [View.readAt_eq_ld, View.readCov_unit_zero (S := S1x1) _ hz2, harg3.read_unread, harg4.read_unread, harg5.read_unread,
      harg6.read_unread, harg8.read_unread, View.ld_unit_zero (S := S1x1) hz2, View.ld_unit_zero (S := S1x512x3) hz3]
  iexists _; isplitr
  swap; · iexact H8
  ipureintro
  have hz2 : (![0, 0] : Fin S1x1.rank → Nat) = fun _ => 0 := by funext a; fin_cases a <;> rfl
  have hz3 : (![0, 0, 0] : Fin S1x512x3.rank → Nat) = fun _ => 0 := by funext a; fin_cases a <;> rfl
  sl_unfold_words
  refine (View.read_writes_eq_canon _ _ _ (fun y => ⟨_, List.mem_cons_self, View.mem_set_unit_zero hz2 inb_S1x1_S1x1_0_0 y⟩)).trans ?_
  rw [View.canon_cons_unit_zero hz2]
  simp only [View.readAt_eq_ld, View.readCov_unit_zero (S := S1x1) _ hz2, harg3.read_unread, harg4.read_unread, harg5.read_unread,
    harg6.read_unread, harg8.read_unread, View.ld_unit_zero (S := S1x1) hz2, View.ld_unit_zero (S := S1x512x3) hz3]

end Cert.KernelIdeal.Hand

end
-- ==== Proof.KI.R2Frame.lean ====
/-
  Region 2 (one of the program's three kernel sums, each a pallas_call of the same kernel) as a pipeline: what every staging buffer and the accumulator hold at every grid
  point, and that the kernel body keeps it so.

  An input window's buffer holds its array's block at the point, fetched there or carried over from the point
  before (the block index did not move). The accumulator after point n is defined by recursion on n: after point 0
  the stored value of the reset value and point 0's blocks; after point n + 1 the stored value of what point n left
  and point n + 1's blocks. The output buffer is idle except at the last point, where the body copies the accumulator
  into it. The region's invariant before point 0 is the class's (the accumulator at anything); before a later point
  it names the accumulator's contents. The entry contents of the arrays (V) and the shares the input arrays are held
  at (q) are parameters: they are fixed where the regions are put together.
-/
import proofs.«168368_j77163382440707_1_alg».proof.Proof.KI.R2RunA
import proofs.«168368_j77163382440707_1_alg».proof.Proof.KI.R2RunB
import proofs.«168368_j77163382440707_1_alg».proof.Proof.KI.R2RunC
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (q : Fin cfg2.W → PosShare TreeShare)

/-! ## The windows' blocks -/

/-- Window w's block at point t, read off its array as the region finds it. -/
def iblk_r2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is the
    entry contents and whose body leaves the block in place. -/
theorem before_r2_0_of {c : Dev nD} (dat : Dat τ (Elt F) Unit ℕ (UR sig nD τ) ℕ cfg2 c) (hA : dat.A 0 = V c (Pipeline.arrRef spec2 0))
    (hafter : ∀ t, dat.after 0 t = iblk_r2 V c 0 t) (t : Fin cfg2.N) (d) : dat.before 0 t d = iblk_r2 V c 0 t :=
  (dat.before_in_eq_fetched 0 rfl (fun _ => rfl) (fun _ _ _ => rfl) (fun t => by rw [hafter]; unfold Dat.blockOf iblk_r2; rw [hA]; try rfl) t d).trans
    (by unfold Dat.fetched Dat.blockOf iblk_r2; rw [hA]; try rfl)
theorem before_r2_1_of {c : Dev nD} (dat : Dat τ (Elt F) Unit ℕ (UR sig nD τ) ℕ cfg2 c) (hA : dat.A 1 = V c (Pipeline.arrRef spec2 1))
    (hafter : ∀ t, dat.after 1 t = iblk_r2 V c 1 t) (t : Fin cfg2.N) (d) : dat.before 1 t d = iblk_r2 V c 1 t :=
  (dat.before_in_eq_fetched 1 rfl (fun _ => rfl) (fun _ _ _ => rfl) (fun t => by rw [hafter]; unfold Dat.blockOf iblk_r2; rw [hA]; try rfl) t d).trans
    (by unfold Dat.fetched Dat.blockOf iblk_r2; rw [hA]; try rfl)
theorem before_r2_2_of {c : Dev nD} (dat : Dat τ (Elt F) Unit ℕ (UR sig nD τ) ℕ cfg2 c) (hA : dat.A 2 = V c (Pipeline.arrRef spec2 2))
    (hafter : ∀ t, dat.after 2 t = iblk_r2 V c 2 t) (t : Fin cfg2.N) (d) : dat.before 2 t d = iblk_r2 V c 2 t :=
  (dat.before_in_eq_fetched 2 rfl (fun _ => rfl) (fun _ _ _ => rfl) (fun t => by rw [hafter]; unfold Dat.blockOf iblk_r2; rw [hA]; try rfl) t d).trans
    (by unfold Dat.fetched Dat.blockOf iblk_r2; rw [hA]; try rfl)
theorem before_r2_3_of {c : Dev nD} (dat : Dat τ (Elt F) Unit ℕ (UR sig nD τ) ℕ cfg2 c) (hA : dat.A 3 = V c (Pipeline.arrRef spec2 3))
    (hafter : ∀ t, dat.after 3 t = iblk_r2 V c 3 t) (t : Fin cfg2.N) (d) : dat.before 3 t d = iblk_r2 V c 3 t :=
  (dat.before_in_eq_fetched 3 rfl (fun _ => rfl) (fun _ _ _ => rfl) (fun t => by rw [hafter]; unfold Dat.blockOf iblk_r2; rw [hA]; try rfl) t d).trans
    (by unfold Dat.fetched Dat.blockOf iblk_r2; rw [hA]; try rfl)

/-! ## The accumulator, point by point -/

/-- What the accumulator holds after the body at point n. -/
def acc_r2 (c : Dev nD) : (n : ℕ) → n < cfg2.N → Vec F S1x1 .f32
  | 0, hn => k2_pay1 (k2_pay3 (iblk_r2 V c 0 ⟨0, hn⟩) (iblk_r2 V c 1 ⟨0, hn⟩)) (k2_pay4 (iblk_r2 V c 2 ⟨0, hn⟩) (iblk_r2 V c 3 ⟨0, hn⟩)) (k2_pay2 (F := F))
  | n + 1, hn => k2_pay1 (k2_pay3 (iblk_r2 V c 0 ⟨n + 1, hn⟩) (iblk_r2 V c 1 ⟨n + 1, hn⟩)) (k2_pay4 (iblk_r2 V c 2 ⟨n + 1, hn⟩) (iblk_r2 V c 3 ⟨n + 1, hn⟩)) (acc_r2 c n (Nat.lt_of_succ_lt hn))

/-- At the first point: the reset value, then the tile. -/
theorem acc_r2_zero (c : Dev nD) (t : Fin cfg2.N) (h : t.val = 0) :
    acc_r2 V c t.val t.isLt = k2_pay1 (k2_pay3 (iblk_r2 V c 0 t) (iblk_r2 V c 1 t)) (k2_pay4 (iblk_r2 V c 2 t) (iblk_r2 V c 3 t)) (k2_pay2 (F := F)) := by
  obtain ⟨n, hn⟩ := t
  cases n with
  | zero => rfl
  | succ n => exact absurd h (Nat.succ_ne_zero n)

/-- At a later point: what the point before left, then the tile. -/
theorem acc_r2_pos (c : Dev nD) (t : Fin cfg2.N) (h : t.val ≠ 0) :
    acc_r2 V c t.val t.isLt = k2_pay1 (k2_pay3 (iblk_r2 V c 0 t) (iblk_r2 V c 1 t)) (k2_pay4 (iblk_r2 V c 2 t) (iblk_r2 V c 3 t)) (acc_r2 V c (t.val - 1) (Nat.lt_of_le_of_lt (Nat.sub_le _ _) t.isLt)) := by
  obtain ⟨n, hn⟩ := t
  cases n with
  | zero => exact absurd rfl h
  | succ n => rfl

/-! ## The invariant between points -/

/-- Before point 0 the class's invariant (the accumulator at anything); before point n + 1 the accumulator at what
    point n left, the other scoped buffers and the generator register as they are. -/
def PhiS_r2 (c : Dev nD) : (n : ℕ) → n ≤ cfg2.N → sProp 𝕄
  | 0, _ => Pipeline.ΦA spec2 c
  | n + 1, hn => iprop((owns (c : Thread nD τ) scM_r2 fullShare (acc_r2 V c n hn) ∗ others_r2 (F := F) c) ∗ (∃ r, prngReg c r))

theorem PhiS_r2_zero (c : Dev nD) (n : ℕ) (h : n ≤ cfg2.N) (hz : n = 0) : PhiS_r2 V c n h = Pipeline.ΦA spec2 c := by
  subst hz; rfl

theorem PhiS_r2_succ (c : Dev nD) (n : ℕ) (hn : n < cfg2.N) :
    PhiS_r2 V c (n + 1) hn = iprop((owns (c : Thread nD τ) scM_r2 fullShare (acc_r2 V c n hn) ∗ others_r2 (F := F) c) ∗ (∃ r, prngReg c r)) := rfl

theorem PhiS_r2_pos (c : Dev nD) (n : ℕ) (h : n ≤ cfg2.N) (hz : n ≠ 0) :
    PhiS_r2 V c n h = iprop((owns (c : Thread nD τ) scM_r2 fullShare (acc_r2 V c (n - 1) (by omega)) ∗ others_r2 (F := F) c) ∗ (∃ r, prngReg c r)) := by
  cases n with
  | zero => exact absurd rfl hz
  | succ n => rfl

/-! ## The proof data -/

/-- The region's proof data on core c: the arrays as the region finds them; after the body each input buffer at its
    block and the output buffer at the accumulator's contents (consulted at the last point only: elsewhere the window
    is idle); the invariant above; nothing owed. -/
def dat_r2 (c : Dev nD) : Dat τ (Elt F) Unit ℕ (UR sig nD τ) ℕ cfg2 c where
  A w := V c (Pipeline.arrRef spec2 w)
  after w t := match w with
    | ⟨0, _⟩ => iblk_r2 V c 0 t
    | ⟨1, _⟩ => iblk_r2 V c 1 t
    | ⟨2, _⟩ => iblk_r2 V c 2 t
    | ⟨3, _⟩ => iblk_r2 V c 3 t
    | ⟨4, _⟩ => acc_r2 V c t.val t.isLt
  Φ t := PhiS_r2 V c t.val (Nat.le_of_lt_succ t.isLt)
  q := q
  owed _ := 0

theorem A_eq_r2 (c : Dev nD) (w : Fin cfg2.W) : (dat_r2 V q c).A w = V c (Pipeline.arrRef spec2 w) := by
  dsimp only [dat_r2]

theorem PhiS_r2_castSucc (c : Dev nD) (t : Fin cfg2.N) :
    (dat_r2 V q c).Φ t.castSucc = PhiS_r2 V c t.val (Nat.le_of_lt t.isLt) := by
  dsimp only [dat_r2]; simp only [Fin.coe_castSucc]

theorem after_r2_0 (c : Dev nD) (t : Fin cfg2.N) : (dat_r2 V q c).after 0 t = iblk_r2 V c 0 t := by dsimp only [dat_r2]
theorem after_r2_1 (c : Dev nD) (t : Fin cfg2.N) : (dat_r2 V q c).after 1 t = iblk_r2 V c 1 t := by dsimp only [dat_r2]
theorem after_r2_2 (c : Dev nD) (t : Fin cfg2.N) : (dat_r2 V q c).after 2 t = iblk_r2 V c 2 t := by dsimp only [dat_r2]
theorem after_r2_3 (c : Dev nD) (t : Fin cfg2.N) : (dat_r2 V q c).after 3 t = iblk_r2 V c 3 t := by dsimp only [dat_r2]
theorem after_r2_4 (c : Dev nD) (t : Fin cfg2.N) : (dat_r2 V q c).after 4 t = acc_r2 V c t.val t.isLt := by dsimp only [dat_r2]

theorem before_r2_0 (c : Dev nD) (t : Fin cfg2.N) (d) : (dat_r2 V q c).before 0 t d = iblk_r2 V c 0 t :=
  before_r2_0_of V (dat_r2 V q c) (A_eq_r2 V q c 0) (after_r2_0 V q c) t d
theorem before_r2_1 (c : Dev nD) (t : Fin cfg2.N) (d) : (dat_r2 V q c).before 1 t d = iblk_r2 V c 1 t :=
  before_r2_1_of V (dat_r2 V q c) (A_eq_r2 V q c 1) (after_r2_1 V q c) t d
theorem before_r2_2 (c : Dev nD) (t : Fin cfg2.N) (d) : (dat_r2 V q c).before 2 t d = iblk_r2 V c 2 t :=
  before_r2_2_of V (dat_r2 V q c) (A_eq_r2 V q c 2) (after_r2_2 V q c) t d
theorem before_r2_3 (c : Dev nD) (t : Fin cfg2.N) (d) : (dat_r2 V q c).before 3 t d = iblk_r2 V c 3 t :=
  before_r2_3_of V (dat_r2 V q c) (A_eq_r2 V q c 3) (after_r2_3 V q c) t d

/-! ## The body obligation -/

/-- What the body is called with at point t, the windows one by one, -/
def bodyPre_r2 (c : Dev nD) (t : Fin cfg2.N) : sProp 𝕄 :=
  iprop((dat_r2 V q c).Φ t.castSucc ∗ (dat_r2 V q c).owesAt () t.castSucc
    ∗ (∃ d, owns (c : Thread nD τ) (ms_r2_0 t) fullShare ((dat_r2 V q c).before 0 t d))
    ∗ (∃ d, owns (c : Thread nD τ) (ms_r2_1 t) fullShare ((dat_r2 V q c).before 1 t d))
    ∗ (∃ d, owns (c : Thread nD τ) (ms_r2_2 t) fullShare ((dat_r2 V q c).before 2 t d))
    ∗ (∃ d, owns (c : Thread nD τ) (ms_r2_3 t) fullShare ((dat_r2 V q c).before 3 t d))
    ∗ (∃ d, owns (c : Thread nD τ) (ms_r2_4 t) fullShare ((dat_r2 V q c).before 4 t d)))

/-- and what it returns. -/
def bodyPost_r2 (c : Dev nD) (t : Fin cfg2.N) : sProp 𝕄 :=
  iprop((dat_r2 V q c).Φ t.succ ∗ (dat_r2 V q c).owesAt () t.succ
    ∗ (dat_r2 V q c).leavesExact 0 t
    ∗ (dat_r2 V q c).leavesExact 1 t
    ∗ (dat_r2 V q c).leavesExact 2 t
    ∗ (dat_r2 V q c).leavesExact 3 t
    ∗ (dat_r2 V q c).leavesExact 4 t)

set_option maxHeartbeats 4800000 in
/-- The body at any point. The input buffers hold their blocks; the point is the first, the last or neither, which
    decides the two conditionals; the matching run applies; the invariant hands over the accumulator (at anything at
    the first point, else at what the point before left) and takes it back at this point's contents. -/
theorem sound_body_r2 (c : Dev nD) (t : Fin cfg2.N) :
    bodyPre_r2 V q c t ⊢ wp frame (wpE (defs₀ (F := F)) Variants.none c none) Set.univ (bodyAt2 t) (fun _ => bodyPost_r2 V q c t) := by
  unfold bodyPre_r2 bodyPost_r2 bodyAt2
  simp only [before_r2_0, before_r2_1, before_r2_2, before_r2_3]
  rw [show (dat_r2 V q c).owesAt () t.succ = (dat_r2 V q c).owesAt () t.castSucc from rfl]
  rw [show (dat_r2 V q c).Φ t.succ = PhiS_r2 V c (t.val + 1) t.isLt from rfl, PhiS_r2_succ]
  rw [show (dat_r2 V q c).leavesExact 0 t = owns (c : Thread nD τ) (ms_r2_0 t) fullShare ((dat_r2 V q c).after 0 t) from by
    unfold Dat.leavesExact; rw [live_r2_0 t], after_r2_0]
  rw [show (dat_r2 V q c).leavesExact 1 t = owns (c : Thread nD τ) (ms_r2_1 t) fullShare ((dat_r2 V q c).after 1 t) from by
    unfold Dat.leavesExact; rw [live_r2_1 t], after_r2_1]
  rw [show (dat_r2 V q c).leavesExact 2 t = owns (c : Thread nD τ) (ms_r2_2 t) fullShare ((dat_r2 V q c).after 2 t) from by
    unfold Dat.leavesExact; rw [live_r2_2 t], after_r2_2]
  rw [show (dat_r2 V q c).leavesExact 3 t = owns (c : Thread nD τ) (ms_r2_3 t) fullShare ((dat_r2 V q c).after 3 t) from by
    unfold Dat.leavesExact; rw [live_r2_3 t], after_r2_3]
  have hN : t.val < 256 := lt_of_lt_of_eq t.isLt (show cfg2.N = 256 from N_2)
  by_cases h0 : t.val = 0
  · have hcA : condA_r2 (grid2.coords t) := (hcondA_r2 t).mpr h0
    have hcC : ¬condC_r2 (grid2.coords t) := fun h => by have := (hcondC_r2 t).mp h; omega
    rw [Dat.leavesExact_idle (dat_r2 V q c) 4 t (idle_r2_4 t hcC) (noFlush_r2_4 t hcC)]
    rw [acc_r2_zero V c t h0]
    rw [PhiS_r2_castSucc V q c t, PhiS_r2_zero V c _ _ h0, PhiA_r2_eq]
    iintro ⟨⟨⟨HS, Hoth⟩, Hg⟩, Ho, ⟨%d0, H0⟩, ⟨%d1, H1⟩, ⟨%d2, H2⟩, ⟨%d3, H3⟩, ⟨%d4, H4⟩⟩
    iapply (run_r2_A c (grid2.coords t) _ _ _ _ _ _ _ _ _ _ _ _ hcA hcC (iblk_r2 V c 0 t) (iblk_r2 V c 1 t) (iblk_r2 V c 2 t) (iblk_r2 V c 3 t) _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    isplitl [H2]; · iexact H2
    isplitl [H3]; · iexact H3
    iexists _; iexact H4
  · by_cases h1 : t.val = 255
    · have hcA : ¬condA_r2 (grid2.coords t) := fun h => h0 ((hcondA_r2 t).mp h)
      have hcC : condC_r2 (grid2.coords t) := (hcondC_r2 t).mpr h1
      rw [show (dat_r2 V q c).leavesExact 4 t = owns (c : Thread nD τ) (ms_r2_4 t) fullShare ((dat_r2 V q c).after 4 t) from by
        unfold Dat.leavesExact; rw [live_r2_4 t hcC], after_r2_4]
      rw [acc_r2_pos V c t h0]
      rw [PhiS_r2_castSucc V q c t, PhiS_r2_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r2_C c (grid2.coords t) _ _ _ _ _ _ _ _ _ _ _ _ hcA hcC (iblk_r2 V c 0 t) (iblk_r2 V c 1 t) (iblk_r2 V c 2 t) (iblk_r2 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexact H4
    · have hcA : ¬condA_r2 (grid2.coords t) := fun h => h0 ((hcondA_r2 t).mp h)
      have hcC : ¬condC_r2 (grid2.coords t) := fun h => h1 ((hcondC_r2 t).mp h)
      rw [Dat.leavesExact_idle (dat_r2 V q c) 4 t (idle_r2_4 t hcC) (noFlush_r2_4 t hcC)]
      rw [acc_r2_pos V c t h0]
      rw [PhiS_r2_castSucc V q c t, PhiS_r2_pos V c _ _ h0]
      iintro ⟨⟨⟨HS, Hoth⟩, Hg⟩, Ho, ⟨%d0, H0⟩, ⟨%d1, H1⟩, ⟨%d2, H2⟩, ⟨%d3, H3⟩, ⟨%d4, H4⟩⟩
      iapply (run_r2_B c (grid2.coords t) _ _ _ _ _ _ _ _ _ _ _ _ hcA hcC (iblk_r2 V c 0 t) (iblk_r2 V c 1 t) (iblk_r2 V c 2 t) (iblk_r2 V c 3 t) _ _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hoth Hg]
      · isplitl [HS Hoth]
        · isplitl [HS]; · iexact HS
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation_r2 (c : Dev nD) : BodyObligation (dat_r2 (F := F) V q c) (defs₀ (F := F)) Variants.none () Set.univ := fun t => by
  rw [bigSep_W2, bigSep_W2]
  exact sound_body_r2 V q c t

/-! ## Into and out of the invariant -/

/-- What the launch hands the region is the invariant before the first point. -/
theorem hin_r2 (c : Dev nD) : Pipeline.ΦA spec2 c ⊢ (dat_r2 V q c).Φ 0 := by
  rw [show (dat_r2 V q c).Φ 0 = PhiS_r2 V c 0 (Nat.zero_le _) from rfl, PhiS_r2_zero V c 0 _ rfl]

/-- After the last point the invariant gives the class's back: the accumulator's named contents are forgotten. -/
theorem hout_r2 (c : Dev nD) : (dat_r2 V q c).Φ (Fin.last cfg2.N) ⊢ Pipeline.ΦA spec2 c := by
  have hne : (Fin.last cfg2.N).val ≠ 0 := by rw [Fin.val_last]; have : cfg2.N = 256 := N_2; omega
  rw [show (dat_r2 V q c).Φ (Fin.last cfg2.N) = PhiS_r2 V c (Fin.last cfg2.N).val (Nat.le_of_lt_succ (Fin.last cfg2.N).isLt) from rfl,
    PhiS_r2_pos V c _ _ hne, PhiA_r2_eq]
  iintro ⟨⟨HS, Hoth⟩, Hg⟩
  isplitl [HS Hoth]
  · isplitl [HS]
    · iexists _; iexact HS
    iexact Hoth
  iexact Hg

end Region

end Cert.KernelIdeal.Hand

end
-- ==== Proof.KI.R2Split.lean ====
/-
  Region 2 reads four distinct arrays and writes a fifth: each window's array is a buffer of its own, held whole at the
  full share.
-/
import proofs.«168368_j77163382440707_1_alg».proof.Proof.Gen.KernelIdeal.Launch
import Idealize.ShloMosaic.Lib.Pipeline.FrameBody
import Idealize.ShloMosaic.Lib.Pipeline.RegionsLoop
import Idealize.ShloMosaic.Lib.Pipeline.Frame

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen

variable {F : FTy → Type} [FloatOps F]

local notation "𝕄" => MT nD τ sig Unit (Elt F) ℕ (UR sig nD τ) ℕ

/-- The shares region 2 holds its arrays at: all full. -/
def q_r2 : Fin cfg2.W → PosShare TreeShare := fun _ => fullShare

/-- The buffers behind region 2's arrays, in window order: main_arg0, main_arg1, main_arg2, main_arg3 and main_v4, no
    two the same. -/
theorem arrRefs_r2 : Finset.univ.image (Pipeline.arrRef spec2)
    = ([main_arg0, main_arg1, main_arg2, main_arg3, main_v4] : List (Ref sig .tc)).toFinset := by decide

/-- The buffers behind region 2's arrays, one by one, each whole at the full share. -/
theorem arrBufs_r2_eq (c : Dev nD) (Vb : (b : Ref sig .tc) → Buf (Elt F) ((c : Thread nD τ).loc b)) :
    (Pipeline.arrBufs (Ix := Unit) (Name := ℕ) (U := UR sig nD τ) (Lvl := ℕ) spec2 c Vb : sProp 𝕄)
      = iprop((((c : Thread nD τ).loc main_arg0) ↦{fullShare} Vb main_arg0) ∗ (((c : Thread nD τ).loc main_arg1) ↦{fullShare} Vb main_arg1)
          ∗ (((c : Thread nD τ).loc main_arg2) ↦{fullShare} Vb main_arg2) ∗ (((c : Thread nD τ).loc main_arg3) ↦{fullShare} Vb main_arg3)
          ∗ (((c : Thread nD τ).loc main_v4) ↦{fullShare} Vb main_v4)) := by
  unfold Pipeline.arrBufs
  exact bigSep_eq_bigSepL_of_eq [main_arg0, main_arg1, main_arg2, main_arg3, main_v4] arrRefs_r2 (by decide) _

/-- Every window of region 2 holds its array at the full share: an output does outright, an input by q_r2. -/
theorem share_r2 {c : Dev nD} (dat : Dat τ (Elt F) Unit ℕ (UR sig nD τ) ℕ cfg2 c) (hq : dat.q = q_r2) (w : Fin cfg2.W) :
    dat.share w = fullShare := by
  unfold Dat.share
  rw [hq]
  split <;> rfl

/-- One window's array, a whole buffer, is the buffer behind it held whole at the full share, at the contents Vb reads
    there. -/
theorem win_pt_r2 {c : Dev nD} (dat : Dat τ (Elt F) Unit ℕ (UR sig nD τ) ℕ cfg2 c) (hq : dat.q = q_r2) (w : Fin cfg2.W)
    (Vb : (b : Ref sig .tc) → Buf (Elt F) ((c : Thread nD τ).loc b))
    (Fa : (w : Fin cfg2.W) → Buf (Elt F) ((cfg2.win w).arr.view.loc (c.tc : Thread nD τ)))
    (hF : ∀ w, Fa w = Vb (Pipeline.arrRef spec2 w)) :
    ((cfg2.win w).arr.view.loc (c.tc : Thread nD τ) ↦[(cfg2.win w).arr.view.set]{dat.share w} Fa w : sProp 𝕄)
      = (((c : Thread nD τ).loc (Pipeline.arrRef spec2 w)) ↦{fullShare} Vb (Pipeline.arrRef spec2 w)) := by
  rw [(arr_whole2 w).set_eq_univ, share_r2 dat hq w, hF w]

/-- The pipeline's arrays of region 2, window by window: the five buffers, each whole at the full share, at the contents
    Vb reads. -/
theorem arrays_r2_eq {c : Dev nD} (dat : Dat τ (Elt F) Unit ℕ (UR sig nD τ) ℕ cfg2 c) (hq : dat.q = q_r2)
    (Vb : (b : Ref sig .tc) → Buf (Elt F) ((c : Thread nD τ).loc b))
    (Fa : (w : Fin cfg2.W) → Buf (Elt F) ((cfg2.win w).arr.view.loc (c.tc : Thread nD τ)))
    (hF : ∀ w, Fa w = Vb (Pipeline.arrRef spec2 w)) :
    (dat.arrays Fa : sProp 𝕄)
      = iprop((((c : Thread nD τ).loc main_arg0) ↦{fullShare} Vb main_arg0) ∗ (((c : Thread nD τ).loc main_arg1) ↦{fullShare} Vb main_arg1)
          ∗ (((c : Thread nD τ).loc main_arg2) ↦{fullShare} Vb main_arg2) ∗ (((c : Thread nD τ).loc main_arg3) ↦{fullShare} Vb main_arg3)
          ∗ (((c : Thread nD τ).loc main_v4) ↦{fullShare} Vb main_v4)) := by
  unfold Dat.arrays
  rw [Gen.bigSep_W2, win_pt_r2 dat hq 0 Vb Fa hF, win_pt_r2 dat hq 1 Vb Fa hF, win_pt_r2 dat hq 2 Vb Fa hF, win_pt_r2 dat hq 3 Vb Fa hF,
    win_pt_r2 dat hq 4 Vb Fa hF]

/-- The buffers behind region 2's arrays at contents Vb ARE the pipeline's arrays at contents Fa, when Fa is Vb read
    at each window's array: in both directions. -/
theorem arrays_iff_r2 {c : Dev nD} (dat : Dat τ (Elt F) Unit ℕ (UR sig nD τ) ℕ cfg2 c) (hq : dat.q = q_r2)
    (Vb : (b : Ref sig .tc) → Buf (Elt F) ((c : Thread nD τ).loc b))
    (Fa : (w : Fin cfg2.W) → Buf (Elt F) ((cfg2.win w).arr.view.loc (c.tc : Thread nD τ)))
    (hF : ∀ w, Fa w = Vb (Pipeline.arrRef spec2 w)) :
    (Pipeline.arrBufs (Ix := Unit) (Name := ℕ) (U := UR sig nD τ) (Lvl := ℕ) spec2 c Vb : sProp 𝕄) ⊣⊢ dat.arrays Fa := by
  -- both sides are the same five buffers, one by one
  rw [arrBufs_r2_eq, arrays_r2_eq dat hq Vb Fa hF]

end Cert.KernelIdeal.Hand

end
-- ==== Proof.KI.R2Glue.lean ====
/-
  Region 2 between two boundaries of @main: from every unscoped buffer of the core held whole at the contents the
  region is entered with, to the pipeline's arrays (each window's array at its share) beside the buffers no window
  names; and back, when the region ends, to every unscoped buffer held whole at the contents it leaves: the entry
  contents with the output array at what the one write-back left.
-/
import proofs.«168368_j77163382440707_1_alg».proof.Proof.KI.R2Frame
import proofs.«168368_j77163382440707_1_alg».proof.Proof.KI.R2Split
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Glue

variable (W : Dev nD → Valuation τ sig (Elt F))

/-- The entry contents read at the TensorCore's references: what the region's proof data take. -/
abbrev Vof_r2 (c : Dev nD) (b : Ref sig .tc) : Buf (Elt F) ((c : Thread nD τ).loc b) := W c b

/-- The region's proof data at these entry contents, the shared arrays held a half per window. -/
abbrev dd_r2 (c : Dev nD) : Dat τ (Elt F) Unit ℕ (UR sig nD τ) ℕ cfg2 c := dat_r2 (Vof_r2 W) q_r2 c

/-- What the region leaves in its output array. -/
abbrev res_r2 (c : Dev nD) : Buf (Elt F) ((c : Thread nD τ).loc (Pipeline.arrRef spec2 4)) := (dd_r2 W c).arrAt 4 cfg2.N

/-- The contents the region leaves: the entry contents with the output array at what the write-back left. -/
def Wout_r2 (c : Dev nD) : Valuation τ sig (Elt F) :=
  Function.update (W c) (Proc.devRef .tc (Pipeline.arrRef spec2 4)) (res_r2 W c)

theorem Wout_r2_out (c : Dev nD) : Wout_r2 W c (Proc.devRef .tc (Pipeline.arrRef spec2 4)) = res_r2 W c := by
  unfold Wout_r2; exact Function.update_self ..

theorem Wout_r2_of_ne (c : Dev nD) (b : Ref sig .tc) (hb : b ≠ Pipeline.arrRef spec2 4) :
    Wout_r2 W c (Proc.devRef .tc b) = W c (Proc.devRef .tc b) := by
  unfold Wout_r2; exact Function.update_of_ne (StableHlo.devRef_ne_of_ne hb) ..

/-- Entering: the unscoped buffers at the entry contents are the pipeline's arrays at their entry contents and the rest. -/
theorem entry_r2 (c : Dev nD) :
    (StableHlo.held (c : Thread nD τ) (Pipeline.ucRefs τ sig) (W c) : sProp 𝕄)
      ⊢ iprop((dd_r2 W c).arrays (fun w => (dd_r2 W c).arrAt w 0) ∗ Pipeline.unscopedRest (Ix := Unit) (Name := ℕ) (U := UR sig nD τ) (Lvl := ℕ) spec2 c (Vof_r2 W c)) := by
  rw [← Pipeline.unscopedBufs_held (Ix := Unit) (Name := ℕ) (U := UR sig nD τ) (Lvl := ℕ) c (W c)]
  rw [Pipeline.unscopedBufs_split₀ cfgs (2 : Fin 3) winFacts2.to₀.arr_unscoped c (Vof_r2 W c)]
  exact sep_mono (arrays_iff_r2 (dd_r2 W c) rfl (Vof_r2 W c) _ (fun w => A_eq_r2 (Vof_r2 W) q_r2 c w)).1 .rfl

/-- Leaving: the arrays at their final contents and the rest are the unscoped buffers at the contents the region leaves. -/
theorem exit_r2 (c : Dev nD) :
    iprop((dd_r2 W c).arrays (fun w => (dd_r2 W c).arrAt w cfg2.N) ∗ Pipeline.unscopedRest (Ix := Unit) (Name := ℕ) (U := UR sig nD τ) (Lvl := ℕ) spec2 c (Vof_r2 W c))
      ⊢ (StableHlo.held (c : Thread nD τ) (Pipeline.ucRefs τ sig) (Wout_r2 W c) : sProp 𝕄) := by
  have hF : ∀ w : Fin cfg2.W, (dd_r2 W c).arrAt w cfg2.N = Vof_r2 (Wout_r2 W) c (Pipeline.arrRef spec2 w) := by
    intro w
    match w with
    | ⟨0, _⟩ => exact ((dd_r2 W c).arrAt_in 0 rfl _).trans ((A_eq_r2 (Vof_r2 W) q_r2 c 0).trans (Wout_r2_of_ne W c _ (by decide)).symm)
    | ⟨1, _⟩ => exact ((dd_r2 W c).arrAt_in 1 rfl _).trans ((A_eq_r2 (Vof_r2 W) q_r2 c 1).trans (Wout_r2_of_ne W c _ (by decide)).symm)
    | ⟨2, _⟩ => exact ((dd_r2 W c).arrAt_in 2 rfl _).trans ((A_eq_r2 (Vof_r2 W) q_r2 c 2).trans (Wout_r2_of_ne W c _ (by decide)).symm)
    | ⟨3, _⟩ => exact ((dd_r2 W c).arrAt_in 3 rfl _).trans ((A_eq_r2 (Vof_r2 W) q_r2 c 3).trans (Wout_r2_of_ne W c _ (by decide)).symm)
    | ⟨4, _⟩ => exact (Wout_r2_out W c).symm
  have hrest : (Pipeline.unscopedRest (Ix := Unit) (Name := ℕ) (U := UR sig nD τ) (Lvl := ℕ) spec2 c (Vof_r2 W c) : sProp 𝕄)
      = Pipeline.unscopedRest spec2 c (Vof_r2 (Wout_r2 W) c) := by
    unfold Pipeline.unscopedRest
    refine bigSep_congr fun b hb => ?_
    have hne : b ≠ Pipeline.arrRef spec2 4 := fun e =>
      (Finset.mem_sdiff.mp hb).2 (Finset.mem_image.mpr ⟨4, Finset.mem_univ _, e.symm⟩)
    rw [show Vof_r2 (Wout_r2 W) c b = Vof_r2 W c b from Wout_r2_of_ne W c b hne]
  rw [← Pipeline.unscopedBufs_held (Ix := Unit) (Name := ℕ) (U := UR sig nD τ) (Lvl := ℕ) c (Wout_r2 W c)]
  rw [Pipeline.unscopedBufs_split₀ cfgs (2 : Fin 3) winFacts2.to₀.arr_unscoped c (Vof_r2 (Wout_r2 W) c), hrest]
  exact sep_mono (arrays_iff_r2 (dd_r2 W c) rfl (Vof_r2 (Wout_r2 W) c) _ hF).2 .rfl

end Glue

end Cert.KernelIdeal.Hand

end
-- ==== Proof.KI.Main.lean ====
/-
  The whole program: three kernel regions and the host stretches between them, from the launch to the return.

  The contents of the core's unscoped buffers at each boundary of @main are a fold from the launch memory: a region
  changes its output array only (to what its one write-back left), a host stretch applies its operations. Each region
  is entered from what the item before it left; the launch hands the first region every unscoped buffer at the launch
  contents; at the return every unscoped buffer is read at the last boundary's contents. Two things follow: no item
  writes an argument, so the arguments end as launched; and the result is the host tail's arithmetic on the three
  regions' outputs.
-/
import proofs.«168368_j77163382440707_1_alg».proof.Proof.KI.R0Glue
import proofs.«168368_j77163382440707_1_alg».proof.Proof.KI.R1Glue
import proofs.«168368_j77163382440707_1_alg».proof.Proof.KI.R2Glue
import proofs.«168368_j77163382440707_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at each boundary -/

/-- At launch. -/
abbrev B0 (c : Dev nD) : Valuation τ sig (Elt F) := fun b => m (c, b)
/-- After region 0: its output array at what it wrote. -/
abbrev B1 (c : Dev nD) : Valuation τ sig (Elt F) := Wout_r0 (B0 m) c
/-- After the first host stretch. -/
abbrev B2 (c : Dev nD) : Valuation τ sig (Elt F) := StableHlo.after hostOps1 (B1 m c)
/-- After region 1. -/
abbrev B3 (c : Dev nD) : Valuation τ sig (Elt F) := Wout_r1 (B2 m) c
/-- After the second host stretch. -/
abbrev B4 (c : Dev nD) : Valuation τ sig (Elt F) := StableHlo.after hostOps2 (B3 m c)
/-- After region 2. -/
abbrev B5 (c : Dev nD) : Valuation τ sig (Elt F) := Wout_r2 (B4 m) c
/-- After the host tail: at the return. -/
abbrev B6 (c : Dev nD) : Valuation τ sig (Elt F) := StableHlo.after hostOps3 (B5 m c)

/-! ## The proof data family and the thread state -/

/-- No pipeline has a prefetched table. -/
abbrev adm0 : (p : Fin 3) → (pcfgs (F := F) p).Adm := fun p => (cfgs p).toPCfg_adm

/-- Every pipeline's proof data, each at its region's entry contents: a literal match on the pipeline. -/
def pdats : (p : Fin 3) → (c : Dev nD) → Dat τ (Elt F) Unit ℕ (UR sig nD τ) ℕ (Pipeline.pin (pcfgs (F := F)) adm0 p) c
  | ⟨0, _⟩ => fun c => dd_r0 (B0 m) c
  | ⟨1, _⟩ => fun c => dd_r1 (B2 m) c
  | ⟨2, _⟩ => fun c => dd_r2 (B4 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-- A host stretch as a segment over the unscoped buffers from the contents W, the rest riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    HostSeg (Name := ℕ) (U := UR sig nD τ) (pcfgs (F := F)) defs₀ 𝒱₀ L lv :=
  HostSeg.ofOps _ _ _ _ _ (Pipeline.ucRefs τ sig) ops
    (fun op h => Pipeline.sub_ucRefs op ((List.forall_iff_forall_mem.mp hsub) op h))
    (fun op h => (List.forall_iff_forall_mem.mp hfresh) op h) W Rr

/-! ## The regions as segments -/

set_option backward.isDefEq.respectTransparency.types false in
/-- Region 0 over the thread state "every unscoped buffer whole at the boundary's contents, the generator register at
    some state, nothing owed": entered at B0, left at B1. Its arrays are split out of the unscoped buffers and put
    back by the region's glue; the generator register passes through the class invariant; the kernel has no semaphore of
    its own and owes nothing. -/
def reg0 : RegionSeg (pcfgs (F := F)) adm0 (pdats m) () defs₀ 𝒱₀ L lv 0 where
  win := winFacts₀0
  block_pos := block_pos0
  stage_whole := stage_whole0
  K := PEmpty
  osem k := k.elim
  ho := Pipeline.OwnSemFacts.none _
  hbody c := (body_obligation_r0 (Vof_r0 (B0 m)) q_r0 c).loose
  hwaits := Pipeline.hwaits_of_owed_zero _ _ _ _ L lv 0 fun _ _ => rfl
  pre c := iprop(StableHlo.held (c : Thread nD τ) (Pipeline.ucRefs τ sig) (B0 m c) ∗ Rr c)
  post c := iprop(StableHlo.held (c : Thread nD τ) (Pipeline.ucRefs τ sig) (B1 m c) ∗ Rr c)
  X c := iprop(∃ r, prngReg c r)
  Y c := iprop(∃ r, prngReg c r)
  Z c := Pipeline.unscopedRest (Ix := Unit) (Name := ℕ) (U := UR sig nD τ) (Lvl := ℕ) spec0 c (Vof_r0 (B0 m) c)
  hentry c := by
    rw [Pipeline.ownSems0_none]
    iintro ⟨⟨Hub, Hp, HO⟩, -, -⟩
    ihave H := (entry_r0 (B0 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_r0 (Vof_r0 (B0 m)) q_r0 c)
    unfold Pipeline.ΦA
    iintro ⟨Hp, -, Hr⟩
    isplitl [Hr]; · iexact Hr
    iexact Hp
  hout c := by
    rw [Pipeline.ownSems0_none]
    refine BIBase.Entails.trans (hout_r0 (Vof_r0 (B0 m)) q_r0 c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_r0 (B0 m) c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 over the thread state "every unscoped buffer whole at the boundary's contents, the generator register at
    some state, nothing owed": entered at B2, left at B3. Its arrays are split out of the unscoped buffers and put
    back by the region's glue; the generator register passes through the class invariant; the kernel has no semaphore of
    its own and owes nothing. -/
def reg1 : RegionSeg (pcfgs (F := F)) adm0 (pdats m) () defs₀ 𝒱₀ L lv 1 where
  win := winFacts₀1
  block_pos := block_pos1
  stage_whole := stage_whole1
  K := PEmpty
  osem k := k.elim
  ho := Pipeline.OwnSemFacts.none _
  hbody c := (body_obligation_r1 (Vof_r1 (B2 m)) q_r1 c).loose
  hwaits := Pipeline.hwaits_of_owed_zero _ _ _ _ L lv 1 fun _ _ => rfl
  pre c := iprop(StableHlo.held (c : Thread nD τ) (Pipeline.ucRefs τ sig) (B2 m c) ∗ Rr c)
  post c := iprop(StableHlo.held (c : Thread nD τ) (Pipeline.ucRefs τ sig) (B3 m c) ∗ Rr c)
  X c := iprop(∃ r, prngReg c r)
  Y c := iprop(∃ r, prngReg c r)
  Z c := Pipeline.unscopedRest (Ix := Unit) (Name := ℕ) (U := UR sig nD τ) (Lvl := ℕ) spec1 c (Vof_r1 (B2 m) c)
  hentry c := by
    rw [Pipeline.ownSems0_none]
    iintro ⟨⟨Hub, Hp, HO⟩, -, -⟩
    ihave H := (entry_r1 (B2 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_r1 (Vof_r1 (B2 m)) q_r1 c)
    unfold Pipeline.ΦA
    iintro ⟨Hp, -, Hr⟩
    isplitl [Hr]; · iexact Hr
    iexact Hp
  hout c := by
    rw [Pipeline.ownSems0_none]
    refine BIBase.Entails.trans (hout_r1 (Vof_r1 (B2 m)) q_r1 c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_r1 (B2 m) c)
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 2 over the thread state "every unscoped buffer whole at the boundary's contents, the generator register at
    some state, nothing owed": entered at B4, left at B5. Its arrays are split out of the unscoped buffers and put
    back by the region's glue; the generator register passes through the class invariant; the kernel has no semaphore of
    its own and owes nothing. -/
def reg2 : RegionSeg (pcfgs (F := F)) adm0 (pdats m) () defs₀ 𝒱₀ L lv 2 where
  win := winFacts2.to₀
  block_pos := block_pos2
  stage_whole := stage_whole2
  K := PEmpty
  osem k := k.elim
  ho := Pipeline.OwnSemFacts.none _
  hbody c := (body_obligation_r2 (Vof_r2 (B4 m)) q_r2 c).loose
  hwaits := Pipeline.hwaits_of_owed_zero _ _ _ _ L lv 2 fun _ _ => rfl
  pre c := iprop(StableHlo.held (c : Thread nD τ) (Pipeline.ucRefs τ sig) (B4 m c) ∗ Rr c)
  post c := iprop(StableHlo.held (c : Thread nD τ) (Pipeline.ucRefs τ sig) (B5 m c) ∗ Rr c)
  X c := iprop(∃ r, prngReg c r)
  Y c := iprop(∃ r, prngReg c r)
  Z c := Pipeline.unscopedRest (Ix := Unit) (Name := ℕ) (U := UR sig nD τ) (Lvl := ℕ) spec2 c (Vof_r2 (B4 m) c)
  hentry c := by
    rw [Pipeline.ownSems0_none]
    iintro ⟨⟨Hub, Hp, HO⟩, -, -⟩
    ihave H := (entry_r2 (B4 m) c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin_r2 (Vof_r2 (B4 m)) q_r2 c)
    unfold Pipeline.ΦA
    iintro ⟨Hp, -, Hr⟩
    isplitl [Hr]; · iexact Hr
    iexact Hp
  hout c := by
    rw [Pipeline.ownSems0_none]
    refine BIBase.Entails.trans (hout_r2 (Vof_r2 (B4 m)) q_r2 c) ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (exit_r2 (B4 m) c)
      isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's six items in order. -/
abbrev segs : List (Seg (pcfgs (F := F)) adm0 (pdats m) () defs₀ 𝒱₀ L lv) :=
  [ .region (reg0 m),
    .host (hseg hostOps1 hostOps1_sub hostOps1_fresh (B1 m)),
    .region (reg1 m),
    .host (hseg hostOps2 hostOps2_sub hostOps2_fresh (B3 m)),
    .region (reg2 m),
    .host (hseg hostOps3 hostOps3_sub hostOps3_fresh (B5 m)) ]

/-- @main is the run of the segments. -/
theorem main_run (c : Dev nD) : main (F := F) c = Seg.run (segs m) := (main_chain c).trans (by chain_rfl)

set_option backward.isDefEq.respectTransparency.types false in
/-- THE RUN. From any memory with zero counters every weakly fair execution of @main terminates, nothing faulting, and
    every final memory holds every unscoped buffer of every core at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm0 (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rr c))
    (Tₙ := fun c => iprop(StableHlo.held (c : Thread nD τ) (Pipeline.ucRefs τ sig) (B6 m c) ∗ ∃ r, prngReg c r))
    (hch := ⟨fun _ => .rfl, fun _ => .rfl, fun _ => .rfl, fun _ => .rfl, fun _ => .rfl, fun _ => .rfl, fun c => by
      show iprop(StableHlo.held (c : Thread nD τ) (Pipeline.ucRefs τ sig) (B6 m c) ∗ Rr c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## What no item writes ends as launched -/

/-- A buffer that no host stretch writes and that is no region's output array holds its launch contents at the return. -/
theorem B6_of (c : Dev nD) (r : Ref sig .tc) (h1 : r ∉ hostOps1_W) (h2 : r ∉ hostOps2_W) (h3 : r ∉ hostOps3_W)
    (hn0 : r ≠ Pipeline.arrRef spec0 4) (hn1 : r ≠ Pipeline.arrRef spec1 4) (hn2 : r ≠ Pipeline.arrRef spec2 4) :
    B6 m c r = m ((c : Thread nD τ).loc r) :=
  (StableHlo.after_of_writes_sub hostOps3 _ hostOps3_writes h3).trans <|
    (Wout_r2_of_ne (B4 m) c r hn2).trans <|
      (StableHlo.after_of_writes_sub hostOps2 _ hostOps2_writes h2).trans <|
        (Wout_r1_of_ne (B2 m) c r hn1).trans <|
          (StableHlo.after_of_writes_sub hostOps1 _ hostOps1_writes h1).trans <|
            (Wout_r0_of_ne (B0 m) c r hn0).trans rfl

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (B6_of m c main_arg0 (by decide) (by decide) (by decide) (by decide) (by decide) (by decide)),
     (h c _ (mem_uc main_arg1 (by decide))).trans (B6_of m c main_arg1 (by decide) (by decide) (by decide) (by decide) (by decide) (by decide)),
     (h c _ (mem_uc main_arg2 (by decide))).trans (B6_of m c main_arg2 (by decide) (by decide) (by decide) (by decide) (by decide) (by decide)),
     (h c _ (mem_uc main_arg3 (by decide))).trans (B6_of m c main_arg3 (by decide) (by decide) (by decide) (by decide) (by decide) (by decide))⟩)
    (run_main m ρ)

end Cert.KernelIdeal.Hand

end
-- ==== Proof.LibAllReal.lean ====
/-
  Arrays over the extended reals whose every entry is a real number, and the operations that keep them so.

  An entry of an array over the extended reals is either a real number or one of the two infinities. The lemmas
  here say, for each operation of a host program read over the extended reals, that the result has only real
  entries when the operands have: the elementwise sum, difference, product and maximum (the sum, difference,
  product and maximum of two reals is a real); a re-indexing (each entry of the result IS an entry of the
  operand: a broadcast, a gather); a constant whose word denotes a real; the accumulating scatter (an entry of the
  operand plus a finite sum of entries of the updates); the contraction of two arrays (a finite sum of products).
  For the reciprocal square root the operand has to be POSITIVE, so there is a second predicate for arrays of
  positive reals, kept by a maximum with one positive side.
-/
import Idealize.ShloMosaic.PureOps.Ideal.Laws
import Idealize.ShloMosaic.PureOps.Contract
import Idealize.ShloMosaic.PureOps.ShapeOps
import Idealize.ShloMosaic.PureOps.Vector
import Mathlib.Analysis.SpecialFunctions.Pow.Real

noncomputable section

namespace Cert.Spec

open Idealize.ShloMosaic
open scoped BigOperators

/-- Every entry of the array is a real number (neither infinity). -/
def AllReal {S : Shape} (x : S.Idx → EReal) : Prop := ∀ i, ∃ r : ℝ, x i = (r : EReal)

/-! ## Scalars -/

/-- The maximum of two real numbers, taken in the extended reals, is their maximum as real numbers. -/
theorem coe_max_real (a b : ℝ) : max (a : EReal) (b : EReal) = ((max a b : ℝ) : EReal) :=
  (EReal.coe_strictMono.monotone.map_max).symm

/-- A finite sum of real numbers, taken in the extended reals, is a real number. -/
theorem exists_real_sum {ι : Type} (s : Finset ι) (f : ι → EReal) (hf : ∀ i ∈ s, ∃ r : ℝ, f i = (r : EReal)) :
    ∃ r : ℝ, ∑ i ∈ s, f i = (r : EReal) := by
  classical
  induction s using Finset.induction_on with
  | empty => exact ⟨0, by simp⟩
  | insert a s ha ih =>
    obtain ⟨ra, hra⟩ := hf a (Finset.mem_insert_self a s)
    obtain ⟨rs, hrs⟩ := ih (fun i hi => hf i (Finset.mem_insert_of_mem hi))
    exact ⟨ra + rs, by rw [Finset.sum_insert ha, hra, hrs, EReal.coe_add]⟩

/-- The word `0x3F800000` of the 32-bit format denotes the number one. -/
theorem ofBits_f32_one : Ideal.ofBits .f32 0x3F800000#32 = ((1 : ℝ) : EReal) := by
  simp [Ideal.ofBits, Ideal.ieee, -EReal.coe_mul]
  norm_num

/-- The word `0x00000000` of the 32-bit format denotes the real number zero. -/
theorem ofBits_f32_zero : Ideal.ofBits .f32 0x00000000#32 = ((0 : ℝ) : EReal) := by
  rw [Ideal.ofBits_zero_f32, EReal.coe_zero]

/-! ## Arrays of positive reals -/

/-- Every entry of the array is a positive real number. -/
def AllPos {S : Shape} (x : S.Idx → EReal) : Prop := ∀ i, ∃ r : ℝ, 0 < r ∧ x i = (r : EReal)

/-- An array of positive reals is an array of reals. -/
theorem AllPos.allReal {S : Shape} {x : S.Idx → EReal} (h : AllPos x) : AllReal x :=
  fun i => let ⟨r, _, hr⟩ := h i; ⟨r, hr⟩

variable {s t : Shape} {φ : FTy}

/-! ## Elementwise operations -/

/-- The elementwise product of two arrays of reals is an array of reals. -/
theorem AllReal.mulf {x y : FVec Ideal s φ} (hx : AllReal x) (hy : AllReal y) : AllReal (mulf (F := Ideal) x y) := by
  intro i
  obtain ⟨a, ha⟩ := hx i
  obtain ⟨b, hb⟩ := hy i
  exact ⟨a * b, by show x i * y i = _; rw [ha, hb, EReal.coe_mul]⟩

/-- The elementwise sum of two arrays of reals is an array of reals. -/
theorem AllReal.addf {x y : FVec Ideal s φ} (hx : AllReal x) (hy : AllReal y) : AllReal (addf (F := Ideal) x y) := by
  intro i
  obtain ⟨a, ha⟩ := hx i
  obtain ⟨b, hb⟩ := hy i
  exact ⟨a + b, by show x i + y i = _; rw [ha, hb, EReal.coe_add]⟩

/-- The elementwise difference of two arrays of reals is an array of reals. -/
theorem AllReal.subf {x y : FVec Ideal s φ} (hx : AllReal x) (hy : AllReal y) : AllReal (subf (F := Ideal) x y) := by
  intro i
  obtain ⟨a, ha⟩ := hx i
  obtain ⟨b, hb⟩ := hy i
  exact ⟨a - b, by show x i - y i = _; rw [ha, hb, EReal.coe_sub]⟩

/-- The elementwise maximum of two arrays of reals is an array of reals. -/
theorem AllReal.maximumf {x y : FVec Ideal s φ} (hx : AllReal x) (hy : AllReal y) :
    AllReal (maximumf (F := Ideal) x y) := by
  intro i
  obtain ⟨a, ha⟩ := hx i
  obtain ⟨b, hb⟩ := hy i
  exact ⟨max a b, by show max (x i) (y i) = _; rw [ha, hb, coe_max_real]⟩

/-- The elementwise maximum of an array of positive reals and an array of reals is an array of positive reals. -/
theorem AllPos.maximumf_left {x y : FVec Ideal s φ} (hx : AllPos x) (hy : AllReal y) :
    AllPos (maximumf (F := Ideal) x y) := by
  intro i
  obtain ⟨a, ha, hxa⟩ := hx i
  obtain ⟨b, hb⟩ := hy i
  exact ⟨max a b, lt_max_of_lt_left ha, by show max (x i) (y i) = _; rw [hxa, hb, coe_max_real]⟩

/-- The reciprocal square root of an array of positive reals is an array of positive reals: at a real `r > 0` it is
    the real `(√r)⁻¹`, neither of the corners (a negative operand, zero) being met. -/
theorem AllPos.hostRsqrt {x : FVec Ideal s φ} (hx : AllPos x) : AllPos (Host.rsqrt (F := Ideal) x) := by
  intro i
  obtain ⟨r, hr, hxr⟩ := hx i
  refine ⟨(Real.sqrt r)⁻¹, inv_pos.mpr (Real.sqrt_pos.mpr hr), ?_⟩
  show Ideal.rsqrt (x i) = _
  rw [hxr, Ideal.rsqrt_coe, if_neg (not_lt.mpr hr.le), if_neg hr.ne']

/-! ## Constants -/

/-- A constant array is an array of reals when its word denotes a real. -/
theorem AllReal.constant {b : BitVec φ.bits} {r : ℝ} (hb : Ideal.ofBits φ b = (r : EReal)) :
    AllReal (constant (F := Ideal) s φ b) :=
  fun _ => ⟨r, hb⟩

/-- A constant array is an array of positive reals when its word denotes a positive real. -/
theorem AllPos.constant {b : BitVec φ.bits} {r : ℝ} (hr : 0 < r) (hb : Ideal.ofBits φ b = (r : EReal)) :
    AllPos (constant (F := Ideal) s φ b) :=
  fun _ => ⟨r, hr, hb⟩

/-- The array of zeros of the 32-bit format is an array of reals. -/
theorem AllReal.constant_zero : AllReal (Idealize.ShloMosaic.constant (F := Ideal) s .f32 0x00000000#32) :=
  AllReal.constant ofBits_f32_zero

/-- The array of ones of the 32-bit format is an array of positive reals. -/
theorem AllPos.constant_one : AllPos (Idealize.ShloMosaic.constant (F := Ideal) s .f32 0x3F800000#32) :=
  AllPos.constant one_pos ofBits_f32_one

/-! ## Re-indexings: each entry of the result is an entry of the operand -/

/-- A broadcast of an array of reals is an array of reals. -/
theorem AllReal.broadcastInDim {dims : Fin s.rank → Fin t.rank} {h : s.BroadcastsInDim t dims} {x : s.Idx → EReal}
    (hx : AllReal x) : AllReal (broadcastInDim t dims h x) :=
  fun _ => hx _

/-- A broadcast of an array of positive reals is an array of positive reals. -/
theorem AllPos.broadcastInDim {dims : Fin s.rank → Fin t.rank} {h : s.BroadcastsInDim t dims} {x : s.Idx → EReal}
    (hx : AllPos x) : AllPos (broadcastInDim t dims h x) :=
  fun _ => hx _

/-- A gather from an array of reals is an array of reals, whatever the index array holds. -/
theorem AllReal.gather {si : Shape} {w : Nat} {d : GatherDims s si t} {x : s.Idx → EReal} {idx : IVec si w}
    (hx : AllReal x) : AllReal (Host.gather d x idx) :=
  fun _ => hx _

/-! ## Finite sums -/

/-- The accumulating scatter of an array of real updates into an array of reals is an array of reals, whatever the
    index array holds: each entry is an entry of the operand plus a finite sum of entries of the updates. -/
theorem AllReal.scatterAdd {si u : Shape} {w : Nat} {d : ScatterDims s si u} {x : FVec Ideal s φ} {idx : IVec si w}
    {upd : FVec Ideal u φ} (hx : AllReal x) (hu : AllReal upd) :
    AllReal (Host.scatterAdd (F := Ideal) d x idx upd) := by
  intro i
  obtain ⟨a, ha⟩ := hx i
  have key : ∀ S : Finset u.Idx, ∃ r : ℝ, x i + ∑ j ∈ S, upd j = (r : EReal) := by
    intro S
    obtain ⟨b, hb⟩ := exists_real_sum S upd (fun j _ => hu j)
    exact ⟨a + b, by rw [ha, hb, EReal.coe_add]⟩
  exact key _

/-- The contraction of two arrays of reals is an array of reals: each entry is a finite sum of products of an entry
    of the one and an entry of the other. -/
theorem AllReal.dotGeneral {sl sr so : Shape} {φ₁ φ₂ : FTy} {d : DotDims sl sr so} {prec : Option ContractPrecision}
    {l : FVec Ideal sl φ₁} {r : FVec Ideal sr φ₂} (hl : AllReal l) (hr : AllReal r) :
    AllReal (Host.dotGeneral (F := Ideal) d prec l r) := by
  intro j
  have e : Host.dotGeneral (F := Ideal) d prec l r j = ∑ k : d.contr.Idx, l (d.lhsIdx j k) * r (d.rhsIdx j k) :=
    Ideal.dotGeneral_apply d prec .single l r j
  rw [e]
  refine exists_real_sum _ _ (fun k _ => ?_)
  obtain ⟨a, ha⟩ := hl (d.lhsIdx j k)
  obtain ⟨b, hb⟩ := hr (d.rhsIdx j k)
  exact ⟨a * b, by rw [ha, hb, EReal.coe_mul]⟩

end Cert.Spec

end
-- ==== Proof.Spec.lean ====
/-
  The function both programs compute, written once over the extended reals.

  For two point clouds xa, xb of 4 batches × 4096 points in ℝ³ with normals na, nb, the varifold kernel sum is
      K(xa, xb, na, nb) = ∑ b i j, exp(−‖xa[b,i] − xb[b,j]‖²) · (na[b,i] · nb[b,j])²
  and the result is K(x₁,x₁,n₁,n₁) + K(x₂,x₂,n₂,n₂) − 2 · K(x₁,x₂,n₁,n₂).
  The reference forms ‖a − b‖² as ∑ d (a d − b d)²; the kernel as (‖a‖² + ‖b‖²) − 2 (a · b) and negates it as 0 − S.
  The two agree on real entries (the square of a difference expanded), which is the one place finiteness is used.
-/
import Idealize.ShloMosaic.PureOps.Ideal
import Idealize.ShloMosaic.PureOps.Ideal.Laws
import Idealize.ShloMosaic.Lib.ValueIdx
import proofs.«168368_j77163382440707_1_alg».proof.Proof.LibAllReal

noncomputable section

namespace Cert.Spec

open Idealize.ShloMosaic Idealize.ShloMosaic.ValueIdx
open scoped BigOperators

/-- The shape of each argument: batch × point × coordinate. -/
abbrev SArg : Shape := ⟨3, ![4, 4096, 3]⟩

/-- The literal 2.0, kept as its word (the same word on both sides; never evaluated). -/
abbrev two : EReal := Ideal.ofBits .f32 0x40000000#32

/-- ‖xa[b,i] − xb[b,j]‖² as the reference forms it: the sum over the three coordinates of the squared difference. -/
def sqdist (xa xb : SArg.Idx → EReal) (b : Fin 4) (i j : Fin 4096) : EReal :=
  ∑ d : Fin 3, (xa (ix3 b i d) - xb (ix3 b j d)) * (xa (ix3 b i d) - xb (ix3 b j d))

/-- The inner product of row i of u and row j of v in batch b. -/
def rowdot (u v : SArg.Idx → EReal) (b : Fin 4) (i j : Fin 4096) : EReal :=
  ∑ d : Fin 3, u (ix3 b i d) * v (ix3 b j d)

/-- The reference's summand at (b, i, j). -/
def pairRef (xa xb na nb : SArg.Idx → EReal) (b : Fin 4) (i j : Fin 4096) : EReal :=
  Ideal.exp (-(sqdist xa xb b i j)) * (rowdot na nb b i j * rowdot na nb b i j)

/-- The kernel's summand at (b, i, j): the squared distance through the Gram identity, negated as 0 − S. -/
def pairKer (xa xb na nb : SArg.Idx → EReal) (b : Fin 4) (i j : Fin 4096) : EReal :=
  Ideal.exp (0 - ((rowdot xa xa b i i + rowdot xb xb b j j) - two * rowdot xa xb b i j))
    * (rowdot na nb b i j * rowdot na nb b i j)

/-- The kernel sum K of the reference. -/
def ksum (xa xb na nb : SArg.Idx → EReal) : EReal :=
  ∑ b : Fin 4, ∑ i : Fin 4096, ∑ j : Fin 4096, pairRef xa xb na nb b i j

/-- The whole result. -/
def result (x1 x2 n1 n2 : SArg.Idx → EReal) : EReal :=
  (ksum x1 x1 n1 n1 + ksum x2 x2 n2 n2) - two * ksum x1 x2 n1 n2

/-! ## The kernel's arrangement: 256 tiles of 512 × 512 pairs -/

/-- A block of 512 points as the kernel stages it: 1 × 512 × 3. -/
abbrev SBlk : Shape := ⟨3, ![1, 512, 3]⟩

/-- The inner product of row r of block u and row c of block v. -/
def blkdot (u v : SBlk.Idx → EReal) (r c : Fin 512) : EReal :=
  ∑ d : Fin 3, u (ix3 (0 : Fin 1) r d) * v (ix3 (0 : Fin 1) c d)

/-- The kernel's summand at row r, column c of a tile, from the four staged blocks (points a, points b, normals a,
    normals b). -/
def tilePair (x0 x1 x2 x3 : SBlk.Idx → EReal) (r c : Fin 512) : EReal :=
  Ideal.exp (0 - ((blkdot x0 x0 r r + blkdot x1 x1 c c) - two * blkdot x0 x1 r c)) * (blkdot x2 x3 r c * blkdot x2 x3 r c)

/-- What one grid point adds to the accumulator: the sum over the tile, rows outermost. -/
def tile (x0 x1 x2 x3 : SBlk.Idx → EReal) : EReal :=
  ∑ r : Fin 512, ∑ c : Fin 512, tilePair x0 x1 x2 x3 r c

/-- The coordinates of point t of the 4 × 8 × 8 grid, row-major: batch, row tile, column tile. -/
def gb (t : Fin 256) : Fin 4 := ⟨t.val / 64, by omega⟩
def gi (t : Fin 256) : Fin 8 := ⟨t.val / 8 % 8, by omega⟩
def gj (t : Fin 256) : Fin 8 := ⟨t.val % 8, by omega⟩

/-- Point r of tile i among the 4096 points. -/
def row (i : Fin 8) (r : Fin 512) : Fin 4096 := ⟨512 * i.val + r.val, by omega⟩

/-- The block of an argument the kernel stages for batch b and tile i. -/
def blk (x : SArg.Idx → EReal) (b : Fin 4) (i : Fin 8) : SBlk.Idx → EReal :=
  fun y => x (ix3 b (row i ⟨(y 1).val, (y 1).isLt⟩) (⟨(y 2).val, (y 2).isLt⟩ : Fin 3))

/-- The kernel sum as the kernel forms it: one tile per grid point, in grid order. -/
def ksumTiles (xa xb na nb : SArg.Idx → EReal) : EReal :=
  ∑ t : Fin 256, tile (blk xa (gb t) (gi t)) (blk xb (gb t) (gj t)) (blk na (gb t) (gi t)) (blk nb (gb t) (gj t))

end Cert.Spec

end
-- ==== Proof.KerTile.lean ====
/-
  What one grid point adds: the kernel body's arithmetic, read at Ideal.
-/
import proofs.«168368_j77163382440707_1_alg».proof.Proof.Gen.KernelIdeal.Skeleton
import proofs.«168368_j77163382440707_1_alg».proof.Proof.Spec
import Idealize.ShloMosaic.Lib.Pipeline.Value
import Idealize.ShloMosaic.Lib.ValueLayout
import Idealize.ShloMosaic.PureOps.Ideal.Laws

noncomputable section

namespace Cert.KerTile

open Idealize.ShloMosaic Idealize.ShloMosaic.ValueIdx Cert.KernelIdeal Cert.KernelIdeal.Gen
open scoped BigOperators

/-! ## Layout operations -/

/-- A 1 × 512 × 3 block viewed as 512 × 3 reads, at (r, d), the block at (0, r, d). -/
theorem cast_blk (x : FVec Ideal S1x512x3 .f32) (h : S1x512x3.ShapeCasts S512x3) (r : Fin 512) (d : Fin 3) :
    shapeCast S512x3 x h (ix2 r d) = x (ix3 (0 : Fin 1) r d) :=
  shapeCast_1ab_ab_apply x h r d

/-- A vector of 512 entries viewed as a 512 × 1 column reads, at (r, u), the vector at r. -/
theorem cast_col (v : FVec Ideal S512 .f32) (h : S512.ShapeCasts S512x1) (r : Fin 512) (u : Fin 1) :
    shapeCast S512x1 v h (ix2 r u) = v (ix1 r) :=
  shapeCast_apply v h _ _ (by
    have hu : u.val = 0 := by omega
    rw [Shape.rowMajor_val_one, Shape.rowMajor_val_two]
    show r.val = r.val * 1 + u.val
    rw [hu, Nat.mul_one, Nat.add_zero])

/-- A one-entry vector viewed as 1 × 1 reads its entry. -/
theorem cast_one (v : FVec Ideal S1 .f32) (h : S1.ShapeCasts S1x1) (u w : Fin 1) :
    shapeCast S1x1 v h (ix2 u w) = v (ix1 w) :=
  shapeCast_a_1a_apply v h u w

/-- A 512 × 1 column transposed to a 1 × 512 row reads, at (u, c), the column at (c, u). -/
theorem transpose_col (v : FVec Ideal S512x1 .f32) (h : S512x1.Transposes [1, 0] S1x512) (u : Fin 1) (c : Fin 512) :
    transpose S1x512 [1, 0] v h (ix2 u c) = v (ix2 c u) :=
  transpose_ix2_apply v h u c

/-- A 512 × 1 column laid along 512 columns reads, at (r, c), the column at (r, 0). -/
theorem bcast_col (v : FVec Ideal S512x1 .f32) (h : S512x1.Broadcasts S512x512) (r c : Fin 512) :
    broadcastTo S512x512 v h (ix2 r c) = v (ix2 r (0 : Fin 1)) := by
  refine broadcastTo_apply v h (ix2 r c) (ix2 r (0 : Fin 1)) fun ax => ?_
  match ax with
  | ⟨0, _⟩ =>
    show r.val = if (512 : Nat) = 1 then 0 else r.val
    rw [if_neg (by decide)]
  | ⟨1, _⟩ => rfl

/-- A 1 × 512 row laid along 512 rows reads, at (r, c), the row at (0, c). -/
theorem bcast_row (v : FVec Ideal S1x512 .f32) (h : S1x512.Broadcasts S512x512) (r c : Fin 512) :
    broadcastTo S512x512 v h (ix2 r c) = v (ix2 (0 : Fin 1) c) :=
  broadcastTo_1b_ab_apply v h r c

/-! ## Sums along an axis -/

/-- The sum of a 512 × 3 array along its rows is, at r, the sum over the three columns. -/
theorem rowsum3 (v : FVec Ideal S512x3 .f32) (h : S512x3.Reduces [1] S512) (hφ : FKind.Formats .f32)
    (hacc : (0x00000000#32 : BitVec 32) = 0x00000000#32) (r : Fin 512) :
    multiReduction .add [1] S512 v 0x00000000#32 h hφ hacc (ix1 r) = ∑ k : Fin 3, v (ix2 r k) := by
  refine (Ideal.multiReduction_add_single v 0x00000000#32 h hφ hacc (ix1 r)).trans ?_
  exact Finset.sum_congr rfl fun k _ => congrArg v (funext fun a => Fin.ext (by
    match a with
    | ⟨0, _⟩ => rfl
    | ⟨1, _⟩ => rfl))

/-- The sum of a 512 × 512 array along its rows is, at r, the sum over the 512 columns. -/
theorem rowsum512 (v : FVec Ideal S512x512 .f32) (h : S512x512.Reduces [1] S512) (hφ : FKind.Formats .f32)
    (hacc : (0x00000000#32 : BitVec 32) = 0x00000000#32) (r : Fin 512) :
    multiReduction .add [1] S512 v 0x00000000#32 h hφ hacc (ix1 r) = ∑ c : Fin 512, v (ix2 r c) := by
  refine (Ideal.multiReduction_add_single v 0x00000000#32 h hφ hacc (ix1 r)).trans ?_
  exact Finset.sum_congr rfl fun k _ => congrArg v (funext fun a => Fin.ext (by
    match a with
    | ⟨0, _⟩ => rfl
    | ⟨1, _⟩ => rfl))

/-- The sum of a 512 × 1 column down its one column is the sum over the 512 rows. -/
theorem colsum (v : FVec Ideal S512x1 .f32) (h : S512x1.Reduces [0] S1) (hφ : FKind.Formats .f32)
    (hacc : (0x00000000#32 : BitVec 32) = 0x00000000#32) (w : Fin 1) :
    multiReduction .add [0] S1 v 0x00000000#32 h hφ hacc (ix1 w) = ∑ r : Fin 512, v (ix2 r w) := by
  refine (Ideal.multiReduction_add_single v 0x00000000#32 h hφ hacc (ix1 w)).trans ?_
  exact Finset.sum_congr rfl fun k _ => congrArg v (funext fun a => Fin.ext (by
    match a with
    | ⟨0, _⟩ => rfl
    | ⟨1, _⟩ => rfl))

/-! ## The matrix product: rows of the left operand against rows of the right -/

/-- The operand indices at output index i and contraction position q, axis by axis: the left operand is read at
    (i 0, q), the right one at (i 1, q). -/
theorem dot_lhs_0 (i : S512x512.Idx) (q : dot_S512x3_S512x3_S512x512_1_1_0_0_n_n.contr.Idx) :
    (dot_S512x3_S512x3_S512x512_1_1_0_0_n_n.lhsIdx i q 0).val = (i 0).val := by
  unfold DotDims.lhsIdx
  rw [dif_neg (show ¬(0 : Fin S512x3.rank) ∈ dot_S512x3_S512x3_S512x512_1_1_0_0_n_n.lhsBatch by decide), dif_pos (show (0 : Fin S512x3.rank) ∈ dot_S512x3_S512x3_S512x512_1_1_0_0_n_n.lhsNonContracting by decide)]
  rfl
theorem dot_lhs_1 (i : S512x512.Idx) (q : dot_S512x3_S512x3_S512x512_1_1_0_0_n_n.contr.Idx) :
    (dot_S512x3_S512x3_S512x512_1_1_0_0_n_n.lhsIdx i q 1).val = (q ⟨0, by decide⟩).val :=
  dot_S512x3_S512x3_S512x512_1_1_0_0_n_n.lhsIdx_val_of_single rfl i q
theorem dot_rhs_0 (i : S512x512.Idx) (q : dot_S512x3_S512x3_S512x512_1_1_0_0_n_n.contr.Idx) :
    (dot_S512x3_S512x3_S512x512_1_1_0_0_n_n.rhsIdx i q 0).val = (i 1).val := by
  unfold DotDims.rhsIdx
  rw [dif_neg (show ¬(0 : Fin S512x3.rank) ∈ dot_S512x3_S512x3_S512x512_1_1_0_0_n_n.rhsBatch by decide), dif_pos (show (0 : Fin S512x3.rank) ∈ dot_S512x3_S512x3_S512x512_1_1_0_0_n_n.rhsNonContracting by decide)]
  rfl
theorem dot_rhs_1 (i : S512x512.Idx) (q : dot_S512x3_S512x3_S512x512_1_1_0_0_n_n.contr.Idx) :
    (dot_S512x3_S512x3_S512x512_1_1_0_0_n_n.rhsIdx i q 1).val = (q ⟨0, by decide⟩).val :=
  dot_S512x3_S512x3_S512x512_1_1_0_0_n_n.rhsIdx_val_of_single rfl i q

/-- The product into a zero accumulator is, at (r, c), the inner product of row r of the left operand and row c of the
    right one. -/
theorem matmul_rc (a b : FVec Ideal S512x3 .f32) (r c : Fin 512) :
    matmul dot_S512x3_S512x3_S512x512_1_1_0_0_n_n (some .fp32) a b (constant (F := Ideal) S512x512 .f32 0x00000000#32) (ix2 r c)
      = ∑ k : Fin 3, a (ix2 r k) * b (ix2 c k) := by
  simp only [matmul]
  rw [Ideal.matmul_constant_zero_apply, ← Equiv.sum_comp (contrEquiv1 dot_S512x3_S512x3_S512x512_1_1_0_0_n_n 3 rfl rfl).symm]
  refine Finset.sum_congr rfl fun k _ => ?_
  have hk := contrEquiv1_symm_val dot_S512x3_S512x3_S512x512_1_1_0_0_n_n 3 rfl rfl k
  have el : dot_S512x3_S512x3_S512x512_1_1_0_0_n_n.lhsIdx (ix2 r c) ((contrEquiv1 dot_S512x3_S512x3_S512x512_1_1_0_0_n_n 3 rfl rfl).symm k) = ix2 r k := funext fun ax => Fin.ext (by
    match ax with
    | ⟨0, _⟩ => exact dot_lhs_0 _ _
    | ⟨1, _⟩ => exact (dot_lhs_1 _ _).trans hk)
  have er : dot_S512x3_S512x3_S512x512_1_1_0_0_n_n.rhsIdx (ix2 r c) ((contrEquiv1 dot_S512x3_S512x3_S512x512_1_1_0_0_n_n 3 rfl rfl).symm k) = ix2 c k := funext fun ax => Fin.ext (by
    match ax with
    | ⟨0, _⟩ => exact dot_rhs_0 _ _
    | ⟨1, _⟩ => exact (dot_rhs_1 _ _).trans hk)
  rw [el, er]

/-! ## The payloads at an index -/

/-- The exponential of a vector reads, at an index, the exponential of the entry. -/
theorem exp_apply {s : Shape} (a : FVec Ideal s .f32) (i : s.Idx) : exp a i = Ideal.exp (a i) := rfl

/-- The exponential factor at (r, c): the squared distance through the Gram identity, negated as 0 − S. -/
theorem pay3_apply (x0 x1 : Vec Ideal S1x512x3 .f32) (r c : Fin 512) :
    k0_pay3 (F := Ideal) x0 x1 (ix2 r c)
      = Ideal.exp (0 - ((Cert.Spec.blkdot x0 x0 r r + Cert.Spec.blkdot x1 x1 c c) - Cert.Spec.two * Cert.Spec.blkdot x0 x1 r c)) := by
  unfold k0_pay3
  simp only [exp_apply, subf_apply, addf_apply, mulf_apply, broadcast_apply, bcast_col, bcast_row, matmul_rc, cast_col]
  rw [transpose_col, cast_col, rowsum3, rowsum3]
  simp only [mulf_apply, cast_blk, Ideal.ofBits_def, Ideal.ofBits_zero_f32]
  rfl

/-- The squared inner product of the normals at (r, c). -/
theorem pay4_apply (x2 x3 : Vec Ideal S1x512x3 .f32) (r c : Fin 512) :
    k0_pay4 (F := Ideal) x2 x3 (ix2 r c) = Cert.Spec.blkdot x2 x3 r c * Cert.Spec.blkdot x2 x3 r c := by
  unfold k0_pay4
  simp only [mulf_apply, matmul_rc, cast_blk]
  rfl

/-- The value the body stores into the accumulator: what it held plus the tile's total. -/
theorem pay1_eq (x0 x1 x2 x3 : Vec Ideal S1x512x3 .f32) (s : Vec Ideal S1x1 .f32) :
    k0_pay1 (F := Ideal) (k0_pay3 x0 x1) (k0_pay4 x2 x3) s = fun _ => s (ix2 (0 : Fin 1) (0 : Fin 1)) + Cert.Spec.tile x0 x1 x2 x3 := by
  funext j
  obtain ⟨u, w, rfl⟩ : ∃ (u w : Fin 1), j = ix2 u w := ⟨j 0, j 1, eq_ix2 j⟩
  obtain rfl : u = 0 := Subsingleton.elim _ _
  obtain rfl : w = 0 := Subsingleton.elim _ _
  unfold k0_pay1
  simp only [shapeCast_self, addf_apply]
  refine congrArg (s (ix2 (0 : Fin 1) (0 : Fin 1)) + ·) ?_
  refine (cast_one _ _ _ _).trans ?_
  refine (colsum _ _ _ _ _).trans ?_
  unfold Cert.Spec.tile
  refine Finset.sum_congr rfl fun r _ => ?_
  refine (cast_col _ _ r 0).trans ?_
  refine (rowsum512 _ _ _ _ r).trans ?_
  refine Finset.sum_congr rfl fun c _ => ?_
  rw [mulf_apply, pay3_apply, pay4_apply]
  rfl

/-- The reset value is zero. -/
theorem pay2_eq : (k0_pay2 (F := Ideal)) = fun _ => (0 : EReal) := by
  funext j
  unfold k0_pay2
  rw [shapeCast_self]
  exact Ideal.ofBits_zero_f32

/-- The three calls run one function: their payloads are the same terms. -/
theorem k1_pay1_eq : @k1_pay1 = @k0_pay1 := rfl
theorem k1_pay2_eq : @k1_pay2 = @k0_pay2 := rfl
theorem k1_pay3_eq : @k1_pay3 = @k0_pay3 := rfl
theorem k1_pay4_eq : @k1_pay4 = @k0_pay4 := rfl
theorem k2_pay1_eq : @k2_pay1 = @k0_pay1 := rfl
theorem k2_pay2_eq : @k2_pay2 = @k0_pay2 := rfl
theorem k2_pay3_eq : @k2_pay3 = @k0_pay3 := rfl
theorem k2_pay4_eq : @k2_pay4 = @k0_pay4 := rfl

end Cert.KerTile

end
-- ==== Proof.KI.R0Value.lean ====
/-
  Region 0's output array after the region, read at Ideal: the kernel sum, tile by tile.

  The accumulator after point n is the sum of the tiles of points 0 … n (the first point starts from the reset value 0).
  The output window is written back once, at the last point, from a buffer holding the accumulator after that point, and
  its one block is the whole 1 × 1 array; so the output array ends holding the sum of all 256 tiles. A tile's four
  staged blocks are the blocks of the arrays behind the four input windows at the point's grid coordinates: windows 0
  and 2 follow the row tile, windows 1 and 3 the column tile.
-/
import proofs.«168368_j77163382440707_1_alg».proof.Proof.KI.R0Frame
import proofs.«168368_j77163382440707_1_alg».proof.Proof.KerTile
import proofs.«168368_j77163382440707_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen
open scoped BigOperators

section Value

variable (V : (c : Dev nD) → (b : Ref sig .tc) → Buf (Elt Ideal) ((c : Thread nD τ).loc b))

/-! ## The input windows' blocks, as blocks of their arrays -/

/-- Where each input window's block sits at point t of the row-major 4 × 8 × 8 grid: batch t / 64 on axis 0; row tile
    t / 8 % 8 (windows 0 and 2) or column tile t % 8 (windows 1 and 3) on axis 1; block 0 on axis 2. -/
theorem index_r0_0 : ∀ t : Fin cfg0.N, (cfg0.win 0).index t 0 = t.val / 64 ∧ (cfg0.win 0).index t 1 = t.val / 8 % 8 ∧ (cfg0.win 0).index t 2 = 0 :=
  (by decide +kernel : ∀ t : Fin grid0.N, (cfg0.win 0).index t 0 = t.val / 64 ∧ (cfg0.win 0).index t 1 = t.val / 8 % 8 ∧ (cfg0.win 0).index t 2 = 0)
theorem index_r0_1 : ∀ t : Fin cfg0.N, (cfg0.win 1).index t 0 = t.val / 64 ∧ (cfg0.win 1).index t 1 = t.val % 8 ∧ (cfg0.win 1).index t 2 = 0 :=
  (by decide +kernel : ∀ t : Fin grid0.N, (cfg0.win 1).index t 0 = t.val / 64 ∧ (cfg0.win 1).index t 1 = t.val % 8 ∧ (cfg0.win 1).index t 2 = 0)
theorem index_r0_2 : ∀ t : Fin cfg0.N, (cfg0.win 2).index t 0 = t.val / 64 ∧ (cfg0.win 2).index t 1 = t.val / 8 % 8 ∧ (cfg0.win 2).index t 2 = 0 :=
  (by decide +kernel : ∀ t : Fin grid0.N, (cfg0.win 2).index t 0 = t.val / 64 ∧ (cfg0.win 2).index t 1 = t.val / 8 % 8 ∧ (cfg0.win 2).index t 2 = 0)
theorem index_r0_3 : ∀ t : Fin cfg0.N, (cfg0.win 3).index t 0 = t.val / 64 ∧ (cfg0.win 3).index t 1 = t.val % 8 ∧ (cfg0.win 3).index t 2 = 0 :=
  (by decide +kernel : ∀ t : Fin grid0.N, (cfg0.win 3).index t 0 = t.val / 64 ∧ (cfg0.win 3).index t 1 = t.val % 8 ∧ (cfg0.win 3).index t 2 = 0)

/-- An element of a block sits in the array, on each axis, at the block index times the block's size plus its own
    coordinate; so window w's block at point t is the block of its array the specification stages there. -/
theorem iblk_r0_0_eq (c : Dev nD) (t : Fin cfg0.N) (t' : Fin 256) (ht : t'.val = t.val) :
    (iblk_r0 V c 0 t : Vec Ideal S1x512x3 .f32)
      = Cert.Spec.blk (V c (Pipeline.arrRef spec0 0)) (Cert.Spec.gb t') (Cert.Spec.gi t') := by
  obtain ⟨h0, h1, h2⟩ := index_r0_0 t
  funext y
  have hy0 : (y 0).val < 1 := (y 0).isLt
  unfold iblk_r0
  rw [View.read_apply]
  show V c (Pipeline.arrRef spec0 0) (((cfg0.win 0).blk t).view.emb y) = V c (Pipeline.arrRef spec0 0) _
  refine congrArg _ (funext fun a => Fin.ext ?_)
  match a with
  | ⟨0, _⟩ =>
    show (cfg0.win 0).index t 0 * 1 + 1 * (y 0).val = t'.val / 64
    rw [h0, ht]; omega
  | ⟨1, _⟩ =>
    show (cfg0.win 0).index t 1 * 512 + 1 * (y 1).val = 512 * (t'.val / 8 % 8) + (y 1).val
    rw [h1, ht]; omega
  | ⟨2, _⟩ =>
    show (cfg0.win 0).index t 2 * 3 + 1 * (y 2).val = (y 2).val
    rw [h2]; omega

theorem iblk_r0_1_eq (c : Dev nD) (t : Fin cfg0.N) (t' : Fin 256) (ht : t'.val = t.val) :
    (iblk_r0 V c 1 t : Vec Ideal S1x512x3 .f32)
      = Cert.Spec.blk (V c (Pipeline.arrRef spec0 1)) (Cert.Spec.gb t') (Cert.Spec.gj t') := by
  obtain ⟨h0, h1, h2⟩ := index_r0_1 t
  funext y
  have hy0 : (y 0).val < 1 := (y 0).isLt
  unfold iblk_r0
  rw [View.read_apply]
  show V c (Pipeline.arrRef spec0 1) (((cfg0.win 1).blk t).view.emb y) = V c (Pipeline.arrRef spec0 1) _
  refine congrArg _ (funext fun a => Fin.ext ?_)
  match a with
  | ⟨0, _⟩ =>
    show (cfg0.win 1).index t 0 * 1 + 1 * (y 0).val = t'.val / 64
    rw [h0, ht]; omega
  | ⟨1, _⟩ =>
    show (cfg0.win 1).index t 1 * 512 + 1 * (y 1).val = 512 * (t'.val % 8) + (y 1).val
    rw [h1, ht]; omega
  | ⟨2, _⟩ =>
    show (cfg0.win 1).index t 2 * 3 + 1 * (y 2).val = (y 2).val
    rw [h2]; omega

theorem iblk_r0_2_eq (c : Dev nD) (t : Fin cfg0.N) (t' : Fin 256) (ht : t'.val = t.val) :
    (iblk_r0 V c 2 t : Vec Ideal S1x512x3 .f32)
      = Cert.Spec.blk (V c (Pipeline.arrRef spec0 2)) (Cert.Spec.gb t') (Cert.Spec.gi t') := by
  obtain ⟨h0, h1, h2⟩ := index_r0_2 t
  funext y
  have hy0 : (y 0).val < 1 := (y 0).isLt
  unfold iblk_r0
  rw [View.read_apply]
  show V c (Pipeline.arrRef spec0 2) (((cfg0.win 2).blk t).view.emb y) = V c (Pipeline.arrRef spec0 2) _
  refine congrArg _ (funext fun a => Fin.ext ?_)
  match a with
  | ⟨0, _⟩ =>
    show (cfg0.win 2).index t 0 * 1 + 1 * (y 0).val = t'.val / 64
    rw [h0, ht]; omega
  | ⟨1, _⟩ =>
    show (cfg0.win 2).index t 1 * 512 + 1 * (y 1).val = 512 * (t'.val / 8 % 8) + (y 1).val
    rw [h1, ht]; omega
  | ⟨2, _⟩ =>
    show (cfg0.win 2).index t 2 * 3 + 1 * (y 2).val = (y 2).val
    rw [h2]; omega

theorem iblk_r0_3_eq (c : Dev nD) (t : Fin cfg0.N) (t' : Fin 256) (ht : t'.val = t.val) :
    (iblk_r0 V c 3 t : Vec Ideal S1x512x3 .f32)
      = Cert.Spec.blk (V c (Pipeline.arrRef spec0 3)) (Cert.Spec.gb t') (Cert.Spec.gj t') := by
  obtain ⟨h0, h1, h2⟩ := index_r0_3 t
  funext y
  have hy0 : (y 0).val < 1 := (y 0).isLt
  unfold iblk_r0
  rw [View.read_apply]
  show V c (Pipeline.arrRef spec0 3) (((cfg0.win 3).blk t).view.emb y) = V c (Pipeline.arrRef spec0 3) _
  refine congrArg _ (funext fun a => Fin.ext ?_)
  match a with
  | ⟨0, _⟩ =>
    show (cfg0.win 3).index t 0 * 1 + 1 * (y 0).val = t'.val / 64
    rw [h0, ht]; omega
  | ⟨1, _⟩ =>
    show (cfg0.win 3).index t 1 * 512 + 1 * (y 1).val = 512 * (t'.val % 8) + (y 1).val
    rw [h1, ht]; omega
  | ⟨2, _⟩ =>
    show (cfg0.win 3).index t 2 * 3 + 1 * (y 2).val = (y 2).val
    rw [h2]; omega

/-- So the tile a point adds is the tile the specification sums there. -/
theorem tile_r0_eq (c : Dev nD) (t : Fin cfg0.N) (t' : Fin 256) (ht : t'.val = t.val) :
    Cert.Spec.tile (iblk_r0 V c 0 t : Vec Ideal S1x512x3 .f32) (iblk_r0 V c 1 t : Vec Ideal S1x512x3 .f32)
        (iblk_r0 V c 2 t : Vec Ideal S1x512x3 .f32) (iblk_r0 V c 3 t : Vec Ideal S1x512x3 .f32)
      = Cert.Spec.tile (Cert.Spec.blk (V c (Pipeline.arrRef spec0 0)) (Cert.Spec.gb t') (Cert.Spec.gi t'))
          (Cert.Spec.blk (V c (Pipeline.arrRef spec0 1)) (Cert.Spec.gb t') (Cert.Spec.gj t'))
          (Cert.Spec.blk (V c (Pipeline.arrRef spec0 2)) (Cert.Spec.gb t') (Cert.Spec.gi t'))
          (Cert.Spec.blk (V c (Pipeline.arrRef spec0 3)) (Cert.Spec.gb t') (Cert.Spec.gj t')) := by
  rw [iblk_r0_0_eq V c t t' ht, iblk_r0_1_eq V c t t' ht, iblk_r0_2_eq V c t t' ht, iblk_r0_3_eq V c t t' ht]

/-! ## The accumulator: the tiles' running sum -/

/-- What point t adds: the tile of its four staged blocks. -/
def tile_r0 (c : Dev nD) (t : Fin cfg0.N) : EReal :=
  Cert.Spec.tile (iblk_r0 V c 0 t : Vec Ideal S1x512x3 .f32) (iblk_r0 V c 1 t : Vec Ideal S1x512x3 .f32)
    (iblk_r0 V c 2 t : Vec Ideal S1x512x3 .f32) (iblk_r0 V c 3 t : Vec Ideal S1x512x3 .f32)

/-- After point n the accumulator holds the sum of the tiles of points 0 … n: the first point adds its tile to the reset
    value 0, each later one adds its tile to what the point before left. -/
theorem acc_r0_eq (c : Dev nD) : ∀ (n : ℕ) (hn : n < cfg0.N),
    acc_r0 V c n hn = fun _ => ∑ k : Fin (n + 1), tile_r0 V c ⟨k.val, Nat.lt_of_lt_of_le k.isLt hn⟩
  | 0, hn => by
    show k0_pay1 (F := Ideal) (k0_pay3 _ _) (k0_pay4 _ _) (k0_pay2 (F := Ideal)) = _
    refine (Cert.KerTile.pay1_eq _ _ _ _ _).trans ?_
    have h2 : (k0_pay2 (F := Ideal)) (ix2 (0 : Fin 1) (0 : Fin 1)) = 0 := congrFun Cert.KerTile.pay2_eq _
    funext _
    rw [h2, Fin.sum_univ_one]
    exact zero_add _
  | n + 1, hn => by
    show k0_pay1 (F := Ideal) (k0_pay3 _ _) (k0_pay4 _ _) (acc_r0 V c n _) = _
    refine (Cert.KerTile.pay1_eq _ _ _ _ _).trans ?_
    rw [acc_r0_eq c n]
    funext _
    exact (Fin.sum_univ_castSucc (fun k : Fin (n + 1 + 1) => tile_r0 V c ⟨k.val, Nat.lt_of_lt_of_le k.isLt hn⟩)).symm

/-- After the last point that is the specification's sum over the 256 tiles. -/
theorem acc_r0_last (c : Dev nD) (h : 255 < cfg0.N) :
    acc_r0 V c 255 h = fun _ => Cert.Spec.ksumTiles (V c (Pipeline.arrRef spec0 0)) (V c (Pipeline.arrRef spec0 1))
      (V c (Pipeline.arrRef spec0 2)) (V c (Pipeline.arrRef spec0 3)) := by
  rw [acc_r0_eq]
  funext _
  unfold Cert.Spec.ksumTiles
  exact Finset.sum_congr rfl fun k _ => tile_r0_eq V c _ k rfl

/-! ## The output array -/

/-- The output window is written back at the last point only. -/
theorem flush_r0_4 : ∀ t : Fin cfg0.N, (cfg0.win 4).flush t = true ↔ t.val = 255 :=
  (by decide +kernel : ∀ t : Fin grid0.N, (cfg0.win 4).flush t = true ↔ t.val = 255)

/-- The output window's one block is block (0, 0) at every point. -/
theorem index_r0_4 : ∀ t : Fin cfg0.N, (cfg0.win 4).index t 0 = 0 ∧ (cfg0.win 4).index t 1 = 0 :=
  (by decide +kernel : ∀ t : Fin grid0.N, (cfg0.win 4).index t 0 = 0 ∧ (cfg0.win 4).index t 1 = 0)

end Value

/-- Region 0's output array after the region, at Ideal: the tile-by-tile kernel sum of the arrays behind its four input
    windows (points a, points b, normals a, normals b). -/
theorem out_r0 (V : (c : Dev nD) → (b : Ref sig .tc) → Buf (Elt Ideal) ((c : Thread nD τ).loc b))
    (q : Fin cfg0.W → PosShare TreeShare) (c : Dev nD) :
    (dat_r0 (F := Ideal) V q c).arrAt 4 cfg0.N
      = fun _ => Cert.Spec.ksumTiles (V c (Pipeline.arrRef spec0 0)) (V c (Pipeline.arrRef spec0 1))
          (V c (Pipeline.arrRef spec0 2)) (V c (Pipeline.arrRef spec0 3)) := by
  have hN : cfg0.N = 256 := N_0
  have h255 : 255 < cfg0.N := by omega
  refine (dat_r0 (F := Ideal) V q c).arrAt_eq_of_cover 4 _ (fun t hf => ?_) (fun i => ⟨⟨255, h255⟩, (flush_r0_4 _).mpr rfl, ?_⟩)
  · have ht : t.val = 255 := (flush_r0_4 t).mp hf
    obtain rfl : t = ⟨255, h255⟩ := Fin.ext ht
    funext j
    rw [View.read_apply]
    show (dat_r0 V q c).after 4 ⟨255, h255⟩ _ = Cert.Spec.ksumTiles _ _ _ _
    rw [after_r0_4]
    exact congrFun (acc_r0_last V c h255) _
  · obtain ⟨hi0, hi1⟩ := index_r0_4 ⟨255, h255⟩
    show i ∈ ((View.whole (Pipeline.arrRef spec0 4)).slice ((cfg0.win 4).rect ⟨255, h255⟩)).set
    rw [View.set_slice_whole, Rect.mem_set_unit]
    intro a
    have h0 : (i 0 : Nat) < 1 := (i 0).isLt
    have h1 : (i 1 : Nat) < 1 := (i 1).isLt
    match a with
    | ⟨0, _⟩ =>
      show (cfg0.win 4).index ⟨255, h255⟩ 0 * 1 ≤ (i 0 : Nat) ∧ (i 0 : Nat) < (cfg0.win 4).index ⟨255, h255⟩ 0 * 1 + 1
      rw [hi0]; omega
    | ⟨1, _⟩ =>
      show (cfg0.win 4).index ⟨255, h255⟩ 1 * 1 ≤ (i 1 : Nat) ∧ (i 1 : Nat) < (cfg0.win 4).index ⟨255, h255⟩ 1 * 1 + 1
      rw [hi1]; omega

end Cert.KernelIdeal.Hand

end
-- ==== Proof.KI.R1Value.lean ====
/-
  Region 1's output array after the region, read at Ideal: the kernel sum, tile by tile.

  The accumulator after point n is the sum of the tiles of points 0 … n (the first point starts from the reset value 0).
  The output window is written back once, at the last point, from a buffer holding the accumulator after that point, and
  its one block is the whole 1 × 1 array; so the output array ends holding the sum of all 256 tiles. A tile's four
  staged blocks are the blocks of the arrays behind the four input windows at the point's grid coordinates: windows 0
  and 2 follow the row tile, windows 1 and 3 the column tile.
-/
import proofs.«168368_j77163382440707_1_alg».proof.Proof.KI.R1Frame
import proofs.«168368_j77163382440707_1_alg».proof.Proof.KerTile
import proofs.«168368_j77163382440707_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen
open scoped BigOperators

section Value

variable (V : (c : Dev nD) → (b : Ref sig .tc) → Buf (Elt Ideal) ((c : Thread nD τ).loc b))

/-! ## The input windows' blocks, as blocks of their arrays -/

/-- Where each input window's block sits at point t of the row-major 4 × 8 × 8 grid: batch t / 64 on axis 0; row tile
    t / 8 % 8 (windows 0 and 2) or column tile t % 8 (windows 1 and 3) on axis 1; block 0 on axis 2. -/
theorem index_r1_0 : ∀ t : Fin cfg1.N, (cfg1.win 0).index t 0 = t.val / 64 ∧ (cfg1.win 0).index t 1 = t.val / 8 % 8 ∧ (cfg1.win 0).index t 2 = 0 :=
  (by decide +kernel : ∀ t : Fin grid1.N, (cfg1.win 0).index t 0 = t.val / 64 ∧ (cfg1.win 0).index t 1 = t.val / 8 % 8 ∧ (cfg1.win 0).index t 2 = 0)
theorem index_r1_1 : ∀ t : Fin cfg1.N, (cfg1.win 1).index t 0 = t.val / 64 ∧ (cfg1.win 1).index t 1 = t.val % 8 ∧ (cfg1.win 1).index t 2 = 0 :=
  (by decide +kernel : ∀ t : Fin grid1.N, (cfg1.win 1).index t 0 = t.val / 64 ∧ (cfg1.win 1).index t 1 = t.val % 8 ∧ (cfg1.win 1).index t 2 = 0)
theorem index_r1_2 : ∀ t : Fin cfg1.N, (cfg1.win 2).index t 0 = t.val / 64 ∧ (cfg1.win 2).index t 1 = t.val / 8 % 8 ∧ (cfg1.win 2).index t 2 = 0 :=
  (by decide +kernel : ∀ t : Fin grid1.N, (cfg1.win 2).index t 0 = t.val / 64 ∧ (cfg1.win 2).index t 1 = t.val / 8 % 8 ∧ (cfg1.win 2).index t 2 = 0)
theorem index_r1_3 : ∀ t : Fin cfg1.N, (cfg1.win 3).index t 0 = t.val / 64 ∧ (cfg1.win 3).index t 1 = t.val % 8 ∧ (cfg1.win 3).index t 2 = 0 :=
  (by decide +kernel : ∀ t : Fin grid1.N, (cfg1.win 3).index t 0 = t.val / 64 ∧ (cfg1.win 3).index t 1 = t.val % 8 ∧ (cfg1.win 3).index t 2 = 0)

/-- An element of a block sits in the array, on each axis, at the block index times the block's size plus its own
    coordinate; so window w's block at point t is the block of its array the specification stages there. -/
theorem iblk_r1_0_eq (c : Dev nD) (t : Fin cfg1.N) (t' : Fin 256) (ht : t'.val = t.val) :
    (iblk_r1 V c 0 t : Vec Ideal S1x512x3 .f32)
      = Cert.Spec.blk (V c (Pipeline.arrRef spec1 0)) (Cert.Spec.gb t') (Cert.Spec.gi t') := by
  obtain ⟨h0, h1, h2⟩ := index_r1_0 t
  funext y
  have hy0 : (y 0).val < 1 := (y 0).isLt
  unfold iblk_r1
  rw [View.read_apply]
  show V c (Pipeline.arrRef spec1 0) (((cfg1.win 0).blk t).view.emb y) = V c (Pipeline.arrRef spec1 0) _
  refine congrArg _ (funext fun a => Fin.ext ?_)
  match a with
  | ⟨0, _⟩ =>
    show (cfg1.win 0).index t 0 * 1 + 1 * (y 0).val = t'.val / 64
    rw [h0, ht]; omega
  | ⟨1, _⟩ =>
    show (cfg1.win 0).index t 1 * 512 + 1 * (y 1).val = 512 * (t'.val / 8 % 8) + (y 1).val
    rw [h1, ht]; omega
  | ⟨2, _⟩ =>
    show (cfg1.win 0).index t 2 * 3 + 1 * (y 2).val = (y 2).val
    rw [h2]; omega

theorem iblk_r1_1_eq (c : Dev nD) (t : Fin cfg1.N) (t' : Fin 256) (ht : t'.val = t.val) :
    (iblk_r1 V c 1 t : Vec Ideal S1x512x3 .f32)
      = Cert.Spec.blk (V c (Pipeline.arrRef spec1 1)) (Cert.Spec.gb t') (Cert.Spec.gj t') := by
  obtain ⟨h0, h1, h2⟩ := index_r1_1 t
  funext y
  have hy0 : (y 0).val < 1 := (y 0).isLt
  unfold iblk_r1
  rw [View.read_apply]
  show V c (Pipeline.arrRef spec1 1) (((cfg1.win 1).blk t).view.emb y) = V c (Pipeline.arrRef spec1 1) _
  refine congrArg _ (funext fun a => Fin.ext ?_)
  match a with
  | ⟨0, _⟩ =>
    show (cfg1.win 1).index t 0 * 1 + 1 * (y 0).val = t'.val / 64
    rw [h0, ht]; omega
  | ⟨1, _⟩ =>
    show (cfg1.win 1).index t 1 * 512 + 1 * (y 1).val = 512 * (t'.val % 8) + (y 1).val
    rw [h1, ht]; omega
  | ⟨2, _⟩ =>
    show (cfg1.win 1).index t 2 * 3 + 1 * (y 2).val = (y 2).val
    rw [h2]; omega

theorem iblk_r1_2_eq (c : Dev nD) (t : Fin cfg1.N) (t' : Fin 256) (ht : t'.val = t.val) :
    (iblk_r1 V c 2 t : Vec Ideal S1x512x3 .f32)
      = Cert.Spec.blk (V c (Pipeline.arrRef spec1 2)) (Cert.Spec.gb t') (Cert.Spec.gi t') := by
  obtain ⟨h0, h1, h2⟩ := index_r1_2 t
  funext y
  have hy0 : (y 0).val < 1 := (y 0).isLt
  unfold iblk_r1
  rw [View.read_apply]
  show V c (Pipeline.arrRef spec1 2) (((cfg1.win 2).blk t).view.emb y) = V c (Pipeline.arrRef spec1 2) _
  refine congrArg _ (funext fun a => Fin.ext ?_)
  match a with
  | ⟨0, _⟩ =>
    show (cfg1.win 2).index t 0 * 1 + 1 * (y 0).val = t'.val / 64
    rw [h0, ht]; omega
  | ⟨1, _⟩ =>
    show (cfg1.win 2).index t 1 * 512 + 1 * (y 1).val = 512 * (t'.val / 8 % 8) + (y 1).val
    rw [h1, ht]; omega
  | ⟨2, _⟩ =>
    show (cfg1.win 2).index t 2 * 3 + 1 * (y 2).val = (y 2).val
    rw [h2]; omega

theorem iblk_r1_3_eq (c : Dev nD) (t : Fin cfg1.N) (t' : Fin 256) (ht : t'.val = t.val) :
    (iblk_r1 V c 3 t : Vec Ideal S1x512x3 .f32)
      = Cert.Spec.blk (V c (Pipeline.arrRef spec1 3)) (Cert.Spec.gb t') (Cert.Spec.gj t') := by
  obtain ⟨h0, h1, h2⟩ := index_r1_3 t
  funext y
  have hy0 : (y 0).val < 1 := (y 0).isLt
  unfold iblk_r1
  rw [View.read_apply]
  show V c (Pipeline.arrRef spec1 3) (((cfg1.win 3).blk t).view.emb y) = V c (Pipeline.arrRef spec1 3) _
  refine congrArg _ (funext fun a => Fin.ext ?_)
  match a with
  | ⟨0, _⟩ =>
    show (cfg1.win 3).index t 0 * 1 + 1 * (y 0).val = t'.val / 64
    rw [h0, ht]; omega
  | ⟨1, _⟩ =>
    show (cfg1.win 3).index t 1 * 512 + 1 * (y 1).val = 512 * (t'.val % 8) + (y 1).val
    rw [h1, ht]; omega
  | ⟨2, _⟩ =>
    show (cfg1.win 3).index t 2 * 3 + 1 * (y 2).val = (y 2).val
    rw [h2]; omega

/-- So the tile a point adds is the tile the specification sums there. -/
theorem tile_r1_eq (c : Dev nD) (t : Fin cfg1.N) (t' : Fin 256) (ht : t'.val = t.val) :
    Cert.Spec.tile (iblk_r1 V c 0 t : Vec Ideal S1x512x3 .f32) (iblk_r1 V c 1 t : Vec Ideal S1x512x3 .f32)
        (iblk_r1 V c 2 t : Vec Ideal S1x512x3 .f32) (iblk_r1 V c 3 t : Vec Ideal S1x512x3 .f32)
      = Cert.Spec.tile (Cert.Spec.blk (V c (Pipeline.arrRef spec1 0)) (Cert.Spec.gb t') (Cert.Spec.gi t'))
          (Cert.Spec.blk (V c (Pipeline.arrRef spec1 1)) (Cert.Spec.gb t') (Cert.Spec.gj t'))
          (Cert.Spec.blk (V c (Pipeline.arrRef spec1 2)) (Cert.Spec.gb t') (Cert.Spec.gi t'))
          (Cert.Spec.blk (V c (Pipeline.arrRef spec1 3)) (Cert.Spec.gb t') (Cert.Spec.gj t')) := by
  rw [iblk_r1_0_eq V c t t' ht, iblk_r1_1_eq V c t t' ht, iblk_r1_2_eq V c t t' ht, iblk_r1_3_eq V c t t' ht]

/-! ## The accumulator: the tiles' running sum -/

/-- What point t adds: the tile of its four staged blocks. -/
def tile_r1 (c : Dev nD) (t : Fin cfg1.N) : EReal :=
  Cert.Spec.tile (iblk_r1 V c 0 t : Vec Ideal S1x512x3 .f32) (iblk_r1 V c 1 t : Vec Ideal S1x512x3 .f32)
    (iblk_r1 V c 2 t : Vec Ideal S1x512x3 .f32) (iblk_r1 V c 3 t : Vec Ideal S1x512x3 .f32)

/-- After point n the accumulator holds the sum of the tiles of points 0 … n: the first point adds its tile to the reset
    value 0, each later one adds its tile to what the point before left. -/
theorem acc_r1_eq (c : Dev nD) : ∀ (n : ℕ) (hn : n < cfg1.N),
    acc_r1 V c n hn = fun _ => ∑ k : Fin (n + 1), tile_r1 V c ⟨k.val, Nat.lt_of_lt_of_le k.isLt hn⟩
  | 0, hn => by
    show k1_pay1 (F := Ideal) (k1_pay3 _ _) (k1_pay4 _ _) (k1_pay2 (F := Ideal)) = _
    refine (Cert.KerTile.pay1_eq _ _ _ _ _).trans ?_
    have h2 : (k1_pay2 (F := Ideal)) (ix2 (0 : Fin 1) (0 : Fin 1)) = 0 := congrFun Cert.KerTile.pay2_eq _
    funext _
    rw [h2, Fin.sum_univ_one]
    exact zero_add _
  | n + 1, hn => by
    show k1_pay1 (F := Ideal) (k1_pay3 _ _) (k1_pay4 _ _) (acc_r1 V c n _) = _
    refine (Cert.KerTile.pay1_eq _ _ _ _ _).trans ?_
    rw [acc_r1_eq c n]
    funext _
    exact (Fin.sum_univ_castSucc (fun k : Fin (n + 1 + 1) => tile_r1 V c ⟨k.val, Nat.lt_of_lt_of_le k.isLt hn⟩)).symm

/-- After the last point that is the specification's sum over the 256 tiles. -/
theorem acc_r1_last (c : Dev nD) (h : 255 < cfg1.N) :
    acc_r1 V c 255 h = fun _ => Cert.Spec.ksumTiles (V c (Pipeline.arrRef spec1 0)) (V c (Pipeline.arrRef spec1 1))
      (V c (Pipeline.arrRef spec1 2)) (V c (Pipeline.arrRef spec1 3)) := by
  rw [acc_r1_eq]
  funext _
  unfold Cert.Spec.ksumTiles
  exact Finset.sum_congr rfl fun k _ => tile_r1_eq V c _ k rfl

/-! ## The output array -/

/-- The output window is written back at the last point only. -/
theorem flush_r1_4 : ∀ t : Fin cfg1.N, (cfg1.win 4).flush t = true ↔ t.val = 255 :=
  (by decide +kernel : ∀ t : Fin grid1.N, (cfg1.win 4).flush t = true ↔ t.val = 255)

/-- The output window's one block is block (0, 0) at every point. -/
theorem index_r1_4 : ∀ t : Fin cfg1.N, (cfg1.win 4).index t 0 = 0 ∧ (cfg1.win 4).index t 1 = 0 :=
  (by decide +kernel : ∀ t : Fin grid1.N, (cfg1.win 4).index t 0 = 0 ∧ (cfg1.win 4).index t 1 = 0)

end Value

/-- Region 1's output array after the region, at Ideal: the tile-by-tile kernel sum of the arrays behind its four input
    windows (points a, points b, normals a, normals b). -/
theorem out_r1 (V : (c : Dev nD) → (b : Ref sig .tc) → Buf (Elt Ideal) ((c : Thread nD τ).loc b))
    (q : Fin cfg1.W → PosShare TreeShare) (c : Dev nD) :
    (dat_r1 (F := Ideal) V q c).arrAt 4 cfg1.N
      = fun _ => Cert.Spec.ksumTiles (V c (Pipeline.arrRef spec1 0)) (V c (Pipeline.arrRef spec1 1))
          (V c (Pipeline.arrRef spec1 2)) (V c (Pipeline.arrRef spec1 3)) := by
  have hN : cfg1.N = 256 := N_1
  have h255 : 255 < cfg1.N := by omega
  refine (dat_r1 (F := Ideal) V q c).arrAt_eq_of_cover 4 _ (fun t hf => ?_) (fun i => ⟨⟨255, h255⟩, (flush_r1_4 _).mpr rfl, ?_⟩)
  · have ht : t.val = 255 := (flush_r1_4 t).mp hf
    obtain rfl : t = ⟨255, h255⟩ := Fin.ext ht
    funext j
    rw [View.read_apply]
    show (dat_r1 V q c).after 4 ⟨255, h255⟩ _ = Cert.Spec.ksumTiles _ _ _ _
    rw [after_r1_4]
    exact congrFun (acc_r1_last V c h255) _
  · obtain ⟨hi0, hi1⟩ := index_r1_4 ⟨255, h255⟩
    show i ∈ ((View.whole (Pipeline.arrRef spec1 4)).slice ((cfg1.win 4).rect ⟨255, h255⟩)).set
    rw [View.set_slice_whole, Rect.mem_set_unit]
    intro a
    have h0 : (i 0 : Nat) < 1 := (i 0).isLt
    have h1 : (i 1 : Nat) < 1 := (i 1).isLt
    match a with
    | ⟨0, _⟩ =>
      show (cfg1.win 4).index ⟨255, h255⟩ 0 * 1 ≤ (i 0 : Nat) ∧ (i 0 : Nat) < (cfg1.win 4).index ⟨255, h255⟩ 0 * 1 + 1
      rw [hi0]; omega
    | ⟨1, _⟩ =>
      show (cfg1.win 4).index ⟨255, h255⟩ 1 * 1 ≤ (i 1 : Nat) ∧ (i 1 : Nat) < (cfg1.win 4).index ⟨255, h255⟩ 1 * 1 + 1
      rw [hi1]; omega

end Cert.KernelIdeal.Hand

end
-- ==== Proof.KI.R2Value.lean ====
/-
  Region 2's output array after the region, read at Ideal: the kernel sum, tile by tile.

  The accumulator after point n is the sum of the tiles of points 0 … n (the first point starts from the reset value 0).
  The output window is written back once, at the last point, from a buffer holding the accumulator after that point, and
  its one block is the whole 1 × 1 array; so the output array ends holding the sum of all 256 tiles. A tile's four
  staged blocks are the blocks of the arrays behind the four input windows at the point's grid coordinates: windows 0
  and 2 follow the row tile, windows 1 and 3 the column tile.
-/
import proofs.«168368_j77163382440707_1_alg».proof.Proof.KI.R2Frame
import proofs.«168368_j77163382440707_1_alg».proof.Proof.KerTile
import proofs.«168368_j77163382440707_1_alg».proof.Proof.Spec
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL Idealize.SL.RA Idealize.SL.Sem
open Idealize.ShloMosaic.Pipeline (Dat Cfg Window)
open Cert.KernelIdeal Cert.KernelIdeal.Gen
open scoped BigOperators

section Value

variable (V : (c : Dev nD) → (b : Ref sig .tc) → Buf (Elt Ideal) ((c : Thread nD τ).loc b))

/-! ## The input windows' blocks, as blocks of their arrays -/

/-- Where each input window's block sits at point t of the row-major 4 × 8 × 8 grid: batch t / 64 on axis 0; row tile
    t / 8 % 8 (windows 0 and 2) or column tile t % 8 (windows 1 and 3) on axis 1; block 0 on axis 2. -/
theorem index_r2_0 : ∀ t : Fin cfg2.N, (cfg2.win 0).index t 0 = t.val / 64 ∧ (cfg2.win 0).index t 1 = t.val / 8 % 8 ∧ (cfg2.win 0).index t 2 = 0 :=
  (by decide +kernel : ∀ t : Fin grid2.N, (cfg2.win 0).index t 0 = t.val / 64 ∧ (cfg2.win 0).index t 1 = t.val / 8 % 8 ∧ (cfg2.win 0).index t 2 = 0)
theorem index_r2_1 : ∀ t : Fin cfg2.N, (cfg2.win 1).index t 0 = t.val / 64 ∧ (cfg2.win 1).index t 1 = t.val % 8 ∧ (cfg2.win 1).index t 2 = 0 :=
  (by decide +kernel : ∀ t : Fin grid2.N, (cfg2.win 1).index t 0 = t.val / 64 ∧ (cfg2.win 1).index t 1 = t.val % 8 ∧ (cfg2.win 1).index t 2 = 0)
theorem index_r2_2 : ∀ t : Fin cfg2.N, (cfg2.win 2).index t 0 = t.val / 64 ∧ (cfg2.win 2).index t 1 = t.val / 8 % 8 ∧ (cfg2.win 2).index t 2 = 0 :=
  (by decide +kernel : ∀ t : Fin grid2.N, (cfg2.win 2).index t 0 = t.val / 64 ∧ (cfg2.win 2).index t 1 = t.val / 8 % 8 ∧ (cfg2.win 2).index t 2 = 0)
theorem index_r2_3 : ∀ t : Fin cfg2.N, (cfg2.win 3).index t 0 = t.val / 64 ∧ (cfg2.win 3).index t 1 = t.val % 8 ∧ (cfg2.win 3).index t 2 = 0 :=
  (by decide +kernel : ∀ t : Fin grid2.N, (cfg2.win 3).index t 0 = t.val / 64 ∧ (cfg2.win 3).index t 1 = t.val % 8 ∧ (cfg2.win 3).index t 2 = 0)

/-- An element of a block sits in the array, on each axis, at the block index times the block's size plus its own
    coordinate; so window w's block at point t is the block of its array the specification stages there. -/
theorem iblk_r2_0_eq (c : Dev nD) (t : Fin cfg2.N) (t' : Fin 256) (ht : t'.val = t.val) :
    (iblk_r2 V c 0 t : Vec Ideal S1x512x3 .f32)
      = Cert.Spec.blk (V c (Pipeline.arrRef spec2 0)) (Cert.Spec.gb t') (Cert.Spec.gi t') := by
  obtain ⟨h0, h1, h2⟩ := index_r2_0 t
  funext y
  have hy0 : (y 0).val < 1 := (y 0).isLt
  unfold iblk_r2
  rw [View.read_apply]
  show V c (Pipeline.arrRef spec2 0) (((cfg2.win 0).blk t).view.emb y) = V c (Pipeline.arrRef spec2 0) _
  refine congrArg _ (funext fun a => Fin.ext ?_)
  match a with
  | ⟨0, _⟩ =>
    show (cfg2.win 0).index t 0 * 1 + 1 * (y 0).val = t'.val / 64
    rw [h0, ht]; omega
  | ⟨1, _⟩ =>
    show (cfg2.win 0).index t 1 * 512 + 1 * (y 1).val = 512 * (t'.val / 8 % 8) + (y 1).val
    rw [h1, ht]; omega
  | ⟨2, _⟩ =>
    show (cfg2.win 0).index t 2 * 3 + 1 * (y 2).val = (y 2).val
    rw [h2]; omega

theorem iblk_r2_1_eq (c : Dev nD) (t : Fin cfg2.N) (t' : Fin 256) (ht : t'.val = t.val) :
    (iblk_r2 V c 1 t : Vec Ideal S1x512x3 .f32)
      = Cert.Spec.blk (V c (Pipeline.arrRef spec2 1)) (Cert.Spec.gb t') (Cert.Spec.gj t') := by
  obtain ⟨h0, h1, h2⟩ := index_r2_1 t
  funext y
  have hy0 : (y 0).val < 1 := (y 0).isLt
  unfold iblk_r2
  rw [View.read_apply]
  show V c (Pipeline.arrRef spec2 1) (((cfg2.win 1).blk t).view.emb y) = V c (Pipeline.arrRef spec2 1) _
  refine congrArg _ (funext fun a => Fin.ext ?_)
  match a with
  | ⟨0, _⟩ =>
    show (cfg2.win 1).index t 0 * 1 + 1 * (y 0).val = t'.val / 64
    rw [h0, ht]; omega
  | ⟨1, _⟩ =>
    show (cfg2.win 1).index t 1 * 512 + 1 * (y 1).val = 512 * (t'.val % 8) + (y 1).val
    rw [h1, ht]; omega
  | ⟨2, _⟩ =>
    show (cfg2.win 1).index t 2 * 3 + 1 * (y 2).val = (y 2).val
    rw [h2]; omega

theorem iblk_r2_2_eq (c : Dev nD) (t : Fin cfg2.N) (t' : Fin 256) (ht : t'.val = t.val) :
    (iblk_r2 V c 2 t : Vec Ideal S1x512x3 .f32)
      = Cert.Spec.blk (V c (Pipeline.arrRef spec2 2)) (Cert.Spec.gb t') (Cert.Spec.gi t') := by
  obtain ⟨h0, h1, h2⟩ := index_r2_2 t
  funext y
  have hy0 : (y 0).val < 1 := (y 0).isLt
  unfold iblk_r2
  rw [View.read_apply]
  show V c (Pipeline.arrRef spec2 2) (((cfg2.win 2).blk t).view.emb y) = V c (Pipeline.arrRef spec2 2) _
  refine congrArg _ (funext fun a => Fin.ext ?_)
  match a with
  | ⟨0, _⟩ =>
    show (cfg2.win 2).index t 0 * 1 + 1 * (y 0).val = t'.val / 64
    rw [h0, ht]; omega
  | ⟨1, _⟩ =>
    show (cfg2.win 2).index t 1 * 512 + 1 * (y 1).val = 512 * (t'.val / 8 % 8) + (y 1).val
    rw [h1, ht]; omega
  | ⟨2, _⟩ =>
    show (cfg2.win 2).index t 2 * 3 + 1 * (y 2).val = (y 2).val
    rw [h2]; omega

theorem iblk_r2_3_eq (c : Dev nD) (t : Fin cfg2.N) (t' : Fin 256) (ht : t'.val = t.val) :
    (iblk_r2 V c 3 t : Vec Ideal S1x512x3 .f32)
      = Cert.Spec.blk (V c (Pipeline.arrRef spec2 3)) (Cert.Spec.gb t') (Cert.Spec.gj t') := by
  obtain ⟨h0, h1, h2⟩ := index_r2_3 t
  funext y
  have hy0 : (y 0).val < 1 := (y 0).isLt
  unfold iblk_r2
  rw [View.read_apply]
  show V c (Pipeline.arrRef spec2 3) (((cfg2.win 3).blk t).view.emb y) = V c (Pipeline.arrRef spec2 3) _
  refine congrArg _ (funext fun a => Fin.ext ?_)
  match a with
  | ⟨0, _⟩ =>
    show (cfg2.win 3).index t 0 * 1 + 1 * (y 0).val = t'.val / 64
    rw [h0, ht]; omega
  | ⟨1, _⟩ =>
    show (cfg2.win 3).index t 1 * 512 + 1 * (y 1).val = 512 * (t'.val % 8) + (y 1).val
    rw [h1, ht]; omega
  | ⟨2, _⟩ =>
    show (cfg2.win 3).index t 2 * 3 + 1 * (y 2).val = (y 2).val
    rw [h2]; omega

/-- So the tile a point adds is the tile the specification sums there. -/
theorem tile_r2_eq (c : Dev nD) (t : Fin cfg2.N) (t' : Fin 256) (ht : t'.val = t.val) :
    Cert.Spec.tile (iblk_r2 V c 0 t : Vec Ideal S1x512x3 .f32) (iblk_r2 V c 1 t : Vec Ideal S1x512x3 .f32)
        (iblk_r2 V c 2 t : Vec Ideal S1x512x3 .f32) (iblk_r2 V c 3 t : Vec Ideal S1x512x3 .f32)
      = Cert.Spec.tile (Cert.Spec.blk (V c (Pipeline.arrRef spec2 0)) (Cert.Spec.gb t') (Cert.Spec.gi t'))
          (Cert.Spec.blk (V c (Pipeline.arrRef spec2 1)) (Cert.Spec.gb t') (Cert.Spec.gj t'))
          (Cert.Spec.blk (V c (Pipeline.arrRef spec2 2)) (Cert.Spec.gb t') (Cert.Spec.gi t'))
          (Cert.Spec.blk (V c (Pipeline.arrRef spec2 3)) (Cert.Spec.gb t') (Cert.Spec.gj t')) := by
  rw [iblk_r2_0_eq V c t t' ht, iblk_r2_1_eq V c t t' ht, iblk_r2_2_eq V c t t' ht, iblk_r2_3_eq V c t t' ht]

/-! ## The accumulator: the tiles' running sum -/

/-- What point t adds: the tile of its four staged blocks. -/
def tile_r2 (c : Dev nD) (t : Fin cfg2.N) : EReal :=
  Cert.Spec.tile (iblk_r2 V c 0 t : Vec Ideal S1x512x3 .f32) (iblk_r2 V c 1 t : Vec Ideal S1x512x3 .f32)
    (iblk_r2 V c 2 t : Vec Ideal S1x512x3 .f32) (iblk_r2 V c 3 t : Vec Ideal S1x512x3 .f32)

/-- After point n the accumulator holds the sum of the tiles of points 0 … n: the first point adds its tile to the reset
    value 0, each later one adds its tile to what the point before left. -/
theorem acc_r2_eq (c : Dev nD) : ∀ (n : ℕ) (hn : n < cfg2.N),
    acc_r2 V c n hn = fun _ => ∑ k : Fin (n + 1), tile_r2 V c ⟨k.val, Nat.lt_of_lt_of_le k.isLt hn⟩
  | 0, hn => by
    show k2_pay1 (F := Ideal) (k2_pay3 _ _) (k2_pay4 _ _) (k2_pay2 (F := Ideal)) = _
    refine (Cert.KerTile.pay1_eq _ _ _ _ _).trans ?_
    have h2 : (k2_pay2 (F := Ideal)) (ix2 (0 : Fin 1) (0 : Fin 1)) = 0 := congrFun Cert.KerTile.pay2_eq _
    funext _
    rw [h2, Fin.sum_univ_one]
    exact zero_add _
  | n + 1, hn => by
    show k2_pay1 (F := Ideal) (k2_pay3 _ _) (k2_pay4 _ _) (acc_r2 V c n _) = _
    refine (Cert.KerTile.pay1_eq _ _ _ _ _).trans ?_
    rw [acc_r2_eq c n]
    funext _
    exact (Fin.sum_univ_castSucc (fun k : Fin (n + 1 + 1) => tile_r2 V c ⟨k.val, Nat.lt_of_lt_of_le k.isLt hn⟩)).symm

/-- After the last point that is the specification's sum over the 256 tiles. -/
theorem acc_r2_last (c : Dev nD) (h : 255 < cfg2.N) :
    acc_r2 V c 255 h = fun _ => Cert.Spec.ksumTiles (V c (Pipeline.arrRef spec2 0)) (V c (Pipeline.arrRef spec2 1))
      (V c (Pipeline.arrRef spec2 2)) (V c (Pipeline.arrRef spec2 3)) := by
  rw [acc_r2_eq]
  funext _
  unfold Cert.Spec.ksumTiles
  exact Finset.sum_congr rfl fun k _ => tile_r2_eq V c _ k rfl

/-! ## The output array -/

/-- The output window is written back at the last point only. -/
theorem flush_r2_4 : ∀ t : Fin cfg2.N, (cfg2.win 4).flush t = true ↔ t.val = 255 :=
  (by decide +kernel : ∀ t : Fin grid2.N, (cfg2.win 4).flush t = true ↔ t.val = 255)

/-- The output window's one block is block (0, 0) at every point. -/
theorem index_r2_4 : ∀ t : Fin cfg2.N, (cfg2.win 4).index t 0 = 0 ∧ (cfg2.win 4).index t 1 = 0 :=
  (by decide +kernel : ∀ t : Fin grid2.N, (cfg2.win 4).index t 0 = 0 ∧ (cfg2.win 4).index t 1 = 0)

end Value

/-- Region 2's output array after the region, at Ideal: the tile-by-tile kernel sum of the arrays behind its four input
    windows (points a, points b, normals a, normals b). -/
theorem out_r2 (V : (c : Dev nD) → (b : Ref sig .tc) → Buf (Elt Ideal) ((c : Thread nD τ).loc b))
    (q : Fin cfg2.W → PosShare TreeShare) (c : Dev nD) :
    (dat_r2 (F := Ideal) V q c).arrAt 4 cfg2.N
      = fun _ => Cert.Spec.ksumTiles (V c (Pipeline.arrRef spec2 0)) (V c (Pipeline.arrRef spec2 1))
          (V c (Pipeline.arrRef spec2 2)) (V c (Pipeline.arrRef spec2 3)) := by
  have hN : cfg2.N = 256 := N_2
  have h255 : 255 < cfg2.N := by omega
  refine (dat_r2 (F := Ideal) V q c).arrAt_eq_of_cover 4 _ (fun t hf => ?_) (fun i => ⟨⟨255, h255⟩, (flush_r2_4 _).mpr rfl, ?_⟩)
  · have ht : t.val = 255 := (flush_r2_4 t).mp hf
    obtain rfl : t = ⟨255, h255⟩ := Fin.ext ht
    funext j
    rw [View.read_apply]
    show (dat_r2 V q c).after 4 ⟨255, h255⟩ _ = Cert.Spec.ksumTiles _ _ _ _
    rw [after_r2_4]
    exact congrFun (acc_r2_last V c h255) _
  · obtain ⟨hi0, hi1⟩ := index_r2_4 ⟨255, h255⟩
    show i ∈ ((View.whole (Pipeline.arrRef spec2 4)).slice ((cfg2.win 4).rect ⟨255, h255⟩)).set
    rw [View.set_slice_whole, Rect.mem_set_unit]
    intro a
    have h0 : (i 0 : Nat) < 1 := (i 0).isLt
    have h1 : (i 1 : Nat) < 1 := (i 1).isLt
    match a with
    | ⟨0, _⟩ =>
      show (cfg2.win 4).index ⟨255, h255⟩ 0 * 1 ≤ (i 0 : Nat) ∧ (i 0 : Nat) < (cfg2.win 4).index ⟨255, h255⟩ 0 * 1 + 1
      rw [hi0]; omega
    | ⟨1, _⟩ =>
      show (cfg2.win 4).index ⟨255, h255⟩ 1 * 1 ≤ (i 1 : Nat) ∧ (i 1 : Nat) < (cfg2.win 4).index ⟨255, h255⟩ 1 * 1 + 1
      rw [hi1]; omega

end Cert.KernelIdeal.Hand

end
-- ==== Proof.SpecLaws.lean ====
/-
  The two laws that join the kernel's arrangement to the reference's.
-/
import proofs.«168368_j77163382440707_1_alg».proof.Proof.Spec

noncomputable section

namespace Cert.Spec

open Idealize.ShloMosaic Idealize.ShloMosaic.ValueIdx
open scoped BigOperators

/-! ## The summand: the Gram identity on real coordinates -/

/-- The word of the literal two denotes the real number two. -/
theorem two_eq : two = ((2 : ℝ) : EReal) := by
  simp [two, Ideal.ofBits, Ideal.ieee, -EReal.coe_mul]
  norm_num

/-- For real a, b in ℝ³: 0 − ((‖a‖² + ‖b‖²) − 2 (a · b)) = −∑ d (a d − b d)², the square of a difference expanded
    coordinate by coordinate, read in the extended reals. -/
theorem gram_real (a0 a1 a2 b0 b1 b2 : ℝ) :
    0 - ((((a0 : EReal) * a0 + a1 * a1 + a2 * a2) + ((b0 : EReal) * b0 + b1 * b1 + b2 * b2))
        - ((2 : ℝ) : EReal) * ((a0 : EReal) * b0 + a1 * b1 + a2 * b2))
      = -(((a0 : EReal) - b0) * (a0 - b0) + (a1 - b1) * (a1 - b1) + (a2 - b2) * (a2 - b2)) := by
  rw [zero_sub]
  simp only [← EReal.coe_mul, ← EReal.coe_add, ← EReal.coe_sub]
  congr 2
  ring

/-- On real entries the kernel's summand is the reference's: ‖a‖² + ‖b‖² − 2 a·b = ∑ d (a d − b d)², and 0 − S = −S. -/
theorem pairKer_eq_pairRef {xa xb : SArg.Idx → EReal} (hxa : AllReal (S := SArg) xa) (hxb : AllReal (S := SArg) xb)
    (na nb : SArg.Idx → EReal) (b : Fin 4) (i j : Fin 4096) :
    pairKer xa xb na nb b i j = pairRef xa xb na nb b i j := by
  obtain ⟨a0, ha0⟩ := hxa (ix3 b i (0 : Fin 3))
  obtain ⟨a1, ha1⟩ := hxa (ix3 b i (1 : Fin 3))
  obtain ⟨a2, ha2⟩ := hxa (ix3 b i (2 : Fin 3))
  obtain ⟨b0, hb0⟩ := hxb (ix3 b j (0 : Fin 3))
  obtain ⟨b1, hb1⟩ := hxb (ix3 b j (1 : Fin 3))
  obtain ⟨b2, hb2⟩ := hxb (ix3 b j (2 : Fin 3))
  have h : 0 - ((rowdot xa xa b i i + rowdot xb xb b j j) - two * rowdot xa xb b i j) = -(sqdist xa xb b i j) := by
    unfold rowdot sqdist
    simp only [Fin.sum_univ_three]
    rw [ha0, ha1, ha2, hb0, hb1, hb2, two_eq]
    exact gram_real a0 a1 a2 b0 b1 b2
  unfold pairKer pairRef
  rw [h]

/-! ## A tile of staged blocks -/

/-- A tile of staged blocks is the kernel's summand over the tile's rows and columns of the whole arrays. -/
theorem tile_blk (xa xb na nb : SArg.Idx → EReal) (b : Fin 4) (i j : Fin 8) :
    tile (blk xa b i) (blk xb b j) (blk na b i) (blk nb b j)
      = ∑ r : Fin 512, ∑ c : Fin 512, pairKer xa xb na nb b (row i r) (row j c) := by
  unfold tile
  -- entry (0, r, d) of the block of tile i IS entry (b, 512 i + r, d) of the whole array, so the summands coincide
  refine Finset.sum_congr rfl (fun r _ => Finset.sum_congr rfl (fun c _ => ?_))
  rfl

/-! ## The tiling of the index set -/

/-- The points, 8 tiles of 512: (k, r) ↦ 512 k + r is a bijection onto the 4096 points (quotient and remainder by
    512 invert it). -/
def rowEquiv : Fin 8 × Fin 512 ≃ Fin 4096 where
  toFun p := row p.1 p.2
  invFun i := (⟨i.val / 512, by omega⟩, ⟨i.val % 512, by omega⟩)
  left_inv := by
    rintro ⟨k, r⟩
    refine Prod.ext (Fin.ext ?_) (Fin.ext ?_)
    · show (512 * k.val + r.val) / 512 = k.val
      omega
    · show (512 * k.val + r.val) % 512 = r.val
      omega
  right_inv := by
    intro i
    refine Fin.ext ?_
    show 512 * (i.val / 512) + i.val % 512 = i.val
    omega

/-- The grid, 4 × 8 × 8 row-major: t ↦ (batch, row tile, column tile) is a bijection, inverted by
    (b, k, l) ↦ 64 b + 8 k + l. -/
def gridEquiv : Fin 256 ≃ Fin 4 × Fin 8 × Fin 8 where
  toFun t := (gb t, gi t, gj t)
  invFun p := ⟨64 * p.1.val + 8 * p.2.1.val + p.2.2.val, by omega⟩
  left_inv := by
    intro t
    refine Fin.ext ?_
    show 64 * (t.val / 64) + 8 * (t.val / 8 % 8) + t.val % 8 = t.val
    omega
  right_inv := by
    rintro ⟨b, k, l⟩
    refine Prod.ext (Fin.ext ?_) (Prod.ext (Fin.ext ?_) (Fin.ext ?_))
    · show (64 * b.val + 8 * k.val + l.val) / 64 = b.val
      omega
    · show (64 * b.val + 8 * k.val + l.val) / 8 % 8 = k.val
      omega
    · show (64 * b.val + 8 * k.val + l.val) % 8 = l.val
      omega

/-- A sum over the 4096 points is the sum over the 8 tiles of the sums over each tile's 512 points. -/
theorem sum_rows (g : Fin 4096 → EReal) : ∑ i : Fin 4096, g i = ∑ k : Fin 8, ∑ r : Fin 512, g (row k r) :=
  (Fintype.sum_equiv rowEquiv (fun p => g (row p.1 p.2)) g (fun _ => rfl)).symm.trans
    (Fintype.sum_prod_type' (fun k r => g (row k r)))

/-- A sum over the 256 grid points is the triple sum over batch, row tile and column tile. -/
theorem sum_grid (h : Fin 4 → Fin 8 → Fin 8 → EReal) :
    ∑ t : Fin 256, h (gb t) (gi t) (gj t) = ∑ b : Fin 4, ∑ k : Fin 8, ∑ l : Fin 8, h b k l := by
  rw [Fintype.sum_equiv gridEquiv (fun t => h (gb t) (gi t) (gj t)) (fun p => h p.1 p.2.1 p.2.2) (fun _ => rfl)]
  rw [Fintype.sum_prod_type]
  refine Finset.sum_congr rfl (fun b _ => ?_)
  rw [Fintype.sum_prod_type]

/-- The 256 tiles, in grid order, tile the 4 × 4096 × 4096 index set: a sum over it is the sum of the tiles' sums. -/
theorem sum_tiles (f : Fin 4 → Fin 4096 → Fin 4096 → EReal) :
    ∑ t : Fin 256, ∑ r : Fin 512, ∑ c : Fin 512, f (gb t) (row (gi t) r) (row (gj t) c)
      = ∑ b : Fin 4, ∑ i : Fin 4096, ∑ j : Fin 4096, f b i j := by
  -- the grid is batch × row tile × column tile
  rw [sum_grid (fun b k l => ∑ r : Fin 512, ∑ c : Fin 512, f b (row k r) (row l c))]
  refine Finset.sum_congr rfl (fun b _ => ?_)
  -- the row index is (row tile, row in tile); then the column tile and the row in tile change places
  rw [sum_rows (fun i => ∑ j : Fin 4096, f b i j)]
  refine Finset.sum_congr rfl (fun k _ => ?_)
  rw [Finset.sum_comm]
  refine Finset.sum_congr rfl (fun r _ => ?_)
  -- the column index is (column tile, column in tile)
  rw [sum_rows (fun j => f b (row k r) j)]

/-- The kernel's tile-by-tile sum is the reference's kernel sum, on real point coordinates. -/
theorem ksumTiles_eq {xa xb : SArg.Idx → EReal} (hxa : AllReal (S := SArg) xa) (hxb : AllReal (S := SArg) xb)
    (na nb : SArg.Idx → EReal) : ksumTiles xa xb na nb = ksum xa xb na nb := by
  unfold ksumTiles ksum
  refine Eq.trans ?_ (sum_tiles (pairRef xa xb na nb))
  refine Finset.sum_congr rfl (fun t _ => ?_)
  rw [tile_blk]
  refine Finset.sum_congr rfl (fun r _ => Finset.sum_congr rfl (fun c _ => ?_))
  exact pairKer_eq_pairRef hxa hxb na nb _ _ _

end Cert.Spec

end
-- ==== Proof.KI.Result.lean ====
/-
  The idealized kernel's result: what the return finds in the result buffer, at Ideal.

  The three regions leave, each in its 1 × 1 output array, the kernel sum of the arrays behind its windows, tile by
  tile: of (x₁, x₁, n₁, n₁), of (x₂, x₂, n₂, n₂) and of (x₁, x₂, n₁, n₂) — no item before a region writes an argument,
  so each region finds the launch contents behind its input windows. The host stretches reshape the three outputs to
  scalars, add the first two, double the third and subtract. On real inputs a tile-by-tile sum is the reference's
  kernel sum, and the result is the specification's.
-/
import proofs.«168368_j77163382440707_1_alg».proof.Proof.KI.Main
import proofs.«168368_j77163382440707_1_alg».proof.Proof.KI.R0Value
import proofs.«168368_j77163382440707_1_alg».proof.Proof.KI.R1Value
import proofs.«168368_j77163382440707_1_alg».proof.Proof.KI.R2Value
import proofs.«168368_j77163382440707_1_alg».proof.Proof.SpecLaws
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Spec

variable (m : (ℓ : Loc nD τ sig) → Buf (Elt Ideal) ℓ)

/-! ## The arguments at the regions' entries -/

/-- A buffer the first host stretch does not write and that is not region 0's output holds its launch contents when
    region 1 is entered. -/
theorem B2_of (c : Dev nD) (r : Ref sig .tc) (h1 : r ∉ hostOps1_W) (hn0 : r ≠ Pipeline.arrRef spec0 4) :
    B2 m c r = m ((c : Thread nD τ).loc r) :=
  (StableHlo.after_of_writes_sub hostOps1 _ hostOps1_writes h1).trans <| (Wout_r0_of_ne (B0 m) c r hn0).trans rfl

/-- The same when region 2 is entered. -/
theorem B4_of (c : Dev nD) (r : Ref sig .tc) (h1 : r ∉ hostOps1_W) (h2 : r ∉ hostOps2_W)
    (hn0 : r ≠ Pipeline.arrRef spec0 4) (hn1 : r ≠ Pipeline.arrRef spec1 4) :
    B4 m c r = m ((c : Thread nD τ).loc r) :=
  (StableHlo.after_of_writes_sub hostOps2 _ hostOps2_writes h2).trans <| (Wout_r1_of_ne (B2 m) c r hn1).trans <| B2_of m c r h1 hn0

/-! ## The three outputs -/

abbrev x0 (c : Dev nD) : SArg.Idx → EReal := m ((c : Thread nD τ).loc main_arg0)
abbrev x1 (c : Dev nD) : SArg.Idx → EReal := m ((c : Thread nD τ).loc main_arg1)
abbrev x2 (c : Dev nD) : SArg.Idx → EReal := m ((c : Thread nD τ).loc main_arg2)
abbrev x3 (c : Dev nD) : SArg.Idx → EReal := m ((c : Thread nD τ).loc main_arg3)

theorem res0_eq (c : Dev nD) : res_r0 (B0 m) c = fun _ => ksumTiles (x0 m c) (x0 m c) (x2 m c) (x2 m c) :=
  out_r0 (Vof_r0 (B0 m)) q_r0 c

theorem res1_eq (c : Dev nD) : res_r1 (B2 m) c = fun _ => ksumTiles (x1 m c) (x1 m c) (x3 m c) (x3 m c) := by
  refine (out_r1 (Vof_r1 (B2 m)) q_r1 c).trans ?_
  show (fun _ => ksumTiles (B2 m c main_arg1) (B2 m c main_arg1) (B2 m c main_arg3) (B2 m c main_arg3)) = _
  rw [B2_of m c main_arg1 (by decide) (by decide), B2_of m c main_arg3 (by decide) (by decide)]

theorem res2_eq (c : Dev nD) : res_r2 (B4 m) c = fun _ => ksumTiles (x0 m c) (x1 m c) (x2 m c) (x3 m c) := by
  refine (out_r2 (Vof_r2 (B4 m)) q_r2 c).trans ?_
  show (fun _ => ksumTiles (B4 m c main_arg0) (B4 m c main_arg1) (B4 m c main_arg2) (B4 m c main_arg3)) = _
  rw [B4_of m c main_arg0 (by decide) (by decide) (by decide) (by decide), B4_of m c main_arg1 (by decide) (by decide) (by decide) (by decide),
    B4_of m c main_arg2 (by decide) (by decide) (by decide) (by decide), B4_of m c main_arg3 (by decide) (by decide) (by decide) (by decide)]

/-! ## Through the host stretches -/

/-- The first output, reshaped to a scalar, reaches the host tail untouched. -/
theorem v1_eq (c : Dev nD) : B5 m c main_v1 = shapeCast S_ (res_r0 (B0 m) c) shapeCasts_S1x1_S_ := by
  refine (Wout_r2_of_ne (B4 m) c main_v1 (by decide)).trans ?_
  refine (StableHlo.after_of_writes_sub hostOps2 _ hostOps2_writes (by decide)).trans ?_
  refine (Wout_r1_of_ne (B2 m) c main_v1 (by decide)).trans ?_
  show StableHlo.after hostOps1 (B1 m c) (Proc.devRef .tc main_v1) = _
  after_results
  rw [show B1 m c (Proc.devRef .tc main_v0) = res_r0 (B0 m) c from Wout_r0_out (B0 m) c]
  rfl

/-- So does the second. -/
theorem v3_eq (c : Dev nD) : B5 m c main_v3 = shapeCast S_ (res_r1 (B2 m) c) shapeCasts_S1x1_S_ := by
  refine (Wout_r2_of_ne (B4 m) c main_v3 (by decide)).trans ?_
  show StableHlo.after hostOps2 (B3 m c) (Proc.devRef .tc main_v3) = _
  after_results
  rw [show B3 m c (Proc.devRef .tc main_v2) = res_r1 (B2 m) c from Wout_r1_out (B2 m) c]
  rfl

/-- The third is read where region 2 left it. -/
theorem v4_eq (c : Dev nD) : B5 m c main_v4 = res_r2 (B4 m) c := Wout_r2_out (B4 m) c

/-- THE RESULT. On real inputs the result buffer at the return holds the specification's result of the launch
    contents of the four arguments. -/
theorem result_eq (c : Dev nD) (h0 : AllReal (S := SArg) (x0 m c)) (h1 : AllReal (S := SArg) (x1 m c)) :
    B6 m c main_v8 = fun _ => Cert.Spec.result (x0 m c) (x1 m c) (x2 m c) (x3 m c) := by
  show StableHlo.after hostOps3 (B5 m c) (Proc.devRef .tc main_v8) = _
  after_results
  rw [v1_eq, v3_eq, v4_eq, res0_eq, res1_eq, res2_eq]
  funext i
  simp only [Cert.Spec.result, ← ksumTiles_eq h0 h0, ← ksumTiles_eq h1 h1, ← ksumTiles_eq h0 h1]
  rfl

end Cert.KernelIdeal.Hand

end
-- ==== Proof.RefValue.lean ====
/-
  The reference program's result is the specification's.
-/
import proofs.«168368_j77163382440707_1_alg».proof.Proof.Gen.ReferenceIdeal.Read
import proofs.«168368_j77163382440707_1_alg».proof.Proof.Spec

noncomputable section

namespace Cert.RefValue

open Idealize.ShloMosaic Idealize.ShloMosaic.ValueIdx Cert.ReferenceIdeal Cert.ReferenceIdeal.Read
open scoped BigOperators

/-! ## A sum over a rank-3 index set is the triple sum over the coordinates -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## One kernel sum, stated for the stage that takes four different arguments -/

/-- One coordinate's squared difference: the two broadcasts read point i of the first cloud and point j of the second. -/
theorem sqdiff_at (x0 x1 : (⟨S4x4096x3, .f32⟩ : BufTy).Contents (Elt Ideal)) (b : Fin 4) (i j : Fin 4096) (k : Fin 3) :
    val_main_v31 (F := Ideal) x0 x1 (idx_main_v32 (ix3 b i j) k)
      = (x0 (ix3 b i k) - x1 (ix3 b j k)) * (x0 (ix3 b i k) - x1 (ix3 b j k)) := by
  have e0 : idx_main_v26 (idx_main_v28 (idx_main_v32 (ix3 b i j) k)) = ix3 b i k :=
    funext fun a => Fin.ext (by match a with | ⟨0, _⟩ => rfl | ⟨1, _⟩ => rfl | ⟨2, _⟩ => rfl)
  have e1 : idx_main_v27 (idx_main_v29 (idx_main_v32 (ix3 b i j) k)) = ix3 b j k :=
    funext fun a => Fin.ext (by match a with | ⟨0, _⟩ => rfl | ⟨1, _⟩ => rfl | ⟨2, _⟩ => rfl)
  rw [val_main_v31_apply, val_main_v30_apply, val_main_v28_apply, val_main_v29_apply, val_main_v26_apply,
    val_main_v27_apply, e0, e1]
  rfl

/-- The contraction over the coordinate is the inner product of row i of the first normals and row j of the second. -/
theorem dot_at (x2 x3 : (⟨S4x4096x3, .f32⟩ : BufTy).Contents (Elt Ideal)) (b : Fin 4) (i j : Fin 4096) :
    val_main_v33 (F := Ideal) x2 x3 (ix3 b i j) = Cert.Spec.rowdot x2 x3 b i j := by
  rw [val_main_v33_apply]
  unfold Cert.Spec.rowdot
  refine Finset.sum_congr rfl fun k _ => ?_
  have el : lidx_main_v33 (ix3 b i j) k = ix3 b i k :=
    funext fun a => Fin.ext (by match a with | ⟨0, _⟩ => rfl | ⟨1, _⟩ => rfl | ⟨2, _⟩ => rfl)
  have er : ridx_main_v33 (ix3 b i j) k = ix3 b j k :=
    funext fun a => Fin.ext (by match a with | ⟨0, _⟩ => rfl | ⟨1, _⟩ => rfl | ⟨2, _⟩ => rfl)
  rw [el, er]

/-- The summand at (b, i, j) is the specification's. -/
theorem pair_at (x0 x1 x2 x3 : (⟨S4x4096x3, .f32⟩ : BufTy).Contents (Elt Ideal)) (b : Fin 4) (i j : Fin 4096) :
    val_main_v37 (F := Ideal) x0 x1 x2 x3 (ix3 b i j) = Cert.Spec.pairRef x0 x1 x2 x3 b i j := by
  have hs : ∑ k : Fin 3, val_main_v31 (F := Ideal) x0 x1 (idx_main_v32 (ix3 b i j) k) = Cert.Spec.sqdist x0 x1 b i j :=
    Finset.sum_congr rfl fun k _ => sqdiff_at x0 x1 b i j k
  rw [val_main_v37_apply, val_main_v35_apply, val_main_v34_apply, val_main_v32_apply, val_main_v36_apply, dot_at, hs,
    val_main_cst_3_apply]
  simp only [Ideal.ofBits_def, Ideal.ofBits_zero_f32, zero_add, Ideal.mulf_def, Ideal.hostNegf_def, Ideal.negf_def,
    Ideal.hostUnary_exp_def]
  rfl

/-- The sum over every (b, i, j) is the specification's kernel sum. -/
theorem ksum_at (x0 x1 x2 x3 : (⟨S4x4096x3, .f32⟩ : BufTy).Contents (Elt Ideal)) (i : S_.Idx) :
    val_main_v38 (F := Ideal) x0 x1 x2 x3 i = Cert.Spec.ksum x0 x1 x2 x3 := by
  rw [val_main_v38_apply, val_main_cst_4_apply,
    sum_idx3 (n0 := 4) (n1 := 4096) (n2 := 4096) (val_main_v37 (F := Ideal) x0 x1 x2 x3)]
  simp only [Ideal.ofBits_def, Ideal.ofBits_zero_f32, zero_add]
  unfold Cert.Spec.ksum
  exact Finset.sum_congr rfl fun b _ => Finset.sum_congr rfl fun r _ => Finset.sum_congr rfl fun c _ =>
    pair_at x0 x1 x2 x3 b r c

/-! ## The two kernel sums of one cloud with itself

Each is the same composition of operations as the sum over two clouds, read at a repeated argument: the first cloud
with itself, the second cloud with itself. -/

/-- The kernel sum of the first cloud with itself is the two-cloud sum at (x0, x0, x2, x2). -/
theorem self_first (x0 x2 : (⟨S4x4096x3, .f32⟩ : BufTy).Contents (Elt Ideal)) :
    val_main_v12 (F := Ideal) x0 x2 = val_main_v38 (F := Ideal) x0 x0 x2 x2 := rfl

/-- The kernel sum of the second cloud with itself is the two-cloud sum at (x1, x1, x3, x3). -/
theorem self_second (x1 x3 : (⟨S4x4096x3, .f32⟩ : BufTy).Contents (Elt Ideal)) :
    val_main_v25 (F := Ideal) x1 x3 = val_main_v38 (F := Ideal) x1 x1 x3 x3 := rfl

/-- The last stage of the reference, read at Ideal, is the specification's result of the four arguments. -/
theorem ref_eq (x0 x1 x2 x3 : (⟨S4x4096x3, .f32⟩ : BufTy).Contents (Elt Ideal)) :
    val_main_v41 (F := Ideal) x0 x1 x2 x3 = fun _ => Cert.Spec.result x0 x1 x2 x3 := by
  funext i
  rw [val_main_v41_apply, val_main_v39_apply, val_main_v40_apply, val_main_cst_5_apply, self_first, self_second,
    ksum_at, ksum_at, ksum_at]
  rfl

end Cert.RefValue

end
-- ==== Proof.Finite.lean ====
/-
  The precondition says every entry of the four arguments is a real number.
-/
import proofs.«168368_j77163382440707_1_alg».proof.Pre_finite_inputs
import proofs.«168368_j77163382440707_1_alg».proof.Proof.LibAllReal
import Idealize.ShloMosaic.Lib.ReduceAll
import Idealize.ShloMosaic.Lib.ValueIdx

noncomputable section

namespace Cert.Finite

open Idealize.ShloMosaic Idealize.ShloMosaic.ValueIdx Cert.Pre_finite_inputs Cert.Spec

/-- The shape of a scalar has exactly one index. -/
instance subsingleton_scalar_idx : Subsingleton S_.Idx := ⟨fun a b => funext fun d => d.elim0⟩

/-- The word 0x7F800000 of the 32-bit format denotes +∞. -/
theorem ofBits_f32_inf : Ideal.ofBits .f32 0x7F800000#32 = (⊤ : EReal) := by
  simp [Ideal.ofBits, Ideal.ieee]

/-- An extended real x with max x (−x) strictly below +∞ is a real number: +∞ fails because max ⊤ ⊥ = ⊤, and −∞
    fails because max ⊥ ⊤ = ⊤. -/
theorem real_of_abs_lt_inf (x : EReal)
    (h : Ideal.cmp .olt (max x (-x)) (Ideal.ofBits .f32 0x7F800000#32) = 1#1) : ∃ r : ℝ, x = (r : EReal) := by
  rw [ofBits_f32_inf] at h
  induction x using EReal.rec with
  | bot => simp [Ideal.cmp] at h
  | coe r => exact ⟨r, rfl⟩
  | top => simp [Ideal.cmp] at h

/-- One argument: if the conjunction over all entries of |x| < +∞ is one, every entry of x is a real number. -/
theorem allReal_of_all_lt [Cert.Pre_finite_inputs.Facts] (x : FVec Ideal S4x4096x3 .f32) (init : IVec S_ 1)
    (h : Host.reduce IntOp.andi
          (cmpf .olt (Host.absf x)
            (broadcastInDim S4x4096x3 ![] Facts.bcast_S_S4x4096x3 (constant (F := Ideal) S_ .f32 0x7F800000#32)))
          init Facts.reducesTo_S4x4096x3_S_d0_1_2 Facts.h_S_ ix0 = 1#1) :
    AllReal (S := S4x4096x3) x := by
  intro i
  have hi := Host.reduce_andi_all _ init Facts.reducesTo_S4x4096x3_S_d0_1_2 Facts.h_S_ ix0 h i
  exact real_of_abs_lt_inf (x i) hi

/-- If the printed predicate is all ones at Ideal, each argument has only real entries. -/
theorem allReal_of_fn [Cert.Pre_finite_inputs.Facts] (x0 x1 x2 x3 : FVec Ideal S4x4096x3 .f32)
    (h : Cert.Pre_finite_inputs.fn (F := Ideal) x0 x1 x2 x3 = fun _ => 1#1) :
    AllReal (S := S4x4096x3) x0 ∧ AllReal (S := S4x4096x3) x1 ∧ AllReal (S := S4x4096x3) x2 ∧ AllReal (S := S4x4096x3) x3 := by
  have h0 := congrFun h ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨allReal_of_all_lt x0 _ h0', allReal_of_all_lt x1 _ h1, allReal_of_all_lt x2 _ h2, allReal_of_all_lt x3 _ h3⟩

end Cert.Finite

end
-- ==== Proof.lean ====
/-
  The certificate: the Pallas varifold kernel against its jnp reference.

  Both programs take two point clouds x₁, x₂ (4 batches of 4096 points in ℝ³) with normals n₁, n₂ and return
      K(x₁,x₁,n₁,n₁) + K(x₂,x₂,n₂,n₂) − 2 K(x₁,x₂,n₁,n₂),   K(a,b,u,v) = ∑ b i j, exp(−‖a_i − b_j‖²) (u_i · v_j)².
  The reference forms the 4 × 4096 × 4096 × 3 differences and sums. The kernel runs three pallas_calls, one per K, each
  over a 4 × 8 × 8 grid of 512 × 512 tiles: a tile's squared distances come from the Gram identity
  ‖a‖² + ‖b‖² − 2 a·b (two small matrix products), its total is added to a 1 × 1 accumulator that is reset at the
  first grid point and copied to the output at the last. Over the extended reals the two agree on finite inputs: the
  Gram identity is the square of a difference expanded (which needs real entries), and a sum does not depend on how
  it is tiled.

  The frames of the two kernel programs are proved from the kernel body's run at each grid point (three cases: first
  point, last point, the others) through the pipeline's launch for a program of several regions; the reference's frame
  and value are its generated run, read one operation at a time. The ideal pass rewrote nothing, so the kernel's
  idealization is the program's own text and nothing is owed for it.
-/
import proofs.«168368_j77163382440707_1_alg».proof.Defs
import proofs.«168368_j77163382440707_1_alg».proof.Proof.Gen.Kernel
import proofs.«168368_j77163382440707_1_alg».proof.Proof.Gen.KernelIdeal
import proofs.«168368_j77163382440707_1_alg».proof.Proof.Gen.ReferenceIdeal
import proofs.«168368_j77163382440707_1_alg».proof.Proof.Gen.ReferenceIdeal.Run
import proofs.«168368_j77163382440707_1_alg».proof.Proof.Gen.ReferenceIdeal.Read
import proofs.«168368_j77163382440707_1_alg».proof.Proof.Gen.Pre_finite_inputs
import proofs.«168368_j77163382440707_1_alg».proof.Proof.K.Main
import proofs.«168368_j77163382440707_1_alg».proof.Proof.KI.Main
import proofs.«168368_j77163382440707_1_alg».proof.Proof.KI.Result
import proofs.«168368_j77163382440707_1_alg».proof.Proof.RefValue
import proofs.«168368_j77163382440707_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At Ideal, from memories that agree on the four arguments, both programs end with the specification's result of
    the arguments: the kernel's three tile-by-tile sums through its host tail, the reference's last stage. Finiteness of
    the inputs (the precondition) is what makes the kernel's Gram form of the squared distance the reference's. -/
theorem algebraic : Cert.algebraic_KernelIdeal_ReferenceIdeal := by
  intro m ρ m' ρ' hpre hagree
  have hreal := fun c : Dev Cert.KernelIdeal.nD => Cert.Finite.allReal_of_fn _ _ _ _ (hpre c)
  refine ⟨fun c => fun _ => Cert.Spec.result (Cert.KernelIdeal.Hand.x0 m c) (Cert.KernelIdeal.Hand.x1 m c)
    (Cert.KernelIdeal.Hand.x2 m c) (Cert.KernelIdeal.Hand.x3 m c), ?_, ?_⟩
  · refine (θ_run Cert.KernelIdeal.defs _ _).mono (fun r h c => ?_) (Cert.KernelIdeal.Hand.run_main (F := Ideal) m ρ)
    exact ⟨(h c _ (Cert.KernelIdeal.Hand.mem_uc Cert.KernelIdeal.main_v8 (by decide))).trans
        (Cert.KernelIdeal.Hand.result_eq m c (hreal c).1 (hreal c).2.1),
      (h c _ (Cert.KernelIdeal.Hand.mem_uc Cert.KernelIdeal.main_arg0 (by decide))).trans
        (Cert.KernelIdeal.Hand.B6_of m c Cert.KernelIdeal.main_arg0 (by decide) (by decide) (by decide) (by decide) (by decide) (by decide)),
      (h c _ (Cert.KernelIdeal.Hand.mem_uc Cert.KernelIdeal.main_arg1 (by decide))).trans
        (Cert.KernelIdeal.Hand.B6_of m c Cert.KernelIdeal.main_arg1 (by decide) (by decide) (by decide) (by decide) (by decide) (by decide)),
      (h c _ (Cert.KernelIdeal.Hand.mem_uc Cert.KernelIdeal.main_arg2 (by decide))).trans
        (Cert.KernelIdeal.Hand.B6_of m c Cert.KernelIdeal.main_arg2 (by decide) (by decide) (by decide) (by decide) (by decide) (by decide)),
      (h c _ (Cert.KernelIdeal.Hand.mem_uc Cert.KernelIdeal.main_arg3 (by decide))).trans
        (Cert.KernelIdeal.Hand.B6_of m c Cert.KernelIdeal.main_arg3 (by decide) (by decide) (by decide) (by decide) (by decide) (by decide))⟩
  · refine (θ_run Cert.ReferenceIdeal.defs _ _).mono (fun r h c => ⟨?_, (h c).2⟩) (Cert.ReferenceIdeal.Value.run (F := Ideal) m' ρ')
    rw [(h c).1, Cert.ReferenceIdeal.Read.val_main_v41_eq, Cert.RefValue.ref_eq, (hagree c).1, (hagree c).2.1, (hagree c).2.2.1,
      (hagree c).2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
